-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v55)) (v1 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_v57) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_v73) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S5x200 : Shape := ⟨2, ![5, 200]⟩
abbrev S3x200 : Shape := ⟨2, ![3, 200]⟩
abbrev S100000x256 : Shape := ⟨2, ![100000, 256]⟩
abbrev S5x256 : Shape := ⟨2, ![5, 256]⟩
abbrev S3x256 : Shape := ⟨2, ![3, 256]⟩
abbrev S102400x256 : Shape := ⟨2, ![102400, 256]⟩
abbrev S5x5 : Shape := ⟨2, ![5, 5]⟩
abbrev S3x3 : Shape := ⟨2, ![3, 3]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S5x256 : S_.BroadcastsInDim S5x256 (![] : Fin 0 → Fin S5x256.rank)
  reducesTo_S5x256_S_d0_1 : S5x256.ReducesTo [0, 1] S_
  bcast_S_S3x256 : S_.BroadcastsInDim S3x256 (![] : Fin 0 → Fin S3x256.rank)
  reducesTo_S3x256_S_d0_1 : S3x256.ReducesTo [0, 1] S_
  bcast_S_S102400x256 : S_.BroadcastsInDim S102400x256 (![] : Fin 0 → Fin S102400x256.rank)
  reducesTo_S102400x256_S_d0_1 : S102400x256.ReducesTo [0, 1] S_
  bcast_S_S5x5 : S_.BroadcastsInDim S5x5 (![] : Fin 0 → Fin S5x5.rank)
  reducesTo_S5x5_S_d0_1 : S5x5.ReducesTo [0, 1] S_
  bcast_S_S3x3 : S_.BroadcastsInDim S3x3 (![] : Fin 0 → Fin S3x3.rank)
  reducesTo_S3x3_S_d0_1 : S3x3.ReducesTo [0, 1] S_
  bcast_S_S5x200 : S_.BroadcastsInDim S5x200 (![] : Fin 0 → Fin S5x200.rank)
  reducesTo_S5x200_S_d0_1 : S5x200.ReducesTo [0, 1] S_
  bcast_S_S3x200 : S_.BroadcastsInDim S3x200 (![] : Fin 0 → Fin S3x200.rank)
  reducesTo_S3x200_S_d0_1 : S3x200.ReducesTo [0, 1] S_

variable [Facts]

def fn_part3 {F : FTy → Type} [FloatOps F] (main_arg2 : IVec S3x200 32) (main_arg3 : IVec S3x200 32) (main_v47 : IVec S_ 1) (main_v49 : IVec S3x200 1) (main_c_19 : IVec S_ 32) : IVec S_ 1 :=
  let main_v50 : IVec S3x200 32 := broadcastInDim S3x200 ![] bcast_S_S3x200 main_c_19
  let main_v51 : IVec S3x200 1 := cmpi .slt main_arg2 main_v50
  let main_v52 : IVec S3x200 1 := andi main_v49 main_v51
  let main_c_20 : IVec S_ 1 := constantI S_ 1 1#1
  let main_v53 : IVec S_ 1 := (fun x v => Host.reduce IntOp.andi x v reducesTo_S3x200_S_d0_1 h_S_) main_v52 main_c_20
  let main_v54 : IVec S_ 1 := andi main_v47 main_v53
  let main_c_21 : IVec S_ 32 := constantI S_ 32 0#32
  let main_v55 : IVec S3x200 32 := broadcastInDim S3x200 ![] bcast_S_S3x200 main_c_21
  let main_v56 : IVec S3x200 1 := cmpi .sge main_arg3 main_v55
  let main_c_22 : IVec S_ 32 := constantI S_ 32 5#32
  let main_v57 : IVec S3x200 32 := broadcastInDim S3x200 ![] bcast_S_S3x200 main_c_22
  let main_v58 : IVec S3x200 1 := cmpi .slt main_arg3 main_v57
  let main_v59 : IVec S3x200 1 := andi main_v56 main_v58
  let main_c_23 : IVec S_ 1 := constantI S_ 1 1#1
  let main_v60 : IVec S_ 1 := (fun x v => Host.reduce IntOp.andi x v reducesTo_S3x200_S_d0_1 h_S_) main_v59 main_c_23
  let main_v61 : IVec S_ 1 := andi main_v54 main_v60
  main_v61

def fn_part2 {F : FTy → Type} [FloatOps F] (main_arg0 : IVec S5x200 32) (main_arg1 : IVec S5x200 32) (main_arg2 : IVec S3x200 32) (main_arg3 : IVec S3x200 32) (main_v33 : IVec S_ 1) : IVec S_ 1 :=
  let main_c_12 : IVec S_ 32 := constantI S_ 32 0#32
  let main_v34 : IVec S5x200 32 := broadcastInDim S5x200 ![] bcast_S_S5x200 main_c_12
  let main_v35 : IVec S5x200 1 := cmpi .sge main_arg0 main_v34
  let main_c_13 : IVec S_ 32 := constantI S_ 32 100000#32
  let main_v36 : IVec S5x200 32 := broadcastInDim S5x200 ![] bcast_S_S5x200 main_c_13
  let main_v37 : IVec S5x200 1 := cmpi .slt main_arg0 main_v36
  let main_v38 : IVec S5x200 1 := andi main_v35 main_v37
  let main_c_14 : IVec S_ 1 := constantI S_ 1 1#1
  let main_v39 : IVec S_ 1 := (fun x v => Host.reduce IntOp.andi x v reducesTo_S5x200_S_d0_1 h_S_) main_v38 main_c_14
  let main_v40 : IVec S_ 1 := andi main_v33 main_v39
  let main_c_15 : IVec S_ 32 := constantI S_ 32 0#32
  let main_v41 : IVec S5x200 32 := broadcastInDim S5x200 ![] bcast_S_S5x200 main_c_15
  let main_v42 : IVec S5x200 1 := cmpi .sge main_arg1 main_v41
  let main_c_16 : IVec S_ 32 := constantI S_ 32 3#32
  let main_v43 : IVec S5x200 32 := broadcastInDim S5x200 ![] bcast_S_S5x200 main_c_16
  let main_v44 : IVec S5x200 1 := cmpi .slt main_arg1 main_v43
  let main_v45 : IVec S5x200 1 := andi main_v42 main_v44
  let main_c_17 : IVec S_ 1 := constantI S_ 1 1#1
  let main_v46 : IVec S_ 1 := (fun x v => Host.reduce IntOp.andi x v reducesTo_S5x200_S_d0_1 h_S_) main_v45 main_c_17
  let main_v47 : IVec S_ 1 := andi main_v40 main_v46
  let main_c_18 : IVec S_ 32 := constantI S_ 32 0#32
  let main_v48 : IVec S3x200 32 := broadcastInDim S3x200 ![] bcast_S_S3x200 main_c_18
  let main_v49 : IVec S3x200 1 := cmpi .sge main_arg2 main_v48
  let main_c_19 : IVec S_ 32 := constantI S_ 32 100000#32
  fn_part3 (F := F) main_arg2 main_arg3 main_v47 main_v49 main_c_19

def fn_part1 {F : FTy → Type} [FloatOps F] (main_arg0 : IVec S5x200 32) (main_arg1 : IVec S5x200 32) (main_arg2 : IVec S3x200 32) (main_arg3 : IVec S3x200 32) (main_arg8 : FVec F S102400x256 .f32) (main_arg9 : FVec F S5x5 .f32) (main_arg10 : FVec F S3x3 .f32) (main_v13 : IVec S_ 1) (main_v16 : IVec S102400x256 1) : IVec S_ 1 :=
  let main_c_5 : IVec S_ 1 := constantI S_ 1 1#1
  let main_v17 : IVec S_ 1 := (fun x v => Host.reduce IntOp.andi x v reducesTo_S102400x256_S_d0_1 h_S_) main_v16 main_c_5
  let main_v18 : IVec S_ 1 := andi main_v13 main_v17
  let main_v19 : FVec F S102400x256 .f32 := Host.absf main_arg8
  let main_cst_6 : FVec F S_ .f32 := constant S_ .f32 0x7F800000#32
  let main_v20 : FVec F S102400x256 .f32 := broadcastInDim S102400x256 ![] bcast_S_S102400x256 main_cst_6
  let main_v21 : IVec S102400x256 1 := cmpf .olt main_v19 main_v20
  let main_c_7 : IVec S_ 1 := constantI S_ 1 1#1
  let main_v22 : IVec S_ 1 := (fun x v => Host.reduce IntOp.andi x v reducesTo_S102400x256_S_d0_1 h_S_) main_v21 main_c_7
  let main_v23 : IVec S_ 1 := andi main_v18 main_v22
  let main_v24 : FVec F S5x5 .f32 := Host.absf main_arg9
  let main_cst_8 : FVec F S_ .f32 := constant S_ .f32 0x7F800000#32
  let main_v25 : FVec F S5x5 .f32 := broadcastInDim S5x5 ![] bcast_S_S5x5 main_cst_8
  let main_v26 : IVec S5x5 1 := cmpf .olt main_v24 main_v25
  let main_c_9 : IVec S_ 1 := constantI S_ 1 1#1
  let main_v27 : IVec S_ 1 := (fun x v => Host.reduce IntOp.andi x v reducesTo_S5x5_S_d0_1 h_S_) main_v26 main_c_9
  let main_v28 : IVec S_ 1 := andi main_v23 main_v27
  let main_v29 : FVec F S3x3 .f32 := Host.absf main_arg10
  let main_cst_10 : FVec F S_ .f32 := constant S_ .f32 0x7F800000#32
  let main_v30 : FVec F S3x3 .f32 := broadcastInDim S3x3 ![] bcast_S_S3x3 main_cst_10
  let main_v31 : IVec S3x3 1 := cmpf .olt main_v29 main_v30
  let main_c_11 : IVec S_ 1 := constantI S_ 1 1#1
  let main_v32 : IVec S_ 1 := (fun x v => Host.reduce IntOp.andi x v reducesTo_S3x3_S_d0_1 h_S_) main_v31 main_c_11
  let main_v33 : IVec S_ 1 := andi main_v28 main_v32
  fn_part2 (F := F) main_arg0 main_arg1 main_arg2 main_arg3 main_v33

def fn {F : FTy → Type} [FloatOps F] (main_arg0 : IVec S5x200 32) (main_arg1 : IVec S5x200 32) (main_arg2 : IVec S3x200 32) (main_arg3 : IVec S3x200 32) (main_arg4 : FVec F S100000x256 .f32) (main_arg5 : FVec F S5x256 .f32) (main_arg6 : FVec F S3x256 .f32) (main_arg7 : FVec F S102400x256 .f32) (main_arg8 : FVec F S102400x256 .f32) (main_arg9 : FVec F S5x5 .f32) (main_arg10 : FVec F S3x3 .f32) : IVec S_ 1 :=
  let main_v0 : FVec F S100000x256 .f32 := Host.absf main_arg4
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S5x256 .f32 := Host.absf main_arg5
  let main_cst_0 : FVec F S_ .f32 := constant S_ .f32 0x7F800000#32
  let main_v5 : FVec F S5x256 .f32 := broadcastInDim S5x256 ![] bcast_S_S5x256 main_cst_0
  let main_v6 : IVec S5x256 1 := cmpf .olt main_v4 main_v5
  let main_c_1 : IVec S_ 1 := constantI S_ 1 1#1
  let main_v7 : IVec S_ 1 := (fun x v => Host.reduce IntOp.andi x v reducesTo_S5x256_S_d0_1 h_S_) main_v6 main_c_1
  let main_v8 : IVec S_ 1 := andi main_v3 main_v7
  let main_v9 : FVec F S3x256 .f32 := Host.absf main_arg6
  let main_cst_2 : FVec F S_ .f32 := constant S_ .f32 0x7F800000#32
  let main_v10 : FVec F S3x256 .f32 := broadcastInDim S3x256 ![] bcast_S_S3x256 main_cst_2
  let main_v11 : IVec S3x256 1 := cmpf .olt main_v9 main_v10
  let main_c_3 : IVec S_ 1 := constantI S_ 1 1#1
  let main_v12 : IVec S_ 1 := (fun x v => Host.reduce IntOp.andi x v reducesTo_S3x256_S_d0_1 h_S_) main_v11 main_c_3
  let main_v13 : IVec S_ 1 := andi main_v8 main_v12
  let main_v14 : FVec F S102400x256 .f32 := Host.absf main_arg7
  let main_cst_4 : FVec F S_ .f32 := constant S_ .f32 0x7F800000#32
  let main_v15 : FVec F S102400x256 .f32 := broadcastInDim S102400x256 ![] bcast_S_S102400x256 main_cst_4
  let main_v16 : IVec S102400x256 1 := cmpf .olt main_v14 main_v15
  fn_part1 (F := F) main_arg0 main_arg1 main_arg2 main_arg3 main_arg8 main_arg9 main_arg10 main_v13 main_v16
-- ==== Kernel.lean ====
abbrev S5x200 : Shape := ⟨2, ![5, 200]⟩
abbrev S3x200 : Shape := ⟨2, ![3, 200]⟩
abbrev S100000x256 : Shape := ⟨2, ![100000, 256]⟩
abbrev S5x256 : Shape := ⟨2, ![5, 256]⟩
abbrev S3x256 : Shape := ⟨2, ![3, 256]⟩
abbrev S102400x256 : Shape := ⟨2, ![102400, 256]⟩
abbrev S5x5 : Shape := ⟨2, ![5, 5]⟩
abbrev S3x3 : Shape := ⟨2, ![3, 3]⟩
abbrev S_ : Shape := ⟨0, ![]⟩
abbrev S5x200x1 : Shape := ⟨3, ![5, 200, 1]⟩
abbrev S1 : Shape := ⟨1, ![1]⟩
abbrev S1x1x1 : Shape := ⟨3, ![1, 1, 1]⟩
abbrev S5x200x256 : Shape := ⟨3, ![5, 200, 256]⟩
abbrev S3x200x1 : Shape := ⟨3, ![3, 200, 1]⟩
abbrev S3x200x256 : Shape := ⟨3, ![3, 200, 256]⟩
abbrev S5x200x512 : Shape := ⟨3, ![5, 200, 512]⟩
abbrev S5x102400 : Shape := ⟨2, ![5, 102400]⟩
abbrev S3x200x512 : Shape := ⟨3, ![3, 200, 512]⟩
abbrev S3x102400 : Shape := ⟨2, ![3, 102400]⟩
abbrev S256x5 : Shape := ⟨2, ![256, 5]⟩
abbrev S5 : Shape := ⟨1, ![5]⟩
abbrev S5x1 : Shape := ⟨2, ![5, 1]⟩
abbrev S256x3 : Shape := ⟨2, ![256, 3]⟩
abbrev S3 : Shape := ⟨1, ![3]⟩
abbrev S3x1 : Shape := ⟨2, ![3, 1]⟩
abbrev S2x5x256 : Shape := ⟨3, ![2, 5, 256]⟩
abbrev S5x12800 : Shape := ⟨2, ![5, 12800]⟩
abbrev S12800x256 : Shape := ⟨2, ![12800, 256]⟩
abbrev S1x5x256 : Shape := ⟨3, ![1, 5, 256]⟩
abbrev S2x3x256 : Shape := ⟨3, ![2, 3, 256]⟩
abbrev S3x12800 : Shape := ⟨2, ![3, 12800]⟩
abbrev S1x3x256 : Shape := ⟨3, ![1, 3, 256]⟩
abbrev S5x512 : Shape := ⟨2, ![5, 512]⟩
abbrev S3x512 : Shape := ⟨2, ![3, 512]⟩

abbrev nBuf : Space → Nat
  | .hbm => 169
  | .vmem => 14
  | .smem => 0
  | _ => 0

abbrev hbmTy0_0 (i : Nat) : BufTy := match i % 128 with
  | 0 => ⟨S5x200, .i32⟩
  | 1 => ⟨S5x200, .i32⟩
  | 2 => ⟨S3x200, .i32⟩
  | 3 => ⟨S3x200, .i32⟩
  | 4 => ⟨S100000x256, .f32⟩
  | 5 => ⟨S5x256, .f32⟩
  | 6 => ⟨S3x256, .f32⟩
  | 7 => ⟨S102400x256, .f32⟩
  | 8 => ⟨S102400x256, .f32⟩
  | 9 => ⟨S5x5, .f32⟩
  | 10 => ⟨S3x3, .f32⟩
  | 11 => ⟨S_, .i32⟩
  | 12 => ⟨S5x200, .i32⟩
  | 13 => ⟨S5x200, .i1⟩
  | 14 => ⟨S_, .i32⟩
  | 15 => ⟨S5x200, .i32⟩
  | 16 => ⟨S5x200, .i32⟩
  | 17 => ⟨S5x200, .i32⟩
  | 18 => ⟨S5x200x1, .i32⟩
  | 19 => ⟨S1, .i32⟩
  | 20 => ⟨S_, .i32⟩
  | 21 => ⟨S5x200x1, .i32⟩
  | 22 => ⟨S5x200x1, .i1⟩
  | 23 => ⟨S1x1x1, .i32⟩
  | 24 => ⟨S5x200x1, .i32⟩
  | 25 => ⟨S5x200x1, .i1⟩
  | 26 => ⟨S5x200x1, .i1⟩
  | 27 => ⟨S_, .i1⟩
  | 28 => ⟨S5x200, .i1⟩
  | 29 => ⟨S5x200x256, .f32⟩
  | 30 => ⟨S5x200x256, .i1⟩
  | 31 => ⟨S_, .f32⟩
  | 32 => ⟨S5x200x256, .f32⟩
  | 33 => ⟨S5x200x256, .f32⟩
  | 34 => ⟨S_, .i32⟩
  | 35 => ⟨S5x200, .i32⟩
  | 36 => ⟨S5x200, .i1⟩
  | 37 => ⟨S_, .i32⟩
  | 38 => ⟨S5x200, .i32⟩
  | 39 => ⟨S5x200, .i32⟩
  | 40 => ⟨S5x200, .i32⟩
  | 41 => ⟨S5x200x1, .i32⟩
  | 42 => ⟨S1, .i32⟩
  | 43 => ⟨S_, .i32⟩
  | 44 => ⟨S5x200x1, .i32⟩
  | 45 => ⟨S5x200x1, .i1⟩
  | 46 => ⟨S1x1x1, .i32⟩
  | 47 => ⟨S5x200x1, .i32⟩
  | 48 => ⟨S5x200x1, .i1⟩
  | 49 => ⟨S5x200x1, .i1⟩
  | 50 => ⟨S_, .i1⟩
  | 51 => ⟨S5x200, .i1⟩
  | 52 => ⟨S5x200x256, .f32⟩
  | 53 => ⟨S5x200x256, .i1⟩
  | 54 => ⟨S_, .f32⟩
  | 55 => ⟨S5x200x256, .f32⟩
  | 56 => ⟨S5x200x256, .f32⟩
  | 57 => ⟨S_, .i32⟩
  | 58 => ⟨S3x200, .i32⟩
  | 59 => ⟨S3x200, .i1⟩
  | 60 => ⟨S_, .i32⟩
  | 61 => ⟨S3x200, .i32⟩
  | 62 => ⟨S3x200, .i32⟩
  | 63 => ⟨S3x200, .i32⟩
  | 64 => ⟨S3x200x1, .i32⟩
  | 65 => ⟨S1, .i32⟩
  | 66 => ⟨S_, .i32⟩
  | 67 => ⟨S3x200x1, .i32⟩
  | 68 => ⟨S3x200x1, .i1⟩
  | 69 => ⟨S1x1x1, .i32⟩
  | 70 => ⟨S3x200x1, .i32⟩
  | 71 => ⟨S3x200x1, .i1⟩
  | 72 => ⟨S3x200x1, .i1⟩
  | 73 => ⟨S_, .i1⟩
  | 74 => ⟨S3x200, .i1⟩
  | 75 => ⟨S3x200x256, .f32⟩
  | 76 => ⟨S3x200x256, .i1⟩
  | 77 => ⟨S_, .f32⟩
  | 78 => ⟨S3x200x256, .f32⟩
  | 79 => ⟨S3x200x256, .f32⟩
  | 80 => ⟨S_, .i32⟩
  | 81 => ⟨S3x200, .i32⟩
  | 82 => ⟨S3x200, .i1⟩
  | 83 => ⟨S_, .i32⟩
  | 84 => ⟨S3x200, .i32⟩
  | 85 => ⟨S3x200, .i32⟩
  | 86 => ⟨S3x200, .i32⟩
  | 87 => ⟨S3x200x1, .i32⟩
  | 88 => ⟨S1, .i32⟩
  | 89 => ⟨S_, .i32⟩
  | 90 => ⟨S3x200x1, .i32⟩
  | 91 => ⟨S3x200x1, .i1⟩
  | 92 => ⟨S1x1x1, .i32⟩
  | 93 => ⟨S3x200x1, .i32⟩
  | 94 => ⟨S3x200x1, .i1⟩
  | 95 => ⟨S3x200x1, .i1⟩
  | 96 => ⟨S_, .i1⟩
  | 97 => ⟨S3x200, .i1⟩
  | 98 => ⟨S3x200x256, .f32⟩
  | 99 => ⟨S3x200x256, .i1⟩
  | 100 => ⟨S_, .f32⟩
  | 101 => ⟨S3x200x256, .f32⟩
  | 102 => ⟨S3x200x256, .f32⟩
  | 103 => ⟨S5x200x512, .f32⟩
  | 104 => ⟨S5x102400, .f32⟩
  | 105 => ⟨S3x200x512, .f32⟩
  | 106 => ⟨S3x102400, .f32⟩
  | 107 => ⟨S256x5, .f32⟩
  | 108 => ⟨S5x5, .f32⟩
  | 109 => ⟨S_, .f32⟩
  | 110 => ⟨S5x5, .f32⟩
  | 111 => ⟨S5x5, .f32⟩
  | 112 => ⟨S_, .f32⟩
  | 113 => ⟨S5, .f32⟩
  | 114 => ⟨S_, .f32⟩
  | 115 => ⟨S5, .f32⟩
  | 116 => ⟨S5, .f32⟩
  | 117 => ⟨S5x1, .f32⟩
  | 118 => ⟨S5x5, .f32⟩
  | 119 => ⟨S5x5, .f32⟩
  | 120 => ⟨S5x5, .f32⟩
  | 121 => ⟨S_, .f32⟩
  | 122 => ⟨S5, .f32⟩
  | 123 => ⟨S5x1, .f32⟩
  | 124 => ⟨S5x5, .f32⟩
  | 125 => ⟨S5x5, .f32⟩
  | 126 => ⟨S5x102400, .f32⟩
  | 127 => ⟨S256x3, .f32⟩
  | _ => ⟨S5x200, .i32⟩

abbrev hbmTy0_1 (i : Nat) : BufTy := match i % 128 with
  | 0 => ⟨S3x3, .f32⟩
  | 1 => ⟨S_, .f32⟩
  | 2 => ⟨S3x3, .f32⟩
  | 3 => ⟨S3x3, .f32⟩
  | 4 => ⟨S_, .f32⟩
  | 5 => ⟨S3, .f32⟩
  | 6 => ⟨S_, .f32⟩
  | 7 => ⟨S3, .f32⟩
  | 8 => ⟨S3, .f32⟩
  | 9 => ⟨S3x1, .f32⟩
  | 10 => ⟨S3x3, .f32⟩
  | 11 => ⟨S3x3, .f32⟩
  | 12 => ⟨S3x3, .f32⟩
  | 13 => ⟨S_, .f32⟩
  | 14 => ⟨S3, .f32⟩
  | 15 => ⟨S3x1, .f32⟩
  | 16 => ⟨S3x3, .f32⟩
  | 17 => ⟨S3x3, .f32⟩
  | 18 => ⟨S3x102400, .f32⟩
  | 19 => ⟨S2x5x256, .f32⟩
  | 20 => ⟨S1x5x256, .f32⟩
  | 21 => ⟨S5x256, .f32⟩
  | 22 => ⟨S1x5x256, .f32⟩
  | 23 => ⟨S5x256, .f32⟩
  | 24 => ⟨S5x256, .f32⟩
  | 25 => ⟨S_, .f32⟩
  | 26 => ⟨S5x256, .f32⟩
  | 27 => ⟨S5x256, .f32⟩
  | 28 => ⟨S2x3x256, .f32⟩
  | 29 => ⟨S1x3x256, .f32⟩
  | 30 => ⟨S3x256, .f32⟩
  | 31 => ⟨S1x3x256, .f32⟩
  | 32 => ⟨S3x256, .f32⟩
  | 33 => ⟨S3x256, .f32⟩
  | 34 => ⟨S_, .f32⟩
  | 35 => ⟨S3x256, .f32⟩
  | 36 => ⟨S3x256, .f32⟩
  | 37 => ⟨S5x256, .f32⟩
  | 38 => ⟨S5x512, .f32⟩
  | 39 => ⟨S3x256, .f32⟩
  | 40 => ⟨S3x512, .f32⟩
  | _ => ⟨S5x200, .i32⟩

abbrev hbmTy (i : Nat) : BufTy := match i / 128 with
  | 0 => hbmTy0_0 i
  | 1 => hbmTy0_1 i
  | _ => ⟨S5x200, .i32⟩

abbrev bufTy : (tb : Table) → Fin (tcTables nBuf tb) → BufTy
  | .hbm, ⟨i, _⟩ => hbmTy i
  | .local _ .vmem, ⟨0, _⟩ => ⟨S5x12800, .f32⟩
  | .local _ .vmem, ⟨1, _⟩ => ⟨S5x12800, .f32⟩
  | .local _ .vmem, ⟨2, _⟩ => ⟨S12800x256, .f32⟩
  | .local _ .vmem, ⟨3, _⟩ => ⟨S12800x256, .f32⟩
  | .local _ .vmem, ⟨4, _⟩ => ⟨S1x5x256, .f32⟩
  | .local _ .vmem, ⟨5, _⟩ => ⟨S1x5x256, .f32⟩
  | .local _ .vmem, ⟨6, _⟩ => ⟨S5x256, .f32⟩
  | .local _ .vmem, ⟨7, _⟩ => ⟨S3x12800, .f32⟩
  | .local _ .vmem, ⟨8, _⟩ => ⟨S3x12800, .f32⟩
  | .local _ .vmem, ⟨9, _⟩ => ⟨S12800x256, .f32⟩
  | .local _ .vmem, ⟨10, _⟩ => ⟨S12800x256, .f32⟩
  | .local _ .vmem, ⟨11, _⟩ => ⟨S1x3x256, .f32⟩
  | .local _ .vmem, ⟨12, _⟩ => ⟨S1x3x256, .f32⟩
  | .local _ .vmem, ⟨13, _⟩ => ⟨S3x256, .f32⟩
  | _, _ => ⟨S5x200, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst : Ref sig .tc := ⟨.hbm, 31, rfl⟩
abbrev main_call0_v15 : Ref sig .tc := ⟨.hbm, 32, rfl⟩
abbrev main_v0 : Ref sig .tc := ⟨.hbm, 33, rfl⟩
abbrev main_call1_c : Ref sig .tc := ⟨.hbm, 34, rfl⟩
abbrev main_call1_v0 : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_c_1 : Ref sig .tc := ⟨.hbm, 42, rfl⟩
abbrev main_call1_c_2 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_c_3 : Ref sig .tc := ⟨.hbm, 50, rfl⟩
abbrev main_call1_v12 : Ref sig .tc := ⟨.hbm, 51, rfl⟩
abbrev main_call1_v13 : Ref sig .tc := ⟨.hbm, 52, rfl⟩
abbrev main_call1_v14 : Ref sig .tc := ⟨.hbm, 53, rfl⟩
abbrev main_call1_cst : Ref sig .tc := ⟨.hbm, 54, rfl⟩
abbrev main_call1_v15 : Ref sig .tc := ⟨.hbm, 55, rfl⟩
abbrev main_v1 : Ref sig .tc := ⟨.hbm, 56, rfl⟩
abbrev main_call2_c : Ref sig .tc := ⟨.hbm, 57, rfl⟩
abbrev main_call2_v0 : Ref sig .tc := ⟨.hbm, 58, rfl⟩
abbrev main_call2_v1 : Ref sig .tc := ⟨.hbm, 59, rfl⟩
abbrev main_call2_c_0 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_call2_v5 : Ref sig .tc := ⟨.hbm, 64, rfl⟩
abbrev main_call2_c_1 : Ref sig .tc := ⟨.hbm, 65, rfl⟩
abbrev main_call2_c_2 : Ref sig .tc := ⟨.hbm, 66, rfl⟩
abbrev main_call2_v6 : Ref sig .tc := ⟨.hbm, 67, rfl⟩
abbrev main_call2_v7 : Ref sig .tc := ⟨.hbm, 68, rfl⟩
abbrev main_call2_v8 : Ref sig .tc := ⟨.hbm, 69, rfl⟩
abbrev main_call2_v9 : Ref sig .tc := ⟨.hbm, 70, rfl⟩
abbrev main_call2_v10 : Ref sig .tc := ⟨.hbm, 71, rfl⟩
abbrev main_call2_v11 : Ref sig .tc := ⟨.hbm, 72, rfl⟩
abbrev main_call2_c_3 : Ref sig .tc := ⟨.hbm, 73, rfl⟩
abbrev main_call2_v12 : Ref sig .tc := ⟨.hbm, 74, rfl⟩
abbrev main_call2_v13 : Ref sig .tc := ⟨.hbm, 75, rfl⟩
abbrev main_call2_v14 : Ref sig .tc := ⟨.hbm, 76, rfl⟩
abbrev main_call2_cst : Ref sig .tc := ⟨.hbm, 77, rfl⟩
abbrev main_call2_v15 : Ref sig .tc := ⟨.hbm, 78, rfl⟩
abbrev main_v2 : Ref sig .tc := ⟨.hbm, 79, rfl⟩
abbrev main_call3_c : Ref sig .tc := ⟨.hbm, 80, rfl⟩
abbrev main_call3_v0 : Ref sig .tc := ⟨.hbm, 81, rfl⟩
abbrev main_call3_v1 : Ref sig .tc := ⟨.hbm, 82, rfl⟩
abbrev main_call3_c_0 : Ref sig .tc := ⟨.hbm, 83, rfl⟩
abbrev main_call3_v2 : Ref sig .tc := ⟨.hbm, 84, rfl⟩
abbrev main_call3_v3 : Ref sig .tc := ⟨.hbm, 85, rfl⟩
abbrev main_call3_v4 : Ref sig .tc := ⟨.hbm, 86, rfl⟩
abbrev main_call3_v5 : Ref sig .tc := ⟨.hbm, 87, rfl⟩
abbrev main_call3_c_1 : Ref sig .tc := ⟨.hbm, 88, rfl⟩
abbrev main_call3_c_2 : Ref sig .tc := ⟨.hbm, 89, rfl⟩
abbrev main_call3_v6 : Ref sig .tc := ⟨.hbm, 90, rfl⟩
abbrev main_call3_v7 : Ref sig .tc := ⟨.hbm, 91, rfl⟩
abbrev main_call3_v8 : Ref sig .tc := ⟨.hbm, 92, rfl⟩
abbrev main_call3_v9 : Ref sig .tc := ⟨.hbm, 93, rfl⟩
abbrev main_call3_v10 : Ref sig .tc := ⟨.hbm, 94, rfl⟩
abbrev main_call3_v11 : Ref sig .tc := ⟨.hbm, 95, rfl⟩
abbrev main_call3_c_3 : Ref sig .tc := ⟨.hbm, 96, rfl⟩
abbrev main_call3_v12 : Ref sig .tc := ⟨.hbm, 97, rfl⟩
abbrev main_call3_v13 : Ref sig .tc := ⟨.hbm, 98, rfl⟩
abbrev main_call3_v14 : Ref sig .tc := ⟨.hbm, 99, rfl⟩
abbrev main_call3_cst : Ref sig .tc := ⟨.hbm, 100, rfl⟩
abbrev main_call3_v15 : Ref sig .tc := ⟨.hbm, 101, rfl⟩
abbrev main_v3 : Ref sig .tc := ⟨.hbm, 102, rfl⟩
abbrev main_v4 : Ref sig .tc := ⟨.hbm, 103, rfl⟩
abbrev main_v5 : Ref sig .tc := ⟨.hbm, 104, rfl⟩
abbrev main_v6 : Ref sig .tc := ⟨.hbm, 105, rfl⟩
abbrev main_v7 : Ref sig .tc := ⟨.hbm, 106, rfl⟩
abbrev main_v8 : Ref sig .tc := ⟨.hbm, 107, rfl⟩
abbrev main_v9 : Ref sig .tc := ⟨.hbm, 108, rfl⟩
abbrev main_cst : Ref sig .tc := ⟨.hbm, 109, rfl⟩
abbrev main_v10 : Ref sig .tc := ⟨.hbm, 110, rfl⟩
abbrev main_v11 : Ref sig .tc := ⟨.hbm, 111, rfl⟩
abbrev main_cst_0 : Ref sig .tc := ⟨.hbm, 112, rfl⟩
abbrev main_v12 : Ref sig .tc := ⟨.hbm, 113, rfl⟩
abbrev main_cst_1 : Ref sig .tc := ⟨.hbm, 114, rfl⟩
abbrev main_v13 : Ref sig .tc := ⟨.hbm, 115, rfl⟩
abbrev main_v14 : Ref sig .tc := ⟨.hbm, 116, rfl⟩
abbrev main_v15 : Ref sig .tc := ⟨.hbm, 117, rfl⟩
abbrev main_v16 : Ref sig .tc := ⟨.hbm, 118, rfl⟩
abbrev main_v17 : Ref sig .tc := ⟨.hbm, 119, rfl⟩
abbrev main_v18 : Ref sig .tc := ⟨.hbm, 120, rfl⟩
abbrev main_cst_2 : Ref sig .tc := ⟨.hbm, 121, rfl⟩
abbrev main_v19 : Ref sig .tc := ⟨.hbm, 122, rfl⟩
abbrev main_v20 : Ref sig .tc := ⟨.hbm, 123, rfl⟩
abbrev main_v21 : Ref sig .tc := ⟨.hbm, 124, rfl⟩
abbrev main_v22 : Ref sig .tc := ⟨.hbm, 125, rfl⟩
abbrev main_v23 : Ref sig .tc := ⟨.hbm, 126, rfl⟩
abbrev main_v24 : Ref sig .tc := ⟨.hbm, 127, rfl⟩
abbrev main_v25 : Ref sig .tc := ⟨.hbm, 128, rfl⟩
abbrev main_cst_3 : Ref sig .tc := ⟨.hbm, 129, rfl⟩
abbrev main_v26 : Ref sig .tc := ⟨.hbm, 130, rfl⟩
abbrev main_v27 : Ref sig .tc := ⟨.hbm, 131, rfl⟩
abbrev main_cst_4 : Ref sig .tc := ⟨.hbm, 132, rfl⟩
abbrev main_v28 : Ref sig .tc := ⟨.hbm, 133, rfl⟩
abbrev main_cst_5 : Ref sig .tc := ⟨.hbm, 134, rfl⟩
abbrev main_v29 : Ref sig .tc := ⟨.hbm, 135, rfl⟩
abbrev main_v30 : Ref sig .tc := ⟨.hbm, 136, rfl⟩
abbrev main_v31 : Ref sig .tc := ⟨.hbm, 137, rfl⟩
abbrev main_v32 : Ref sig .tc := ⟨.hbm, 138, rfl⟩
abbrev main_v33 : Ref sig .tc := ⟨.hbm, 139, rfl⟩
abbrev main_v34 : Ref sig .tc := ⟨.hbm, 140, rfl⟩
abbrev main_cst_6 : Ref sig .tc := ⟨.hbm, 141, rfl⟩
abbrev main_v35 : Ref sig .tc := ⟨.hbm, 142, rfl⟩
abbrev main_v36 : Ref sig .tc := ⟨.hbm, 143, rfl⟩
abbrev main_v37 : Ref sig .tc := ⟨.hbm, 144, rfl⟩
abbrev main_v38 : Ref sig .tc := ⟨.hbm, 145, rfl⟩
abbrev main_v39 : Ref sig .tc := ⟨.hbm, 146, rfl⟩
abbrev main_v40 : Ref sig .tc := ⟨.hbm, 147, rfl⟩
abbrev main_v41 : Ref sig .tc := ⟨.hbm, 148, rfl⟩
abbrev main_v42 : Ref sig .tc := ⟨.hbm, 149, rfl⟩
abbrev main_v43 : Ref sig .tc := ⟨.hbm, 150, rfl⟩
abbrev main_v44 : Ref sig .tc := ⟨.hbm, 151, rfl⟩
abbrev main_v45 : Ref sig .tc := ⟨.hbm, 152, rfl⟩
abbrev main_call4_cst : Ref sig .tc := ⟨.hbm, 153, rfl⟩
abbrev main_call4_v0 : Ref sig .tc := ⟨.hbm, 154, rfl⟩
abbrev main_v46 : Ref sig .tc := ⟨.hbm, 155, rfl⟩
abbrev main_v47 : Ref sig .tc := ⟨.hbm, 156, rfl⟩
abbrev main_v48 : Ref sig .tc := ⟨.hbm, 157, rfl⟩
abbrev main_v49 : Ref sig .tc := ⟨.hbm, 158, rfl⟩
abbrev main_v50 : Ref sig .tc := ⟨.hbm, 159, rfl⟩
abbrev main_v51 : Ref sig .tc := ⟨.hbm, 160, rfl⟩
abbrev main_v52 : Ref sig .tc := ⟨.hbm, 161, rfl⟩
abbrev main_call5_cst : Ref sig .tc := ⟨.hbm, 162, rfl⟩
abbrev main_call5_v0 : Ref sig .tc := ⟨.hbm, 163, rfl⟩
abbrev main_v53 : Ref sig .tc := ⟨.hbm, 164, rfl⟩
abbrev main_v54 : Ref sig .tc := ⟨.hbm, 165, rfl⟩
abbrev main_v55 : Ref sig .tc := ⟨.hbm, 166, rfl⟩
abbrev main_v56 : Ref sig .tc := ⟨.hbm, 167, rfl⟩
abbrev main_v57 : Ref sig .tc := ⟨.hbm, 168, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S5x12800 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S12800x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x5x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![2, 4], ![false, false]⟩

def k1_cond2 (i : grid1.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

def cc1_transform_1 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S3x12800 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S12800x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x3x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  bcast_S_S5x200 : S_.BroadcastsInDim S5x200 (![] : Fin 0 → Fin S5x200.rank)
  bcast_S5x200_S5x200x1_0_1 : S5x200.BroadcastsInDim S5x200x1 (![0, 1] : Fin 2 → Fin S5x200x1.rank)
  bcast_S_S5x200x1 : S_.BroadcastsInDim S5x200x1 (![] : Fin 0 → Fin S5x200x1.rank)
  bcast_S1_S1x1x1_2 : S1.BroadcastsInDim S1x1x1 (![2] : Fin 1 → Fin S1x1x1.rank)
  bcast_S1x1x1_S5x200x1_0_1_2 : S1x1x1.BroadcastsInDim S5x200x1 (![0, 1, 2] : Fin 3 → Fin S5x200x1.rank)
  reducesTo_S5x200x1_S5x200_d2 : S5x200x1.ReducesTo [2] S5x200
  h_S_ : 0 < S_.numel
  bcast_S5x200_S5x200x256_0_1 : S5x200.BroadcastsInDim S5x200x256 (![0, 1] : Fin 2 → Fin S5x200x256.rank)
  bcast_S_S5x200x256 : S_.BroadcastsInDim S5x200x256 (![] : Fin 0 → Fin S5x200x256.rank)
  bcast_S_S3x200 : S_.BroadcastsInDim S3x200 (![] : Fin 0 → Fin S3x200.rank)
  bcast_S3x200_S3x200x1_0_1 : S3x200.BroadcastsInDim S3x200x1 (![0, 1] : Fin 2 → Fin S3x200x1.rank)
  bcast_S_S3x200x1 : S_.BroadcastsInDim S3x200x1 (![] : Fin 0 → Fin S3x200x1.rank)
  bcast_S1x1x1_S3x200x1_0_1_2 : S1x1x1.BroadcastsInDim S3x200x1 (![0, 1, 2] : Fin 3 → Fin S3x200x1.rank)
  reducesTo_S3x200x1_S3x200_d2 : S3x200x1.ReducesTo [2] S3x200
  bcast_S3x200_S3x200x256_0_1 : S3x200.BroadcastsInDim S3x200x256 (![0, 1] : Fin 2 → Fin S3x200x256.rank)
  bcast_S_S3x200x256 : S_.BroadcastsInDim S3x200x256 (![] : Fin 0 → Fin S3x200x256.rank)
  concatenates_S5x200x256_S5x200x256_S5x200x512_d2 : Shape.Concatenates [S5x200x256, S5x200x256] S5x200x512 2
  shapeCasts_S5x200x512_S5x102400 : S5x200x512.ShapeCasts S5x102400
  concatenates_S3x200x256_S3x200x256_S3x200x512_d2 : Shape.Concatenates [S3x200x256, S3x200x256] S3x200x512 2
  shapeCasts_S3x200x512_S3x102400 : S3x200x512.ShapeCasts S3x102400
  transposes_S5x256_S256x5_1_0 : S5x256.Transposes [1, 0] S256x5
  bcast_S_S5x5 : S_.BroadcastsInDim S5x5 (![] : Fin 0 → Fin S5x5.rank)
  reducesTo_S5x5_S5_d1 : S5x5.ReducesTo [1] S5
  bcast_S_S5 : S_.BroadcastsInDim S5 (![] : Fin 0 → Fin S5.rank)
  bcast_S5_S5x1_0 : S5.BroadcastsInDim S5x1 (![0] : Fin 1 → Fin S5x1.rank)
  bcast_S5x1_S5x5_0_1 : S5x1.BroadcastsInDim S5x5 (![0, 1] : Fin 2 → Fin S5x5.rank)
  transposes_S3x256_S256x3_1_0 : S3x256.Transposes [1, 0] S256x3
  bcast_S_S3x3 : S_.BroadcastsInDim S3x3 (![] : Fin 0 → Fin S3x3.rank)
  reducesTo_S3x3_S3_d1 : S3x3.ReducesTo [1] S3
  bcast_S_S3 : S_.BroadcastsInDim S3 (![] : Fin 0 → Fin S3.rank)
  bcast_S3_S3x1_0 : S3.BroadcastsInDim S3x1 (![0] : Fin 1 → Fin S3x1.rank)
  bcast_S3x1_S3x3_0_1 : S3x1.BroadcastsInDim S3x3 (![0, 1] : Fin 2 → Fin S3x3.rank)
  inb_S5x256_S5x256_0_0 : ∀ a, (![0, 0] : Fin 2 → Nat) a + S5x256.size a ≤ S5x256.size a
  h_S5x256 : 0 < S5x256.numel
  shapeCasts_S5x256_S5x256 : S5x256.ShapeCasts S5x256
  inb_S5x12800_S5x12800_0_0 : ∀ a, (![0, 0] : Fin 2 → Nat) a + S5x12800.size a ≤ S5x12800.size a
  h_S5x12800 : 0 < S5x12800.numel
  shapeCasts_S5x12800_S5x12800 : S5x12800.ShapeCasts S5x12800
  bitsLt_bf16_f32 : FTy.bits .bf16 < FTy.bits .f32
  inb_S12800x256_S12800x256_0_0 : ∀ a, (![0, 0] : Fin 2 → Nat) a + S12800x256.size a ≤ S12800x256.size a
  h_S12800x256 : 0 < S12800x256.numel
  inb_S1x5x256_S1x5x256_0_0_0 : ∀ a, (![0, 0, 0] : Fin 3 → Nat) a + S1x5x256.size a ≤ S1x5x256.size a
  h_S1x5x256 : 0 < S1x5x256.numel
  shapeCasts_S1x5x256_S5x256 : S1x5x256.ShapeCasts S5x256
  shapeCasts_S5x256_S1x5x256 : S5x256.ShapeCasts S1x5x256
  slices_S2x5x256_S1x5x256_0_0_0 : S2x5x256.Slices ![0, 0, 0] S1x5x256
  slices_S2x5x256_S1x5x256_1_0_0 : S2x5x256.Slices ![1, 0, 0] S1x5x256
  bcast_S_S5x256 : S_.BroadcastsInDim S5x256 (![] : Fin 0 → Fin S5x256.rank)
  inb_S3x256_S3x256_0_0 : ∀ a, (![0, 0] : Fin 2 → Nat) a + S3x256.size a ≤ S3x256.size a
  h_S3x256 : 0 < S3x256.numel
  shapeCasts_S3x256_S3x256 : S3x256.ShapeCasts S3x256
  inb_S3x12800_S3x12800_0_0 : ∀ a, (![0, 0] : Fin 2 → Nat) a + S3x12800.size a ≤ S3x12800.size a
  h_S3x12800 : 0 < S3x12800.numel
  shapeCasts_S3x12800_S3x12800 : S3x12800.ShapeCasts S3x12800
  inb_S1x3x256_S1x3x256_0_0_0 : ∀ a, (![0, 0, 0] : Fin 3 → Nat) a + S1x3x256.size a ≤ S1x3x256.size a
  h_S1x3x256 : 0 < S1x3x256.numel
  shapeCasts_S1x3x256_S3x256 : S1x3x256.ShapeCasts S3x256
  shapeCasts_S3x256_S1x3x256 : S3x256.ShapeCasts S1x3x256
  slices_S2x3x256_S1x3x256_0_0_0 : S2x3x256.Slices ![0, 0, 0] S1x3x256
  slices_S2x3x256_S1x3x256_1_0_0 : S2x3x256.Slices ![1, 0, 0] S1x3x256
  bcast_S_S3x256 : S_.BroadcastsInDim S3x256 (![] : Fin 0 → Fin S3x256.rank)
  concatenates_S5x256_S5x256_S5x512_d1 : Shape.Concatenates [S5x256, S5x256] S5x512 1
  concatenates_S3x256_S3x256_S3x512_d1 : Shape.Concatenates [S3x256, S3x256] S3x512 1
  gather_S100000x256_S5x200x1_S5x200x256_2_0_n_n_0_2_1256_wf : GatherDims.WF S100000x256 S5x200x1 S5x200x256 [2] [0] [] [0] [] 2 ![1, 256]
  gather_S3x256_S5x200x1_S5x200x256_2_0_n_n_0_2_1256_wf : GatherDims.WF S3x256 S5x200x1 S5x200x256 [2] [0] [] [0] [] 2 ![1, 256]
  gather_S100000x256_S3x200x1_S3x200x256_2_0_n_n_0_2_1256_wf : GatherDims.WF S100000x256 S3x200x1 S3x200x256 [2] [0] [] [0] [] 2 ![1, 256]
  gather_S5x256_S3x200x1_S3x200x256_2_0_n_n_0_2_1256_wf : GatherDims.WF S5x256 S3x200x1 S3x200x256 [2] [0] [] [0] [] 2 ![1, 256]
  dot_S5x256_S256x5_S5x5_1_0_0_1_n_n_wf : DotDims.WF S5x256 S256x5 S5x5 [1] [0] [0] [1] [] []
  dot_S5x5_S5x102400_S5x102400_1_0_0_1_n_n_wf : DotDims.WF S5x5 S5x102400 S5x102400 [1] [0] [0] [1] [] []
  dot_S3x256_S256x3_S3x3_1_0_0_1_n_n_wf : DotDims.WF S3x256 S256x3 S3x3 [1] [0] [0] [1] [] []
  dot_S3x3_S3x102400_S3x102400_1_0_0_1_n_n_wf : DotDims.WF S3x3 S3x102400 S3x102400 [1] [0] [0] [1] [] []
  dot_S5x12800_S12800x256_S5x256_1_0_0_1_n_n_wf : DotDims.WF S5x12800 S12800x256 S5x256 [1] [0] [0] [1] [] []
  dot_S3x12800_S12800x256_S3x256_1_0_0_1_n_n_wf : DotDims.WF S3x12800 S12800x256 S3x256 [1] [0] [0] [1] [] []
  dot_S5x5_S5x256_S5x256_1_0_0_1_n_n_wf : DotDims.WF S5x5 S5x256 S5x256 [1] [0] [0] [1] [] []
  dot_S3x3_S3x256_S3x256_1_0_0_1_n_n_wf : DotDims.WF S3x3 S3x256 S3x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5x12800.size a ≤ S5x102400.size a
  hwx0_0 : ∀ i : grid0.Coords, EltTy.bits .f32 = 32 ∨ (Rect.block (s := S5x102400) S5x12800.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S12800x256.size a ≤ S102400x256.size a
  hwx0_1 : ∀ i : grid0.Coords, EltTy.bits .f32 = 32 ∨ (Rect.block (s := S102400x256) S12800x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x5x256.size a ≤ S2x5x256.size a
  hwx0_2 : ∀ i : grid0.Coords, EltTy.bits .f32 = 32 ∨ (Rect.block (s := S2x5x256) S1x5x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S3x12800.size a ≤ S3x102400.size a
  hwx1_0 : ∀ i : grid1.Coords, EltTy.bits .f32 = 32 ∨ (Rect.block (s := S3x102400) S3x12800.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S12800x256.size a ≤ S102400x256.size a
  hwx1_1 : ∀ i : grid1.Coords, EltTy.bits .f32 = 32 ∨ (Rect.block (s := S102400x256) S12800x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x3x256.size a ≤ S2x3x256.size a
  hwx1_2 : ∀ i : grid1.Coords, EltTy.bits .f32 = 32 ∨ (Rect.block (s := S2x3x256) S1x3x256.size (cc1_transform_2 i) (hinb1_2 i)).WholeWords (EltTy.packing .f32)

variable [Facts₀]

def gather_S100000x256_S5x200x1_S5x200x256_2_0_n_n_0_2_1256 : GatherDims S100000x256 S5x200x1 S5x200x256 where
  offsetDims := [2]
  collapsedSliceDims := [0]
  operandBatchingDims := []
  startIndicesBatchingDims := []
  startIndexMap := [0]
  indexVectorDim := 2
  sliceSizes := ![1, 256]
  wf := gather_S100000x256_S5x200x1_S5x200x256_2_0_n_n_0_2_1256_wf
def gather_S3x256_S5x200x1_S5x200x256_2_0_n_n_0_2_1256 : GatherDims S3x256 S5x200x1 S5x200x256 where
  offsetDims := [2]
  collapsedSliceDims := [0]
  operandBatchingDims := []
  startIndicesBatchingDims := []
  startIndexMap := [0]
  indexVectorDim := 2
  sliceSizes := ![1, 256]
  wf := gather_S3x256_S5x200x1_S5x200x256_2_0_n_n_0_2_1256_wf
def gather_S100000x256_S3x200x1_S3x200x256_2_0_n_n_0_2_1256 : GatherDims S100000x256 S3x200x1 S3x200x256 where
  offsetDims := [2]
  collapsedSliceDims := [0]
  operandBatchingDims := []
  startIndicesBatchingDims := []
  startIndexMap := [0]
  indexVectorDim := 2
  sliceSizes := ![1, 256]
  wf := gather_S100000x256_S3x200x1_S3x200x256_2_0_n_n_0_2_1256_wf
def gather_S5x256_S3x200x1_S3x200x256_2_0_n_n_0_2_1256 : GatherDims S5x256 S3x200x1 S3x200x256 where
  offsetDims := [2]
  collapsedSliceDims := [0]
  operandBatchingDims := []
  startIndicesBatchingDims := []
  startIndexMap := [0]
  indexVectorDim := 2
  sliceSizes := ![1, 256]
  wf := gather_S5x256_S3x200x1_S3x200x256_2_0_n_n_0_2_1256_wf
def dot_S5x256_S256x5_S5x5_1_0_0_1_n_n : DotDims S5x256 S256x5 S5x5 where
  lhsContracting := [1]
  rhsContracting := [0]
  lhsNonContracting := [0]
  rhsNonContracting := [1]
  lhsBatch := []
  rhsBatch := []
  wf := dot_S5x256_S256x5_S5x5_1_0_0_1_n_n_wf
def dot_S5x5_S5x102400_S5x102400_1_0_0_1_n_n : DotDims S5x5 S5x102400 S5x102400 where
  lhsContracting := [1]
  rhsContracting := [0]
  lhsNonContracting := [0]
  rhsNonContracting := [1]
  lhsBatch := []
  rhsBatch := []
  wf := dot_S5x5_S5x102400_S5x102400_1_0_0_1_n_n_wf
def dot_S3x256_S256x3_S3x3_1_0_0_1_n_n : DotDims S3x256 S256x3 S3x3 where
  lhsContracting := [1]
  rhsContracting := [0]
  lhsNonContracting := [0]
  rhsNonContracting := [1]
  lhsBatch := []
  rhsBatch := []
  wf := dot_S3x256_S256x3_S3x3_1_0_0_1_n_n_wf
def dot_S3x3_S3x102400_S3x102400_1_0_0_1_n_n : DotDims S3x3 S3x102400 S3x102400 where
  lhsContracting := [1]
  rhsContracting := [0]
  lhsNonContracting := [0]
  rhsNonContracting := [1]
  lhsBatch := []
  rhsBatch := []
  wf := dot_S3x3_S3x102400_S3x102400_1_0_0_1_n_n_wf
def dot_S5x12800_S12800x256_S5x256_1_0_0_1_n_n : DotDims S5x12800 S12800x256 S5x256 where
  lhsContracting := [1]
  rhsContracting := [0]
  lhsNonContracting := [0]
  rhsNonContracting := [1]
  lhsBatch := []
  rhsBatch := []
  wf := dot_S5x12800_S12800x256_S5x256_1_0_0_1_n_n_wf
def dot_S3x12800_S12800x256_S3x256_1_0_0_1_n_n : DotDims S3x12800 S12800x256 S3x256 where
  lhsContracting := [1]
  rhsContracting := [0]
  lhsNonContracting := [0]
  rhsNonContracting := [1]
  lhsBatch := []
  rhsBatch := []
  wf := dot_S3x12800_S12800x256_S3x256_1_0_0_1_n_n_wf
def dot_S5x5_S5x256_S5x256_1_0_0_1_n_n : DotDims S5x5 S5x256 S5x256 where
  lhsContracting := [1]
  rhsContracting := [0]
  lhsNonContracting := [0]
  rhsNonContracting := [1]
  lhsBatch := []
  rhsBatch := []
  wf := dot_S5x5_S5x256_S5x256_1_0_0_1_n_n_wf
def dot_S3x3_S3x256_S3x256_1_0_0_1_n_n : DotDims S3x3 S3x256 S3x256 where
  lhsContracting := [1]
  rhsContracting := [0]
  lhsNonContracting := [0]
  rhsNonContracting := [1]
  lhsBatch := []
  rhsBatch := []
  wf := dot_S3x3_S3x256_S3x256_1_0_0_1_n_n_wf

abbrev win0_0 : Pipeline.Window sig grid0 :=
  Pipeline.Window.ofSpec (Memref.whole main_v23) S5x12800.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg7) S12800x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v40) S1x5x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v39) S3x12800.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg8) S12800x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v47) S1x3x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S5x200 : Shape := ⟨2, ![5, 200]⟩
abbrev S3x200 : Shape := ⟨2, ![3, 200]⟩
abbrev S100000x256 : Shape := ⟨2, ![100000, 256]⟩
abbrev S5x256 : Shape := ⟨2, ![5, 256]⟩
abbrev S3x256 : Shape := ⟨2, ![3, 256]⟩
abbrev S102400x256 : Shape := ⟨2, ![102400, 256]⟩
abbrev S5x5 : Shape := ⟨2, ![5, 5]⟩
abbrev S3x3 : Shape := ⟨2, ![3, 3]⟩
abbrev S_ : Shape := ⟨0, ![]⟩
abbrev S5x200x1 : Shape := ⟨3, ![5, 200, 1]⟩
abbrev S5x200x256 : Shape := ⟨3, ![5, 200, 256]⟩
abbrev S3x200x1 : Shape := ⟨3, ![3, 200, 1]⟩
abbrev S3x200x256 : Shape := ⟨3, ![3, 200, 256]⟩
abbrev S5x200x512 : Shape := ⟨3, ![5, 200, 512]⟩
abbrev S5x102400 : Shape := ⟨2, ![5, 102400]⟩
abbrev S3x200x512 : Shape := ⟨3, ![3, 200, 512]⟩
abbrev S3x102400 : Shape := ⟨2, ![3, 102400]⟩
abbrev S256x5 : Shape := ⟨2, ![256, 5]⟩
abbrev S5 : Shape := ⟨1, ![5]⟩
abbrev S5x1 : Shape := ⟨2, ![5, 1]⟩
abbrev S256x3 : Shape := ⟨2, ![256, 3]⟩
abbrev S3 : Shape := ⟨1, ![3]⟩
abbrev S3x1 : Shape := ⟨2, ![3, 1]⟩
abbrev S5x512 : Shape := ⟨2, ![5, 512]⟩
abbrev S3x512 : Shape := ⟨2, ![3, 512]⟩

abbrev nBuf : Space → Nat
  | .hbm => 105
  | .vmem => 0
  | .smem => 0
  | _ => 0

abbrev bufTy : (tb : Table) → Fin (tcTables nBuf tb) → BufTy
  | .hbm, ⟨0, _⟩ => ⟨S5x200, .i32⟩
  | .hbm, ⟨1, _⟩ => ⟨S5x200, .i32⟩
  | .hbm, ⟨2, _⟩ => ⟨S3x200, .i32⟩
  | .hbm, ⟨3, _⟩ => ⟨S3x200, .i32⟩
  | .hbm, ⟨4, _⟩ => ⟨S100000x256, .f32⟩
  | .hbm, ⟨5, _⟩ => ⟨S5x256, .f32⟩
  | .hbm, ⟨6, _⟩ => ⟨S3x256, .f32⟩
  | .hbm, ⟨7, _⟩ => ⟨S102400x256, .f32⟩
  | .hbm, ⟨8, _⟩ => ⟨S102400x256, .f32⟩
  | .hbm, ⟨9, _⟩ => ⟨S5x5, .f32⟩
  | .hbm, ⟨10, _⟩ => ⟨S3x3, .f32⟩
  | .hbm, ⟨11, _⟩ => ⟨S_, .i32⟩
  | .hbm, ⟨12, _⟩ => ⟨S5x200, .i32⟩
  | .hbm, ⟨13, _⟩ => ⟨S5x200, .i1⟩
  | .hbm, ⟨14, _⟩ => ⟨S_, .i32⟩
  | .hbm, ⟨15, _⟩ => ⟨S5x200, .i32⟩
  | .hbm, ⟨16, _⟩ => ⟨S5x200, .i32⟩
  | .hbm, ⟨17, _⟩ => ⟨S5x200, .i32⟩
  | .hbm, ⟨18, _⟩ => ⟨S5x200x1, .i32⟩
  | .hbm, ⟨19, _⟩ => ⟨S5x200x256, .f32⟩
  | .hbm, ⟨20, _⟩ => ⟨S_, .i32⟩
  | .hbm, ⟨21, _⟩ => ⟨S5x200, .i32⟩
  | .hbm, ⟨22, _⟩ => ⟨S5x200, .i1⟩
  | .hbm, ⟨23, _⟩ => ⟨S_, .i32⟩
  | .hbm, ⟨24, _⟩ => ⟨S5x200, .i32⟩
  | .hbm, ⟨25, _⟩ => ⟨S5x200, .i32⟩
  | .hbm, ⟨26, _⟩ => ⟨S5x200, .i32⟩
  | .hbm, ⟨27, _⟩ => ⟨S5x200x1, .i32⟩
  | .hbm, ⟨28, _⟩ => ⟨S5x200x256, .f32⟩
  | .hbm, ⟨29, _⟩ => ⟨S_, .i32⟩
  | .hbm, ⟨30, _⟩ => ⟨S3x200, .i32⟩
  | .hbm, ⟨31, _⟩ => ⟨S3x200, .i1⟩
  | .hbm, ⟨32, _⟩ => ⟨S_, .i32⟩
  | .hbm, ⟨33, _⟩ => ⟨S3x200, .i32⟩
  | .hbm, ⟨34, _⟩ => ⟨S3x200, .i32⟩
  | .hbm, ⟨35, _⟩ => ⟨S3x200, .i32⟩
  | .hbm, ⟨36, _⟩ => ⟨S3x200x1, .i32⟩
  | .hbm, ⟨37, _⟩ => ⟨S3x200x256, .f32⟩
  | .hbm, ⟨38, _⟩ => ⟨S_, .i32⟩
  | .hbm, ⟨39, _⟩ => ⟨S3x200, .i32⟩
  | .hbm, ⟨40, _⟩ => ⟨S3x200, .i1⟩
  | .hbm, ⟨41, _⟩ => ⟨S_, .i32⟩
  | .hbm, ⟨42, _⟩ => ⟨S3x200, .i32⟩
  | .hbm, ⟨43, _⟩ => ⟨S3x200, .i32⟩
  | .hbm, ⟨44, _⟩ => ⟨S3x200, .i32⟩
  | .hbm, ⟨45, _⟩ => ⟨S3x200x1, .i32⟩
  | .hbm, ⟨46, _⟩ => ⟨S3x200x256, .f32⟩
  | .hbm, ⟨47, _⟩ => ⟨S5x200x512, .f32⟩
  | .hbm, ⟨48, _⟩ => ⟨S5x102400, .f32⟩
  | .hbm, ⟨49, _⟩ => ⟨S3x200x512, .f32⟩
  | .hbm, ⟨50, _⟩ => ⟨S3x102400, .f32⟩
  | .hbm, ⟨51, _⟩ => ⟨S256x5, .f32⟩
  | .hbm, ⟨52, _⟩ => ⟨S5x5, .f32⟩
  | .hbm, ⟨53, _⟩ => ⟨S_, .f32⟩
  | .hbm, ⟨54, _⟩ => ⟨S_, .f32⟩
  | .hbm, ⟨55, _⟩ => ⟨S5x5, .f32⟩
  | .hbm, ⟨56, _⟩ => ⟨S5x5, .f32⟩
  | .hbm, ⟨57, _⟩ => ⟨S_, .f32⟩
  | .hbm, ⟨58, _⟩ => ⟨S5, .f32⟩
  | .hbm, ⟨59, _⟩ => ⟨S_, .f32⟩
  | .hbm, ⟨60, _⟩ => ⟨S5, .f32⟩
  | .hbm, ⟨61, _⟩ => ⟨S5, .f32⟩
  | .hbm, ⟨62, _⟩ => ⟨S5x1, .f32⟩
  | .hbm, ⟨63, _⟩ => ⟨S5x5, .f32⟩
  | .hbm, ⟨64, _⟩ => ⟨S5x5, .f32⟩
  | .hbm, ⟨65, _⟩ => ⟨S5x5, .f32⟩
  | .hbm, ⟨66, _⟩ => ⟨S_, .f32⟩
  | .hbm, ⟨67, _⟩ => ⟨S5, .f32⟩
  | .hbm, ⟨68, _⟩ => ⟨S5x1, .f32⟩
  | .hbm, ⟨69, _⟩ => ⟨S5x5, .f32⟩
  | .hbm, ⟨70, _⟩ => ⟨S5x5, .f32⟩
  | .hbm, ⟨71, _⟩ => ⟨S5x102400, .f32⟩
  | .hbm, ⟨72, _⟩ => ⟨S256x3, .f32⟩
  | .hbm, ⟨73, _⟩ => ⟨S3x3, .f32⟩
  | .hbm, ⟨74, _⟩ => ⟨S_, .f32⟩
  | .hbm, ⟨75, _⟩ => ⟨S_, .f32⟩
  | .hbm, ⟨76, _⟩ => ⟨S3x3, .f32⟩
  | .hbm, ⟨77, _⟩ => ⟨S3x3, .f32⟩
  | .hbm, ⟨78, _⟩ => ⟨S_, .f32⟩
  | .hbm, ⟨79, _⟩ => ⟨S3, .f32⟩
  | .hbm, ⟨80, _⟩ => ⟨S_, .f32⟩
  | .hbm, ⟨81, _⟩ => ⟨S3, .f32⟩
  | .hbm, ⟨82, _⟩ => ⟨S3, .f32⟩
  | .hbm, ⟨83, _⟩ => ⟨S3x1, .f32⟩
  | .hbm, ⟨84, _⟩ => ⟨S3x3, .f32⟩
  | .hbm, ⟨85, _⟩ => ⟨S3x3, .f32⟩
  | .hbm, ⟨86, _⟩ => ⟨S3x3, .f32⟩
  | .hbm, ⟨87, _⟩ => ⟨S_, .f32⟩
  | .hbm, ⟨88, _⟩ => ⟨S3, .f32⟩
  | .hbm, ⟨89, _⟩ => ⟨S3x1, .f32⟩
  | .hbm, ⟨90, _⟩ => ⟨S3x3, .f32⟩
  | .hbm, ⟨91, _⟩ => ⟨S3x3, .f32⟩
  | .hbm, ⟨92, _⟩ => ⟨S3x102400, .f32⟩
  | .hbm, ⟨93, _⟩ => ⟨S5x256, .f32⟩
  | .hbm, ⟨94, _⟩ => ⟨S_, .f32⟩
  | .hbm, ⟨95, _⟩ => ⟨S5x256, .f32⟩
  | .hbm, ⟨96, _⟩ => ⟨S5x256, .f32⟩
  | .hbm, ⟨97, _⟩ => ⟨S3x256, .f32⟩
  | .hbm, ⟨98, _⟩ => ⟨S_, .f32⟩
  | .hbm, ⟨99, _⟩ => ⟨S3x256, .f32⟩
  | .hbm, ⟨100, _⟩ => ⟨S3x256, .f32⟩
  | .hbm, ⟨101, _⟩ => ⟨S5x256, .f32⟩
  | .hbm, ⟨102, _⟩ => ⟨S5x512, .f32⟩
  | .hbm, ⟨103, _⟩ => ⟨S3x256, .f32⟩
  | .hbm, ⟨104, _⟩ => ⟨S3x512, .f32⟩
  | _, _ => ⟨S5x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c_1 : Ref sig .tc := ⟨.hbm, 20, rfl⟩
abbrev main_v7 : Ref sig .tc := ⟨.hbm, 21, rfl⟩
abbrev main_v8 : Ref sig .tc := ⟨.hbm, 22, rfl⟩
abbrev main_c_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c_3 : Ref sig .tc := ⟨.hbm, 29, rfl⟩
abbrev main_v14 : Ref sig .tc := ⟨.hbm, 30, rfl⟩
abbrev main_v15 : Ref sig .tc := ⟨.hbm, 31, rfl⟩
abbrev main_c_4 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_5 : Ref sig .tc := ⟨.hbm, 38, rfl⟩
abbrev main_v21 : Ref sig .tc := ⟨.hbm, 39, rfl⟩
abbrev main_v22 : Ref sig .tc := ⟨.hbm, 40, rfl⟩
abbrev main_c_6 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_7 : Ref sig .tc := ⟨.hbm, 57, rfl⟩
abbrev main_v37 : Ref sig .tc := ⟨.hbm, 58, rfl⟩
abbrev main_cst_8 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_9 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_10 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_11 : Ref sig .tc := ⟨.hbm, 78, rfl⟩
abbrev main_v54 : Ref sig .tc := ⟨.hbm, 79, rfl⟩
abbrev main_cst_12 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_13 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_call0_cst : Ref sig .tc := ⟨.hbm, 94, rfl⟩
abbrev main_call0_v0 : Ref sig .tc := ⟨.hbm, 95, rfl⟩
abbrev main_v67 : Ref sig .tc := ⟨.hbm, 96, rfl⟩
abbrev main_v68 : Ref sig .tc := ⟨.hbm, 97, rfl⟩
abbrev main_call1_cst : Ref sig .tc := ⟨.hbm, 98, rfl⟩
abbrev main_call1_v0 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩

abbrev nD : Nat := 1
abbrev τ : Topo := Topo.v7x

variable {F : FTy → Type} [FloatOps F]

class Facts₀ : Prop where
  bcast_S_S5x200 : S_.BroadcastsInDim S5x200 (![] : Fin 0 → Fin S5x200.rank)
  bcast_S5x200_S5x200x1_0_1 : S5x200.BroadcastsInDim S5x200x1 (![0, 1] : Fin 2 → Fin S5x200x1.rank)
  bcast_S_S3x200 : S_.BroadcastsInDim S3x200 (![] : Fin 0 → Fin S3x200.rank)
  bcast_S3x200_S3x200x1_0_1 : S3x200.BroadcastsInDim S3x200x1 (![0, 1] : Fin 2 → Fin S3x200x1.rank)
  concatenates_S5x200x256_S5x200x256_S5x200x512_d2 : Shape.Concatenates [S5x200x256, S5x200x256] S5x200x512 2
  shapeCasts_S5x200x512_S5x102400 : S5x200x512.ShapeCasts S5x102400
  concatenates_S3x200x256_S3x200x256_S3x200x512_d2 : Shape.Concatenates [S3x200x256, S3x200x256] S3x200x512 2
  shapeCasts_S3x200x512_S3x102400 : S3x200x512.ShapeCasts S3x102400
  transposes_S5x256_S256x5_1_0 : S5x256.Transposes [1, 0] S256x5
  bcast_S_S5x5 : S_.BroadcastsInDim S5x5 (![] : Fin 0 → Fin S5x5.rank)
  reducesTo_S5x5_S5_d1 : S5x5.ReducesTo [1] S5
  h_S_ : 0 < S_.numel
  bcast_S_S5 : S_.BroadcastsInDim S5 (![] : Fin 0 → Fin S5.rank)
  bcast_S5_S5x1_0 : S5.BroadcastsInDim S5x1 (![0] : Fin 1 → Fin S5x1.rank)
  bcast_S5x1_S5x5_0_1 : S5x1.BroadcastsInDim S5x5 (![0, 1] : Fin 2 → Fin S5x5.rank)
  transposes_S3x256_S256x3_1_0 : S3x256.Transposes [1, 0] S256x3
  bcast_S_S3x3 : S_.BroadcastsInDim S3x3 (![] : Fin 0 → Fin S3x3.rank)
  reducesTo_S3x3_S3_d1 : S3x3.ReducesTo [1] S3
  bcast_S_S3 : S_.BroadcastsInDim S3 (![] : Fin 0 → Fin S3.rank)
  bcast_S3_S3x1_0 : S3.BroadcastsInDim S3x1 (![0] : Fin 1 → Fin S3x1.rank)
  bcast_S3x1_S3x3_0_1 : S3x1.BroadcastsInDim S3x3 (![0, 1] : Fin 2 → Fin S3x3.rank)
  bcast_S_S5x256 : S_.BroadcastsInDim S5x256 (![] : Fin 0 → Fin S5x256.rank)
  bcast_S_S3x256 : S_.BroadcastsInDim S3x256 (![] : Fin 0 → Fin S3x256.rank)
  concatenates_S5x256_S5x256_S5x512_d1 : Shape.Concatenates [S5x256, S5x256] S5x512 1
  concatenates_S3x256_S3x256_S3x512_d1 : Shape.Concatenates [S3x256, S3x256] S3x512 1
  gather_S100000x256_S5x200x1_S5x200x256_2_0_n_n_0_2_1256_wf : GatherDims.WF S100000x256 S5x200x1 S5x200x256 [2] [0] [] [0] [] 2 ![1, 256]
  gather_S3x256_S5x200x1_S5x200x256_2_0_n_n_0_2_1256_wf : GatherDims.WF S3x256 S5x200x1 S5x200x256 [2] [0] [] [0] [] 2 ![1, 256]
  gather_S100000x256_S3x200x1_S3x200x256_2_0_n_n_0_2_1256_wf : GatherDims.WF S100000x256 S3x200x1 S3x200x256 [2] [0] [] [0] [] 2 ![1, 256]
  gather_S5x256_S3x200x1_S3x200x256_2_0_n_n_0_2_1256_wf : GatherDims.WF S5x256 S3x200x1 S3x200x256 [2] [0] [] [0] [] 2 ![1, 256]
  dot_S5x256_S256x5_S5x5_1_0_0_1_n_n_wf : DotDims.WF S5x256 S256x5 S5x5 [1] [0] [0] [1] [] []
  dot_S5x5_S5x102400_S5x102400_1_0_0_1_n_n_wf : DotDims.WF S5x5 S5x102400 S5x102400 [1] [0] [0] [1] [] []
  dot_S3x256_S256x3_S3x3_1_0_0_1_n_n_wf : DotDims.WF S3x256 S256x3 S3x3 [1] [0] [0] [1] [] []
  dot_S3x3_S3x102400_S3x102400_1_0_0_1_n_n_wf : DotDims.WF S3x3 S3x102400 S3x102400 [1] [0] [0] [1] [] []
  dot_S5x102400_S102400x256_S5x256_1_0_0_1_n_n_wf : DotDims.WF S5x102400 S102400x256 S5x256 [1] [0] [0] [1] [] []
  dot_S3x102400_S102400x256_S3x256_1_0_0_1_n_n_wf : DotDims.WF S3x102400 S102400x256 S3x256 [1] [0] [0] [1] [] []
  dot_S5x5_S5x256_S5x256_1_0_0_1_n_n_wf : DotDims.WF S5x5 S5x256 S5x256 [1] [0] [0] [1] [] []
  dot_S3x3_S3x256_S3x256_1_0_0_1_n_n_wf : DotDims.WF S3x3 S3x256 S3x256 [1] [0] [0] [1] [] []

variable [Facts₀]

def gather_S100000x256_S5x200x1_S5x200x256_2_0_n_n_0_2_1256 : GatherDims S100000x256 S5x200x1 S5x200x256 where
  offsetDims := [2]
  collapsedSliceDims := [0]
  operandBatchingDims := []
  startIndicesBatchingDims := []
  startIndexMap := [0]
  indexVectorDim := 2
  sliceSizes := ![1, 256]
  wf := gather_S100000x256_S5x200x1_S5x200x256_2_0_n_n_0_2_1256_wf
def gather_S3x256_S5x200x1_S5x200x256_2_0_n_n_0_2_1256 : GatherDims S3x256 S5x200x1 S5x200x256 where
  offsetDims := [2]
  collapsedSliceDims := [0]
  operandBatchingDims := []
  startIndicesBatchingDims := []
  startIndexMap := [0]
  indexVectorDim := 2
  sliceSizes := ![1, 256]
  wf := gather_S3x256_S5x200x1_S5x200x256_2_0_n_n_0_2_1256_wf
def gather_S100000x256_S3x200x1_S3x200x256_2_0_n_n_0_2_1256 : GatherDims S100000x256 S3x200x1 S3x200x256 where
  offsetDims := [2]
  collapsedSliceDims := [0]
  operandBatchingDims := []
  startIndicesBatchingDims := []
  startIndexMap := [0]
  indexVectorDim := 2
  sliceSizes := ![1, 256]
  wf := gather_S100000x256_S3x200x1_S3x200x256_2_0_n_n_0_2_1256_wf
def gather_S5x256_S3x200x1_S3x200x256_2_0_n_n_0_2_1256 : GatherDims S5x256 S3x200x1 S3x200x256 where
  offsetDims := [2]
  collapsedSliceDims := [0]
  operandBatchingDims := []
  startIndicesBatchingDims := []
  startIndexMap := [0]
  indexVectorDim := 2
  sliceSizes := ![1, 256]
  wf := gather_S5x256_S3x200x1_S3x200x256_2_0_n_n_0_2_1256_wf
def dot_S5x256_S256x5_S5x5_1_0_0_1_n_n : DotDims S5x256 S256x5 S5x5 where
  lhsContracting := [1]
  rhsContracting := [0]
  lhsNonContracting := [0]
  rhsNonContracting := [1]
  lhsBatch := []
  rhsBatch := []
  wf := dot_S5x256_S256x5_S5x5_1_0_0_1_n_n_wf
def dot_S5x5_S5x102400_S5x102400_1_0_0_1_n_n : DotDims S5x5 S5x102400 S5x102400 where
  lhsContracting := [1]
  rhsContracting := [0]
  lhsNonContracting := [0]
  rhsNonContracting := [1]
  lhsBatch := []
  rhsBatch := []
  wf := dot_S5x5_S5x102400_S5x102400_1_0_0_1_n_n_wf
def dot_S3x256_S256x3_S3x3_1_0_0_1_n_n : DotDims S3x256 S256x3 S3x3 where
  lhsContracting := [1]
  rhsContracting := [0]
  lhsNonContracting := [0]
  rhsNonContracting := [1]
  lhsBatch := []
  rhsBatch := []
  wf := dot_S3x256_S256x3_S3x3_1_0_0_1_n_n_wf
def dot_S3x3_S3x102400_S3x102400_1_0_0_1_n_n : DotDims S3x3 S3x102400 S3x102400 where
  lhsContracting := [1]
  rhsContracting := [0]
  lhsNonContracting := [0]
  rhsNonContracting := [1]
  lhsBatch := []
  rhsBatch := []
  wf := dot_S3x3_S3x102400_S3x102400_1_0_0_1_n_n_wf
def dot_S5x102400_S102400x256_S5x256_1_0_0_1_n_n : DotDims S5x102400 S102400x256 S5x256 where
  lhsContracting := [1]
  rhsContracting := [0]
  lhsNonContracting := [0]
  rhsNonContracting := [1]
  lhsBatch := []
  rhsBatch := []
  wf := dot_S5x102400_S102400x256_S5x256_1_0_0_1_n_n_wf
def dot_S3x102400_S102400x256_S3x256_1_0_0_1_n_n : DotDims S3x102400 S102400x256 S3x256 where
  lhsContracting := [1]
  rhsContracting := [0]
  lhsNonContracting := [0]
  rhsNonContracting := [1]
  lhsBatch := []
  rhsBatch := []
  wf := dot_S3x102400_S102400x256_S3x256_1_0_0_1_n_n_wf
def dot_S5x5_S5x256_S5x256_1_0_0_1_n_n : DotDims S5x5 S5x256 S5x256 where
  lhsContracting := [1]
  rhsContracting := [0]
  lhsNonContracting := [0]
  rhsNonContracting := [1]
  lhsBatch := []
  rhsBatch := []
  wf := dot_S5x5_S5x256_S5x256_1_0_0_1_n_n_wf
def dot_S3x3_S3x256_S3x256_1_0_0_1_n_n : DotDims S3x3 S3x256 S3x256 where
  lhsContracting := [1]
  rhsContracting := [0]
  lhsNonContracting := [0]
  rhsNonContracting := [1]
  lhsBatch := []
  rhsBatch := []
  wf := dot_S3x3_S3x256_S3x256_1_0_0_1_n_n_wf

class Facts : Prop extends Facts₀ where

variable [Facts]
-- ==== Proof.Kernel.Agg0.Shared.lean ====
/-
  The first aggregation kernel (five attention rows against the user weights), on its grid of 2 x 4 points:
  what every point's run is stated over. The body has two branches on the inner coordinate k: at k = 0 the
  accumulator is reset to zero before the block product is added; at k = 3 the accumulator is copied into the
  output block. Both conditions are decided over the grid in closed form; the output window is idle (neither
  stored nor written back) exactly where the copy is not taken.
-/
import proofs.«405879_j31396210934416_2_alg».proof.Proof.Gen.Kernel.Launch
import proofs.«405879_j31396210934416_2_alg».proof.Proof.Gen.Kernel.Skeleton
import proofs.«405879_j31396210934416_2_alg».proof.Proof.Gen.Kernel.Points
import Idealize.ShloMosaic.Lib.Pipeline.FrameBody
import Idealize.ShloMosaic.Lib.Tactic

set_option maxRecDepth 16384

noncomputable section

namespace Cert.Kernel.Agg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions -/

/-- The reset branch is taken: the inner coordinate is 0 (the body's scalar chain, as the program spells it). -/
abbrev condFirst (i : grid0.Coords) : Prop :=
  (Scalar.cmpi .ne (Scalar.extui (Scalar.cmpi .eq (BitVec.ofNat 32 (i 1).val) 0#32)) 0#32) = 1#1
/-- It is taken at the points 0 and 4: the first of each group of four. -/
theorem condFirst_iff : ∀ t : Fin cfg0.N, condFirst (grid0.coords t) ↔ t.val % 4 = 0 :=
  (by decide +kernel : ∀ t : Fin grid0.N, condFirst (grid0.coords t) ↔ t.val % 4 = 0)

/-- The copy-out branch is taken: the inner coordinate is 3. -/
abbrev condLast (i : grid0.Coords) : Prop := k0_cond2 i = 1#1
/-- It is taken at the points 3 and 7: the last of each group of four. -/
theorem condLast_iff : ∀ t : Fin cfg0.N, condLast (grid0.coords t) ↔ t.val % 4 = 3 :=
  (by decide +kernel : ∀ t : Fin grid0.N, condLast (grid0.coords t) ↔ t.val % 4 = 3)

/-! ## Where the windows are live -/

theorem live_rows : ∀ t : Fin cfg0.N, cfg0.idle 0 (grid0.coords t) = false := by decide +kernel
theorem live_weights : ∀ t : Fin cfg0.N, cfg0.idle 1 (grid0.coords t) = false := by decide +kernel
/-- Where the copy is not taken the output window is idle, -/
theorem idle_out : ∀ t : Fin cfg0.N, ¬condLast (grid0.coords t) → cfg0.idle 2 (grid0.coords t) = true := by decide +kernel
/-- and its block is not written back there. -/
theorem noFlush_out : ∀ t : Fin cfg0.N, ¬condLast (grid0.coords t) → (cfg0.win 2).flush t = false := by decide +kernel
/-- Where the copy is taken it is live. -/
theorem live_out : ∀ t : Fin cfg0.N, condLast (grid0.coords t) → cfg0.idle 2 (grid0.coords t) = false := by decide +kernel

/-! ## The memrefs a point's body is called with -/

abbrev msRows (t : Fin cfg0.N) : Memref sig .tc .vmem S5x12800 .f32 := win0_0.stage (cfg0.slots t 0)
abbrev hsRows (t : Fin cfg0.N) : (msRows t).IsWhole := hstage0_0 ((cfg0.slots t 0).cast nbuf0_0)
abbrev msWeights (t : Fin cfg0.N) : Memref sig .tc .vmem S12800x256 .f32 := win0_1.stage (cfg0.slots t 1)
abbrev hsWeights (t : Fin cfg0.N) : (msWeights t).IsWhole := hstage0_1 ((cfg0.slots t 1).cast nbuf0_1)
abbrev msOut (t : Fin cfg0.N) : Memref sig .tc .vmem S1x5x256 .f32 := win0_2.stage (cfg0.slots t 2)
abbrev hsOut (t : Fin cfg0.N) : (msOut t).IsWhole := hstage0_2 ((cfg0.slots t 2).cast nbuf0_2)
/-- The accumulator: a whole scoped buffer of the kernel's own, carried from point to point. -/
abbrev acc : Memref sig .tc .vmem S5x256 .f32 := Memref.whole cc0_scratch0

/-- The other kernel's scoped buffers (its six staging buffers and its accumulator), each whole at some contents:
    they ride through this kernel's points untouched. -/
abbrev others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- The launch's invariant: the accumulator as a memref owned at some contents, the other kernel's scoped
    buffers, the generator register at some state. -/
theorem PhiA_eq (c : Dev nD) :
    (Pipeline.ΦA spec0 c : sProp 𝕄)
      = iprop(iprop((∃ d, owns (c : Thread nD τ) acc fullShare d) ∗ others c) ∗ (∃ r, prngReg c r)) := by
  unfold Pipeline.ΦA; rw [scopedRest0_eq]; simp only [acc, owns_whole]; try rfl

theorem PhiA_open (c : Dev nD) :
    (Pipeline.ΦA spec0 c : sProp 𝕄)
      ⊢ iprop((∃ d, owns (c : Thread nD τ) acc fullShare d) ∗ others c ∗ (∃ r, prngReg c r)) := by
  rw [PhiA_eq]
  iintro ⟨⟨Ha, Ho⟩, Hg⟩
  isplitl [Ha]; · iexact Ha
  isplitl [Ho]; · iexact Ho
  iexact Hg

theorem PhiA_close (c : Dev nD) :
    iprop((∃ d, owns (c : Thread nD τ) acc fullShare d) ∗ others c ∗ (∃ r, prngReg c r))
      ⊢ (Pipeline.ΦA spec0 c : sProp 𝕄) := by
  rw [PhiA_eq]
  iintro ⟨Ha, Ho, Hg⟩
  isplitl [Ha Ho]
  · isplitl [Ha]; · iexact Ha
    iexact Ho
  iexact Hg

end Cert.Kernel.Agg0

end
-- ==== Proof.Kernel.Agg0.RunFirst.lean ====
/-
  The body at the first point of a group of four (inner coordinate 0): the accumulator, at anything, is reset and the
  product of the two staged blocks is added to it; the output block is not touched. What the stores leave in the
  accumulator is returned as the list of pieces the symbolic run finds.
-/
import proofs.«405879_j31396210934416_2_alg».proof.Proof.Kernel.Agg0.Shared

set_option maxRecDepth 16384

noncomputable section

namespace Cert.Kernel.Agg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runFirst (c : Dev nD) (i : grid0.Coords) (arg2 : Memref sig .tc .vmem S5x12800 .f32) (harg2 : arg2.IsWhole) (arg3 : Memref sig .tc .vmem S12800x256 .f32) (harg3 : arg3.IsWhole) (arg4 : Memref sig .tc .vmem S1x5x256 .f32) (harg4 : arg4.IsWhole) (arg5 : Memref sig .tc .vmem S5x256 .f32) (harg5 : arg5.IsWhole) (hc1 : condFirst i) (hc2 : ¬condLast i)
    (x0 : Vec F S5x12800 .f32) (x1 : Vec F S12800x256 .f32) :
    { LS : List (View.Piece (Elt F) S5x256 .f32) //
      ∀ (xo : Vec F S1x5x256 .f32) (E : Set ℕ) (K : PUnit → sProp 𝕄),
        iprop(owns (c : Thread nD τ) arg2 fullShare x0 ∗ owns (c : Thread nD τ) arg3 fullShare x1 ∗ owns (c : Thread nD τ) arg4 fullShare xo ∗ (∃ d, owns (c : Thread nD τ) arg5 fullShare d)
            ∗ (iprop(owns (c : Thread nD τ) arg2 fullShare x0 ∗ owns (c : Thread nD τ) arg3 fullShare x1 ∗ owns (c : Thread nD τ) arg4 fullShare xo ∗ (∃ f, arg5.view.loc (c : Thread nD τ) ↦[arg5.view.set]{fullShare} arg5.view.writes (Elt F) f LS)) -∗ K ⟨⟩))
          ⊢ wp frame (wpE (defs₀ (F := F)) Variants.none c none) E (cc0__agg_kernel i arg2 harg2 arg3 harg3 arg4 harg4 arg5 harg5) K } := by
  refine ⟨?_, fun xo E K => ?run⟩
  case run =>
    simp only [cc0__agg_kernel_eq_skeleton]; unfold cc0__agg_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.Kernel.Agg0

end
-- ==== Proof.Kernel.Agg0.RunMid.lean ====
/-
  The body at a middle point of a group of four (inner coordinate 1 or 2): the product of the two staged blocks is
  added to the accumulator, which holds what the point before left; the output block is not touched.
-/
import proofs.«405879_j31396210934416_2_alg».proof.Proof.Kernel.Agg0.Shared

set_option maxRecDepth 16384

noncomputable section

namespace Cert.Kernel.Agg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runMid (c : Dev nD) (i : grid0.Coords) (arg2 : Memref sig .tc .vmem S5x12800 .f32) (harg2 : arg2.IsWhole) (arg3 : Memref sig .tc .vmem S12800x256 .f32) (harg3 : arg3.IsWhole) (arg4 : Memref sig .tc .vmem S1x5x256 .f32) (harg4 : arg4.IsWhole) (arg5 : Memref sig .tc .vmem S5x256 .f32) (harg5 : arg5.IsWhole) (hc1 : ¬condFirst i) (hc2 : ¬condLast i)
    (x0 : Vec F S5x12800 .f32) (x1 : Vec F S12800x256 .f32) (xs : Vec F S5x256 .f32) :
    { LS : List (View.Piece (Elt F) S5x256 .f32) //
      ∀ (xo : Vec F S1x5x256 .f32) (E : Set ℕ) (K : PUnit → sProp 𝕄),
        iprop(owns (c : Thread nD τ) arg2 fullShare x0 ∗ owns (c : Thread nD τ) arg3 fullShare x1 ∗ owns (c : Thread nD τ) arg4 fullShare xo ∗ owns (c : Thread nD τ) arg5 fullShare xs
            ∗ (iprop(owns (c : Thread nD τ) arg2 fullShare x0 ∗ owns (c : Thread nD τ) arg3 fullShare x1 ∗ owns (c : Thread nD τ) arg4 fullShare xo ∗ (∃ f, arg5.view.loc (c : Thread nD τ) ↦[arg5.view.set]{fullShare} arg5.view.writes (Elt F) f LS)) -∗ K ⟨⟩))
          ⊢ wp frame (wpE (defs₀ (F := F)) Variants.none c none) E (cc0__agg_kernel i arg2 harg2 arg3 harg3 arg4 harg4 arg5 harg5) K } := by
  refine ⟨?_, fun xo E K => ?run⟩
  case run =>
    simp only [cc0__agg_kernel_eq_skeleton]; unfold cc0__agg_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.Kernel.Agg0

end
-- ==== Proof.Kernel.Agg0.RunLast.lean ====
/-
  The body at the last point of a group of four (inner coordinate 3): the product of the two staged blocks is added to
  the accumulator, which holds what the point before left, and the accumulator is then copied, reshaped, into the
  output block, whose buffer held anything.
-/
import proofs.«405879_j31396210934416_2_alg».proof.Proof.Kernel.Agg0.Shared

set_option maxRecDepth 16384

noncomputable section

namespace Cert.Kernel.Agg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runLast (c : Dev nD) (i : grid0.Coords) (arg2 : Memref sig .tc .vmem S5x12800 .f32) (harg2 : arg2.IsWhole) (arg3 : Memref sig .tc .vmem S12800x256 .f32) (harg3 : arg3.IsWhole) (arg4 : Memref sig .tc .vmem S1x5x256 .f32) (harg4 : arg4.IsWhole) (arg5 : Memref sig .tc .vmem S5x256 .f32) (harg5 : arg5.IsWhole) (hc1 : ¬condFirst i) (hc2 : condLast i)
    (x0 : Vec F S5x12800 .f32) (x1 : Vec F S12800x256 .f32) (xs : Vec F S5x256 .f32) :
    Σ' (LO : List (View.Piece (Elt F) S1x5x256 .f32)), { LS : List (View.Piece (Elt F) S5x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f LO) ∗ (∃ f, arg5.view.loc (c : Thread nD τ) ↦[arg5.view.set]{fullShare} arg5.view.writes (Elt F) f LS)) -∗ K ⟨⟩))
          ⊢ wp frame (wpE (defs₀ (F := F)) Variants.none c none) E (cc0__agg_kernel i arg2 harg2 arg3 harg3 arg4 harg4 arg5 harg5) K } := by
  refine ⟨?_, ?_, fun E K => ?run⟩
  case run =>
    simp only [cc0__agg_kernel_eq_skeleton]; unfold cc0__agg_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.Kernel.Agg0

end
-- ==== Proof.Kernel.Agg0.Data.lean ====
/-
  The first aggregation kernel's proof data. A point's body leaves, in the accumulator, what the point's case stores
  there — read back from the pieces the symbolic run found — and, at the last point of a group of four, the
  accumulator reshaped in the output block. The state after point n is defined by recursion on n: the first point of a
  group starts from a reset accumulator, every other point from what the point before left. The region's invariant
  carries the accumulator at that state from point to point, beside the other kernel's scoped buffers and the
  generator register.
-/
import proofs.«405879_j31396210934416_2_alg».proof.Proof.Kernel.Agg0.RunFirst
import proofs.«405879_j31396210934416_2_alg».proof.Proof.Kernel.Agg0.RunMid
import proofs.«405879_j31396210934416_2_alg».proof.Proof.Kernel.Agg0.RunLast
import Idealize.ShloMosaic.Lib.Ring

set_option maxRecDepth 16384

noncomputable section

namespace Cert.Kernel.Agg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- The contents of core `c`'s unscoped buffers when the region is entered.
variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The attention rows' staging buffer holds its block at every point, for any proof data over these arrays whose body
    leaves the block in place. -/
theorem before_rows_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The same for the weights' staging buffer. -/
theorem before_weights_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## What each case leaves -/

/-- The views through which the accumulator's and the output block's contents are stated. -/
abbrev accView : View sig .tc .vmem S5x256 .f32 := acc.view
abbrev outView : View sig .tc .vmem S1x5x256 .f32 := (Memref.whole cc0_stg2_0 : Memref sig .tc .vmem S1x5x256 .f32).view

/-- At a point that does not copy out, the output block's buffer is not stored and not written back: a placeholder
    nothing consults. -/
def outIdle : Vec F S1x5x256 .f32 := outView.read (Elt F) outView.junk

theorem coverAccFirst (c : Dev nD) (i : grid0.Coords) (arg2 : Memref sig .tc .vmem S5x12800 .f32) (harg2 : arg2.IsWhole) (arg3 : Memref sig .tc .vmem S12800x256 .f32) (harg3 : arg3.IsWhole) (arg4 : Memref sig .tc .vmem S1x5x256 .f32) (harg4 : arg4.IsWhole) (arg5 : Memref sig .tc .vmem S5x256 .f32) (harg5 : arg5.IsWhole) (hc1 : condFirst i) (hc2 : ¬condLast i)
    (x0 : Vec F S5x12800 .f32) (x1 : Vec F S12800x256 .f32) (y : S5x256.Idx) :
    ∃ pc ∈ (runFirst c i arg2 harg2 arg3 harg3 arg4 harg4 arg5 harg5 hc1 hc2 x0 x1).1, y ∈ pc.1.set :=
  View.cover_of_tiledL (runFirst c i arg2 harg2 arg3 harg3 arg4 harg4 arg5 harg5 hc1 hc2 x0 x1).1 S5x256.size (by sl_kernel_rfl) y
/-- The accumulator after a first point: the case's pieces read back. -/
def accAfterFirst (c : Dev nD) (i : grid0.Coords) (arg2 : Memref sig .tc .vmem S5x12800 .f32) (harg2 : arg2.IsWhole) (arg3 : Memref sig .tc .vmem S12800x256 .f32) (harg3 : arg3.IsWhole) (arg4 : Memref sig .tc .vmem S1x5x256 .f32) (harg4 : arg4.IsWhole) (arg5 : Memref sig .tc .vmem S5x256 .f32) (harg5 : arg5.IsWhole) (hc1 : condFirst i) (hc2 : ¬condLast i)
    (x0 : Vec F S5x12800 .f32) (x1 : Vec F S12800x256 .f32) : Vec F S5x256 .f32 :=
  accView.read (Elt F) (accView.writes (Elt F) accView.junk (runFirst c i arg2 harg2 arg3 harg3 arg4 harg4 arg5 harg5 hc1 hc2 x0 x1).1)

theorem coverAccMid (c : Dev nD) (i : grid0.Coords) (arg2 : Memref sig .tc .vmem S5x12800 .f32) (harg2 : arg2.IsWhole) (arg3 : Memref sig .tc .vmem S12800x256 .f32) (harg3 : arg3.IsWhole) (arg4 : Memref sig .tc .vmem S1x5x256 .f32) (harg4 : arg4.IsWhole) (arg5 : Memref sig .tc .vmem S5x256 .f32) (harg5 : arg5.IsWhole) (hc1 : ¬condFirst i) (hc2 : ¬condLast i)
    (x0 : Vec F S5x12800 .f32) (x1 : Vec F S12800x256 .f32) (xs : Vec F S5x256 .f32) (y : S5x256.Idx) :
    ∃ pc ∈ (runMid c i arg2 harg2 arg3 harg3 arg4 harg4 arg5 harg5 hc1 hc2 x0 x1 xs).1, y ∈ pc.1.set :=
  View.cover_of_tiledL (runMid c i arg2 harg2 arg3 harg3 arg4 harg4 arg5 harg5 hc1 hc2 x0 x1 xs).1 S5x256.size (by sl_kernel_rfl) y
/-- The accumulator after a middle point, over what the point before left. -/
def accAfterMid (c : Dev nD) (i : grid0.Coords) (arg2 : Memref sig .tc .vmem S5x12800 .f32) (harg2 : arg2.IsWhole) (arg3 : Memref sig .tc .vmem S12800x256 .f32) (harg3 : arg3.IsWhole) (arg4 : Memref sig .tc .vmem S1x5x256 .f32) (harg4 : arg4.IsWhole) (arg5 : Memref sig .tc .vmem S5x256 .f32) (harg5 : arg5.IsWhole) (hc1 : ¬condFirst i) (hc2 : ¬condLast i)
    (x0 : Vec F S5x12800 .f32) (x1 : Vec F S12800x256 .f32) (xs : Vec F S5x256 .f32) : Vec F S5x256 .f32 :=
  accView.read (Elt F) (accView.writes (Elt F) accView.junk (runMid c i arg2 harg2 arg3 harg3 arg4 harg4 arg5 harg5 hc1 hc2 x0 x1 xs).1)

theorem coverAccLast (c : Dev nD) (i : grid0.Coords) (arg2 : Memref sig .tc .vmem S5x12800 .f32) (harg2 : arg2.IsWhole) (arg3 : Memref sig .tc .vmem S12800x256 .f32) (harg3 : arg3.IsWhole) (arg4 : Memref sig .tc .vmem S1x5x256 .f32) (harg4 : arg4.IsWhole) (arg5 : Memref sig .tc .vmem S5x256 .f32) (harg5 : arg5.IsWhole) (hc1 : ¬condFirst i) (hc2 : condLast i)
    (x0 : Vec F S5x12800 .f32) (x1 : Vec F S12800x256 .f32) (xs : Vec F S5x256 .f32) (y : S5x256.Idx) :
    ∃ pc ∈ (runLast c i arg2 harg2 arg3 harg3 arg4 harg4 arg5 harg5 hc1 hc2 x0 x1 xs).2.1, y ∈ pc.1.set :=
  View.cover_of_tiledL (runLast c i arg2 harg2 arg3 harg3 arg4 harg4 arg5 harg5 hc1 hc2 x0 x1 xs).2.1 S5x256.size (by sl_kernel_rfl) y
/-- The accumulator after a last point, over what the point before left. -/
def accAfterLast (c : Dev nD) (i : grid0.Coords) (arg2 : Memref sig .tc .vmem S5x12800 .f32) (harg2 : arg2.IsWhole) (arg3 : Memref sig .tc .vmem S12800x256 .f32) (harg3 : arg3.IsWhole) (arg4 : Memref sig .tc .vmem S1x5x256 .f32) (harg4 : arg4.IsWhole) (arg5 : Memref sig .tc .vmem S5x256 .f32) (harg5 : arg5.IsWhole) (hc1 : ¬condFirst i) (hc2 : condLast i)
    (x0 : Vec F S5x12800 .f32) (x1 : Vec F S12800x256 .f32) (xs : Vec F S5x256 .f32) : Vec F S5x256 .f32 :=
  accView.read (Elt F) (accView.writes (Elt F) accView.junk (runLast c i arg2 harg2 arg3 harg3 arg4 harg4 arg5 harg5 hc1 hc2 x0 x1 xs).2.1)

theorem coverOutLast (c : Dev nD) (i : grid0.Coords) (arg2 : Memref sig .tc .vmem S5x12800 .f32) (harg2 : arg2.IsWhole) (arg3 : Memref sig .tc .vmem S12800x256 .f32) (harg3 : arg3.IsWhole) (arg4 : Memref sig .tc .vmem S1x5x256 .f32) (harg4 : arg4.IsWhole) (arg5 : Memref sig .tc .vmem S5x256 .f32) (harg5 : arg5.IsWhole) (hc1 : ¬condFirst i) (hc2 : condLast i)
    (x0 : Vec F S5x12800 .f32) (x1 : Vec F S12800x256 .f32) (xs : Vec F S5x256 .f32) (y : S1x5x256.Idx) :
    ∃ pc ∈ (runLast c i arg2 harg2 arg3 harg3 arg4 harg4 arg5 harg5 hc1 hc2 x0 x1 xs).1, y ∈ pc.1.set :=
  View.cover_of_tiledL (runLast c i arg2 harg2 arg3 harg3 arg4 harg4 arg5 harg5 hc1 hc2 x0 x1 xs).1 S1x5x256.size (by sl_kernel_rfl) y
/-- The output block after a last point. -/
def outAfterLast (c : Dev nD) (i : grid0.Coords) (arg2 : Memref sig .tc .vmem S5x12800 .f32) (harg2 : arg2.IsWhole) (arg3 : Memref sig .tc .vmem S12800x256 .f32) (harg3 : arg3.IsWhole) (arg4 : Memref sig .tc .vmem S1x5x256 .f32) (harg4 : arg4.IsWhole) (arg5 : Memref sig .tc .vmem S5x256 .f32) (harg5 : arg5.IsWhole) (hc1 : ¬condFirst i) (hc2 : condLast i)
    (x0 : Vec F S5x12800 .f32) (x1 : Vec F S12800x256 .f32) (xs : Vec F S5x256 .f32) : Vec F S1x5x256 .f32 :=
  outView.read (Elt F) (outView.writes (Elt F) outView.junk (runLast c i arg2 harg2 arg3 harg3 arg4 harg4 arg5 harg5 hc1 hc2 x0 x1 xs).1)

/-! ## The state after each point -/

theorem notLast_of_first (t : Fin cfg0.N) (h0 : t.val % 4 = 0) : ¬condLast (grid0.coords t) :=
  fun h => by have := (condLast_iff t).mp h; omega
theorem notFirst_of (t : Fin cfg0.N) (h0 : ¬t.val % 4 = 0) : ¬condFirst (grid0.coords t) :=
  fun h => h0 ((condFirst_iff t).mp h)
theorem notLast_of (t : Fin cfg0.N) (h3 : ¬t.val % 4 = 3) : ¬condLast (grid0.coords t) :=
  fun h => h3 ((condLast_iff t).mp h)

/-- What the output block's buffer and the accumulator hold after the body at point `n`. -/
def pointState (c : Dev nD) : (n : ℕ) → n < cfg0.N → Vec F S1x5x256 .f32 × Vec F S5x256 .f32
  | 0, hn => (outIdle, accAfterFirst c (grid0.coords ⟨0, hn⟩) (msRows ⟨0, hn⟩) (hsRows ⟨0, hn⟩) (msWeights ⟨0, hn⟩) (hsWeights ⟨0, hn⟩) (msOut ⟨0, hn⟩) (hsOut ⟨0, hn⟩) acc (Memref.isWhole_whole _) ((condFirst_iff ⟨0, hn⟩).mpr (Nat.zero_mod _)) (notLast_of_first ⟨0, hn⟩ (Nat.zero_mod _)) (iblk V c 0 ⟨0, hn⟩) (iblk V c 1 ⟨0, hn⟩))
  | n + 1, hn =>
    if h0 : (n + 1) % 4 = 0 then
      (outIdle, accAfterFirst c (grid0.coords ⟨n + 1, hn⟩) (msRows ⟨n + 1, hn⟩) (hsRows ⟨n + 1, hn⟩) (msWeights ⟨n + 1, hn⟩) (hsWeights ⟨n + 1, hn⟩) (msOut ⟨n + 1, hn⟩) (hsOut ⟨n + 1, hn⟩) acc (Memref.isWhole_whole _) ((condFirst_iff ⟨n + 1, hn⟩).mpr h0) (notLast_of_first ⟨n + 1, hn⟩ h0) (iblk V c 0 ⟨n + 1, hn⟩) (iblk V c 1 ⟨n + 1, hn⟩))
    else if h3 : (n + 1) % 4 = 3 then
      (outAfterLast c (grid0.coords ⟨n + 1, hn⟩) (msRows ⟨n + 1, hn⟩) (hsRows ⟨n + 1, hn⟩) (msWeights ⟨n + 1, hn⟩) (hsWeights ⟨n + 1, hn⟩) (msOut ⟨n + 1, hn⟩) (hsOut ⟨n + 1, hn⟩) acc (Memref.isWhole_whole _) (notFirst_of ⟨n + 1, hn⟩ h0) ((condLast_iff ⟨n + 1, hn⟩).mpr h3) (iblk V c 0 ⟨n + 1, hn⟩) (iblk V c 1 ⟨n + 1, hn⟩) (pointState c n (Nat.lt_of_succ_lt hn)).2,
       accAfterLast c (grid0.coords ⟨n + 1, hn⟩) (msRows ⟨n + 1, hn⟩) (hsRows ⟨n + 1, hn⟩) (msWeights ⟨n + 1, hn⟩) (hsWeights ⟨n + 1, hn⟩) (msOut ⟨n + 1, hn⟩) (hsOut ⟨n + 1, hn⟩) acc (Memref.isWhole_whole _) (notFirst_of ⟨n + 1, hn⟩ h0) ((condLast_iff ⟨n + 1, hn⟩).mpr h3) (iblk V c 0 ⟨n + 1, hn⟩) (iblk V c 1 ⟨n + 1, hn⟩) (pointState c n (Nat.lt_of_succ_lt hn)).2)
    else
      (outIdle, accAfterMid c (grid0.coords ⟨n + 1, hn⟩) (msRows ⟨n + 1, hn⟩) (hsRows ⟨n + 1, hn⟩) (msWeights ⟨n + 1, hn⟩) (hsWeights ⟨n + 1, hn⟩) (msOut ⟨n + 1, hn⟩) (hsOut ⟨n + 1, hn⟩) acc (Memref.isWhole_whole _) (notFirst_of ⟨n + 1, hn⟩ h0) (notLast_of ⟨n + 1, hn⟩ h3) (iblk V c 0 ⟨n + 1, hn⟩) (iblk V c 1 ⟨n + 1, hn⟩) (pointState c n (Nat.lt_of_succ_lt hn)).2)

theorem pointState_first (c : Dev nD) (t : Fin cfg0.N) (h0 : t.val % 4 = 0) :
    pointState V c t.val t.isLt = (outIdle, accAfterFirst c (grid0.coords t) (msRows t) (hsRows t) (msWeights t) (hsWeights t) (msOut t) (hsOut t) acc (Memref.isWhole_whole _) ((condFirst_iff t).mpr h0) (notLast_of_first t h0) (iblk V c 0 t) (iblk V c 1 t)) := by
  obtain ⟨n, hn⟩ := t
  cases n with
  | zero => exact rfl
  | succ n => exact (dif_pos h0).trans rfl

theorem pointState_last (c : Dev nD) (t : Fin cfg0.N) (h0 : ¬t.val % 4 = 0) (h3 : t.val % 4 = 3) :
    pointState V c t.val t.isLt
      = (outAfterLast c (grid0.coords t) (msRows t) (hsRows t) (msWeights t) (hsWeights t) (msOut t) (hsOut t) acc (Memref.isWhole_whole _) (notFirst_of t h0) ((condLast_iff t).mpr h3) (iblk V c 0 t) (iblk V c 1 t) (pointState V c (t.val - 1) (Nat.lt_of_le_of_lt (Nat.sub_le _ _) t.isLt)).2,
         accAfterLast c (grid0.coords t) (msRows t) (hsRows t) (msWeights t) (hsWeights t) (msOut t) (hsOut t) acc (Memref.isWhole_whole _) (notFirst_of t h0) ((condLast_iff t).mpr h3) (iblk V c 0 t) (iblk V c 1 t) (pointState V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h3).trans rfl)

theorem pointState_mid (c : Dev nD) (t : Fin cfg0.N) (h0 : ¬t.val % 4 = 0) (h3 : ¬t.val % 4 = 3) :
    pointState V c t.val t.isLt
      = (outIdle, accAfterMid c (grid0.coords t) (msRows t) (hsRows t) (msWeights t) (hsWeights t) (msOut t) (hsOut t) acc (Memref.isWhole_whole _) (notFirst_of t h0) (notLast_of t h3) (iblk V c 0 t) (iblk V c 1 t) (pointState V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h3).trans rfl)

/-! ## The invariant carried from point to point -/

/-- Before the first point the launch's invariant; after point `n` the accumulator at that point's state, the other
    kernel's scoped buffers, the generator register at some state. -/
def carried (c : Dev nD) : (n : ℕ) → n ≤ cfg0.N → sProp 𝕄
  | 0, _ => Pipeline.ΦA spec0 c
  | n + 1, hn => iprop(owns (c : Thread nD τ) acc fullShare ((pointState V c n hn).2) ∗ others c ∗ (∃ r, prngReg c r))

theorem carried_zero (c : Dev nD) (n : ℕ) (h : n ≤ cfg0.N) (hz : n = 0) : carried V c n h = Pipeline.ΦA spec0 c := by
  subst hz; rfl
theorem carried_succ (c : Dev nD) (n : ℕ) (hn : n < cfg0.N) :
    carried V c (n + 1) hn = iprop(owns (c : Thread nD τ) acc fullShare ((pointState V c n hn).2) ∗ others c ∗ (∃ r, prngReg c r)) := rfl
theorem carried_pos (c : Dev nD) (n : ℕ) (h : n ≤ cfg0.N) (hz : n ≠ 0) :
    carried V c n h = iprop(owns (c : Thread nD τ) acc fullShare ((pointState V c (n - 1) (by omega)).2) ∗ others c ∗ (∃ r, prngReg c r)) := by
  cases n with
  | zero => exact absurd rfl hz
  | succ n => rfl

/-! ## The proof data -/

/-- The arrays as the region finds them; after the body at point `t` each input's buffer at its block and the output
    block's at the state's first component; the invariant `carried`; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => (pointState V c t.val t.isLt).1
  Φ t := carried V c t.val (Nat.le_of_lt_succ t.isLt)
  q _ := fullShare
  owed _ := 0

theorem A_eq (c : Dev nD) (w : Fin cfg0.W) : (dat V c).A w = V c (Pipeline.arrRef spec0 w) := by
  dsimp only [dat]
theorem carried_castSucc (c : Dev nD) (t : Fin cfg0.N) :
    (dat V c).Φ t.castSucc = carried V c t.val (Nat.le_of_lt t.isLt) := by
  dsimp only [dat]; simp only [Fin.coe_castSucc]
theorem after_rows (c : Dev nD) (t : Fin cfg0.N) : (dat V c).after 0 t = iblk V c 0 t := by dsimp only [dat]
theorem after_weights (c : Dev nD) (t : Fin cfg0.N) : (dat V c).after 1 t = iblk V c 1 t := by dsimp only [dat]
theorem after_out (c : Dev nD) (t : Fin cfg0.N) : (dat V c).after 2 t = (pointState V c t.val t.isLt).1 := by dsimp only [dat]
theorem before_rows (c : Dev nD) (t : Fin cfg0.N) (d) : (dat V c).before 0 t d = iblk V c 0 t :=
  before_rows_of V (dat V c) (A_eq V c 0) (after_rows V c) t d
theorem before_weights (c : Dev nD) (t : Fin cfg0.N) (d) : (dat V c).before 1 t d = iblk V c 1 t :=
  before_weights_of V (dat V c) (A_eq V c 1) (after_weights V c) t d

end Cert.Kernel.Agg0

end
-- ==== Proof.Kernel.Agg0.Body.lean ====
/-
  The first aggregation kernel's body obligation: at every point of the grid, from the invariant carried so far and the
  three windows' staging buffers, the body runs and returns the invariant at the point's state and each window's
  buffer as the proof data says. The point's case is read off the closed forms of the two branch conditions.
-/
import proofs.«405879_j31396210934416_2_alg».proof.Proof.Kernel.Agg0.Data

set_option maxRecDepth 16384

noncomputable section

namespace Cert.Kernel.Agg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (msRows t) fullShare ((dat V c).before 0 t d))
    ∗ (∃ d, owns (c : Thread nD τ) (msWeights t) fullShare ((dat V c).before 1 t d))
    ∗ (∃ d, owns (c : Thread nD τ) (msOut t) fullShare ((dat V c).before 2 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_rows, before_weights]
  rw [show (dat V c).owesAt () t.succ = (dat V c).owesAt () t.castSucc from rfl]
  rw [show (dat V c).Φ t.succ = carried V c (t.val + 1) t.isLt from rfl, carried_succ]
  rw [show (dat V c).leavesExact 0 t = owns (c : Thread nD τ) (msRows t) fullShare ((dat V c).after 0 t) from by
    unfold Dat.leavesExact; rw [live_rows t], after_rows]
  rw [show (dat V c).leavesExact 1 t = owns (c : Thread nD τ) (msWeights t) fullShare ((dat V c).after 1 t) from by
    unfold Dat.leavesExact; rw [live_weights t], after_weights]
  by_cases h0 : t.val % 4 = 0
  · -- the first point of a group: reset, then accumulate
    rw [Dat.leavesExact_idle (dat V c) 2 t (idle_out t (notLast_of_first t h0)) (noFlush_out t (notLast_of_first t h0))]
    rw [pointState_first V c t h0]
    unfold accAfterFirst; (try dsimp only)
    by_cases hz : t.val = 0
    · rw [carried_castSucc V c t, carried_zero V c _ _ hz]
      iintro ⟨HΦ, Ho, ⟨%d0, H0⟩, ⟨%d1, H1⟩, ⟨%d2, H2⟩⟩
      ihave HΦ' := (PhiA_open (F := F) c) $$ HΦ
      icases HΦ' with ⟨HS, Hoth, Hg⟩
      iapply ((runFirst c (grid0.coords t) _ _ _ _ _ _ _ _ ((condFirst_iff t).mpr h0) (notLast_of_first t h0) (iblk V c 0 t) (iblk V c 1 t)).2 _ Set.univ _)
      isplitl [H0]; · iexact H0
      isplitl [H1]; · iexact H1
      isplitl [H2]; · iexact H2
      isplitl [HS]; · iexact HS
      iintro ⟨H0, H1, H2, ⟨%es, HS⟩⟩
      isplitl [HS Hoth Hg]
      · isplitl [HS]
        · unfold owns; iexists _; isplitr
          swap; · iexact HS
          ipureintro; exact View.read_writes_of_cover _ _ _ _ _ (coverAccFirst c _ _ _ _ _ _ _ _ _ _ _ _ _)
        isplitl [Hoth]; · iexact Hoth
        iexact Hg
      isplitl [Ho]; · iexact Ho
      isplitl [H0]; · iexact H0
      isplitl [H1]; · iexact H1
      iexists _; iexact H2
    · rw [carried_castSucc V c t, carried_pos V c _ _ hz]
      iintro ⟨⟨HS, Hoth, Hg⟩, Ho, ⟨%d0, H0⟩, ⟨%d1, H1⟩, ⟨%d2, H2⟩⟩
      iapply ((runFirst c (grid0.coords t) _ _ _ _ _ _ _ _ ((condFirst_iff t).mpr h0) (notLast_of_first t h0) (iblk V c 0 t) (iblk V c 1 t)).2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS Hoth Hg]
      · isplitl [HS]
        · unfold owns; iexists _; isplitr
          swap; · iexact HS
          ipureintro; exact View.read_writes_of_cover _ _ _ _ _ (coverAccFirst c _ _ _ _ _ _ _ _ _ _ _ _ _)
        isplitl [Hoth]; · iexact Hoth
        iexact Hg
      isplitl [Ho]; · iexact Ho
      isplitl [H0]; · iexact H0
      isplitl [H1]; · iexact H1
      iexists _; iexact H2
  · have hz : t.val ≠ 0 := fun h => h0 (by rw [h])
    by_cases h3 : t.val % 4 = 3
    · -- the last point of a group: accumulate, then copy out
      rw [show (dat V c).leavesExact 2 t = owns (c : Thread nD τ) (msOut t) fullShare ((dat V c).after 2 t) from by
        unfold Dat.leavesExact; rw [live_out t ((condLast_iff t).mpr h3)], after_out]
      rw [pointState_last V c t h0 h3]
      unfold outAfterLast accAfterLast; (try dsimp only)
      rw [carried_castSucc V c t, carried_pos V c _ _ hz]
      iintro ⟨⟨HS, Hoth, Hg⟩, Ho, ⟨%d0, H0⟩, ⟨%d1, H1⟩, ⟨%d2, H2⟩⟩
      iapply ((runLast c (grid0.coords t) _ _ _ _ _ _ _ _ (notFirst_of t h0) ((condLast_iff t).mpr h3) (iblk V c 0 t) (iblk V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hoth Hg]
      · isplitl [HS]
        · unfold owns; iexists _; isplitr
          swap; · iexact HS
          ipureintro; exact View.read_writes_of_cover _ _ _ _ _ (coverAccLast c _ _ _ _ _ _ _ _ _ _ _ _ _ _)
        isplitl [Hoth]; · iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (coverOutLast c _ _ _ _ _ _ _ _ _ _ _ _ _ _)
    · -- a middle point: accumulate only
      rw [Dat.leavesExact_idle (dat V c) 2 t (idle_out t (notLast_of t h3)) (noFlush_out t (notLast_of t h3))]
      rw [pointState_mid V c t h0 h3]
      unfold accAfterMid; (try dsimp only)
      rw [carried_castSucc V c t, carried_pos V c _ _ hz]
      iintro ⟨⟨HS, Hoth, Hg⟩, Ho, ⟨%d0, H0⟩, ⟨%d1, H1⟩, ⟨%d2, H2⟩⟩
      iapply ((runMid c (grid0.coords t) _ _ _ _ _ _ _ _ (notFirst_of t h0) (notLast_of t h3) (iblk V c 0 t) (iblk V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS Hoth Hg]
      · isplitl [HS]
        · unfold owns; iexists _; isplitr
          swap; · iexact HS
          ipureintro; exact View.read_writes_of_cover _ _ _ _ _ (coverAccMid c _ _ _ _ _ _ _ _ _ _ _ _ _ _)
        isplitl [Hoth]; · iexact Hoth
        iexact Hg
      isplitl [Ho]; · iexact Ho
      isplitl [H0]; · iexact H0
      isplitl [H1]; · iexact H1
      iexists _; iexact H2

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = carried V c 0 (Nat.zero_le _) from rfl, carried_zero V c 0 _ rfl]
  try exact Idealize.SL.BI.Entails.refl _

/-- After any point the invariant gives the launch's back: the accumulator's contents are forgotten. -/
theorem Phi_out (c : Dev nD) (t : Fin (cfg0.N + 1)) (ht : t.val ≠ 0) : (dat V c).Φ t ⊢ Pipeline.ΦA spec0 c := by
  rw [show (dat V c).Φ t = carried V c t.val (Nat.le_of_lt_succ t.isLt) from rfl, carried_pos V c _ _ ht]
  iintro ⟨HS, Hoth, Hg⟩
  iapply (PhiA_close (F := F) c)
  isplitl [HS]; · iexists _; iexact HS
  isplitl [Hoth]; · iexact Hoth
  iexact Hg

theorem hout (c : Dev nD) : (dat V c).Φ (Fin.last cfg0.N) ⊢ Pipeline.ΦA spec0 c :=
  Phi_out V c _ (by rw [Fin.val_last]; have : cfg0.N = 8 := N_0; omega)

end Cert.Kernel.Agg0

end
-- ==== Proof.Kernel.Agg1.Shared.lean ====
/-
  The second aggregation kernel (three attention rows against the item weights), on its grid of 2 x 4 points:
  what every point's run is stated over. The body has two branches on the inner coordinate k: at k = 0 the
  accumulator is reset to zero before the block product is added; at k = 3 the accumulator is copied into the
  output block. Both conditions are decided over the grid in closed form; the output window is idle (neither
  stored nor written back) exactly where the copy is not taken.
-/
import proofs.«405879_j31396210934416_2_alg».proof.Proof.Gen.Kernel.Launch
import proofs.«405879_j31396210934416_2_alg».proof.Proof.Gen.Kernel.Skeleton
import proofs.«405879_j31396210934416_2_alg».proof.Proof.Gen.Kernel.Points
import Idealize.ShloMosaic.Lib.Pipeline.FrameBody
import Idealize.ShloMosaic.Lib.Tactic

set_option maxRecDepth 16384

noncomputable section

namespace Cert.Kernel.Agg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions -/

/-- The reset branch is taken: the inner coordinate is 0 (the body's scalar chain, as the program spells it). -/
abbrev condFirst (i : grid1.Coords) : Prop :=
  (Scalar.cmpi .ne (Scalar.extui (Scalar.cmpi .eq (BitVec.ofNat 32 (i 1).val) 0#32)) 0#32) = 1#1
/-- It is taken at the points 0 and 4: the first of each group of four. -/
theorem condFirst_iff : ∀ t : Fin cfg1.N, condFirst (grid1.coords t) ↔ t.val % 4 = 0 :=
  (by decide +kernel : ∀ t : Fin grid1.N, condFirst (grid1.coords t) ↔ t.val % 4 = 0)

/-- The copy-out branch is taken: the inner coordinate is 3. -/
abbrev condLast (i : grid1.Coords) : Prop := k1_cond2 i = 1#1
/-- It is taken at the points 3 and 7: the last of each group of four. -/
theorem condLast_iff : ∀ t : Fin cfg1.N, condLast (grid1.coords t) ↔ t.val % 4 = 3 :=
  (by decide +kernel : ∀ t : Fin grid1.N, condLast (grid1.coords t) ↔ t.val % 4 = 3)

/-! ## Where the windows are live -/

theorem live_rows : ∀ t : Fin cfg1.N, cfg1.idle 0 (grid1.coords t) = false := by decide +kernel
theorem live_weights : ∀ t : Fin cfg1.N, cfg1.idle 1 (grid1.coords t) = false := by decide +kernel
/-- Where the copy is not taken the output window is idle, -/
theorem idle_out : ∀ t : Fin cfg1.N, ¬condLast (grid1.coords t) → cfg1.idle 2 (grid1.coords t) = true := by decide +kernel
/-- and its block is not written back there. -/
theorem noFlush_out : ∀ t : Fin cfg1.N, ¬condLast (grid1.coords t) → (cfg1.win 2).flush t = false := by decide +kernel
/-- Where the copy is taken it is live. -/
theorem live_out : ∀ t : Fin cfg1.N, condLast (grid1.coords t) → cfg1.idle 2 (grid1.coords t) = false := by decide +kernel

/-! ## The memrefs a point's body is called with -/

abbrev msRows (t : Fin cfg1.N) : Memref sig .tc .vmem S3x12800 .f32 := win1_0.stage (cfg1.slots t 0)
abbrev hsRows (t : Fin cfg1.N) : (msRows t).IsWhole := hstage1_0 ((cfg1.slots t 0).cast nbuf1_0)
abbrev msWeights (t : Fin cfg1.N) : Memref sig .tc .vmem S12800x256 .f32 := win1_1.stage (cfg1.slots t 1)
abbrev hsWeights (t : Fin cfg1.N) : (msWeights t).IsWhole := hstage1_1 ((cfg1.slots t 1).cast nbuf1_1)
abbrev msOut (t : Fin cfg1.N) : Memref sig .tc .vmem S1x3x256 .f32 := win1_2.stage (cfg1.slots t 2)
abbrev hsOut (t : Fin cfg1.N) : (msOut t).IsWhole := hstage1_2 ((cfg1.slots t 2).cast nbuf1_2)
/-- The accumulator: a whole scoped buffer of the kernel's own, carried from point to point. -/
abbrev acc : Memref sig .tc .vmem S3x256 .f32 := Memref.whole cc1_scratch0

/-- The other kernel's scoped buffers (its six staging buffers and its accumulator), each whole at some contents:
    they ride through this kernel's points untouched. -/
abbrev others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f))

/-- The launch's invariant taken apart: the accumulator as a memref owned at some contents (it is the last of the
    scoped buffers no window stages), the other kernel's scoped buffers, the generator register at some state. -/
theorem PhiA_open (c : Dev nD) :
    (Pipeline.ΦA spec1 c : sProp 𝕄)
      ⊢ iprop((∃ d, owns (c : Thread nD τ) acc fullShare d) ∗ others c ∗ (∃ r, prngReg c r)) := by
  unfold Pipeline.ΦA; rw [scopedRest1_eq]; simp only [acc, owns_whole]
  iintro ⟨⟨H1, H2, H3, H4, H5, H6, H7, Ha⟩, Hg⟩
  isplitl [Ha]; · iexact Ha
  isplitl [H1 H2 H3 H4 H5 H6 H7]
  · isplitl [H1]; · iexact H1
    isplitl [H2]; · iexact H2
    isplitl [H3]; · iexact H3
    isplitl [H4]; · iexact H4
    isplitl [H5]; · iexact H5
    isplitl [H6]; · iexact H6
    iexact H7
  iexact Hg

/-- And put back together. -/
theorem PhiA_close (c : Dev nD) :
    iprop((∃ d, owns (c : Thread nD τ) acc fullShare d) ∗ others c ∗ (∃ r, prngReg c r))
      ⊢ (Pipeline.ΦA spec1 c : sProp 𝕄) := by
  unfold Pipeline.ΦA; rw [scopedRest1_eq]; simp only [acc, owns_whole]
  iintro ⟨Ha, ⟨H1, H2, H3, H4, H5, H6, H7⟩, Hg⟩
  isplitl [Ha H1 H2 H3 H4 H5 H6 H7]
  · isplitl [H1]; · iexact H1
    isplitl [H2]; · iexact H2
    isplitl [H3]; · iexact H3
    isplitl [H4]; · iexact H4
    isplitl [H5]; · iexact H5
    isplitl [H6]; · iexact H6
    isplitl [H7]; · iexact H7
    iexact Ha
  iexact Hg

end Cert.Kernel.Agg1

end
-- ==== Proof.Kernel.Agg1.RunFirst.lean ====
/-
  The body at the first point of a group of four (inner coordinate 0): the accumulator, at anything, is reset and the
  product of the two staged blocks is added to it; the output block is not touched. What the stores leave in the
  accumulator is returned as the list of pieces the symbolic run finds.
-/
import proofs.«405879_j31396210934416_2_alg».proof.Proof.Kernel.Agg1.Shared

set_option maxRecDepth 16384

noncomputable section

namespace Cert.Kernel.Agg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runFirst (c : Dev nD) (i : grid1.Coords) (arg2 : Memref sig .tc .vmem S3x12800 .f32) (harg2 : arg2.IsWhole) (arg3 : Memref sig .tc .vmem S12800x256 .f32) (harg3 : arg3.IsWhole) (arg4 : Memref sig .tc .vmem S1x3x256 .f32) (harg4 : arg4.IsWhole) (arg5 : Memref sig .tc .vmem S3x256 .f32) (harg5 : arg5.IsWhole) (hc1 : condFirst i) (hc2 : ¬condLast i)
    (x0 : Vec F S3x12800 .f32) (x1 : Vec F S12800x256 .f32) :
    { LS : List (View.Piece (Elt F) S3x256 .f32) //
      ∀ (xo : Vec F S1x3x256 .f32) (E : Set ℕ) (K : PUnit → sProp 𝕄),
        iprop(owns (c : Thread nD τ) arg2 fullShare x0 ∗ owns (c : Thread nD τ) arg3 fullShare x1 ∗ owns (c : Thread nD τ) arg4 fullShare xo ∗ (∃ d, owns (c : Thread nD τ) arg5 fullShare d)
            ∗ (iprop(owns (c : Thread nD τ) arg2 fullShare x0 ∗ owns (c : Thread nD τ) arg3 fullShare x1 ∗ owns (c : Thread nD τ) arg4 fullShare xo ∗ (∃ f, arg5.view.loc (c : Thread nD τ) ↦[arg5.view.set]{fullShare} arg5.view.writes (Elt F) f LS)) -∗ K ⟨⟩))
          ⊢ wp frame (wpE (defs₀ (F := F)) Variants.none c none) E (cc1__agg_kernel i arg2 harg2 arg3 harg3 arg4 harg4 arg5 harg5) K } := by
  refine ⟨?_, fun xo E K => ?run⟩
  case run =>
    simp only [cc1__agg_kernel_eq_skeleton]; unfold cc1__agg_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.Kernel.Agg1

end
-- ==== Proof.Kernel.Agg1.RunMid.lean ====
/-
  The body at a middle point of a group of four (inner coordinate 1 or 2): the product of the two staged blocks is
  added to the accumulator, which holds what the point before left; the output block is not touched.
-/
import proofs.«405879_j31396210934416_2_alg».proof.Proof.Kernel.Agg1.Shared

set_option maxRecDepth 16384

noncomputable section

namespace Cert.Kernel.Agg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runMid (c : Dev nD) (i : grid1.Coords) (arg2 : Memref sig .tc .vmem S3x12800 .f32) (harg2 : arg2.IsWhole) (arg3 : Memref sig .tc .vmem S12800x256 .f32) (harg3 : arg3.IsWhole) (arg4 : Memref sig .tc .vmem S1x3x256 .f32) (harg4 : arg4.IsWhole) (arg5 : Memref sig .tc .vmem S3x256 .f32) (harg5 : arg5.IsWhole) (hc1 : ¬condFirst i) (hc2 : ¬condLast i)
    (x0 : Vec F S3x12800 .f32) (x1 : Vec F S12800x256 .f32) (xs : Vec F S3x256 .f32) :
    { LS : List (View.Piece (Elt F) S3x256 .f32) //
      ∀ (xo : Vec F S1x3x256 .f32) (E : Set ℕ) (K : PUnit → sProp 𝕄),
        iprop(owns (c : Thread nD τ) arg2 fullShare x0 ∗ owns (c : Thread nD τ) arg3 fullShare x1 ∗ owns (c : Thread nD τ) arg4 fullShare xo ∗ owns (c : Thread nD τ) arg5 fullShare xs
            ∗ (iprop(owns (c : Thread nD τ) arg2 fullShare x0 ∗ owns (c : Thread nD τ) arg3 fullShare x1 ∗ owns (c : Thread nD τ) arg4 fullShare xo ∗ (∃ f, arg5.view.loc (c : Thread nD τ) ↦[arg5.view.set]{fullShare} arg5.view.writes (Elt F) f LS)) -∗ K ⟨⟩))
          ⊢ wp frame (wpE (defs₀ (F := F)) Variants.none c none) E (cc1__agg_kernel i arg2 harg2 arg3 harg3 arg4 harg4 arg5 harg5) K } := by
  refine ⟨?_, fun xo E K => ?run⟩
  case run =>
    simp only [cc1__agg_kernel_eq_skeleton]; unfold cc1__agg_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.Kernel.Agg1

end
-- ==== Proof.Kernel.Agg1.RunLast.lean ====
/-
  The body at the last point of a group of four (inner coordinate 3): the product of the two staged blocks is added to
  the accumulator, which holds what the point before left, and the accumulator is then copied, reshaped, into the
  output block, whose buffer held anything.
-/
import proofs.«405879_j31396210934416_2_alg».proof.Proof.Kernel.Agg1.Shared

set_option maxRecDepth 16384

noncomputable section

namespace Cert.Kernel.Agg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runLast (c : Dev nD) (i : grid1.Coords) (arg2 : Memref sig .tc .vmem S3x12800 .f32) (harg2 : arg2.IsWhole) (arg3 : Memref sig .tc .vmem S12800x256 .f32) (harg3 : arg3.IsWhole) (arg4 : Memref sig .tc .vmem S1x3x256 .f32) (harg4 : arg4.IsWhole) (arg5 : Memref sig .tc .vmem S3x256 .f32) (harg5 : arg5.IsWhole) (hc1 : ¬condFirst i) (hc2 : condLast i)
    (x0 : Vec F S3x12800 .f32) (x1 : Vec F S12800x256 .f32) (xs : Vec F S3x256 .f32) :
    Σ' (LO : List (View.Piece (Elt F) S1x3x256 .f32)), { LS : List (View.Piece (Elt F) S3x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f LO) ∗ (∃ f, arg5.view.loc (c : Thread nD τ) ↦[arg5.view.set]{fullShare} arg5.view.writes (Elt F) f LS)) -∗ K ⟨⟩))
          ⊢ wp frame (wpE (defs₀ (F := F)) Variants.none c none) E (cc1__agg_kernel i arg2 harg2 arg3 harg3 arg4 harg4 arg5 harg5) K } := by
  refine ⟨?_, ?_, fun E K => ?run⟩
  case run =>
    simp only [cc1__agg_kernel_eq_skeleton]; unfold cc1__agg_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.Kernel.Agg1

end
-- ==== Proof.Kernel.Agg1.Data.lean ====
/-
  The second aggregation kernel's proof data. A point's body leaves, in the accumulator, what the point's case stores
  there — read back from the pieces the symbolic run found — and, at the last point of a group of four, the
  accumulator reshaped in the output block. The state after point n is defined by recursion on n: the first point of a
  group starts from a reset accumulator, every other point from what the point before left. The region's invariant
  carries the accumulator at that state from point to point, beside the other kernel's scoped buffers and the
  generator register.
-/
import proofs.«405879_j31396210934416_2_alg».proof.Proof.Kernel.Agg1.RunFirst
import proofs.«405879_j31396210934416_2_alg».proof.Proof.Kernel.Agg1.RunMid
import proofs.«405879_j31396210934416_2_alg».proof.Proof.Kernel.Agg1.RunLast
import Idealize.ShloMosaic.Lib.Ring

set_option maxRecDepth 16384

noncomputable section

namespace Cert.Kernel.Agg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- The contents of core `c`'s unscoped buffers when the region is entered.
variable (V : (c : Dev nD) → (b : Ref sig .tc) → Buf (Elt F) ((c : Thread nD τ).loc b))

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The attention rows' staging buffer holds its block at every point, for any proof data over these arrays whose body
    leaves the block in place. -/
theorem before_rows_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The same for the weights' staging buffer. -/
theorem before_weights_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## What each case leaves -/

/-- The views through which the accumulator's and the output block's contents are stated. -/
abbrev accView : View sig .tc .vmem S3x256 .f32 := acc.view
abbrev outView : View sig .tc .vmem S1x3x256 .f32 := (Memref.whole cc1_stg2_0 : Memref sig .tc .vmem S1x3x256 .f32).view

/-- At a point that does not copy out, the output block's buffer is not stored and not written back: a placeholder
    nothing consults. -/
def outIdle : Vec F S1x3x256 .f32 := outView.read (Elt F) outView.junk

theorem coverAccFirst (c : Dev nD) (i : grid1.Coords) (arg2 : Memref sig .tc .vmem S3x12800 .f32) (harg2 : arg2.IsWhole) (arg3 : Memref sig .tc .vmem S12800x256 .f32) (harg3 : arg3.IsWhole) (arg4 : Memref sig .tc .vmem S1x3x256 .f32) (harg4 : arg4.IsWhole) (arg5 : Memref sig .tc .vmem S3x256 .f32) (harg5 : arg5.IsWhole) (hc1 : condFirst i) (hc2 : ¬condLast i)
    (x0 : Vec F S3x12800 .f32) (x1 : Vec F S12800x256 .f32) (y : S3x256.Idx) :
    ∃ pc ∈ (runFirst c i arg2 harg2 arg3 harg3 arg4 harg4 arg5 harg5 hc1 hc2 x0 x1).1, y ∈ pc.1.set :=
  View.cover_of_tiledL (runFirst c i arg2 harg2 arg3 harg3 arg4 harg4 arg5 harg5 hc1 hc2 x0 x1).1 S3x256.size (by sl_kernel_rfl) y
/-- The accumulator after a first point: the case's pieces read back. -/
def accAfterFirst (c : Dev nD) (i : grid1.Coords) (arg2 : Memref sig .tc .vmem S3x12800 .f32) (harg2 : arg2.IsWhole) (arg3 : Memref sig .tc .vmem S12800x256 .f32) (harg3 : arg3.IsWhole) (arg4 : Memref sig .tc .vmem S1x3x256 .f32) (harg4 : arg4.IsWhole) (arg5 : Memref sig .tc .vmem S3x256 .f32) (harg5 : arg5.IsWhole) (hc1 : condFirst i) (hc2 : ¬condLast i)
    (x0 : Vec F S3x12800 .f32) (x1 : Vec F S12800x256 .f32) : Vec F S3x256 .f32 :=
  accView.read (Elt F) (accView.writes (Elt F) accView.junk (runFirst c i arg2 harg2 arg3 harg3 arg4 harg4 arg5 harg5 hc1 hc2 x0 x1).1)

theorem coverAccMid (c : Dev nD) (i : grid1.Coords) (arg2 : Memref sig .tc .vmem S3x12800 .f32) (harg2 : arg2.IsWhole) (arg3 : Memref sig .tc .vmem S12800x256 .f32) (harg3 : arg3.IsWhole) (arg4 : Memref sig .tc .vmem S1x3x256 .f32) (harg4 : arg4.IsWhole) (arg5 : Memref sig .tc .vmem S3x256 .f32) (harg5 : arg5.IsWhole) (hc1 : ¬condFirst i) (hc2 : ¬condLast i)
    (x0 : Vec F S3x12800 .f32) (x1 : Vec F S12800x256 .f32) (xs : Vec F S3x256 .f32) (y : S3x256.Idx) :
    ∃ pc ∈ (runMid c i arg2 harg2 arg3 harg3 arg4 harg4 arg5 harg5 hc1 hc2 x0 x1 xs).1, y ∈ pc.1.set :=
  View.cover_of_tiledL (runMid c i arg2 harg2 arg3 harg3 arg4 harg4 arg5 harg5 hc1 hc2 x0 x1 xs).1 S3x256.size (by sl_kernel_rfl) y
/-- The accumulator after a middle point, over what the point before left. -/
def accAfterMid (c : Dev nD) (i : grid1.Coords) (arg2 : Memref sig .tc .vmem S3x12800 .f32) (harg2 : arg2.IsWhole) (arg3 : Memref sig .tc .vmem S12800x256 .f32) (harg3 : arg3.IsWhole) (arg4 : Memref sig .tc .vmem S1x3x256 .f32) (harg4 : arg4.IsWhole) (arg5 : Memref sig .tc .vmem S3x256 .f32) (harg5 : arg5.IsWhole) (hc1 : ¬condFirst i) (hc2 : ¬condLast i)
    (x0 : Vec F S3x12800 .f32) (x1 : Vec F S12800x256 .f32) (xs : Vec F S3x256 .f32) : Vec F S3x256 .f32 :=
  accView.read (Elt F) (accView.writes (Elt F) accView.junk (runMid c i arg2 harg2 arg3 harg3 arg4 harg4 arg5 harg5 hc1 hc2 x0 x1 xs).1)

theorem coverAccLast (c : Dev nD) (i : grid1.Coords) (arg2 : Memref sig .tc .vmem S3x12800 .f32) (harg2 : arg2.IsWhole) (arg3 : Memref sig .tc .vmem S12800x256 .f32) (harg3 : arg3.IsWhole) (arg4 : Memref sig .tc .vmem S1x3x256 .f32) (harg4 : arg4.IsWhole) (arg5 : Memref sig .tc .vmem S3x256 .f32) (harg5 : arg5.IsWhole) (hc1 : ¬condFirst i) (hc2 : condLast i)
    (x0 : Vec F S3x12800 .f32) (x1 : Vec F S12800x256 .f32) (xs : Vec F S3x256 .f32) (y : S3x256.Idx) :
    ∃ pc ∈ (runLast c i arg2 harg2 arg3 harg3 arg4 harg4 arg5 harg5 hc1 hc2 x0 x1 xs).2.1, y ∈ pc.1.set :=
  View.cover_of_tiledL (runLast c i arg2 harg2 arg3 harg3 arg4 harg4 arg5 harg5 hc1 hc2 x0 x1 xs).2.1 S3x256.size (by sl_kernel_rfl) y
/-- The accumulator after a last point, over what the point before left. -/
def accAfterLast (c : Dev nD) (i : grid1.Coords) (arg2 : Memref sig .tc .vmem S3x12800 .f32) (harg2 : arg2.IsWhole) (arg3 : Memref sig .tc .vmem S12800x256 .f32) (harg3 : arg3.IsWhole) (arg4 : Memref sig .tc .vmem S1x3x256 .f32) (harg4 : arg4.IsWhole) (arg5 : Memref sig .tc .vmem S3x256 .f32) (harg5 : arg5.IsWhole) (hc1 : ¬condFirst i) (hc2 : condLast i)
    (x0 : Vec F S3x12800 .f32) (x1 : Vec F S12800x256 .f32) (xs : Vec F S3x256 .f32) : Vec F S3x256 .f32 :=
  accView.read (Elt F) (accView.writes (Elt F) accView.junk (runLast c i arg2 harg2 arg3 harg3 arg4 harg4 arg5 harg5 hc1 hc2 x0 x1 xs).2.1)

theorem coverOutLast (c : Dev nD) (i : grid1.Coords) (arg2 : Memref sig .tc .vmem S3x12800 .f32) (harg2 : arg2.IsWhole) (arg3 : Memref sig .tc .vmem S12800x256 .f32) (harg3 : arg3.IsWhole) (arg4 : Memref sig .tc .vmem S1x3x256 .f32) (harg4 : arg4.IsWhole) (arg5 : Memref sig .tc .vmem S3x256 .f32) (harg5 : arg5.IsWhole) (hc1 : ¬condFirst i) (hc2 : condLast i)
    (x0 : Vec F S3x12800 .f32) (x1 : Vec F S12800x256 .f32) (xs : Vec F S3x256 .f32) (y : S1x3x256.Idx) :
    ∃ pc ∈ (runLast c i arg2 harg2 arg3 harg3 arg4 harg4 arg5 harg5 hc1 hc2 x0 x1 xs).1, y ∈ pc.1.set :=
  View.cover_of_tiledL (runLast c i arg2 harg2 arg3 harg3 arg4 harg4 arg5 harg5 hc1 hc2 x0 x1 xs).1 S1x3x256.size (by sl_kernel_rfl) y
/-- The output block after a last point. -/
def outAfterLast (c : Dev nD) (i : grid1.Coords) (arg2 : Memref sig .tc .vmem S3x12800 .f32) (harg2 : arg2.IsWhole) (arg3 : Memref sig .tc .vmem S12800x256 .f32) (harg3 : arg3.IsWhole) (arg4 : Memref sig .tc .vmem S1x3x256 .f32) (harg4 : arg4.IsWhole) (arg5 : Memref sig .tc .vmem S3x256 .f32) (harg5 : arg5.IsWhole) (hc1 : ¬condFirst i) (hc2 : condLast i)
    (x0 : Vec F S3x12800 .f32) (x1 : Vec F S12800x256 .f32) (xs : Vec F S3x256 .f32) : Vec F S1x3x256 .f32 :=
  outView.read (Elt F) (outView.writes (Elt F) outView.junk (runLast c i arg2 harg2 arg3 harg3 arg4 harg4 arg5 harg5 hc1 hc2 x0 x1 xs).1)

/-! ## The state after each point -/

theorem notLast_of_first (t : Fin cfg1.N) (h0 : t.val % 4 = 0) : ¬condLast (grid1.coords t) :=
  fun h => by have := (condLast_iff t).mp h; omega
theorem notFirst_of (t : Fin cfg1.N) (h0 : ¬t.val % 4 = 0) : ¬condFirst (grid1.coords t) :=
  fun h => h0 ((condFirst_iff t).mp h)
theorem notLast_of (t : Fin cfg1.N) (h3 : ¬t.val % 4 = 3) : ¬condLast (grid1.coords t) :=
  fun h => h3 ((condLast_iff t).mp h)

/-- What the output block's buffer and the accumulator hold after the body at point `n`. -/
def pointState (c : Dev nD) : (n : ℕ) → n < cfg1.N → Vec F S1x3x256 .f32 × Vec F S3x256 .f32
  | 0, hn => (outIdle, accAfterFirst c (grid1.coords ⟨0, hn⟩) (msRows ⟨0, hn⟩) (hsRows ⟨0, hn⟩) (msWeights ⟨0, hn⟩) (hsWeights ⟨0, hn⟩) (msOut ⟨0, hn⟩) (hsOut ⟨0, hn⟩) acc (Memref.isWhole_whole _) ((condFirst_iff ⟨0, hn⟩).mpr (Nat.zero_mod _)) (notLast_of_first ⟨0, hn⟩ (Nat.zero_mod _)) (iblk V c 0 ⟨0, hn⟩) (iblk V c 1 ⟨0, hn⟩))
  | n + 1, hn =>
    if h0 : (n + 1) % 4 = 0 then
      (outIdle, accAfterFirst c (grid1.coords ⟨n + 1, hn⟩) (msRows ⟨n + 1, hn⟩) (hsRows ⟨n + 1, hn⟩) (msWeights ⟨n + 1, hn⟩) (hsWeights ⟨n + 1, hn⟩) (msOut ⟨n + 1, hn⟩) (hsOut ⟨n + 1, hn⟩) acc (Memref.isWhole_whole _) ((condFirst_iff ⟨n + 1, hn⟩).mpr h0) (notLast_of_first ⟨n + 1, hn⟩ h0) (iblk V c 0 ⟨n + 1, hn⟩) (iblk V c 1 ⟨n + 1, hn⟩))
    else if h3 : (n + 1) % 4 = 3 then
      (outAfterLast c (grid1.coords ⟨n + 1, hn⟩) (msRows ⟨n + 1, hn⟩) (hsRows ⟨n + 1, hn⟩) (msWeights ⟨n + 1, hn⟩) (hsWeights ⟨n + 1, hn⟩) (msOut ⟨n + 1, hn⟩) (hsOut ⟨n + 1, hn⟩) acc (Memref.isWhole_whole _) (notFirst_of ⟨n + 1, hn⟩ h0) ((condLast_iff ⟨n + 1, hn⟩).mpr h3) (iblk V c 0 ⟨n + 1, hn⟩) (iblk V c 1 ⟨n + 1, hn⟩) (pointState c n (Nat.lt_of_succ_lt hn)).2,
       accAfterLast c (grid1.coords ⟨n + 1, hn⟩) (msRows ⟨n + 1, hn⟩) (hsRows ⟨n + 1, hn⟩) (msWeights ⟨n + 1, hn⟩) (hsWeights ⟨n + 1, hn⟩) (msOut ⟨n + 1, hn⟩) (hsOut ⟨n + 1, hn⟩) acc (Memref.isWhole_whole _) (notFirst_of ⟨n + 1, hn⟩ h0) ((condLast_iff ⟨n + 1, hn⟩).mpr h3) (iblk V c 0 ⟨n + 1, hn⟩) (iblk V c 1 ⟨n + 1, hn⟩) (pointState c n (Nat.lt_of_succ_lt hn)).2)
    else
      (outIdle, accAfterMid c (grid1.coords ⟨n + 1, hn⟩) (msRows ⟨n + 1, hn⟩) (hsRows ⟨n + 1, hn⟩) (msWeights ⟨n + 1, hn⟩) (hsWeights ⟨n + 1, hn⟩) (msOut ⟨n + 1, hn⟩) (hsOut ⟨n + 1, hn⟩) acc (Memref.isWhole_whole _) (notFirst_of ⟨n + 1, hn⟩ h0) (notLast_of ⟨n + 1, hn⟩ h3) (iblk V c 0 ⟨n + 1, hn⟩) (iblk V c 1 ⟨n + 1, hn⟩) (pointState c n (Nat.lt_of_succ_lt hn)).2)

theorem pointState_first (c : Dev nD) (t : Fin cfg1.N) (h0 : t.val % 4 = 0) :
    pointState V c t.val t.isLt = (outIdle, accAfterFirst c (grid1.coords t) (msRows t) (hsRows t) (msWeights t) (hsWeights t) (msOut t) (hsOut t) acc (Memref.isWhole_whole _) ((condFirst_iff t).mpr h0) (notLast_of_first t h0) (iblk V c 0 t) (iblk V c 1 t)) := by
  obtain ⟨n, hn⟩ := t
  cases n with
  | zero => exact rfl
  | succ n => exact (dif_pos h0).trans rfl

theorem pointState_last (c : Dev nD) (t : Fin cfg1.N) (h0 : ¬t.val % 4 = 0) (h3 : t.val % 4 = 3) :
    pointState V c t.val t.isLt
      = (outAfterLast c (grid1.coords t) (msRows t) (hsRows t) (msWeights t) (hsWeights t) (msOut t) (hsOut t) acc (Memref.isWhole_whole _) (notFirst_of t h0) ((condLast_iff t).mpr h3) (iblk V c 0 t) (iblk V c 1 t) (pointState V c (t.val - 1) (Nat.lt_of_le_of_lt (Nat.sub_le _ _) t.isLt)).2,
         accAfterLast c (grid1.coords t) (msRows t) (hsRows t) (msWeights t) (hsWeights t) (msOut t) (hsOut t) acc (Memref.isWhole_whole _) (notFirst_of t h0) ((condLast_iff t).mpr h3) (iblk V c 0 t) (iblk V c 1 t) (pointState V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h3).trans rfl)

theorem pointState_mid (c : Dev nD) (t : Fin cfg1.N) (h0 : ¬t.val % 4 = 0) (h3 : ¬t.val % 4 = 3) :
    pointState V c t.val t.isLt
      = (outIdle, accAfterMid c (grid1.coords t) (msRows t) (hsRows t) (msWeights t) (hsWeights t) (msOut t) (hsOut t) acc (Memref.isWhole_whole _) (notFirst_of t h0) (notLast_of t h3) (iblk V c 0 t) (iblk V c 1 t) (pointState V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h3).trans rfl)

/-! ## The invariant carried from point to point -/

/-- Before the first point the launch's invariant; after point `n` the accumulator at that point's state, the other
    kernel's scoped buffers, the generator register at some state. -/
def carried (c : Dev nD) : (n : ℕ) → n ≤ cfg1.N → sProp 𝕄
  | 0, _ => Pipeline.ΦA spec1 c
  | n + 1, hn => iprop(owns (c : Thread nD τ) acc fullShare ((pointState V c n hn).2) ∗ others c ∗ (∃ r, prngReg c r))

theorem carried_zero (c : Dev nD) (n : ℕ) (h : n ≤ cfg1.N) (hz : n = 0) : carried V c n h = Pipeline.ΦA spec1 c := by
  subst hz; rfl
theorem carried_succ (c : Dev nD) (n : ℕ) (hn : n < cfg1.N) :
    carried V c (n + 1) hn = iprop(owns (c : Thread nD τ) acc fullShare ((pointState V c n hn).2) ∗ others c ∗ (∃ r, prngReg c r)) := rfl
theorem carried_pos (c : Dev nD) (n : ℕ) (h : n ≤ cfg1.N) (hz : n ≠ 0) :
    carried V c n h = iprop(owns (c : Thread nD τ) acc fullShare ((pointState V c (n - 1) (by omega)).2) ∗ others c ∗ (∃ r, prngReg c r)) := by
  cases n with
  | zero => exact absurd rfl hz
  | succ n => rfl

/-! ## The proof data -/

/-- The arrays as the region finds them; after the body at point `t` each input's buffer at its block and the output
    block's at the state's first component; the invariant `carried`; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => (pointState V c t.val t.isLt).1
  Φ t := carried V c t.val (Nat.le_of_lt_succ t.isLt)
  q _ := fullShare
  owed _ := 0

theorem A_eq (c : Dev nD) (w : Fin cfg1.W) : (dat V c).A w = V c (Pipeline.arrRef spec1 w) := by
  dsimp only [dat]
theorem carried_castSucc (c : Dev nD) (t : Fin cfg1.N) :
    (dat V c).Φ t.castSucc = carried V c t.val (Nat.le_of_lt t.isLt) := by
  dsimp only [dat]; simp only [Fin.coe_castSucc]
theorem after_rows (c : Dev nD) (t : Fin cfg1.N) : (dat V c).after 0 t = iblk V c 0 t := by dsimp only [dat]
theorem after_weights (c : Dev nD) (t : Fin cfg1.N) : (dat V c).after 1 t = iblk V c 1 t := by dsimp only [dat]
theorem after_out (c : Dev nD) (t : Fin cfg1.N) : (dat V c).after 2 t = (pointState V c t.val t.isLt).1 := by dsimp only [dat]
theorem before_rows (c : Dev nD) (t : Fin cfg1.N) (d) : (dat V c).before 0 t d = iblk V c 0 t :=
  before_rows_of V (dat V c) (A_eq V c 0) (after_rows V c) t d
theorem before_weights (c : Dev nD) (t : Fin cfg1.N) (d) : (dat V c).before 1 t d = iblk V c 1 t :=
  before_weights_of V (dat V c) (A_eq V c 1) (after_weights V c) t d

end Cert.Kernel.Agg1

end
-- ==== Proof.Kernel.Agg1.Body.lean ====
/-
  The second aggregation kernel's body obligation: at every point of the grid, from the invariant carried so far and the
  three windows' staging buffers, the body runs and returns the invariant at the point's state and each window's
  buffer as the proof data says. The point's case is read off the closed forms of the two branch conditions.
-/
import proofs.«405879_j31396210934416_2_alg».proof.Proof.Kernel.Agg1.Data

set_option maxRecDepth 16384

noncomputable section

namespace Cert.Kernel.Agg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, -/
def bodyPre (c : Dev nD) (t : Fin cfg1.N) : sProp 𝕄 :=
  iprop((dat V c).Φ t.castSucc ∗ (dat V c).owesAt () t.castSucc
    ∗ (∃ d, owns (c : Thread nD τ) (msRows t) fullShare ((dat V c).before 0 t d))
    ∗ (∃ d, owns (c : Thread nD τ) (msWeights t) fullShare ((dat V c).before 1 t d))
    ∗ (∃ d, owns (c : Thread nD τ) (msOut t) fullShare ((dat V c).before 2 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_rows, before_weights]
  rw [show (dat V c).owesAt () t.succ = (dat V c).owesAt () t.castSucc from rfl]
  rw [show (dat V c).Φ t.succ = carried V c (t.val + 1) t.isLt from rfl, carried_succ]
  rw [show (dat V c).leavesExact 0 t = owns (c : Thread nD τ) (msRows t) fullShare ((dat V c).after 0 t) from by
    unfold Dat.leavesExact; rw [live_rows t], after_rows]
  rw [show (dat V c).leavesExact 1 t = owns (c : Thread nD τ) (msWeights t) fullShare ((dat V c).after 1 t) from by
    unfold Dat.leavesExact; rw [live_weights t], after_weights]
  by_cases h0 : t.val % 4 = 0
  · -- the first point of a group: reset, then accumulate
    rw [Dat.leavesExact_idle (dat V c) 2 t (idle_out t (notLast_of_first t h0)) (noFlush_out t (notLast_of_first t h0))]
    rw [pointState_first V c t h0]
    unfold accAfterFirst; (try dsimp only)
    by_cases hz : t.val = 0
    · rw [carried_castSucc V c t, carried_zero V c _ _ hz]
      iintro ⟨HΦ, Ho, ⟨%d0, H0⟩, ⟨%d1, H1⟩, ⟨%d2, H2⟩⟩
      ihave HΦ' := (PhiA_open (F := F) c) $$ HΦ
      icases HΦ' with ⟨HS, Hoth, Hg⟩
      iapply ((runFirst c (grid1.coords t) _ _ _ _ _ _ _ _ ((condFirst_iff t).mpr h0) (notLast_of_first t h0) (iblk V c 0 t) (iblk V c 1 t)).2 _ Set.univ _)
      isplitl [H0]; · iexact H0
      isplitl [H1]; · iexact H1
      isplitl [H2]; · iexact H2
      isplitl [HS]; · iexact HS
      iintro ⟨H0, H1, H2, ⟨%es, HS⟩⟩
      isplitl [HS Hoth Hg]
      · isplitl [HS]
        · unfold owns; iexists _; isplitr
          swap; · iexact HS
          ipureintro; exact View.read_writes_of_cover _ _ _ _ _ (coverAccFirst c _ _ _ _ _ _ _ _ _ _ _ _ _)
        isplitl [Hoth]; · iexact Hoth
        iexact Hg
      isplitl [Ho]; · iexact Ho
      isplitl [H0]; · iexact H0
      isplitl [H1]; · iexact H1
      iexists _; iexact H2
    · rw [carried_castSucc V c t, carried_pos V c _ _ hz]
      iintro ⟨⟨HS, Hoth, Hg⟩, Ho, ⟨%d0, H0⟩, ⟨%d1, H1⟩, ⟨%d2, H2⟩⟩
      iapply ((runFirst c (grid1.coords t) _ _ _ _ _ _ _ _ ((condFirst_iff t).mpr h0) (notLast_of_first t h0) (iblk V c 0 t) (iblk V c 1 t)).2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS Hoth Hg]
      · isplitl [HS]
        · unfold owns; iexists _; isplitr
          swap; · iexact HS
          ipureintro; exact View.read_writes_of_cover _ _ _ _ _ (coverAccFirst c _ _ _ _ _ _ _ _ _ _ _ _ _)
        isplitl [Hoth]; · iexact Hoth
        iexact Hg
      isplitl [Ho]; · iexact Ho
      isplitl [H0]; · iexact H0
      isplitl [H1]; · iexact H1
      iexists _; iexact H2
  · have hz : t.val ≠ 0 := fun h => h0 (by rw [h])
    by_cases h3 : t.val % 4 = 3
    · -- the last point of a group: accumulate, then copy out
      rw [show (dat V c).leavesExact 2 t = owns (c : Thread nD τ) (msOut t) fullShare ((dat V c).after 2 t) from by
        unfold Dat.leavesExact; rw [live_out t ((condLast_iff t).mpr h3)], after_out]
      rw [pointState_last V c t h0 h3]
      unfold outAfterLast accAfterLast; (try dsimp only)
      rw [carried_castSucc V c t, carried_pos V c _ _ hz]
      iintro ⟨⟨HS, Hoth, Hg⟩, Ho, ⟨%d0, H0⟩, ⟨%d1, H1⟩, ⟨%d2, H2⟩⟩
      iapply ((runLast c (grid1.coords t) _ _ _ _ _ _ _ _ (notFirst_of t h0) ((condLast_iff t).mpr h3) (iblk V c 0 t) (iblk V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hoth Hg]
      · isplitl [HS]
        · unfold owns; iexists _; isplitr
          swap; · iexact HS
          ipureintro; exact View.read_writes_of_cover _ _ _ _ _ (coverAccLast c _ _ _ _ _ _ _ _ _ _ _ _ _ _)
        isplitl [Hoth]; · iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (coverOutLast c _ _ _ _ _ _ _ _ _ _ _ _ _ _)
    · -- a middle point: accumulate only
      rw [Dat.leavesExact_idle (dat V c) 2 t (idle_out t (notLast_of t h3)) (noFlush_out t (notLast_of t h3))]
      rw [pointState_mid V c t h0 h3]
      unfold accAfterMid; (try dsimp only)
      rw [carried_castSucc V c t, carried_pos V c _ _ hz]
      iintro ⟨⟨HS, Hoth, Hg⟩, Ho, ⟨%d0, H0⟩, ⟨%d1, H1⟩, ⟨%d2, H2⟩⟩
      iapply ((runMid c (grid1.coords t) _ _ _ _ _ _ _ _ (notFirst_of t h0) (notLast_of t h3) (iblk V c 0 t) (iblk V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS Hoth Hg]
      · isplitl [HS]
        · unfold owns; iexists _; isplitr
          swap; · iexact HS
          ipureintro; exact View.read_writes_of_cover _ _ _ _ _ (coverAccMid c _ _ _ _ _ _ _ _ _ _ _ _ _ _)
        isplitl [Hoth]; · iexact Hoth
        iexact Hg
      isplitl [Ho]; · iexact Ho
      isplitl [H0]; · iexact H0
      isplitl [H1]; · iexact H1
      iexists _; iexact H2

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : Pipeline.ΦA spec1 c ⊢ (dat V c).Φ 0 := by
  rw [show (dat V c).Φ 0 = carried V c 0 (Nat.zero_le _) from rfl, carried_zero V c 0 _ rfl]
  try exact Idealize.SL.BI.Entails.refl _

/-- After any point the invariant gives the launch's back: the accumulator's contents are forgotten. -/
theorem Phi_out (c : Dev nD) (t : Fin (cfg1.N + 1)) (ht : t.val ≠ 0) : (dat V c).Φ t ⊢ Pipeline.ΦA spec1 c := by
  rw [show (dat V c).Φ t = carried V c t.val (Nat.le_of_lt_succ t.isLt) from rfl, carried_pos V c _ _ ht]
  iintro ⟨HS, Hoth, Hg⟩
  iapply (PhiA_close (F := F) c)
  isplitl [HS]; · iexists _; iexact HS
  isplitl [Hoth]; · iexact Hoth
  iexact Hg

theorem hout (c : Dev nD) : (dat V c).Φ (Fin.last cfg1.N) ⊢ Pipeline.ΦA spec1 c :=
  Phi_out V c _ (by rw [Fin.val_last]; have : cfg1.N = 8 := N_1; omega)

end Cert.Kernel.Agg1

end
-- ==== Proof.Kernel.Whole.lean ====
/-
  The whole program's run: @main's twelve items (host stretches and the two kernel launches) chained from the launch
  memory to the return. The contents the launches leave in their output arrays are fixed at what each grid's
  write-backs fold to; the run then ends with every unscoped buffer at the last valuation, from which both the
  arguments (unchanged) and the two results are read.
-/
import proofs.«405879_j31396210934416_2_alg».proof.Proof.Kernel.Agg0.Body
import proofs.«405879_j31396210934416_2_alg».proof.Proof.Kernel.Agg1.Body
import proofs.«405879_j31396210934416_2_alg».proof.Proof.Gen.Kernel.Regions
import Idealize.ShloMosaic.Lib.Pipeline.RegionsLoop
import Idealize.ShloMosaic.Lib.Pipeline.FrameSuffix

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the launches leave -/

/-- The buffers as the first launch finds them. -/
abbrev entry0 : (c : Dev nD) → (b : Ref sig .tc) → Buf (Elt F) ((c : Thread nD τ).loc b) := fun c b => V5 m c b
/-- The first launch's output array after its grid. -/
def result0 (c : Dev nD) : Buf (Elt F) ((c : Thread nD τ).loc main_v40) := (Agg0.dat (entry0 m) c).arrAt 2 cfg0.N
/-- The contents with only the first launch's output fixed (what the second launch's entry depends on). -/
def outsFirst : Outs (F := F) := fun _ r c =>
  if h : r = main_v40 then h ▸ result0 m c else m ((c : Thread nD τ).loc r)
/-- The buffers as the second launch finds them. -/
abbrev entry1 : (c : Dev nD) → (b : Ref sig .tc) → Buf (Elt F) ((c : Thread nD τ).loc b) := fun c b => V8 m (outsFirst m) c b
/-- The second launch's output array after its grid. -/
def result1 (c : Dev nD) : Buf (Elt F) ((c : Thread nD τ).loc main_v47) := (Agg1.dat (entry1 m) c).arrAt 2 cfg1.N
/-- Both outputs fixed. -/
def outs : Outs (F := F) := fun _ r c =>
  if h : r = main_v40 then h ▸ result0 m c
  else if h' : r = main_v47 then h' ▸ result1 m c else m ((c : Thread nD τ).loc r)

theorem outsFirst_v40 (n : ℕ) (c : Dev nD) : outsFirst m n main_v40 c = result0 m c := by
  unfold outsFirst; rw [dif_pos rfl]
theorem outs_v40 (n : ℕ) (c : Dev nD) : outs m n main_v40 c = result0 m c := by
  unfold outs; rw [dif_pos rfl]
theorem outs_v47 (n : ℕ) (c : Dev nD) : outs m n main_v47 c = result1 m c := by
  unfold outs; rw [dif_neg (by decide), dif_pos rfl]

/-- The second launch's entry does not depend on its own output. -/
theorem V8_outs (c : Dev nD) : V8 m (outs m) c = V8 m (outsFirst m) c := by
  show StableHlo.after hostOps1_1 (StableHlo.after hostOps1 (Function.update (V5 m c) main_v40 (outs m 6 main_v40 c)))
    = StableHlo.after hostOps1_1 (StableHlo.after hostOps1 (Function.update (V5 m c) main_v40 (outsFirst m 6 main_v40 c)))
  rw [outs_v40, outsFirst_v40]

/-- At the first launch's exit each of its arrays holds what the grid leaves, -/
theorem exit0_arr (c : Dev nD) (w : Fin cfg0.W) :
    (Agg0.dat (entry0 m) c).arrAt w cfg0.N = (fun b => V6 m (outs m) c b) (Pipeline.arrRef spec0 w) := by
  match w with
  | ⟨0, _⟩ => exact ((Agg0.dat (entry0 m) c).arrAt_in 0 rfl _).trans ((Agg0.A_eq (entry0 m) c 0).trans (V6_of m (outs m) c main_v23 (by decide)).symm)
  | ⟨1, _⟩ => exact ((Agg0.dat (entry0 m) c).arrAt_in 1 rfl _).trans ((Agg0.A_eq (entry0 m) c 1).trans (V6_of m (outs m) c main_arg7 (by decide)).symm)
  | ⟨2, _⟩ =>
    show result0 m c = Function.update (V5 m c) main_v40 (outs m 6 main_v40 c) main_v40
    rw [Function.update_self, outs_v40]
/-- and every other buffer what it held at entry. -/
theorem exit0_rest (c : Dev nD) : ∀ b, b ∉ Finset.univ.image (Pipeline.arrRef spec0) → (fun b => V6 m (outs m) c b) b = entry0 m c b :=
  fun b hb => V6_of m (outs m) c b fun h => hb (List.mem_singleton.mp h ▸ Finset.mem_image.mpr ⟨2, Finset.mem_univ _, rfl⟩)

theorem exit1_arr (c : Dev nD) (w : Fin cfg1.W) :
    (Agg1.dat (entry1 m) c).arrAt w cfg1.N = (fun b => V9 m (outs m) c b) (Pipeline.arrRef spec1 w) := by
  match w with
  | ⟨0, _⟩ => exact ((Agg1.dat (entry1 m) c).arrAt_in 0 rfl _).trans ((Agg1.A_eq (entry1 m) c 0).trans ((congrFun (V8_outs m c) _).symm.trans (V9_of m (outs m) c main_v39 (by decide)).symm))
  | ⟨1, _⟩ => exact ((Agg1.dat (entry1 m) c).arrAt_in 1 rfl _).trans ((Agg1.A_eq (entry1 m) c 1).trans ((congrFun (V8_outs m c) _).symm.trans (V9_of m (outs m) c main_arg8 (by decide)).symm))
  | ⟨2, _⟩ =>
    show result1 m c = Function.update (V8 m (outs m) c) main_v47 (outs m 9 main_v47 c) main_v47
    rw [Function.update_self, outs_v47]
theorem exit1_rest (c : Dev nD) : ∀ b, b ∉ Finset.univ.image (Pipeline.arrRef spec1) → (fun b => V9 m (outs m) c b) b = entry1 m c b :=
  fun b hb => (V9_of m (outs m) c b fun h => hb (List.mem_singleton.mp h ▸ Finset.mem_image.mpr ⟨2, Finset.mem_univ _, rfl⟩)).trans (congrFun (V8_outs m c) _)

/-! ## The proof data family and the thread state -/

/-- Each launch's proof data at its entry contents: a literal match, so that the pinned configuration at a numeral
    reduces to the printed one. -/
def pdats : (p : Fin 2) → (c : Dev nD) → Dat τ (Elt F) Unit ℕ (UR sig nD τ) ℕ (Pipeline.pin (pcfgs (F := F)) adm p) c
  | ⟨0, _⟩ => fun c => Agg0.dat (entry0 m) c
  | ⟨1, _⟩ => fun c => Agg1.dat (entry1 m) c

/-- No core owes another anything. -/
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)

/-! ## The launches as segments -/

-- unification of a library lemma stated over the pinned configuration with the printed one unfolds plain definitions in a metavariable's type
set_option backward.isDefEq.respectTransparency.types false in
/-- Launch 0 over the thread state: entered with every unscoped buffer at the contents the host stretch before it
    left, left with its output array at what the grid's write-backs fold to and every other buffer as entered. Its
    arrays are split out of the unscoped buffers and put back; the generator register goes into the invariant and
    comes out of it; nothing is owed; the kernel has no semaphore of its own. -/
def reg0 : Pipeline.RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (Agg0.body_obligation (entry0 m) c).loose
  hwaits := Pipeline.hwaits_of_owed_zero _ _ _ _ L lv 0 fun _ _ => rfl
  pre c := iprop(StableHlo.held (c : Thread nD τ) (Pipeline.ucRefs τ sig) (V5 m c) ∗ R c)
  post c := iprop(StableHlo.held (c : Thread nD τ) (Pipeline.ucRefs τ sig) (V6 m (outs m) c) ∗ R c)
  X c := iprop(∃ r, prngReg c r)
  Y c := iprop(∃ r, prngReg c r)
  Z c := Pipeline.unscopedRest (Ix := Unit) (Name := ℕ) (U := UR sig nD τ) (Lvl := ℕ) spec0 c (entry0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (entry0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (Agg0.hout (entry0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (entry0 m c) (fun b => V6 m (outs m) c b) ((pdats m 0 c).arrAt · cfg0.N) (exit0_arr m c) (exit0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unification of a library lemma stated over the pinned configuration with the printed one unfolds plain definitions in a metavariable's type
set_option backward.isDefEq.respectTransparency.types false in
/-- Launch 1 over the thread state: entered with every unscoped buffer at the contents the host stretch before it
    left, left with its output array at what the grid's write-backs fold to and every other buffer as entered. Its
    arrays are split out of the unscoped buffers and put back; the generator register goes into the invariant and
    comes out of it; nothing is owed; the kernel has no semaphore of its own. -/
def reg1 : Pipeline.RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (Agg1.body_obligation (entry1 m) c).loose
  hwaits := Pipeline.hwaits_of_owed_zero _ _ _ _ L lv 1 fun _ _ => rfl
  pre c := iprop(StableHlo.held (c : Thread nD τ) (Pipeline.ucRefs τ sig) (V8 m (outsFirst m) c) ∗ R c)
  post c := iprop(StableHlo.held (c : Thread nD τ) (Pipeline.ucRefs τ sig) (V9 m (outs m) c) ∗ R c)
  X c := iprop(∃ r, prngReg c r)
  Y c := iprop(∃ r, prngReg c r)
  Z c := Pipeline.unscopedRest (Ix := Unit) (Name := ℕ) (U := UR sig nD τ) (Lvl := ℕ) spec1 c (entry1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (entry1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (Agg1.hout (entry1 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (entry1 m c) (fun b => V9 m (outs m) c b) ((pdats m 1 c).arrAt · cfg1.N) (exit1_arr m c) (exit1_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

-- the launch theorem's implicit arguments are found by unifying its conclusion with this one, which takes unfolding
-- plain definitions in a metavariable's type
set_option backward.isDefEq.respectTransparency.types false in
/-- Every weakly fair execution of @main from memory `m` with zero counters terminates, and every final memory holds
    each unscoped buffer at the last valuation. -/
theorem run_all : θ_run defs (onTc (τ := τ) (main (F := F))) ⟨m, fun _ => 0, ρ⟩ (fun r => ∀ c : Dev nD,
      ∀ b ∈ Pipeline.ucRefs τ sig, r.2.mem ((c : Thread nD τ).1, b) = V12 m (outs m) c b) := by
  refine Pipeline.θ_run_regions_kit_dev (pcfgs (F := F)) adm (pdats m) () cellOf_inj emb₁ defs₀ Variants.none L lv m ρ main
    (segs m (outs m) Variants.none L lv (fun _ c => R c) () (pdats m) (reg0 m) (reg1 m))
    (fun c Q => by
      rewrite [main_chain c, Seg.run_eq_chain,
        show (segs m (outs m) Variants.none L lv (fun _ c => R c) () (pdats m) (reg0 m) (reg1 m) c).map Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          StableHlo.seq hostOps1_1,
          Prog.lift (.customCall (Pipeline.entry 1) ()),
          StableHlo.seq hostOps2,
          StableHlo.seq hostOps2_1,
          StableHlo.seq hostOps2_2 ] from rfl]
      exact .rfl)
    (fun c => by simp only [segs, Seg.pipes_host, Seg.pipes_region, Seg.pipes_nil]; decide) (fun _ => 0) (fun _ _ => rfl) (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (V12 m (outs m) c))
    (hch := fun c => ⟨.rfl, .rfl, .rfl, .rfl, .rfl, .rfl, .rfl, .rfl, (by
      show iprop(StableHlo.held (c : Thread nD τ) (Pipeline.ucRefs τ sig) (V8 m (outs m) c) ∗ R c)
        ⊢ iprop(StableHlo.held (c : Thread nD τ) (Pipeline.ucRefs τ sig) (V8 m (outsFirst m) c) ∗ R c)
      rw [V8_outs]), .rfl, .rfl, .rfl,
      sep_mono .rfl (by iintro ⟨-, HO⟩; iexact HO)⟩)
    (hinit := ?_) (QY := fun c s => ∀ b ∈ Pipeline.ucRefs τ sig, s.mem ((c : Thread nD τ).1, b) = V12 m (outs m) c b)
    (hfin := fun c s' => ?_) (hQ := fun _ h => h)
  · -- the launch: the unscoped buffers are held at the launch memory; the register and the empty debt ride along
    have hcore : ∀ c : Dev nD, (iprop(unscopedBufs c (fun b => m ((c.tc : Thread nD τ).loc b)) ∗ unscopedSems0 c
          ∗ owes (c.tc : Thread nD τ) (0 : CellTallies nD τ sig Unit) ∅ ∗ Pipeline.launchCred (fun _ => 0 : Dev nD → CellTallies nD τ sig Unit) c ∗ prngReg c (ρ c) ∗ (iprop(emp) : sProp 𝕄)) : sProp 𝕄)
        ⊢ iprop(StableHlo.held (c : Thread nD τ) (Pipeline.ucRefs τ sig) (V0 m c) ∗ R c) := fun c => by
      rw [← Pipeline.unscopedBufs_held (Ix := Unit) (Name := ℕ) (U := UR sig nD τ) (Lvl := ℕ) c (V0 m c)]
      iintro ⟨Hh, -, HO, -, Hp, -⟩
      isplitl [Hh]; · iexact Hh
      isplitl [Hp]; · iexists _; iexact Hp
      iexists ∅; iexact HO
    have hsplit : (bigSep Finset.univ fun c : Dev nD => iprop(unscopedBufs c (fun b => m ((c.tc : Thread nD τ).loc b)) ∗ unscopedSems0 c
          ∗ owes (c.tc : Thread nD τ) ((fun _ => 0 : Dev nD → CellTallies nD τ sig Unit) c) ∅ ∗ Pipeline.launchCred (fun _ => 0 : Dev nD → CellTallies nD τ sig Unit) c ∗ prngReg c (ρ c) ∗ (iprop(emp) : sProp 𝕄)))
        ⊢ (bigSep Finset.univ fun c : Dev nD => iprop(StableHlo.held (c : Thread nD τ) (Pipeline.ucRefs τ sig) (V0 m c) ∗ R c) : sProp 𝕄) :=
      bigSep_mono fun c _ => hcore c
    iintro ⟨H, -⟩
    imodintro
    iapply hsplit; iexact H
  · -- the end: every unscoped buffer read off the last valuation
    unfold StableHlo.held
    iintro ⟨Hh, HSI⟩
    imodintro
    iapply (pointsTo_read_all (Pipeline.ucRefs τ sig) (fun b => ((c : Thread nD τ).1, b)) (V12 m (outs m) c) s')
    isplitl [Hh] <;> iassumption

end Cert.Kernel.Whole

end
-- ==== Proof.Kernel.Ends.lean ====
/-
  What the whole run ends with, read off the last valuation: the two results at their final contents and the eleven
  argument arrays as launched (no host stretch writes an argument and no launch may change one).
-/
import proofs.«405879_j31396210934416_2_alg».proof.Proof.Kernel.Whole

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- An unscoped TensorCore reference is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- Every weakly fair execution terminates with the user and item results at the last valuation's contents and every
    argument unchanged. -/
theorem run_ends : θ_run defs (onTc (τ := τ) (main (F := F))) ⟨m, fun _ => 0, ρ⟩ (fun r => ∀ c : Dev nD,
      r.2.mem ((c.tc : Thread nD τ).loc main_v55) = V12 m (outs m) c main_v55
      ∧ r.2.mem ((c.tc : Thread nD τ).loc main_v57) = V12 m (outs m) c main_v57
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨h c _ (mem_uc main_v55 (by decide)), h c _ (mem_uc main_v57 (by decide)),
      (h c _ (mem_uc main_arg0 (by decide))).trans (V12_main_arg0 m (outs m) c),
      (h c _ (mem_uc main_arg1 (by decide))).trans (V12_main_arg1 m (outs m) c),
      (h c _ (mem_uc main_arg2 (by decide))).trans (V12_main_arg2 m (outs m) c),
      (h c _ (mem_uc main_arg3 (by decide))).trans (V12_main_arg3 m (outs m) c),
      (h c _ (mem_uc main_arg4 (by decide))).trans (V12_main_arg4 m (outs m) c),
      (h c _ (mem_uc main_arg5 (by decide))).trans (V12_main_arg5 m (outs m) c),
      (h c _ (mem_uc main_arg6 (by decide))).trans (V12_main_arg6 m (outs m) c),
      (h c _ (mem_uc main_arg7 (by decide))).trans (V12_main_arg7 m (outs m) c),
      (h c _ (mem_uc main_arg8 (by decide))).trans (V12_main_arg8 m (outs m) c),
      (h c _ (mem_uc main_arg9 (by decide))).trans (V12_main_arg9 m (outs m) c),
      (h c _ (mem_uc main_arg10 (by decide))).trans (V12_main_arg10 m (outs m) c)⟩)
    (run_all m ρ)

/-- The frame claim: the run terminates, nothing faults, every argument ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => (h c).2.2) (run_ends m ρ)

end Cert.Kernel.Whole

end
-- ==== Proof.KernelIdeal.Agg0.Shared.lean ====
/-
  The first aggregation kernel (five attention rows against the user weights), on its grid of 2 x 4 points:
  what every point's run is stated over. The body has two branches on the inner coordinate k: at k = 0 the
  accumulator is reset to zero before the block product is added; at k = 3 the accumulator is copied into the
  output block. Both conditions are decided over the grid in closed form; the output window is idle (neither
  stored nor written back) exactly where the copy is not taken.
-/
import proofs.«405879_j31396210934416_2_alg».proof.Proof.Gen.KernelIdeal.Launch
import proofs.«405879_j31396210934416_2_alg».proof.Proof.Gen.KernelIdeal.Skeleton
import proofs.«405879_j31396210934416_2_alg».proof.Proof.Gen.KernelIdeal.Points
import Idealize.ShloMosaic.Lib.Pipeline.FrameBody
import Idealize.ShloMosaic.Lib.Tactic

set_option maxRecDepth 16384

noncomputable section

namespace Cert.KernelIdeal.Agg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions -/

/-- The reset branch is taken: the inner coordinate is 0 (the body's scalar chain, as the program spells it). -/
abbrev condFirst (i : grid0.Coords) : Prop :=
  (Scalar.cmpi .ne (Scalar.extui (Scalar.cmpi .eq (BitVec.ofNat 32 (i 1).val) 0#32)) 0#32) = 1#1
/-- It is taken at the points 0 and 4: the first of each group of four. -/
theorem condFirst_iff : ∀ t : Fin cfg0.N, condFirst (grid0.coords t) ↔ t.val % 4 = 0 :=
  (by decide +kernel : ∀ t : Fin grid0.N, condFirst (grid0.coords t) ↔ t.val % 4 = 0)

/-- The copy-out branch is taken: the inner coordinate is 3. -/
abbrev condLast (i : grid0.Coords) : Prop := k0_cond2 i = 1#1
/-- It is taken at the points 3 and 7: the last of each group of four. -/
theorem condLast_iff : ∀ t : Fin cfg0.N, condLast (grid0.coords t) ↔ t.val % 4 = 3 :=
  (by decide +kernel : ∀ t : Fin grid0.N, condLast (grid0.coords t) ↔ t.val % 4 = 3)

/-! ## Where the windows are live -/

theorem live_rows : ∀ t : Fin cfg0.N, cfg0.idle 0 (grid0.coords t) = false := by decide +kernel
theorem live_weights : ∀ t : Fin cfg0.N, cfg0.idle 1 (grid0.coords t) = false := by decide +kernel
/-- Where the copy is not taken the output window is idle, -/
theorem idle_out : ∀ t : Fin cfg0.N, ¬condLast (grid0.coords t) → cfg0.idle 2 (grid0.coords t) = true := by decide +kernel
/-- and its block is not written back there. -/
theorem noFlush_out : ∀ t : Fin cfg0.N, ¬condLast (grid0.coords t) → (cfg0.win 2).flush t = false := by decide +kernel
/-- Where the copy is taken it is live. -/
theorem live_out : ∀ t : Fin cfg0.N, condLast (grid0.coords t) → cfg0.idle 2 (grid0.coords t) = false := by decide +kernel

/-! ## The memrefs a point's body is called with -/

abbrev msRows (t : Fin cfg0.N) : Memref sig .tc .vmem S5x12800 .f32 := win0_0.stage (cfg0.slots t 0)
abbrev hsRows (t : Fin cfg0.N) : (msRows t).IsWhole := hstage0_0 ((cfg0.slots t 0).cast nbuf0_0)
abbrev msWeights (t : Fin cfg0.N) : Memref sig .tc .vmem S12800x256 .f32 := win0_1.stage (cfg0.slots t 1)
abbrev hsWeights (t : Fin cfg0.N) : (msWeights t).IsWhole := hstage0_1 ((cfg0.slots t 1).cast nbuf0_1)
abbrev msOut (t : Fin cfg0.N) : Memref sig .tc .vmem S1x5x256 .f32 := win0_2.stage (cfg0.slots t 2)
abbrev hsOut (t : Fin cfg0.N) : (msOut t).IsWhole := hstage0_2 ((cfg0.slots t 2).cast nbuf0_2)
/-- The accumulator: a whole scoped buffer of the kernel's own, carried from point to point. -/
abbrev acc : Memref sig .tc .vmem S5x256 .f32 := Memref.whole cc0_scratch0

/-- The other kernel's scoped buffers (its six staging buffers and its accumulator), each whole at some contents:
    they ride through this kernel's points untouched. -/
abbrev others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- The launch's invariant: the accumulator as a memref owned at some contents, the other kernel's scoped
    buffers, the generator register at some state. -/
theorem PhiA_eq (c : Dev nD) :
    (Pipeline.ΦA spec0 c : sProp 𝕄)
      = iprop(iprop((∃ d, owns (c : Thread nD τ) acc fullShare d) ∗ others c) ∗ (∃ r, prngReg c r)) := by
  unfold Pipeline.ΦA; rw [scopedRest0_eq]; simp only [acc, owns_whole]; try rfl

theorem PhiA_open (c : Dev nD) :
    (Pipeline.ΦA spec0 c : sProp 𝕄)
      ⊢ iprop((∃ d, owns (c : Thread nD τ) acc fullShare d) ∗ others c ∗ (∃ r, prngReg c r)) := by
  rw [PhiA_eq]
  iintro ⟨⟨Ha, Ho⟩, Hg⟩
  isplitl [Ha]; · iexact Ha
  isplitl [Ho]; · iexact Ho
  iexact Hg

theorem PhiA_close (c : Dev nD) :
    iprop((∃ d, owns (c : Thread nD τ) acc fullShare d) ∗ others c ∗ (∃ r, prngReg c r))
      ⊢ (Pipeline.ΦA spec0 c : sProp 𝕄) := by
  rw [PhiA_eq]
  iintro ⟨Ha, Ho, Hg⟩
  isplitl [Ha Ho]
  · isplitl [Ha]; · iexact Ha
    iexact Ho
  iexact Hg

end Cert.KernelIdeal.Agg0

end
-- ==== Proof.KernelIdeal.Agg0.RunFirst.lean ====
/-
  The body at the first point of a group of four (inner coordinate 0): the accumulator, at anything, is reset and the
  product of the two staged blocks is added to it; the output block is not touched. What the stores leave in the
  accumulator is returned as the list of pieces the symbolic run finds.
-/
import proofs.«405879_j31396210934416_2_alg».proof.Proof.KernelIdeal.Agg0.Shared

set_option maxRecDepth 16384

noncomputable section

namespace Cert.KernelIdeal.Agg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runFirst (c : Dev nD) (i : grid0.Coords) (arg2 : Memref sig .tc .vmem S5x12800 .f32) (harg2 : arg2.IsWhole) (arg3 : Memref sig .tc .vmem S12800x256 .f32) (harg3 : arg3.IsWhole) (arg4 : Memref sig .tc .vmem S1x5x256 .f32) (harg4 : arg4.IsWhole) (arg5 : Memref sig .tc .vmem S5x256 .f32) (harg5 : arg5.IsWhole) (hc1 : condFirst i) (hc2 : ¬condLast i)
    (x0 : Vec F S5x12800 .f32) (x1 : Vec F S12800x256 .f32) :
    { LS : List (View.Piece (Elt F) S5x256 .f32) //
      ∀ (xo : Vec F S1x5x256 .f32) (E : Set ℕ) (K : PUnit → sProp 𝕄),
        iprop(owns (c : Thread nD τ) arg2 fullShare x0 ∗ owns (c : Thread nD τ) arg3 fullShare x1 ∗ owns (c : Thread nD τ) arg4 fullShare xo ∗ (∃ d, owns (c : Thread nD τ) arg5 fullShare d)
            ∗ (iprop(owns (c : Thread nD τ) arg2 fullShare x0 ∗ owns (c : Thread nD τ) arg3 fullShare x1 ∗ owns (c : Thread nD τ) arg4 fullShare xo ∗ (∃ f, arg5.view.loc (c : Thread nD τ) ↦[arg5.view.set]{fullShare} arg5.view.writes (Elt F) f LS)) -∗ K ⟨⟩))
          ⊢ wp frame (wpE (defs₀ (F := F)) Variants.none c none) E (cc0__agg_kernel i arg2 harg2 arg3 harg3 arg4 harg4 arg5 harg5) K } := by
  refine ⟨?_, fun xo E K => ?run⟩
  case run =>
    simp only [cc0__agg_kernel_eq_skeleton]; unfold cc0__agg_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.KernelIdeal.Agg0

end
-- ==== Proof.KernelIdeal.Agg0.RunMid.lean ====
/-
  The body at a middle point of a group of four (inner coordinate 1 or 2): the product of the two staged blocks is
  added to the accumulator, which holds what the point before left; the output block is not touched.
-/
import proofs.«405879_j31396210934416_2_alg».proof.Proof.KernelIdeal.Agg0.Shared

set_option maxRecDepth 16384

noncomputable section

namespace Cert.KernelIdeal.Agg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runMid (c : Dev nD) (i : grid0.Coords) (arg2 : Memref sig .tc .vmem S5x12800 .f32) (harg2 : arg2.IsWhole) (arg3 : Memref sig .tc .vmem S12800x256 .f32) (harg3 : arg3.IsWhole) (arg4 : Memref sig .tc .vmem S1x5x256 .f32) (harg4 : arg4.IsWhole) (arg5 : Memref sig .tc .vmem S5x256 .f32) (harg5 : arg5.IsWhole) (hc1 : ¬condFirst i) (hc2 : ¬condLast i)
    (x0 : Vec F S5x12800 .f32) (x1 : Vec F S12800x256 .f32) (xs : Vec F S5x256 .f32) :
    { LS : List (View.Piece (Elt F) S5x256 .f32) //
      ∀ (xo : Vec F S1x5x256 .f32) (E : Set ℕ) (K : PUnit → sProp 𝕄),
        iprop(owns (c : Thread nD τ) arg2 fullShare x0 ∗ owns (c : Thread nD τ) arg3 fullShare x1 ∗ owns (c : Thread nD τ) arg4 fullShare xo ∗ owns (c : Thread nD τ) arg5 fullShare xs
            ∗ (iprop(owns (c : Thread nD τ) arg2 fullShare x0 ∗ owns (c : Thread nD τ) arg3 fullShare x1 ∗ owns (c : Thread nD τ) arg4 fullShare xo ∗ (∃ f, arg5.view.loc (c : Thread nD τ) ↦[arg5.view.set]{fullShare} arg5.view.writes (Elt F) f LS)) -∗ K ⟨⟩))
          ⊢ wp frame (wpE (defs₀ (F := F)) Variants.none c none) E (cc0__agg_kernel i arg2 harg2 arg3 harg3 arg4 harg4 arg5 harg5) K } := by
  refine ⟨?_, fun xo E K => ?run⟩
  case run =>
    simp only [cc0__agg_kernel_eq_skeleton]; unfold cc0__agg_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.KernelIdeal.Agg0

end
-- ==== Proof.KernelIdeal.Agg0.RunLast.lean ====
/-
  The body at the last point of a group of four (inner coordinate 3): the product of the two staged blocks is added to
  the accumulator, which holds what the point before left, and the accumulator is then copied, reshaped, into the
  output block, whose buffer held anything.
-/
import proofs.«405879_j31396210934416_2_alg».proof.Proof.KernelIdeal.Agg0.Shared

set_option maxRecDepth 16384

noncomputable section

namespace Cert.KernelIdeal.Agg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runLast (c : Dev nD) (i : grid0.Coords) (arg2 : Memref sig .tc .vmem S5x12800 .f32) (harg2 : arg2.IsWhole) (arg3 : Memref sig .tc .vmem S12800x256 .f32) (harg3 : arg3.IsWhole) (arg4 : Memref sig .tc .vmem S1x5x256 .f32) (harg4 : arg4.IsWhole) (arg5 : Memref sig .tc .vmem S5x256 .f32) (harg5 : arg5.IsWhole) (hc1 : ¬condFirst i) (hc2 : condLast i)
    (x0 : Vec F S5x12800 .f32) (x1 : Vec F S12800x256 .f32) (xs : Vec F S5x256 .f32) :
    Σ' (LO : List (View.Piece (Elt F) S1x5x256 .f32)), { LS : List (View.Piece (Elt F) S5x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f LO) ∗ (∃ f, arg5.view.loc (c : Thread nD τ) ↦[arg5.view.set]{fullShare} arg5.view.writes (Elt F) f LS)) -∗ K ⟨⟩))
          ⊢ wp frame (wpE (defs₀ (F := F)) Variants.none c none) E (cc0__agg_kernel i arg2 harg2 arg3 harg3 arg4 harg4 arg5 harg5) K } := by
  refine ⟨?_, ?_, fun E K => ?run⟩
  case run =>
    simp only [cc0__agg_kernel_eq_skeleton]; unfold cc0__agg_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.KernelIdeal.Agg0

end
-- ==== Proof.KernelIdeal.Agg0.Data.lean ====
/-
  The first aggregation kernel's proof data. A point's body leaves, in the accumulator, what the point's case stores
  there — read back from the pieces the symbolic run found — and, at the last point of a group of four, the
  accumulator reshaped in the output block. The state after point n is defined by recursion on n: the first point of a
  group starts from a reset accumulator, every other point from what the point before left. The region's invariant
  carries the accumulator at that state from point to point, beside the other kernel's scoped buffers and the
  generator register.
-/
import proofs.«405879_j31396210934416_2_alg».proof.Proof.KernelIdeal.Agg0.RunFirst
import proofs.«405879_j31396210934416_2_alg».proof.Proof.KernelIdeal.Agg0.RunMid
import proofs.«405879_j31396210934416_2_alg».proof.Proof.KernelIdeal.Agg0.RunLast
import Idealize.ShloMosaic.Lib.Ring

set_option maxRecDepth 16384

noncomputable section

namespace Cert.KernelIdeal.Agg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- The contents of core `c`'s unscoped buffers when the region is entered.
variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The attention rows' staging buffer holds its block at every point, for any proof data over these arrays whose body
    leaves the block in place. -/
theorem before_rows_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The same for the weights' staging buffer. -/
theorem before_weights_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## What each case leaves -/

/-- The views through which the accumulator's and the output block's contents are stated. -/
abbrev accView : View sig .tc .vmem S5x256 .f32 := acc.view
abbrev outView : View sig .tc .vmem S1x5x256 .f32 := (Memref.whole cc0_stg2_0 : Memref sig .tc .vmem S1x5x256 .f32).view

/-- At a point that does not copy out, the output block's buffer is not stored and not written back: a placeholder
    nothing consults. -/
def outIdle : Vec F S1x5x256 .f32 := outView.read (Elt F) outView.junk

theorem coverAccFirst (c : Dev nD) (i : grid0.Coords) (arg2 : Memref sig .tc .vmem S5x12800 .f32) (harg2 : arg2.IsWhole) (arg3 : Memref sig .tc .vmem S12800x256 .f32) (harg3 : arg3.IsWhole) (arg4 : Memref sig .tc .vmem S1x5x256 .f32) (harg4 : arg4.IsWhole) (arg5 : Memref sig .tc .vmem S5x256 .f32) (harg5 : arg5.IsWhole) (hc1 : condFirst i) (hc2 : ¬condLast i)
    (x0 : Vec F S5x12800 .f32) (x1 : Vec F S12800x256 .f32) (y : S5x256.Idx) :
    ∃ pc ∈ (runFirst c i arg2 harg2 arg3 harg3 arg4 harg4 arg5 harg5 hc1 hc2 x0 x1).1, y ∈ pc.1.set :=
  View.cover_of_tiledL (runFirst c i arg2 harg2 arg3 harg3 arg4 harg4 arg5 harg5 hc1 hc2 x0 x1).1 S5x256.size (by sl_kernel_rfl) y
/-- The accumulator after a first point: the case's pieces read back. -/
def accAfterFirst (c : Dev nD) (i : grid0.Coords) (arg2 : Memref sig .tc .vmem S5x12800 .f32) (harg2 : arg2.IsWhole) (arg3 : Memref sig .tc .vmem S12800x256 .f32) (harg3 : arg3.IsWhole) (arg4 : Memref sig .tc .vmem S1x5x256 .f32) (harg4 : arg4.IsWhole) (arg5 : Memref sig .tc .vmem S5x256 .f32) (harg5 : arg5.IsWhole) (hc1 : condFirst i) (hc2 : ¬condLast i)
    (x0 : Vec F S5x12800 .f32) (x1 : Vec F S12800x256 .f32) : Vec F S5x256 .f32 :=
  accView.read (Elt F) (accView.writes (Elt F) accView.junk (runFirst c i arg2 harg2 arg3 harg3 arg4 harg4 arg5 harg5 hc1 hc2 x0 x1).1)

theorem coverAccMid (c : Dev nD) (i : grid0.Coords) (arg2 : Memref sig .tc .vmem S5x12800 .f32) (harg2 : arg2.IsWhole) (arg3 : Memref sig .tc .vmem S12800x256 .f32) (harg3 : arg3.IsWhole) (arg4 : Memref sig .tc .vmem S1x5x256 .f32) (harg4 : arg4.IsWhole) (arg5 : Memref sig .tc .vmem S5x256 .f32) (harg5 : arg5.IsWhole) (hc1 : ¬condFirst i) (hc2 : ¬condLast i)
    (x0 : Vec F S5x12800 .f32) (x1 : Vec F S12800x256 .f32) (xs : Vec F S5x256 .f32) (y : S5x256.Idx) :
    ∃ pc ∈ (runMid c i arg2 harg2 arg3 harg3 arg4 harg4 arg5 harg5 hc1 hc2 x0 x1 xs).1, y ∈ pc.1.set :=
  View.cover_of_tiledL (runMid c i arg2 harg2 arg3 harg3 arg4 harg4 arg5 harg5 hc1 hc2 x0 x1 xs).1 S5x256.size (by sl_kernel_rfl) y
/-- The accumulator after a middle point, over what the point before left. -/
def accAfterMid (c : Dev nD) (i : grid0.Coords) (arg2 : Memref sig .tc .vmem S5x12800 .f32) (harg2 : arg2.IsWhole) (arg3 : Memref sig .tc .vmem S12800x256 .f32) (harg3 : arg3.IsWhole) (arg4 : Memref sig .tc .vmem S1x5x256 .f32) (harg4 : arg4.IsWhole) (arg5 : Memref sig .tc .vmem S5x256 .f32) (harg5 : arg5.IsWhole) (hc1 : ¬condFirst i) (hc2 : ¬condLast i)
    (x0 : Vec F S5x12800 .f32) (x1 : Vec F S12800x256 .f32) (xs : Vec F S5x256 .f32) : Vec F S5x256 .f32 :=
  accView.read (Elt F) (accView.writes (Elt F) accView.junk (runMid c i arg2 harg2 arg3 harg3 arg4 harg4 arg5 harg5 hc1 hc2 x0 x1 xs).1)

theorem coverAccLast (c : Dev nD) (i : grid0.Coords) (arg2 : Memref sig .tc .vmem S5x12800 .f32) (harg2 : arg2.IsWhole) (arg3 : Memref sig .tc .vmem S12800x256 .f32) (harg3 : arg3.IsWhole) (arg4 : Memref sig .tc .vmem S1x5x256 .f32) (harg4 : arg4.IsWhole) (arg5 : Memref sig .tc .vmem S5x256 .f32) (harg5 : arg5.IsWhole) (hc1 : ¬condFirst i) (hc2 : condLast i)
    (x0 : Vec F S5x12800 .f32) (x1 : Vec F S12800x256 .f32) (xs : Vec F S5x256 .f32) (y : S5x256.Idx) :
    ∃ pc ∈ (runLast c i arg2 harg2 arg3 harg3 arg4 harg4 arg5 harg5 hc1 hc2 x0 x1 xs).2.1, y ∈ pc.1.set :=
  View.cover_of_tiledL (runLast c i arg2 harg2 arg3 harg3 arg4 harg4 arg5 harg5 hc1 hc2 x0 x1 xs).2.1 S5x256.size (by sl_kernel_rfl) y
/-- The accumulator after a last point, over what the point before left. -/
def accAfterLast (c : Dev nD) (i : grid0.Coords) (arg2 : Memref sig .tc .vmem S5x12800 .f32) (harg2 : arg2.IsWhole) (arg3 : Memref sig .tc .vmem S12800x256 .f32) (harg3 : arg3.IsWhole) (arg4 : Memref sig .tc .vmem S1x5x256 .f32) (harg4 : arg4.IsWhole) (arg5 : Memref sig .tc .vmem S5x256 .f32) (harg5 : arg5.IsWhole) (hc1 : ¬condFirst i) (hc2 : condLast i)
    (x0 : Vec F S5x12800 .f32) (x1 : Vec F S12800x256 .f32) (xs : Vec F S5x256 .f32) : Vec F S5x256 .f32 :=
  accView.read (Elt F) (accView.writes (Elt F) accView.junk (runLast c i arg2 harg2 arg3 harg3 arg4 harg4 arg5 harg5 hc1 hc2 x0 x1 xs).2.1)

theorem coverOutLast (c : Dev nD) (i : grid0.Coords) (arg2 : Memref sig .tc .vmem S5x12800 .f32) (harg2 : arg2.IsWhole) (arg3 : Memref sig .tc .vmem S12800x256 .f32) (harg3 : arg3.IsWhole) (arg4 : Memref sig .tc .vmem S1x5x256 .f32) (harg4 : arg4.IsWhole) (arg5 : Memref sig .tc .vmem S5x256 .f32) (harg5 : arg5.IsWhole) (hc1 : ¬condFirst i) (hc2 : condLast i)
    (x0 : Vec F S5x12800 .f32) (x1 : Vec F S12800x256 .f32) (xs : Vec F S5x256 .f32) (y : S1x5x256.Idx) :
    ∃ pc ∈ (runLast c i arg2 harg2 arg3 harg3 arg4 harg4 arg5 harg5 hc1 hc2 x0 x1 xs).1, y ∈ pc.1.set :=
  View.cover_of_tiledL (runLast c i arg2 harg2 arg3 harg3 arg4 harg4 arg5 harg5 hc1 hc2 x0 x1 xs).1 S1x5x256.size (by sl_kernel_rfl) y
/-- The output block after a last point. -/
def outAfterLast (c : Dev nD) (i : grid0.Coords) (arg2 : Memref sig .tc .vmem S5x12800 .f32) (harg2 : arg2.IsWhole) (arg3 : Memref sig .tc .vmem S12800x256 .f32) (harg3 : arg3.IsWhole) (arg4 : Memref sig .tc .vmem S1x5x256 .f32) (harg4 : arg4.IsWhole) (arg5 : Memref sig .tc .vmem S5x256 .f32) (harg5 : arg5.IsWhole) (hc1 : ¬condFirst i) (hc2 : condLast i)
    (x0 : Vec F S5x12800 .f32) (x1 : Vec F S12800x256 .f32) (xs : Vec F S5x256 .f32) : Vec F S1x5x256 .f32 :=
  outView.read (Elt F) (outView.writes (Elt F) outView.junk (runLast c i arg2 harg2 arg3 harg3 arg4 harg4 arg5 harg5 hc1 hc2 x0 x1 xs).1)

/-! ## The state after each point -/

theorem notLast_of_first (t : Fin cfg0.N) (h0 : t.val % 4 = 0) : ¬condLast (grid0.coords t) :=
  fun h => by have := (condLast_iff t).mp h; omega
theorem notFirst_of (t : Fin cfg0.N) (h0 : ¬t.val % 4 = 0) : ¬condFirst (grid0.coords t) :=
  fun h => h0 ((condFirst_iff t).mp h)
theorem notLast_of (t : Fin cfg0.N) (h3 : ¬t.val % 4 = 3) : ¬condLast (grid0.coords t) :=
  fun h => h3 ((condLast_iff t).mp h)

/-- What the output block's buffer and the accumulator hold after the body at point `n`. -/
def pointState (c : Dev nD) : (n : ℕ) → n < cfg0.N → Vec F S1x5x256 .f32 × Vec F S5x256 .f32
  | 0, hn => (outIdle, accAfterFirst c (grid0.coords ⟨0, hn⟩) (msRows ⟨0, hn⟩) (hsRows ⟨0, hn⟩) (msWeights ⟨0, hn⟩) (hsWeights ⟨0, hn⟩) (msOut ⟨0, hn⟩) (hsOut ⟨0, hn⟩) acc (Memref.isWhole_whole _) ((condFirst_iff ⟨0, hn⟩).mpr (Nat.zero_mod _)) (notLast_of_first ⟨0, hn⟩ (Nat.zero_mod _)) (iblk V c 0 ⟨0, hn⟩) (iblk V c 1 ⟨0, hn⟩))
  | n + 1, hn =>
    if h0 : (n + 1) % 4 = 0 then
      (outIdle, accAfterFirst c (grid0.coords ⟨n + 1, hn⟩) (msRows ⟨n + 1, hn⟩) (hsRows ⟨n + 1, hn⟩) (msWeights ⟨n + 1, hn⟩) (hsWeights ⟨n + 1, hn⟩) (msOut ⟨n + 1, hn⟩) (hsOut ⟨n + 1, hn⟩) acc (Memref.isWhole_whole _) ((condFirst_iff ⟨n + 1, hn⟩).mpr h0) (notLast_of_first ⟨n + 1, hn⟩ h0) (iblk V c 0 ⟨n + 1, hn⟩) (iblk V c 1 ⟨n + 1, hn⟩))
    else if h3 : (n + 1) % 4 = 3 then
      (outAfterLast c (grid0.coords ⟨n + 1, hn⟩) (msRows ⟨n + 1, hn⟩) (hsRows ⟨n + 1, hn⟩) (msWeights ⟨n + 1, hn⟩) (hsWeights ⟨n + 1, hn⟩) (msOut ⟨n + 1, hn⟩) (hsOut ⟨n + 1, hn⟩) acc (Memref.isWhole_whole _) (notFirst_of ⟨n + 1, hn⟩ h0) ((condLast_iff ⟨n + 1, hn⟩).mpr h3) (iblk V c 0 ⟨n + 1, hn⟩) (iblk V c 1 ⟨n + 1, hn⟩) (pointState c n (Nat.lt_of_succ_lt hn)).2,
       accAfterLast c (grid0.coords ⟨n + 1, hn⟩) (msRows ⟨n + 1, hn⟩) (hsRows ⟨n + 1, hn⟩) (msWeights ⟨n + 1, hn⟩) (hsWeights ⟨n + 1, hn⟩) (msOut ⟨n + 1, hn⟩) (hsOut ⟨n + 1, hn⟩) acc (Memref.isWhole_whole _) (notFirst_of ⟨n + 1, hn⟩ h0) ((condLast_iff ⟨n + 1, hn⟩).mpr h3) (iblk V c 0 ⟨n + 1, hn⟩) (iblk V c 1 ⟨n + 1, hn⟩) (pointState c n (Nat.lt_of_succ_lt hn)).2)
    else
      (outIdle, accAfterMid c (grid0.coords ⟨n + 1, hn⟩) (msRows ⟨n + 1, hn⟩) (hsRows ⟨n + 1, hn⟩) (msWeights ⟨n + 1, hn⟩) (hsWeights ⟨n + 1, hn⟩) (msOut ⟨n + 1, hn⟩) (hsOut ⟨n + 1, hn⟩) acc (Memref.isWhole_whole _) (notFirst_of ⟨n + 1, hn⟩ h0) (notLast_of ⟨n + 1, hn⟩ h3) (iblk V c 0 ⟨n + 1, hn⟩) (iblk V c 1 ⟨n + 1, hn⟩) (pointState c n (Nat.lt_of_succ_lt hn)).2)

theorem pointState_first (c : Dev nD) (t : Fin cfg0.N) (h0 : t.val % 4 = 0) :
    pointState V c t.val t.isLt = (outIdle, accAfterFirst c (grid0.coords t) (msRows t) (hsRows t) (msWeights t) (hsWeights t) (msOut t) (hsOut t) acc (Memref.isWhole_whole _) ((condFirst_iff t).mpr h0) (notLast_of_first t h0) (iblk V c 0 t) (iblk V c 1 t)) := by
  obtain ⟨n, hn⟩ := t
  cases n with
  | zero => exact rfl
  | succ n => exact (dif_pos h0).trans rfl

theorem pointState_last (c : Dev nD) (t : Fin cfg0.N) (h0 : ¬t.val % 4 = 0) (h3 : t.val % 4 = 3) :
    pointState V c t.val t.isLt
      = (outAfterLast c (grid0.coords t) (msRows t) (hsRows t) (msWeights t) (hsWeights t) (msOut t) (hsOut t) acc (Memref.isWhole_whole _) (notFirst_of t h0) ((condLast_iff t).mpr h3) (iblk V c 0 t) (iblk V c 1 t) (pointState V c (t.val - 1) (Nat.lt_of_le_of_lt (Nat.sub_le _ _) t.isLt)).2,
         accAfterLast c (grid0.coords t) (msRows t) (hsRows t) (msWeights t) (hsWeights t) (msOut t) (hsOut t) acc (Memref.isWhole_whole _) (notFirst_of t h0) ((condLast_iff t).mpr h3) (iblk V c 0 t) (iblk V c 1 t) (pointState V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h3).trans rfl)

theorem pointState_mid (c : Dev nD) (t : Fin cfg0.N) (h0 : ¬t.val % 4 = 0) (h3 : ¬t.val % 4 = 3) :
    pointState V c t.val t.isLt
      = (outIdle, accAfterMid c (grid0.coords t) (msRows t) (hsRows t) (msWeights t) (hsWeights t) (msOut t) (hsOut t) acc (Memref.isWhole_whole _) (notFirst_of t h0) (notLast_of t h3) (iblk V c 0 t) (iblk V c 1 t) (pointState V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h3).trans rfl)

/-! ## The invariant carried from point to point -/

/-- Before the first point the launch's invariant; after point `n` the accumulator at that point's state, the other
    kernel's scoped buffers, the generator register at some state. -/
def carried (c : Dev nD) : (n : ℕ) → n ≤ cfg0.N → sProp 𝕄
  | 0, _ => Pipeline.ΦA spec0 c
  | n + 1, hn => iprop(owns (c : Thread nD τ) acc fullShare ((pointState V c n hn).2) ∗ others c ∗ (∃ r, prngReg c r))

theorem carried_zero (c : Dev nD) (n : ℕ) (h : n ≤ cfg0.N) (hz : n = 0) : carried V c n h = Pipeline.ΦA spec0 c := by
  subst hz; rfl
theorem carried_succ (c : Dev nD) (n : ℕ) (hn : n < cfg0.N) :
    carried V c (n + 1) hn = iprop(owns (c : Thread nD τ) acc fullShare ((pointState V c n hn).2) ∗ others c ∗ (∃ r, prngReg c r)) := rfl
theorem carried_pos (c : Dev nD) (n : ℕ) (h : n ≤ cfg0.N) (hz : n ≠ 0) :
    carried V c n h = iprop(owns (c : Thread nD τ) acc fullShare ((pointState V c (n - 1) (by omega)).2) ∗ others c ∗ (∃ r, prngReg c r)) := by
  cases n with
  | zero => exact absurd rfl hz
  | succ n => rfl

/-! ## The proof data -/

/-- The arrays as the region finds them; after the body at point `t` each input's buffer at its block and the output
    block's at the state's first component; the invariant `carried`; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => (pointState V c t.val t.isLt).1
  Φ t := carried V c t.val (Nat.le_of_lt_succ t.isLt)
  q _ := fullShare
  owed _ := 0

theorem A_eq (c : Dev nD) (w : Fin cfg0.W) : (dat V c).A w = V c (Pipeline.arrRef spec0 w) := by
  dsimp only [dat]
theorem carried_castSucc (c : Dev nD) (t : Fin cfg0.N) :
    (dat V c).Φ t.castSucc = carried V c t.val (Nat.le_of_lt t.isLt) := by
  dsimp only [dat]; simp only [Fin.coe_castSucc]
theorem after_rows (c : Dev nD) (t : Fin cfg0.N) : (dat V c).after 0 t = iblk V c 0 t := by dsimp only [dat]
theorem after_weights (c : Dev nD) (t : Fin cfg0.N) : (dat V c).after 1 t = iblk V c 1 t := by dsimp only [dat]
theorem after_out (c : Dev nD) (t : Fin cfg0.N) : (dat V c).after 2 t = (pointState V c t.val t.isLt).1 := by dsimp only [dat]
theorem before_rows (c : Dev nD) (t : Fin cfg0.N) (d) : (dat V c).before 0 t d = iblk V c 0 t :=
  before_rows_of V (dat V c) (A_eq V c 0) (after_rows V c) t d
theorem before_weights (c : Dev nD) (t : Fin cfg0.N) (d) : (dat V c).before 1 t d = iblk V c 1 t :=
  before_weights_of V (dat V c) (A_eq V c 1) (after_weights V c) t d

end Cert.KernelIdeal.Agg0

end
-- ==== Proof.KernelIdeal.Agg0.Body.lean ====
/-
  The first aggregation kernel's body obligation: at every point of the grid, from the invariant carried so far and the
  three windows' staging buffers, the body runs and returns the invariant at the point's state and each window's
  buffer as the proof data says. The point's case is read off the closed forms of the two branch conditions.
-/
import proofs.«405879_j31396210934416_2_alg».proof.Proof.KernelIdeal.Agg0.Data

set_option maxRecDepth 16384

noncomputable section

namespace Cert.KernelIdeal.Agg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (msRows t) fullShare ((dat V c).before 0 t d))
    ∗ (∃ d, owns (c : Thread nD τ) (msWeights t) fullShare ((dat V c).before 1 t d))
    ∗ (∃ d, owns (c : Thread nD τ) (msOut t) fullShare ((dat V c).before 2 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_rows, before_weights]
  rw [show (dat V c).owesAt () t.succ = (dat V c).owesAt () t.castSucc from rfl]
  rw [show (dat V c).Φ t.succ = carried V c (t.val + 1) t.isLt from rfl, carried_succ]
  rw [show (dat V c).leavesExact 0 t = owns (c : Thread nD τ) (msRows t) fullShare ((dat V c).after 0 t) from by
    unfold Dat.leavesExact; rw [live_rows t], after_rows]
  rw [show (dat V c).leavesExact 1 t = owns (c : Thread nD τ) (msWeights t) fullShare ((dat V c).after 1 t) from by
    unfold Dat.leavesExact; rw [live_weights t], after_weights]
  by_cases h0 : t.val % 4 = 0
  · -- the first point of a group: reset, then accumulate
    rw [Dat.leavesExact_idle (dat V c) 2 t (idle_out t (notLast_of_first t h0)) (noFlush_out t (notLast_of_first t h0))]
    rw [pointState_first V c t h0]
    unfold accAfterFirst; (try dsimp only)
    by_cases hz : t.val = 0
    · rw [carried_castSucc V c t, carried_zero V c _ _ hz]
      iintro ⟨HΦ, Ho, ⟨%d0, H0⟩, ⟨%d1, H1⟩, ⟨%d2, H2⟩⟩
      ihave HΦ' := (PhiA_open (F := F) c) $$ HΦ
      icases HΦ' with ⟨HS, Hoth, Hg⟩
      iapply ((runFirst c (grid0.coords t) _ _ _ _ _ _ _ _ ((condFirst_iff t).mpr h0) (notLast_of_first t h0) (iblk V c 0 t) (iblk V c 1 t)).2 _ Set.univ _)
      isplitl [H0]; · iexact H0
      isplitl [H1]; · iexact H1
      isplitl [H2]; · iexact H2
      isplitl [HS]; · iexact HS
      iintro ⟨H0, H1, H2, ⟨%es, HS⟩⟩
      isplitl [HS Hoth Hg]
      · isplitl [HS]
        · unfold owns; iexists _; isplitr
          swap; · iexact HS
          ipureintro; exact View.read_writes_of_cover _ _ _ _ _ (coverAccFirst c _ _ _ _ _ _ _ _ _ _ _ _ _)
        isplitl [Hoth]; · iexact Hoth
        iexact Hg
      isplitl [Ho]; · iexact Ho
      isplitl [H0]; · iexact H0
      isplitl [H1]; · iexact H1
      iexists _; iexact H2
    · rw [carried_castSucc V c t, carried_pos V c _ _ hz]
      iintro ⟨⟨HS, Hoth, Hg⟩, Ho, ⟨%d0, H0⟩, ⟨%d1, H1⟩, ⟨%d2, H2⟩⟩
      iapply ((runFirst c (grid0.coords t) _ _ _ _ _ _ _ _ ((condFirst_iff t).mpr h0) (notLast_of_first t h0) (iblk V c 0 t) (iblk V c 1 t)).2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS Hoth Hg]
      · isplitl [HS]
        · unfold owns; iexists _; isplitr
          swap; · iexact HS
          ipureintro; exact View.read_writes_of_cover _ _ _ _ _ (coverAccFirst c _ _ _ _ _ _ _ _ _ _ _ _ _)
        isplitl [Hoth]; · iexact Hoth
        iexact Hg
      isplitl [Ho]; · iexact Ho
      isplitl [H0]; · iexact H0
      isplitl [H1]; · iexact H1
      iexists _; iexact H2
  · have hz : t.val ≠ 0 := fun h => h0 (by rw [h])
    by_cases h3 : t.val % 4 = 3
    · -- the last point of a group: accumulate, then copy out
      rw [show (dat V c).leavesExact 2 t = owns (c : Thread nD τ) (msOut t) fullShare ((dat V c).after 2 t) from by
        unfold Dat.leavesExact; rw [live_out t ((condLast_iff t).mpr h3)], after_out]
      rw [pointState_last V c t h0 h3]
      unfold outAfterLast accAfterLast; (try dsimp only)
      rw [carried_castSucc V c t, carried_pos V c _ _ hz]
      iintro ⟨⟨HS, Hoth, Hg⟩, Ho, ⟨%d0, H0⟩, ⟨%d1, H1⟩, ⟨%d2, H2⟩⟩
      iapply ((runLast c (grid0.coords t) _ _ _ _ _ _ _ _ (notFirst_of t h0) ((condLast_iff t).mpr h3) (iblk V c 0 t) (iblk V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hoth Hg]
      · isplitl [HS]
        · unfold owns; iexists _; isplitr
          swap; · iexact HS
          ipureintro; exact View.read_writes_of_cover _ _ _ _ _ (coverAccLast c _ _ _ _ _ _ _ _ _ _ _ _ _ _)
        isplitl [Hoth]; · iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (coverOutLast c _ _ _ _ _ _ _ _ _ _ _ _ _ _)
    · -- a middle point: accumulate only
      rw [Dat.leavesExact_idle (dat V c) 2 t (idle_out t (notLast_of t h3)) (noFlush_out t (notLast_of t h3))]
      rw [pointState_mid V c t h0 h3]
      unfold accAfterMid; (try dsimp only)
      rw [carried_castSucc V c t, carried_pos V c _ _ hz]
      iintro ⟨⟨HS, Hoth, Hg⟩, Ho, ⟨%d0, H0⟩, ⟨%d1, H1⟩, ⟨%d2, H2⟩⟩
      iapply ((runMid c (grid0.coords t) _ _ _ _ _ _ _ _ (notFirst_of t h0) (notLast_of t h3) (iblk V c 0 t) (iblk V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS Hoth Hg]
      · isplitl [HS]
        · unfold owns; iexists _; isplitr
          swap; · iexact HS
          ipureintro; exact View.read_writes_of_cover _ _ _ _ _ (coverAccMid c _ _ _ _ _ _ _ _ _ _ _ _ _ _)
        isplitl [Hoth]; · iexact Hoth
        iexact Hg
      isplitl [Ho]; · iexact Ho
      isplitl [H0]; · iexact H0
      isplitl [H1]; · iexact H1
      iexists _; iexact H2

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = carried V c 0 (Nat.zero_le _) from rfl, carried_zero V c 0 _ rfl]
  try exact Idealize.SL.BI.Entails.refl _

/-- After any point the invariant gives the launch's back: the accumulator's contents are forgotten. -/
theorem Phi_out (c : Dev nD) (t : Fin (cfg0.N + 1)) (ht : t.val ≠ 0) : (dat V c).Φ t ⊢ Pipeline.ΦA spec0 c := by
  rw [show (dat V c).Φ t = carried V c t.val (Nat.le_of_lt_succ t.isLt) from rfl, carried_pos V c _ _ ht]
  iintro ⟨HS, Hoth, Hg⟩
  iapply (PhiA_close (F := F) c)
  isplitl [HS]; · iexists _; iexact HS
  isplitl [Hoth]; · iexact Hoth
  iexact Hg

theorem hout (c : Dev nD) : (dat V c).Φ (Fin.last cfg0.N) ⊢ Pipeline.ΦA spec0 c :=
  Phi_out V c _ (by rw [Fin.val_last]; have : cfg0.N = 8 := N_0; omega)

end Cert.KernelIdeal.Agg0

end
-- ==== Proof.KernelIdeal.Agg1.Shared.lean ====
/-
  The second aggregation kernel (three attention rows against the item weights), on its grid of 2 x 4 points:
  what every point's run is stated over. The body has two branches on the inner coordinate k: at k = 0 the
  accumulator is reset to zero before the block product is added; at k = 3 the accumulator is copied into the
  output block. Both conditions are decided over the grid in closed form; the output window is idle (neither
  stored nor written back) exactly where the copy is not taken.
-/
import proofs.«405879_j31396210934416_2_alg».proof.Proof.Gen.KernelIdeal.Launch
import proofs.«405879_j31396210934416_2_alg».proof.Proof.Gen.KernelIdeal.Skeleton
import proofs.«405879_j31396210934416_2_alg».proof.Proof.Gen.KernelIdeal.Points
import Idealize.ShloMosaic.Lib.Pipeline.FrameBody
import Idealize.ShloMosaic.Lib.Tactic

set_option maxRecDepth 16384

noncomputable section

namespace Cert.KernelIdeal.Agg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions -/

/-- The reset branch is taken: the inner coordinate is 0 (the body's scalar chain, as the program spells it). -/
abbrev condFirst (i : grid1.Coords) : Prop :=
  (Scalar.cmpi .ne (Scalar.extui (Scalar.cmpi .eq (BitVec.ofNat 32 (i 1).val) 0#32)) 0#32) = 1#1
/-- It is taken at the points 0 and 4: the first of each group of four. -/
theorem condFirst_iff : ∀ t : Fin cfg1.N, condFirst (grid1.coords t) ↔ t.val % 4 = 0 :=
  (by decide +kernel : ∀ t : Fin grid1.N, condFirst (grid1.coords t) ↔ t.val % 4 = 0)

/-- The copy-out branch is taken: the inner coordinate is 3. -/
abbrev condLast (i : grid1.Coords) : Prop := k1_cond2 i = 1#1
/-- It is taken at the points 3 and 7: the last of each group of four. -/
theorem condLast_iff : ∀ t : Fin cfg1.N, condLast (grid1.coords t) ↔ t.val % 4 = 3 :=
  (by decide +kernel : ∀ t : Fin grid1.N, condLast (grid1.coords t) ↔ t.val % 4 = 3)

/-! ## Where the windows are live -/

theorem live_rows : ∀ t : Fin cfg1.N, cfg1.idle 0 (grid1.coords t) = false := by decide +kernel
theorem live_weights : ∀ t : Fin cfg1.N, cfg1.idle 1 (grid1.coords t) = false := by decide +kernel
/-- Where the copy is not taken the output window is idle, -/
theorem idle_out : ∀ t : Fin cfg1.N, ¬condLast (grid1.coords t) → cfg1.idle 2 (grid1.coords t) = true := by decide +kernel
/-- and its block is not written back there. -/
theorem noFlush_out : ∀ t : Fin cfg1.N, ¬condLast (grid1.coords t) → (cfg1.win 2).flush t = false := by decide +kernel
/-- Where the copy is taken it is live. -/
theorem live_out : ∀ t : Fin cfg1.N, condLast (grid1.coords t) → cfg1.idle 2 (grid1.coords t) = false := by decide +kernel

/-! ## The memrefs a point's body is called with -/

abbrev msRows (t : Fin cfg1.N) : Memref sig .tc .vmem S3x12800 .f32 := win1_0.stage (cfg1.slots t 0)
abbrev hsRows (t : Fin cfg1.N) : (msRows t).IsWhole := hstage1_0 ((cfg1.slots t 0).cast nbuf1_0)
abbrev msWeights (t : Fin cfg1.N) : Memref sig .tc .vmem S12800x256 .f32 := win1_1.stage (cfg1.slots t 1)
abbrev hsWeights (t : Fin cfg1.N) : (msWeights t).IsWhole := hstage1_1 ((cfg1.slots t 1).cast nbuf1_1)
abbrev msOut (t : Fin cfg1.N) : Memref sig .tc .vmem S1x3x256 .f32 := win1_2.stage (cfg1.slots t 2)
abbrev hsOut (t : Fin cfg1.N) : (msOut t).IsWhole := hstage1_2 ((cfg1.slots t 2).cast nbuf1_2)
/-- The accumulator: a whole scoped buffer of the kernel's own, carried from point to point. -/
abbrev acc : Memref sig .tc .vmem S3x256 .f32 := Memref.whole cc1_scratch0

/-- The other kernel's scoped buffers (its six staging buffers and its accumulator), each whole at some contents:
    they ride through this kernel's points untouched. -/
abbrev others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f))

/-- The launch's invariant taken apart: the accumulator as a memref owned at some contents (it is the last of the
    scoped buffers no window stages), the other kernel's scoped buffers, the generator register at some state. -/
theorem PhiA_open (c : Dev nD) :
    (Pipeline.ΦA spec1 c : sProp 𝕄)
      ⊢ iprop((∃ d, owns (c : Thread nD τ) acc fullShare d) ∗ others c ∗ (∃ r, prngReg c r)) := by
  unfold Pipeline.ΦA; rw [scopedRest1_eq]; simp only [acc, owns_whole]
  iintro ⟨⟨H1, H2, H3, H4, H5, H6, H7, Ha⟩, Hg⟩
  isplitl [Ha]; · iexact Ha
  isplitl [H1 H2 H3 H4 H5 H6 H7]
  · isplitl [H1]; · iexact H1
    isplitl [H2]; · iexact H2
    isplitl [H3]; · iexact H3
    isplitl [H4]; · iexact H4
    isplitl [H5]; · iexact H5
    isplitl [H6]; · iexact H6
    iexact H7
  iexact Hg

/-- And put back together. -/
theorem PhiA_close (c : Dev nD) :
    iprop((∃ d, owns (c : Thread nD τ) acc fullShare d) ∗ others c ∗ (∃ r, prngReg c r))
      ⊢ (Pipeline.ΦA spec1 c : sProp 𝕄) := by
  unfold Pipeline.ΦA; rw [scopedRest1_eq]; simp only [acc, owns_whole]
  iintro ⟨Ha, ⟨H1, H2, H3, H4, H5, H6, H7⟩, Hg⟩
  isplitl [Ha H1 H2 H3 H4 H5 H6 H7]
  · isplitl [H1]; · iexact H1
    isplitl [H2]; · iexact H2
    isplitl [H3]; · iexact H3
    isplitl [H4]; · iexact H4
    isplitl [H5]; · iexact H5
    isplitl [H6]; · iexact H6
    isplitl [H7]; · iexact H7
    iexact Ha
  iexact Hg

end Cert.KernelIdeal.Agg1

end
-- ==== Proof.KernelIdeal.Agg1.RunFirst.lean ====
/-
  The body at the first point of a group of four (inner coordinate 0): the accumulator, at anything, is reset and the
  product of the two staged blocks is added to it; the output block is not touched. What the stores leave in the
  accumulator is returned as the list of pieces the symbolic run finds.
-/
import proofs.«405879_j31396210934416_2_alg».proof.Proof.KernelIdeal.Agg1.Shared

set_option maxRecDepth 16384

noncomputable section

namespace Cert.KernelIdeal.Agg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runFirst (c : Dev nD) (i : grid1.Coords) (arg2 : Memref sig .tc .vmem S3x12800 .f32) (harg2 : arg2.IsWhole) (arg3 : Memref sig .tc .vmem S12800x256 .f32) (harg3 : arg3.IsWhole) (arg4 : Memref sig .tc .vmem S1x3x256 .f32) (harg4 : arg4.IsWhole) (arg5 : Memref sig .tc .vmem S3x256 .f32) (harg5 : arg5.IsWhole) (hc1 : condFirst i) (hc2 : ¬condLast i)
    (x0 : Vec F S3x12800 .f32) (x1 : Vec F S12800x256 .f32) :
    { LS : List (View.Piece (Elt F) S3x256 .f32) //
      ∀ (xo : Vec F S1x3x256 .f32) (E : Set ℕ) (K : PUnit → sProp 𝕄),
        iprop(owns (c : Thread nD τ) arg2 fullShare x0 ∗ owns (c : Thread nD τ) arg3 fullShare x1 ∗ owns (c : Thread nD τ) arg4 fullShare xo ∗ (∃ d, owns (c : Thread nD τ) arg5 fullShare d)
            ∗ (iprop(owns (c : Thread nD τ) arg2 fullShare x0 ∗ owns (c : Thread nD τ) arg3 fullShare x1 ∗ owns (c : Thread nD τ) arg4 fullShare xo ∗ (∃ f, arg5.view.loc (c : Thread nD τ) ↦[arg5.view.set]{fullShare} arg5.view.writes (Elt F) f LS)) -∗ K ⟨⟩))
          ⊢ wp frame (wpE (defs₀ (F := F)) Variants.none c none) E (cc1__agg_kernel i arg2 harg2 arg3 harg3 arg4 harg4 arg5 harg5) K } := by
  refine ⟨?_, fun xo E K => ?run⟩
  case run =>
    simp only [cc1__agg_kernel_eq_skeleton]; unfold cc1__agg_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.KernelIdeal.Agg1

end
-- ==== Proof.KernelIdeal.Agg1.RunMid.lean ====
/-
  The body at a middle point of a group of four (inner coordinate 1 or 2): the product of the two staged blocks is
  added to the accumulator, which holds what the point before left; the output block is not touched.
-/
import proofs.«405879_j31396210934416_2_alg».proof.Proof.KernelIdeal.Agg1.Shared

set_option maxRecDepth 16384

noncomputable section

namespace Cert.KernelIdeal.Agg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runMid (c : Dev nD) (i : grid1.Coords) (arg2 : Memref sig .tc .vmem S3x12800 .f32) (harg2 : arg2.IsWhole) (arg3 : Memref sig .tc .vmem S12800x256 .f32) (harg3 : arg3.IsWhole) (arg4 : Memref sig .tc .vmem S1x3x256 .f32) (harg4 : arg4.IsWhole) (arg5 : Memref sig .tc .vmem S3x256 .f32) (harg5 : arg5.IsWhole) (hc1 : ¬condFirst i) (hc2 : ¬condLast i)
    (x0 : Vec F S3x12800 .f32) (x1 : Vec F S12800x256 .f32) (xs : Vec F S3x256 .f32) :
    { LS : List (View.Piece (Elt F) S3x256 .f32) //
      ∀ (xo : Vec F S1x3x256 .f32) (E : Set ℕ) (K : PUnit → sProp 𝕄),
        iprop(owns (c : Thread nD τ) arg2 fullShare x0 ∗ owns (c : Thread nD τ) arg3 fullShare x1 ∗ owns (c : Thread nD τ) arg4 fullShare xo ∗ owns (c : Thread nD τ) arg5 fullShare xs
            ∗ (iprop(owns (c : Thread nD τ) arg2 fullShare x0 ∗ owns (c : Thread nD τ) arg3 fullShare x1 ∗ owns (c : Thread nD τ) arg4 fullShare xo ∗ (∃ f, arg5.view.loc (c : Thread nD τ) ↦[arg5.view.set]{fullShare} arg5.view.writes (Elt F) f LS)) -∗ K ⟨⟩))
          ⊢ wp frame (wpE (defs₀ (F := F)) Variants.none c none) E (cc1__agg_kernel i arg2 harg2 arg3 harg3 arg4 harg4 arg5 harg5) K } := by
  refine ⟨?_, fun xo E K => ?run⟩
  case run =>
    simp only [cc1__agg_kernel_eq_skeleton]; unfold cc1__agg_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.KernelIdeal.Agg1

end
-- ==== Proof.KernelIdeal.Agg1.RunLast.lean ====
/-
  The body at the last point of a group of four (inner coordinate 3): the product of the two staged blocks is added to
  the accumulator, which holds what the point before left, and the accumulator is then copied, reshaped, into the
  output block, whose buffer held anything.
-/
import proofs.«405879_j31396210934416_2_alg».proof.Proof.KernelIdeal.Agg1.Shared

set_option maxRecDepth 16384

noncomputable section

namespace Cert.KernelIdeal.Agg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runLast (c : Dev nD) (i : grid1.Coords) (arg2 : Memref sig .tc .vmem S3x12800 .f32) (harg2 : arg2.IsWhole) (arg3 : Memref sig .tc .vmem S12800x256 .f32) (harg3 : arg3.IsWhole) (arg4 : Memref sig .tc .vmem S1x3x256 .f32) (harg4 : arg4.IsWhole) (arg5 : Memref sig .tc .vmem S3x256 .f32) (harg5 : arg5.IsWhole) (hc1 : ¬condFirst i) (hc2 : condLast i)
    (x0 : Vec F S3x12800 .f32) (x1 : Vec F S12800x256 .f32) (xs : Vec F S3x256 .f32) :
    Σ' (LO : List (View.Piece (Elt F) S1x3x256 .f32)), { LS : List (View.Piece (Elt F) S3x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f LO) ∗ (∃ f, arg5.view.loc (c : Thread nD τ) ↦[arg5.view.set]{fullShare} arg5.view.writes (Elt F) f LS)) -∗ K ⟨⟩))
          ⊢ wp frame (wpE (defs₀ (F := F)) Variants.none c none) E (cc1__agg_kernel i arg2 harg2 arg3 harg3 arg4 harg4 arg5 harg5) K } := by
  refine ⟨?_, ?_, fun E K => ?run⟩
  case run =>
    simp only [cc1__agg_kernel_eq_skeleton]; unfold cc1__agg_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.KernelIdeal.Agg1

end
-- ==== Proof.KernelIdeal.Agg1.Data.lean ====
/-
  The second aggregation kernel's proof data. A point's body leaves, in the accumulator, what the point's case stores
  there — read back from the pieces the symbolic run found — and, at the last point of a group of four, the
  accumulator reshaped in the output block. The state after point n is defined by recursion on n: the first point of a
  group starts from a reset accumulator, every other point from what the point before left. The region's invariant
  carries the accumulator at that state from point to point, beside the other kernel's scoped buffers and the
  generator register.
-/
import proofs.«405879_j31396210934416_2_alg».proof.Proof.KernelIdeal.Agg1.RunFirst
import proofs.«405879_j31396210934416_2_alg».proof.Proof.KernelIdeal.Agg1.RunMid
import proofs.«405879_j31396210934416_2_alg».proof.Proof.KernelIdeal.Agg1.RunLast
import Idealize.ShloMosaic.Lib.Ring

set_option maxRecDepth 16384

noncomputable section

namespace Cert.KernelIdeal.Agg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- The contents of core `c`'s unscoped buffers when the region is entered.
variable (V : (c : Dev nD) → (b : Ref sig .tc) → Buf (Elt F) ((c : Thread nD τ).loc b))

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The attention rows' staging buffer holds its block at every point, for any proof data over these arrays whose body
    leaves the block in place. -/
theorem before_rows_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The same for the weights' staging buffer. -/
theorem before_weights_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## What each case leaves -/

/-- The views through which the accumulator's and the output block's contents are stated. -/
abbrev accView : View sig .tc .vmem S3x256 .f32 := acc.view
abbrev outView : View sig .tc .vmem S1x3x256 .f32 := (Memref.whole cc1_stg2_0 : Memref sig .tc .vmem S1x3x256 .f32).view

/-- At a point that does not copy out, the output block's buffer is not stored and not written back: a placeholder
    nothing consults. -/
def outIdle : Vec F S1x3x256 .f32 := outView.read (Elt F) outView.junk

theorem coverAccFirst (c : Dev nD) (i : grid1.Coords) (arg2 : Memref sig .tc .vmem S3x12800 .f32) (harg2 : arg2.IsWhole) (arg3 : Memref sig .tc .vmem S12800x256 .f32) (harg3 : arg3.IsWhole) (arg4 : Memref sig .tc .vmem S1x3x256 .f32) (harg4 : arg4.IsWhole) (arg5 : Memref sig .tc .vmem S3x256 .f32) (harg5 : arg5.IsWhole) (hc1 : condFirst i) (hc2 : ¬condLast i)
    (x0 : Vec F S3x12800 .f32) (x1 : Vec F S12800x256 .f32) (y : S3x256.Idx) :
    ∃ pc ∈ (runFirst c i arg2 harg2 arg3 harg3 arg4 harg4 arg5 harg5 hc1 hc2 x0 x1).1, y ∈ pc.1.set :=
  View.cover_of_tiledL (runFirst c i arg2 harg2 arg3 harg3 arg4 harg4 arg5 harg5 hc1 hc2 x0 x1).1 S3x256.size (by sl_kernel_rfl) y
/-- The accumulator after a first point: the case's pieces read back. -/
def accAfterFirst (c : Dev nD) (i : grid1.Coords) (arg2 : Memref sig .tc .vmem S3x12800 .f32) (harg2 : arg2.IsWhole) (arg3 : Memref sig .tc .vmem S12800x256 .f32) (harg3 : arg3.IsWhole) (arg4 : Memref sig .tc .vmem S1x3x256 .f32) (harg4 : arg4.IsWhole) (arg5 : Memref sig .tc .vmem S3x256 .f32) (harg5 : arg5.IsWhole) (hc1 : condFirst i) (hc2 : ¬condLast i)
    (x0 : Vec F S3x12800 .f32) (x1 : Vec F S12800x256 .f32) : Vec F S3x256 .f32 :=
  accView.read (Elt F) (accView.writes (Elt F) accView.junk (runFirst c i arg2 harg2 arg3 harg3 arg4 harg4 arg5 harg5 hc1 hc2 x0 x1).1)

theorem coverAccMid (c : Dev nD) (i : grid1.Coords) (arg2 : Memref sig .tc .vmem S3x12800 .f32) (harg2 : arg2.IsWhole) (arg3 : Memref sig .tc .vmem S12800x256 .f32) (harg3 : arg3.IsWhole) (arg4 : Memref sig .tc .vmem S1x3x256 .f32) (harg4 : arg4.IsWhole) (arg5 : Memref sig .tc .vmem S3x256 .f32) (harg5 : arg5.IsWhole) (hc1 : ¬condFirst i) (hc2 : ¬condLast i)
    (x0 : Vec F S3x12800 .f32) (x1 : Vec F S12800x256 .f32) (xs : Vec F S3x256 .f32) (y : S3x256.Idx) :
    ∃ pc ∈ (runMid c i arg2 harg2 arg3 harg3 arg4 harg4 arg5 harg5 hc1 hc2 x0 x1 xs).1, y ∈ pc.1.set :=
  View.cover_of_tiledL (runMid c i arg2 harg2 arg3 harg3 arg4 harg4 arg5 harg5 hc1 hc2 x0 x1 xs).1 S3x256.size (by sl_kernel_rfl) y
/-- The accumulator after a middle point, over what the point before left. -/
def accAfterMid (c : Dev nD) (i : grid1.Coords) (arg2 : Memref sig .tc .vmem S3x12800 .f32) (harg2 : arg2.IsWhole) (arg3 : Memref sig .tc .vmem S12800x256 .f32) (harg3 : arg3.IsWhole) (arg4 : Memref sig .tc .vmem S1x3x256 .f32) (harg4 : arg4.IsWhole) (arg5 : Memref sig .tc .vmem S3x256 .f32) (harg5 : arg5.IsWhole) (hc1 : ¬condFirst i) (hc2 : ¬condLast i)
    (x0 : Vec F S3x12800 .f32) (x1 : Vec F S12800x256 .f32) (xs : Vec F S3x256 .f32) : Vec F S3x256 .f32 :=
  accView.read (Elt F) (accView.writes (Elt F) accView.junk (runMid c i arg2 harg2 arg3 harg3 arg4 harg4 arg5 harg5 hc1 hc2 x0 x1 xs).1)

theorem coverAccLast (c : Dev nD) (i : grid1.Coords) (arg2 : Memref sig .tc .vmem S3x12800 .f32) (harg2 : arg2.IsWhole) (arg3 : Memref sig .tc .vmem S12800x256 .f32) (harg3 : arg3.IsWhole) (arg4 : Memref sig .tc .vmem S1x3x256 .f32) (harg4 : arg4.IsWhole) (arg5 : Memref sig .tc .vmem S3x256 .f32) (harg5 : arg5.IsWhole) (hc1 : ¬condFirst i) (hc2 : condLast i)
    (x0 : Vec F S3x12800 .f32) (x1 : Vec F S12800x256 .f32) (xs : Vec F S3x256 .f32) (y : S3x256.Idx) :
    ∃ pc ∈ (runLast c i arg2 harg2 arg3 harg3 arg4 harg4 arg5 harg5 hc1 hc2 x0 x1 xs).2.1, y ∈ pc.1.set :=
  View.cover_of_tiledL (runLast c i arg2 harg2 arg3 harg3 arg4 harg4 arg5 harg5 hc1 hc2 x0 x1 xs).2.1 S3x256.size (by sl_kernel_rfl) y
/-- The accumulator after a last point, over what the point before left. -/
def accAfterLast (c : Dev nD) (i : grid1.Coords) (arg2 : Memref sig .tc .vmem S3x12800 .f32) (harg2 : arg2.IsWhole) (arg3 : Memref sig .tc .vmem S12800x256 .f32) (harg3 : arg3.IsWhole) (arg4 : Memref sig .tc .vmem S1x3x256 .f32) (harg4 : arg4.IsWhole) (arg5 : Memref sig .tc .vmem S3x256 .f32) (harg5 : arg5.IsWhole) (hc1 : ¬condFirst i) (hc2 : condLast i)
    (x0 : Vec F S3x12800 .f32) (x1 : Vec F S12800x256 .f32) (xs : Vec F S3x256 .f32) : Vec F S3x256 .f32 :=
  accView.read (Elt F) (accView.writes (Elt F) accView.junk (runLast c i arg2 harg2 arg3 harg3 arg4 harg4 arg5 harg5 hc1 hc2 x0 x1 xs).2.1)

theorem coverOutLast (c : Dev nD) (i : grid1.Coords) (arg2 : Memref sig .tc .vmem S3x12800 .f32) (harg2 : arg2.IsWhole) (arg3 : Memref sig .tc .vmem S12800x256 .f32) (harg3 : arg3.IsWhole) (arg4 : Memref sig .tc .vmem S1x3x256 .f32) (harg4 : arg4.IsWhole) (arg5 : Memref sig .tc .vmem S3x256 .f32) (harg5 : arg5.IsWhole) (hc1 : ¬condFirst i) (hc2 : condLast i)
    (x0 : Vec F S3x12800 .f32) (x1 : Vec F S12800x256 .f32) (xs : Vec F S3x256 .f32) (y : S1x3x256.Idx) :
    ∃ pc ∈ (runLast c i arg2 harg2 arg3 harg3 arg4 harg4 arg5 harg5 hc1 hc2 x0 x1 xs).1, y ∈ pc.1.set :=
  View.cover_of_tiledL (runLast c i arg2 harg2 arg3 harg3 arg4 harg4 arg5 harg5 hc1 hc2 x0 x1 xs).1 S1x3x256.size (by sl_kernel_rfl) y
/-- The output block after a last point. -/
def outAfterLast (c : Dev nD) (i : grid1.Coords) (arg2 : Memref sig .tc .vmem S3x12800 .f32) (harg2 : arg2.IsWhole) (arg3 : Memref sig .tc .vmem S12800x256 .f32) (harg3 : arg3.IsWhole) (arg4 : Memref sig .tc .vmem S1x3x256 .f32) (harg4 : arg4.IsWhole) (arg5 : Memref sig .tc .vmem S3x256 .f32) (harg5 : arg5.IsWhole) (hc1 : ¬condFirst i) (hc2 : condLast i)
    (x0 : Vec F S3x12800 .f32) (x1 : Vec F S12800x256 .f32) (xs : Vec F S3x256 .f32) : Vec F S1x3x256 .f32 :=
  outView.read (Elt F) (outView.writes (Elt F) outView.junk (runLast c i arg2 harg2 arg3 harg3 arg4 harg4 arg5 harg5 hc1 hc2 x0 x1 xs).1)

/-! ## The state after each point -/

theorem notLast_of_first (t : Fin cfg1.N) (h0 : t.val % 4 = 0) : ¬condLast (grid1.coords t) :=
  fun h => by have := (condLast_iff t).mp h; omega
theorem notFirst_of (t : Fin cfg1.N) (h0 : ¬t.val % 4 = 0) : ¬condFirst (grid1.coords t) :=
  fun h => h0 ((condFirst_iff t).mp h)
theorem notLast_of (t : Fin cfg1.N) (h3 : ¬t.val % 4 = 3) : ¬condLast (grid1.coords t) :=
  fun h => h3 ((condLast_iff t).mp h)

/-- What the output block's buffer and the accumulator hold after the body at point `n`. -/
def pointState (c : Dev nD) : (n : ℕ) → n < cfg1.N → Vec F S1x3x256 .f32 × Vec F S3x256 .f32
  | 0, hn => (outIdle, accAfterFirst c (grid1.coords ⟨0, hn⟩) (msRows ⟨0, hn⟩) (hsRows ⟨0, hn⟩) (msWeights ⟨0, hn⟩) (hsWeights ⟨0, hn⟩) (msOut ⟨0, hn⟩) (hsOut ⟨0, hn⟩) acc (Memref.isWhole_whole _) ((condFirst_iff ⟨0, hn⟩).mpr (Nat.zero_mod _)) (notLast_of_first ⟨0, hn⟩ (Nat.zero_mod _)) (iblk V c 0 ⟨0, hn⟩) (iblk V c 1 ⟨0, hn⟩))
  | n + 1, hn =>
    if h0 : (n + 1) % 4 = 0 then
      (outIdle, accAfterFirst c (grid1.coords ⟨n + 1, hn⟩) (msRows ⟨n + 1, hn⟩) (hsRows ⟨n + 1, hn⟩) (msWeights ⟨n + 1, hn⟩) (hsWeights ⟨n + 1, hn⟩) (msOut ⟨n + 1, hn⟩) (hsOut ⟨n + 1, hn⟩) acc (Memref.isWhole_whole _) ((condFirst_iff ⟨n + 1, hn⟩).mpr h0) (notLast_of_first ⟨n + 1, hn⟩ h0) (iblk V c 0 ⟨n + 1, hn⟩) (iblk V c 1 ⟨n + 1, hn⟩))
    else if h3 : (n + 1) % 4 = 3 then
      (outAfterLast c (grid1.coords ⟨n + 1, hn⟩) (msRows ⟨n + 1, hn⟩) (hsRows ⟨n + 1, hn⟩) (msWeights ⟨n + 1, hn⟩) (hsWeights ⟨n + 1, hn⟩) (msOut ⟨n + 1, hn⟩) (hsOut ⟨n + 1, hn⟩) acc (Memref.isWhole_whole _) (notFirst_of ⟨n + 1, hn⟩ h0) ((condLast_iff ⟨n + 1, hn⟩).mpr h3) (iblk V c 0 ⟨n + 1, hn⟩) (iblk V c 1 ⟨n + 1, hn⟩) (pointState c n (Nat.lt_of_succ_lt hn)).2,
       accAfterLast c (grid1.coords ⟨n + 1, hn⟩) (msRows ⟨n + 1, hn⟩) (hsRows ⟨n + 1, hn⟩) (msWeights ⟨n + 1, hn⟩) (hsWeights ⟨n + 1, hn⟩) (msOut ⟨n + 1, hn⟩) (hsOut ⟨n + 1, hn⟩) acc (Memref.isWhole_whole _) (notFirst_of ⟨n + 1, hn⟩ h0) ((condLast_iff ⟨n + 1, hn⟩).mpr h3) (iblk V c 0 ⟨n + 1, hn⟩) (iblk V c 1 ⟨n + 1, hn⟩) (pointState c n (Nat.lt_of_succ_lt hn)).2)
    else
      (outIdle, accAfterMid c (grid1.coords ⟨n + 1, hn⟩) (msRows ⟨n + 1, hn⟩) (hsRows ⟨n + 1, hn⟩) (msWeights ⟨n + 1, hn⟩) (hsWeights ⟨n + 1, hn⟩) (msOut ⟨n + 1, hn⟩) (hsOut ⟨n + 1, hn⟩) acc (Memref.isWhole_whole _) (notFirst_of ⟨n + 1, hn⟩ h0) (notLast_of ⟨n + 1, hn⟩ h3) (iblk V c 0 ⟨n + 1, hn⟩) (iblk V c 1 ⟨n + 1, hn⟩) (pointState c n (Nat.lt_of_succ_lt hn)).2)

theorem pointState_first (c : Dev nD) (t : Fin cfg1.N) (h0 : t.val % 4 = 0) :
    pointState V c t.val t.isLt = (outIdle, accAfterFirst c (grid1.coords t) (msRows t) (hsRows t) (msWeights t) (hsWeights t) (msOut t) (hsOut t) acc (Memref.isWhole_whole _) ((condFirst_iff t).mpr h0) (notLast_of_first t h0) (iblk V c 0 t) (iblk V c 1 t)) := by
  obtain ⟨n, hn⟩ := t
  cases n with
  | zero => exact rfl
  | succ n => exact (dif_pos h0).trans rfl

theorem pointState_last (c : Dev nD) (t : Fin cfg1.N) (h0 : ¬t.val % 4 = 0) (h3 : t.val % 4 = 3) :
    pointState V c t.val t.isLt
      = (outAfterLast c (grid1.coords t) (msRows t) (hsRows t) (msWeights t) (hsWeights t) (msOut t) (hsOut t) acc (Memref.isWhole_whole _) (notFirst_of t h0) ((condLast_iff t).mpr h3) (iblk V c 0 t) (iblk V c 1 t) (pointState V c (t.val - 1) (Nat.lt_of_le_of_lt (Nat.sub_le _ _) t.isLt)).2,
         accAfterLast c (grid1.coords t) (msRows t) (hsRows t) (msWeights t) (hsWeights t) (msOut t) (hsOut t) acc (Memref.isWhole_whole _) (notFirst_of t h0) ((condLast_iff t).mpr h3) (iblk V c 0 t) (iblk V c 1 t) (pointState V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h3).trans rfl)

theorem pointState_mid (c : Dev nD) (t : Fin cfg1.N) (h0 : ¬t.val % 4 = 0) (h3 : ¬t.val % 4 = 3) :
    pointState V c t.val t.isLt
      = (outIdle, accAfterMid c (grid1.coords t) (msRows t) (hsRows t) (msWeights t) (hsWeights t) (msOut t) (hsOut t) acc (Memref.isWhole_whole _) (notFirst_of t h0) (notLast_of t h3) (iblk V c 0 t) (iblk V c 1 t) (pointState V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h3).trans rfl)

/-! ## The invariant carried from point to point -/

/-- Before the first point the launch's invariant; after point `n` the accumulator at that point's state, the other
    kernel's scoped buffers, the generator register at some state. -/
def carried (c : Dev nD) : (n : ℕ) → n ≤ cfg1.N → sProp 𝕄
  | 0, _ => Pipeline.ΦA spec1 c
  | n + 1, hn => iprop(owns (c : Thread nD τ) acc fullShare ((pointState V c n hn).2) ∗ others c ∗ (∃ r, prngReg c r))

theorem carried_zero (c : Dev nD) (n : ℕ) (h : n ≤ cfg1.N) (hz : n = 0) : carried V c n h = Pipeline.ΦA spec1 c := by
  subst hz; rfl
theorem carried_succ (c : Dev nD) (n : ℕ) (hn : n < cfg1.N) :
    carried V c (n + 1) hn = iprop(owns (c : Thread nD τ) acc fullShare ((pointState V c n hn).2) ∗ others c ∗ (∃ r, prngReg c r)) := rfl
theorem carried_pos (c : Dev nD) (n : ℕ) (h : n ≤ cfg1.N) (hz : n ≠ 0) :
    carried V c n h = iprop(owns (c : Thread nD τ) acc fullShare ((pointState V c (n - 1) (by omega)).2) ∗ others c ∗ (∃ r, prngReg c r)) := by
  cases n with
  | zero => exact absurd rfl hz
  | succ n => rfl

/-! ## The proof data -/

/-- The arrays as the region finds them; after the body at point `t` each input's buffer at its block and the output
    block's at the state's first component; the invariant `carried`; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => (pointState V c t.val t.isLt).1
  Φ t := carried V c t.val (Nat.le_of_lt_succ t.isLt)
  q _ := fullShare
  owed _ := 0

theorem A_eq (c : Dev nD) (w : Fin cfg1.W) : (dat V c).A w = V c (Pipeline.arrRef spec1 w) := by
  dsimp only [dat]
theorem carried_castSucc (c : Dev nD) (t : Fin cfg1.N) :
    (dat V c).Φ t.castSucc = carried V c t.val (Nat.le_of_lt t.isLt) := by
  dsimp only [dat]; simp only [Fin.coe_castSucc]
theorem after_rows (c : Dev nD) (t : Fin cfg1.N) : (dat V c).after 0 t = iblk V c 0 t := by dsimp only [dat]
theorem after_weights (c : Dev nD) (t : Fin cfg1.N) : (dat V c).after 1 t = iblk V c 1 t := by dsimp only [dat]
theorem after_out (c : Dev nD) (t : Fin cfg1.N) : (dat V c).after 2 t = (pointState V c t.val t.isLt).1 := by dsimp only [dat]
theorem before_rows (c : Dev nD) (t : Fin cfg1.N) (d) : (dat V c).before 0 t d = iblk V c 0 t :=
  before_rows_of V (dat V c) (A_eq V c 0) (after_rows V c) t d
theorem before_weights (c : Dev nD) (t : Fin cfg1.N) (d) : (dat V c).before 1 t d = iblk V c 1 t :=
  before_weights_of V (dat V c) (A_eq V c 1) (after_weights V c) t d

end Cert.KernelIdeal.Agg1

end
-- ==== Proof.KernelIdeal.Agg1.Body.lean ====
/-
  The second aggregation kernel's body obligation: at every point of the grid, from the invariant carried so far and the
  three windows' staging buffers, the body runs and returns the invariant at the point's state and each window's
  buffer as the proof data says. The point's case is read off the closed forms of the two branch conditions.
-/
import proofs.«405879_j31396210934416_2_alg».proof.Proof.KernelIdeal.Agg1.Data

set_option maxRecDepth 16384

noncomputable section

namespace Cert.KernelIdeal.Agg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, -/
def bodyPre (c : Dev nD) (t : Fin cfg1.N) : sProp 𝕄 :=
  iprop((dat V c).Φ t.castSucc ∗ (dat V c).owesAt () t.castSucc
    ∗ (∃ d, owns (c : Thread nD τ) (msRows t) fullShare ((dat V c).before 0 t d))
    ∗ (∃ d, owns (c : Thread nD τ) (msWeights t) fullShare ((dat V c).before 1 t d))
    ∗ (∃ d, owns (c : Thread nD τ) (msOut t) fullShare ((dat V c).before 2 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_rows, before_weights]
  rw [show (dat V c).owesAt () t.succ = (dat V c).owesAt () t.castSucc from rfl]
  rw [show (dat V c).Φ t.succ = carried V c (t.val + 1) t.isLt from rfl, carried_succ]
  rw [show (dat V c).leavesExact 0 t = owns (c : Thread nD τ) (msRows t) fullShare ((dat V c).after 0 t) from by
    unfold Dat.leavesExact; rw [live_rows t], after_rows]
  rw [show (dat V c).leavesExact 1 t = owns (c : Thread nD τ) (msWeights t) fullShare ((dat V c).after 1 t) from by
    unfold Dat.leavesExact; rw [live_weights t], after_weights]
  by_cases h0 : t.val % 4 = 0
  · -- the first point of a group: reset, then accumulate
    rw [Dat.leavesExact_idle (dat V c) 2 t (idle_out t (notLast_of_first t h0)) (noFlush_out t (notLast_of_first t h0))]
    rw [pointState_first V c t h0]
    unfold accAfterFirst; (try dsimp only)
    by_cases hz : t.val = 0
    · rw [carried_castSucc V c t, carried_zero V c _ _ hz]
      iintro ⟨HΦ, Ho, ⟨%d0, H0⟩, ⟨%d1, H1⟩, ⟨%d2, H2⟩⟩
      ihave HΦ' := (PhiA_open (F := F) c) $$ HΦ
      icases HΦ' with ⟨HS, Hoth, Hg⟩
      iapply ((runFirst c (grid1.coords t) _ _ _ _ _ _ _ _ ((condFirst_iff t).mpr h0) (notLast_of_first t h0) (iblk V c 0 t) (iblk V c 1 t)).2 _ Set.univ _)
      isplitl [H0]; · iexact H0
      isplitl [H1]; · iexact H1
      isplitl [H2]; · iexact H2
      isplitl [HS]; · iexact HS
      iintro ⟨H0, H1, H2, ⟨%es, HS⟩⟩
      isplitl [HS Hoth Hg]
      · isplitl [HS]
        · unfold owns; iexists _; isplitr
          swap; · iexact HS
          ipureintro; exact View.read_writes_of_cover _ _ _ _ _ (coverAccFirst c _ _ _ _ _ _ _ _ _ _ _ _ _)
        isplitl [Hoth]; · iexact Hoth
        iexact Hg
      isplitl [Ho]; · iexact Ho
      isplitl [H0]; · iexact H0
      isplitl [H1]; · iexact H1
      iexists _; iexact H2
    · rw [carried_castSucc V c t, carried_pos V c _ _ hz]
      iintro ⟨⟨HS, Hoth, Hg⟩, Ho, ⟨%d0, H0⟩, ⟨%d1, H1⟩, ⟨%d2, H2⟩⟩
      iapply ((runFirst c (grid1.coords t) _ _ _ _ _ _ _ _ ((condFirst_iff t).mpr h0) (notLast_of_first t h0) (iblk V c 0 t) (iblk V c 1 t)).2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS Hoth Hg]
      · isplitl [HS]
        · unfold owns; iexists _; isplitr
          swap; · iexact HS
          ipureintro; exact View.read_writes_of_cover _ _ _ _ _ (coverAccFirst c _ _ _ _ _ _ _ _ _ _ _ _ _)
        isplitl [Hoth]; · iexact Hoth
        iexact Hg
      isplitl [Ho]; · iexact Ho
      isplitl [H0]; · iexact H0
      isplitl [H1]; · iexact H1
      iexists _; iexact H2
  · have hz : t.val ≠ 0 := fun h => h0 (by rw [h])
    by_cases h3 : t.val % 4 = 3
    · -- the last point of a group: accumulate, then copy out
      rw [show (dat V c).leavesExact 2 t = owns (c : Thread nD τ) (msOut t) fullShare ((dat V c).after 2 t) from by
        unfold Dat.leavesExact; rw [live_out t ((condLast_iff t).mpr h3)], after_out]
      rw [pointState_last V c t h0 h3]
      unfold outAfterLast accAfterLast; (try dsimp only)
      rw [carried_castSucc V c t, carried_pos V c _ _ hz]
      iintro ⟨⟨HS, Hoth, Hg⟩, Ho, ⟨%d0, H0⟩, ⟨%d1, H1⟩, ⟨%d2, H2⟩⟩
      iapply ((runLast c (grid1.coords t) _ _ _ _ _ _ _ _ (notFirst_of t h0) ((condLast_iff t).mpr h3) (iblk V c 0 t) (iblk V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hoth Hg]
      · isplitl [HS]
        · unfold owns; iexists _; isplitr
          swap; · iexact HS
          ipureintro; exact View.read_writes_of_cover _ _ _ _ _ (coverAccLast c _ _ _ _ _ _ _ _ _ _ _ _ _ _)
        isplitl [Hoth]; · iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (coverOutLast c _ _ _ _ _ _ _ _ _ _ _ _ _ _)
    · -- a middle point: accumulate only
      rw [Dat.leavesExact_idle (dat V c) 2 t (idle_out t (notLast_of t h3)) (noFlush_out t (notLast_of t h3))]
      rw [pointState_mid V c t h0 h3]
      unfold accAfterMid; (try dsimp only)
      rw [carried_castSucc V c t, carried_pos V c _ _ hz]
      iintro ⟨⟨HS, Hoth, Hg⟩, Ho, ⟨%d0, H0⟩, ⟨%d1, H1⟩, ⟨%d2, H2⟩⟩
      iapply ((runMid c (grid1.coords t) _ _ _ _ _ _ _ _ (notFirst_of t h0) (notLast_of t h3) (iblk V c 0 t) (iblk V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS Hoth Hg]
      · isplitl [HS]
        · unfold owns; iexists _; isplitr
          swap; · iexact HS
          ipureintro; exact View.read_writes_of_cover _ _ _ _ _ (coverAccMid c _ _ _ _ _ _ _ _ _ _ _ _ _ _)
        isplitl [Hoth]; · iexact Hoth
        iexact Hg
      isplitl [Ho]; · iexact Ho
      isplitl [H0]; · iexact H0
      isplitl [H1]; · iexact H1
      iexists _; iexact H2

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : Pipeline.ΦA spec1 c ⊢ (dat V c).Φ 0 := by
  rw [show (dat V c).Φ 0 = carried V c 0 (Nat.zero_le _) from rfl, carried_zero V c 0 _ rfl]
  try exact Idealize.SL.BI.Entails.refl _

/-- After any point the invariant gives the launch's back: the accumulator's contents are forgotten. -/
theorem Phi_out (c : Dev nD) (t : Fin (cfg1.N + 1)) (ht : t.val ≠ 0) : (dat V c).Φ t ⊢ Pipeline.ΦA spec1 c := by
  rw [show (dat V c).Φ t = carried V c t.val (Nat.le_of_lt_succ t.isLt) from rfl, carried_pos V c _ _ ht]
  iintro ⟨HS, Hoth, Hg⟩
  iapply (PhiA_close (F := F) c)
  isplitl [HS]; · iexists _; iexact HS
  isplitl [Hoth]; · iexact Hoth
  iexact Hg

theorem hout (c : Dev nD) : (dat V c).Φ (Fin.last cfg1.N) ⊢ Pipeline.ΦA spec1 c :=
  Phi_out V c _ (by rw [Fin.val_last]; have : cfg1.N = 8 := N_1; omega)

end Cert.KernelIdeal.Agg1

end
-- ==== Proof.KernelIdeal.Whole.lean ====
/-
  The whole program's run: @main's twelve items (host stretches and the two kernel launches) chained from the launch
  memory to the return. The contents the launches leave in their output arrays are fixed at what each grid's
  write-backs fold to; the run then ends with every unscoped buffer at the last valuation, from which both the
  arguments (unchanged) and the two results are read.
-/
import proofs.«405879_j31396210934416_2_alg».proof.Proof.KernelIdeal.Agg0.Body
import proofs.«405879_j31396210934416_2_alg».proof.Proof.KernelIdeal.Agg1.Body
import proofs.«405879_j31396210934416_2_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the launches leave -/

/-- The buffers as the first launch finds them. -/
abbrev entry0 : (c : Dev nD) → (b : Ref sig .tc) → Buf (Elt F) ((c : Thread nD τ).loc b) := fun c b => V5 m c b
/-- The first launch's output array after its grid. -/
def result0 (c : Dev nD) : Buf (Elt F) ((c : Thread nD τ).loc main_v40) := (Agg0.dat (entry0 m) c).arrAt 2 cfg0.N
/-- The contents with only the first launch's output fixed (what the second launch's entry depends on). -/
def outsFirst : Outs (F := F) := fun _ r c =>
  if h : r = main_v40 then h ▸ result0 m c else m ((c : Thread nD τ).loc r)
/-- The buffers as the second launch finds them. -/
abbrev entry1 : (c : Dev nD) → (b : Ref sig .tc) → Buf (Elt F) ((c : Thread nD τ).loc b) := fun c b => V8 m (outsFirst m) c b
/-- The second launch's output array after its grid. -/
def result1 (c : Dev nD) : Buf (Elt F) ((c : Thread nD τ).loc main_v47) := (Agg1.dat (entry1 m) c).arrAt 2 cfg1.N
/-- Both outputs fixed. -/
def outs : Outs (F := F) := fun _ r c =>
  if h : r = main_v40 then h ▸ result0 m c
  else if h' : r = main_v47 then h' ▸ result1 m c else m ((c : Thread nD τ).loc r)

theorem outsFirst_v40 (n : ℕ) (c : Dev nD) : outsFirst m n main_v40 c = result0 m c := by
  unfold outsFirst; rw [dif_pos rfl]
theorem outs_v40 (n : ℕ) (c : Dev nD) : outs m n main_v40 c = result0 m c := by
  unfold outs; rw [dif_pos rfl]
theorem outs_v47 (n : ℕ) (c : Dev nD) : outs m n main_v47 c = result1 m c := by
  unfold outs; rw [dif_neg (by decide), dif_pos rfl]

/-- The second launch's entry does not depend on its own output. -/
theorem V8_outs (c : Dev nD) : V8 m (outs m) c = V8 m (outsFirst m) c := by
  show StableHlo.after hostOps1_1 (StableHlo.after hostOps1 (Function.update (V5 m c) main_v40 (outs m 6 main_v40 c)))
    = StableHlo.after hostOps1_1 (StableHlo.after hostOps1 (Function.update (V5 m c) main_v40 (outsFirst m 6 main_v40 c)))
  rw [outs_v40, outsFirst_v40]

/-- At the first launch's exit each of its arrays holds what the grid leaves, -/
theorem exit0_arr (c : Dev nD) (w : Fin cfg0.W) :
    (Agg0.dat (entry0 m) c).arrAt w cfg0.N = (fun b => V6 m (outs m) c b) (Pipeline.arrRef spec0 w) := by
  match w with
  | ⟨0, _⟩ => exact ((Agg0.dat (entry0 m) c).arrAt_in 0 rfl _).trans ((Agg0.A_eq (entry0 m) c 0).trans (V6_of m (outs m) c main_v23 (by decide)).symm)
  | ⟨1, _⟩ => exact ((Agg0.dat (entry0 m) c).arrAt_in 1 rfl _).trans ((Agg0.A_eq (entry0 m) c 1).trans (V6_of m (outs m) c main_arg7 (by decide)).symm)
  | ⟨2, _⟩ =>
    show result0 m c = Function.update (V5 m c) main_v40 (outs m 6 main_v40 c) main_v40
    rw [Function.update_self, outs_v40]
/-- and every other buffer what it held at entry. -/
theorem exit0_rest (c : Dev nD) : ∀ b, b ∉ Finset.univ.image (Pipeline.arrRef spec0) → (fun b => V6 m (outs m) c b) b = entry0 m c b :=
  fun b hb => V6_of m (outs m) c b fun h => hb (List.mem_singleton.mp h ▸ Finset.mem_image.mpr ⟨2, Finset.mem_univ _, rfl⟩)

theorem exit1_arr (c : Dev nD) (w : Fin cfg1.W) :
    (Agg1.dat (entry1 m) c).arrAt w cfg1.N = (fun b => V9 m (outs m) c b) (Pipeline.arrRef spec1 w) := by
  match w with
  | ⟨0, _⟩ => exact ((Agg1.dat (entry1 m) c).arrAt_in 0 rfl _).trans ((Agg1.A_eq (entry1 m) c 0).trans ((congrFun (V8_outs m c) _).symm.trans (V9_of m (outs m) c main_v39 (by decide)).symm))
  | ⟨1, _⟩ => exact ((Agg1.dat (entry1 m) c).arrAt_in 1 rfl _).trans ((Agg1.A_eq (entry1 m) c 1).trans ((congrFun (V8_outs m c) _).symm.trans (V9_of m (outs m) c main_arg8 (by decide)).symm))
  | ⟨2, _⟩ =>
    show result1 m c = Function.update (V8 m (outs m) c) main_v47 (outs m 9 main_v47 c) main_v47
    rw [Function.update_self, outs_v47]
theorem exit1_rest (c : Dev nD) : ∀ b, b ∉ Finset.univ.image (Pipeline.arrRef spec1) → (fun b => V9 m (outs m) c b) b = entry1 m c b :=
  fun b hb => (V9_of m (outs m) c b fun h => hb (List.mem_singleton.mp h ▸ Finset.mem_image.mpr ⟨2, Finset.mem_univ _, rfl⟩)).trans (congrFun (V8_outs m c) _)

/-! ## The proof data family and the thread state -/

/-- Each launch's proof data at its entry contents: a literal match, so that the pinned configuration at a numeral
    reduces to the printed one. -/
def pdats : (p : Fin 2) → (c : Dev nD) → Dat τ (Elt F) Unit ℕ (UR sig nD τ) ℕ (Pipeline.pin (pcfgs (F := F)) adm p) c
  | ⟨0, _⟩ => fun c => Agg0.dat (entry0 m) c
  | ⟨1, _⟩ => fun c => Agg1.dat (entry1 m) c

/-- No core owes another anything. -/
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)

/-! ## The launches as segments -/

-- unification of a library lemma stated over the pinned configuration with the printed one unfolds plain definitions in a metavariable's type
set_option backward.isDefEq.respectTransparency.types false in
/-- Launch 0 over the thread state: entered with every unscoped buffer at the contents the host stretch before it
    left, left with its output array at what the grid's write-backs fold to and every other buffer as entered. Its
    arrays are split out of the unscoped buffers and put back; the generator register goes into the invariant and
    comes out of it; nothing is owed; the kernel has no semaphore of its own. -/
def reg0 : Pipeline.RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (Agg0.body_obligation (entry0 m) c).loose
  hwaits := Pipeline.hwaits_of_owed_zero _ _ _ _ L lv 0 fun _ _ => rfl
  pre c := iprop(StableHlo.held (c : Thread nD τ) (Pipeline.ucRefs τ sig) (V5 m c) ∗ R c)
  post c := iprop(StableHlo.held (c : Thread nD τ) (Pipeline.ucRefs τ sig) (V6 m (outs m) c) ∗ R c)
  X c := iprop(∃ r, prngReg c r)
  Y c := iprop(∃ r, prngReg c r)
  Z c := Pipeline.unscopedRest (Ix := Unit) (Name := ℕ) (U := UR sig nD τ) (Lvl := ℕ) spec0 c (entry0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (entry0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (Agg0.hout (entry0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (entry0 m c) (fun b => V6 m (outs m) c b) ((pdats m 0 c).arrAt · cfg0.N) (exit0_arr m c) (exit0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unification of a library lemma stated over the pinned configuration with the printed one unfolds plain definitions in a metavariable's type
set_option backward.isDefEq.respectTransparency.types false in
/-- Launch 1 over the thread state: entered with every unscoped buffer at the contents the host stretch before it
    left, left with its output array at what the grid's write-backs fold to and every other buffer as entered. Its
    arrays are split out of the unscoped buffers and put back; the generator register goes into the invariant and
    comes out of it; nothing is owed; the kernel has no semaphore of its own. -/
def reg1 : Pipeline.RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (Agg1.body_obligation (entry1 m) c).loose
  hwaits := Pipeline.hwaits_of_owed_zero _ _ _ _ L lv 1 fun _ _ => rfl
  pre c := iprop(StableHlo.held (c : Thread nD τ) (Pipeline.ucRefs τ sig) (V8 m (outsFirst m) c) ∗ R c)
  post c := iprop(StableHlo.held (c : Thread nD τ) (Pipeline.ucRefs τ sig) (V9 m (outs m) c) ∗ R c)
  X c := iprop(∃ r, prngReg c r)
  Y c := iprop(∃ r, prngReg c r)
  Z c := Pipeline.unscopedRest (Ix := Unit) (Name := ℕ) (U := UR sig nD τ) (Lvl := ℕ) spec1 c (entry1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (entry1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (Agg1.hout (entry1 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (entry1 m c) (fun b => V9 m (outs m) c b) ((pdats m 1 c).arrAt · cfg1.N) (exit1_arr m c) (exit1_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

-- the launch theorem's implicit arguments are found by unifying its conclusion with this one, which takes unfolding
-- plain definitions in a metavariable's type
set_option backward.isDefEq.respectTransparency.types false in
/-- Every weakly fair execution of @main from memory `m` with zero counters terminates, and every final memory holds
    each unscoped buffer at the last valuation. -/
theorem run_all : θ_run defs (onTc (τ := τ) (main (F := F))) ⟨m, fun _ => 0, ρ⟩ (fun r => ∀ c : Dev nD,
      ∀ b ∈ Pipeline.ucRefs τ sig, r.2.mem ((c : Thread nD τ).1, b) = V12 m (outs m) c b) := by
  refine Pipeline.θ_run_regions_kit_dev (pcfgs (F := F)) adm (pdats m) () cellOf_inj emb₁ defs₀ Variants.none L lv m ρ main
    (segs m (outs m) Variants.none L lv (fun _ c => R c) () (pdats m) (reg0 m) (reg1 m))
    (fun c Q => by
      rewrite [main_chain c, Seg.run_eq_chain,
        show (segs m (outs m) Variants.none L lv (fun _ c => R c) () (pdats m) (reg0 m) (reg1 m) c).map Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          StableHlo.seq hostOps1_1,
          Prog.lift (.customCall (Pipeline.entry 1) ()),
          StableHlo.seq hostOps2,
          StableHlo.seq hostOps2_1,
          StableHlo.seq hostOps2_2 ] from rfl]
      exact .rfl)
    (fun c => by simp only [segs, Seg.pipes_host, Seg.pipes_region, Seg.pipes_nil]; decide) (fun _ => 0) (fun _ _ => rfl) (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (V12 m (outs m) c))
    (hch := fun c => ⟨.rfl, .rfl, .rfl, .rfl, .rfl, .rfl, .rfl, .rfl, (by
      show iprop(StableHlo.held (c : Thread nD τ) (Pipeline.ucRefs τ sig) (V8 m (outs m) c) ∗ R c)
        ⊢ iprop(StableHlo.held (c : Thread nD τ) (Pipeline.ucRefs τ sig) (V8 m (outsFirst m) c) ∗ R c)
      rw [V8_outs]), .rfl, .rfl, .rfl,
      sep_mono .rfl (by iintro ⟨-, HO⟩; iexact HO)⟩)
    (hinit := ?_) (QY := fun c s => ∀ b ∈ Pipeline.ucRefs τ sig, s.mem ((c : Thread nD τ).1, b) = V12 m (outs m) c b)
    (hfin := fun c s' => ?_) (hQ := fun _ h => h)
  · -- the launch: the unscoped buffers are held at the launch memory; the register and the empty debt ride along
    have hcore : ∀ c : Dev nD, (iprop(unscopedBufs c (fun b => m ((c.tc : Thread nD τ).loc b)) ∗ unscopedSems0 c
          ∗ owes (c.tc : Thread nD τ) (0 : CellTallies nD τ sig Unit) ∅ ∗ Pipeline.launchCred (fun _ => 0 : Dev nD → CellTallies nD τ sig Unit) c ∗ prngReg c (ρ c) ∗ (iprop(emp) : sProp 𝕄)) : sProp 𝕄)
        ⊢ iprop(StableHlo.held (c : Thread nD τ) (Pipeline.ucRefs τ sig) (V0 m c) ∗ R c) := fun c => by
      rw [← Pipeline.unscopedBufs_held (Ix := Unit) (Name := ℕ) (U := UR sig nD τ) (Lvl := ℕ) c (V0 m c)]
      iintro ⟨Hh, -, HO, -, Hp, -⟩
      isplitl [Hh]; · iexact Hh
      isplitl [Hp]; · iexists _; iexact Hp
      iexists ∅; iexact HO
    have hsplit : (bigSep Finset.univ fun c : Dev nD => iprop(unscopedBufs c (fun b => m ((c.tc : Thread nD τ).loc b)) ∗ unscopedSems0 c
          ∗ owes (c.tc : Thread nD τ) ((fun _ => 0 : Dev nD → CellTallies nD τ sig Unit) c) ∅ ∗ Pipeline.launchCred (fun _ => 0 : Dev nD → CellTallies nD τ sig Unit) c ∗ prngReg c (ρ c) ∗ (iprop(emp) : sProp 𝕄)))
        ⊢ (bigSep Finset.univ fun c : Dev nD => iprop(StableHlo.held (c : Thread nD τ) (Pipeline.ucRefs τ sig) (V0 m c) ∗ R c) : sProp 𝕄) :=
      bigSep_mono fun c _ => hcore c
    iintro ⟨H, -⟩
    imodintro
    iapply hsplit; iexact H
  · -- the end: every unscoped buffer read off the last valuation
    unfold StableHlo.held
    iintro ⟨Hh, HSI⟩
    imodintro
    iapply (pointsTo_read_all (Pipeline.ucRefs τ sig) (fun b => ((c : Thread nD τ).1, b)) (V12 m (outs m) c) s')
    isplitl [Hh] <;> iassumption

end Cert.KernelIdeal.Whole

end
-- ==== Proof.KernelIdeal.Ends.lean ====
/-
  What the whole run ends with, read off the last valuation: the two results at their final contents and the eleven
  argument arrays as launched (no host stretch writes an argument and no launch may change one).
-/
import proofs.«405879_j31396210934416_2_alg».proof.Proof.KernelIdeal.Whole

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- An unscoped TensorCore reference is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- Every weakly fair execution terminates with the user and item results at the last valuation's contents and every
    argument unchanged. -/
theorem run_ends : θ_run defs (onTc (τ := τ) (main (F := F))) ⟨m, fun _ => 0, ρ⟩ (fun r => ∀ c : Dev nD,
      r.2.mem ((c.tc : Thread nD τ).loc main_v55) = V12 m (outs m) c main_v55
      ∧ r.2.mem ((c.tc : Thread nD τ).loc main_v57) = V12 m (outs m) c main_v57
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨h c _ (mem_uc main_v55 (by decide)), h c _ (mem_uc main_v57 (by decide)),
      (h c _ (mem_uc main_arg0 (by decide))).trans (V12_main_arg0 m (outs m) c),
      (h c _ (mem_uc main_arg1 (by decide))).trans (V12_main_arg1 m (outs m) c),
      (h c _ (mem_uc main_arg2 (by decide))).trans (V12_main_arg2 m (outs m) c),
      (h c _ (mem_uc main_arg3 (by decide))).trans (V12_main_arg3 m (outs m) c),
      (h c _ (mem_uc main_arg4 (by decide))).trans (V12_main_arg4 m (outs m) c),
      (h c _ (mem_uc main_arg5 (by decide))).trans (V12_main_arg5 m (outs m) c),
      (h c _ (mem_uc main_arg6 (by decide))).trans (V12_main_arg6 m (outs m) c),
      (h c _ (mem_uc main_arg7 (by decide))).trans (V12_main_arg7 m (outs m) c),
      (h c _ (mem_uc main_arg8 (by decide))).trans (V12_main_arg8 m (outs m) c),
      (h c _ (mem_uc main_arg9 (by decide))).trans (V12_main_arg9 m (outs m) c),
      (h c _ (mem_uc main_arg10 (by decide))).trans (V12_main_arg10 m (outs m) c)⟩)
    (run_all m ρ)

/-- The frame claim: the run terminates, nothing faults, every argument ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => (h c).2.2) (run_ends m ρ)

end Cert.KernelIdeal.Whole

end
-- ==== Proof.KernelIdeal.Agg0.Value.lean ====
/-
  The first aggregation kernel's value. The grid has two groups of four points. At each point the body adds to an
  accumulator the product of a block of the attention rows (12800 of their columns) by the matching block of the
  weights (the same 12800 rows); the first point of a group resets the accumulator before adding, the last copies it
  into the group's output block. Read over the extended reals, where the narrowing before the product is the identity
  and a product into a zero accumulator is a plain sum, entry (c', i, j) of the output is therefore

      ∑ k < 4, ∑ l < 12800,  rows (i, (4 c' + k) · 12800 + l) · weights ((4 c' + k) · 12800 + l, j).

  The steps: what each case's stores leave is the body's arithmetic of the staged blocks; that arithmetic at an index;
  a block's entry is the array's entry at block index × block size + the coordinate inside the block; the
  accumulator's contents by induction on the offset inside a group; the two copied-out blocks tile the output.
-/
import proofs.«405879_j31396210934416_2_alg».proof.Proof.KernelIdeal.Agg0.Data
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Agg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

/-! ## What each case's stores leave, as the body's arithmetic of the staged blocks -/

theorem hz2 : (![0, 0] : Fin 2 → Nat) = fun _ => 0 := funext fun a => by fin_cases a <;> rfl
theorem hz3 : (![0, 0, 0] : Fin 3 → Nat) = fun _ => 0 := funext fun a => by fin_cases a <;> rfl

/-- A first point resets the accumulator and adds the product of its two blocks onto the reset value. -/
theorem accAfterFirst_eq (c : Dev nD) (i : grid0.Coords) (arg2 : Memref sig .tc .vmem S5x12800 .f32) (harg2 : arg2.IsWhole) (arg3 : Memref sig .tc .vmem S12800x256 .f32) (harg3 : arg3.IsWhole) (arg4 : Memref sig .tc .vmem S1x5x256 .f32) (harg4 : arg4.IsWhole) (arg5 : Memref sig .tc .vmem S5x256 .f32) (harg5 : arg5.IsWhole) (hc1 : condFirst i) (hc2 : ¬condLast i)
    (x0 : Vec F S5x12800 .f32) (x1 : Vec F S12800x256 .f32) :
    accAfterFirst c i arg2 harg2 arg3 harg3 arg4 harg4 arg5 harg5 hc1 hc2 x0 x1 = k0_pay2 x0 x1 (k0_pay1 (F := F)) := by
  unfold accAfterFirst
  rw [View.read_writes_eq_canon _ _ _ (coverAccFirst c i arg2 harg2 arg3 harg3 arg4 harg4 arg5 harg5 hc1 hc2 x0 x1)]
  unfold runFirst
  dsimp only
  sl_unfold_words
  rw [View.canon_cons_unit_zero (S := S5x256) hz2, View.readCov_unit_zero (S := S5x256) _ hz2]
  simp only [View.readAt_eq_ld, harg2.read_unread, harg3.read_unread, View.ld_unit_zero (S := S5x12800) hz2, View.ld_unit_zero (S := S12800x256) hz2]

/-- A middle point adds the product of its two blocks onto what the accumulator held. -/
theorem accAfterMid_eq (c : Dev nD) (i : grid0.Coords) (arg2 : Memref sig .tc .vmem S5x12800 .f32) (harg2 : arg2.IsWhole) (arg3 : Memref sig .tc .vmem S12800x256 .f32) (harg3 : arg3.IsWhole) (arg4 : Memref sig .tc .vmem S1x5x256 .f32) (harg4 : arg4.IsWhole) (arg5 : Memref sig .tc .vmem S5x256 .f32) (harg5 : arg5.IsWhole) (hc1 : ¬condFirst i) (hc2 : ¬condLast i)
    (x0 : Vec F S5x12800 .f32) (x1 : Vec F S12800x256 .f32) (xs : Vec F S5x256 .f32) :
    accAfterMid c i arg2 harg2 arg3 harg3 arg4 harg4 arg5 harg5 hc1 hc2 x0 x1 xs = k0_pay2 x0 x1 xs := by
  unfold accAfterMid
  rw [View.read_writes_eq_canon _ _ _ (coverAccMid c i arg2 harg2 arg3 harg3 arg4 harg4 arg5 harg5 hc1 hc2 x0 x1 xs)]
  unfold runMid
  dsimp only
  sl_unfold_words
  rw [View.canon_unit_zero hz2]
  simp only [View.readAt_eq_ld, harg2.read_unread, harg3.read_unread, harg5.read_unread, View.ld_unit_zero (S := S5x12800) hz2, View.ld_unit_zero (S := S12800x256) hz2, View.ld_unit_zero (S := S5x256) hz2]

/-- So does a last point, -/
theorem accAfterLast_eq (c : Dev nD) (i : grid0.Coords) (arg2 : Memref sig .tc .vmem S5x12800 .f32) (harg2 : arg2.IsWhole) (arg3 : Memref sig .tc .vmem S12800x256 .f32) (harg3 : arg3.IsWhole) (arg4 : Memref sig .tc .vmem S1x5x256 .f32) (harg4 : arg4.IsWhole) (arg5 : Memref sig .tc .vmem S5x256 .f32) (harg5 : arg5.IsWhole) (hc1 : ¬condFirst i) (hc2 : condLast i)
    (x0 : Vec F S5x12800 .f32) (x1 : Vec F S12800x256 .f32) (xs : Vec F S5x256 .f32) :
    accAfterLast c i arg2 harg2 arg3 harg3 arg4 harg4 arg5 harg5 hc1 hc2 x0 x1 xs = k0_pay2 x0 x1 xs := by
  unfold accAfterLast
  rw [View.read_writes_eq_canon _ _ _ (coverAccLast c i arg2 harg2 arg3 harg3 arg4 harg4 arg5 harg5 hc1 hc2 x0 x1 xs)]
  unfold runLast
  dsimp only
  sl_unfold_words
  rw [View.canon_unit_zero hz2]
  simp only [View.readAt_eq_ld, harg2.read_unread, harg3.read_unread, harg5.read_unread, View.ld_unit_zero (S := S5x12800) hz2, View.ld_unit_zero (S := S12800x256) hz2, View.ld_unit_zero (S := S5x256) hz2]

/-- which then copies the accumulator, with a leading unit axis, into the output block. -/
theorem outAfterLast_eq (c : Dev nD) (i : grid0.Coords) (arg2 : Memref sig .tc .vmem S5x12800 .f32) (harg2 : arg2.IsWhole) (arg3 : Memref sig .tc .vmem S12800x256 .f32) (harg3 : arg3.IsWhole) (arg4 : Memref sig .tc .vmem S1x5x256 .f32) (harg4 : arg4.IsWhole) (arg5 : Memref sig .tc .vmem S5x256 .f32) (harg5 : arg5.IsWhole) (hc1 : ¬condFirst i) (hc2 : condLast i)
    (x0 : Vec F S5x12800 .f32) (x1 : Vec F S12800x256 .f32) (xs : Vec F S5x256 .f32) :
    outAfterLast c i arg2 harg2 arg3 harg3 arg4 harg4 arg5 harg5 hc1 hc2 x0 x1 xs = k0_pay3 (k0_pay2 x0 x1 xs) := by
  unfold outAfterLast
  rw [View.read_writes_eq_canon _ _ _ (coverOutLast c i arg2 harg2 arg3 harg3 arg4 harg4 arg5 harg5 hc1 hc2 x0 x1 xs)]
  unfold runLast
  dsimp only
  sl_unfold_words
  rw [View.canon_unit_zero hz3]
  simp only [View.readAt_eq_ld, harg2.read_unread, harg3.read_unread, harg5.read_unread, View.ld_unit_zero (S := S5x12800) hz2, View.ld_unit_zero (S := S12800x256) hz2, View.ld_unit_zero (S := S5x256) hz2, View.readCov_unit_zero (S := S5x256) _ hz2]

/-! ## The body's arithmetic at an index, over the extended reals

At the ideal instance a float is an extended real, the narrowing to the multiplier's input format is the identity, and a
product into a zero accumulator is the plain sum over the contracted coordinate. -/

/-- The reset value is zero at every index. -/
theorem pay1_apply (i : Fin 5) (j : Fin 256) : (k0_pay1 (F := Ideal)) (ix2 i j) = 0 := by
  unfold k0_pay1
  rw [shapeCast_self]
  exact Ideal.ofBits_zero_f32

/-- The left operand of the block product is read at the result's row … -/
theorem blockDot_lhs_row (j : S5x256.Idx) (k : dot_S5x12800_S12800x256_S5x256_1_0_0_1_n_n.contr.Idx) :
    (dot_S5x12800_S12800x256_S5x256_1_0_0_1_n_n.lhsIdx j k 0).val = (j 0).val := by
  unfold DotDims.lhsIdx
  rw [dif_neg (show ¬(0 : Fin S5x12800.rank) ∈ dot_S5x12800_S12800x256_S5x256_1_0_0_1_n_n.lhsBatch by decide),
    dif_pos (show (0 : Fin S5x12800.rank) ∈ dot_S5x12800_S12800x256_S5x256_1_0_0_1_n_n.lhsNonContracting by decide)]
  rfl
/-- … and the contracted coordinate; -/
theorem blockDot_lhs_contracted (j : S5x256.Idx) (k : dot_S5x12800_S12800x256_S5x256_1_0_0_1_n_n.contr.Idx) :
    (dot_S5x12800_S12800x256_S5x256_1_0_0_1_n_n.lhsIdx j k 1).val = (k ⟨0, by decide⟩).val :=
  dot_S5x12800_S12800x256_S5x256_1_0_0_1_n_n.lhsIdx_val_of_single rfl j k
/-- the right operand at the contracted coordinate … -/
theorem blockDot_rhs_contracted (j : S5x256.Idx) (k : dot_S5x12800_S12800x256_S5x256_1_0_0_1_n_n.contr.Idx) :
    (dot_S5x12800_S12800x256_S5x256_1_0_0_1_n_n.rhsIdx j k 0).val = (k ⟨0, by decide⟩).val :=
  dot_S5x12800_S12800x256_S5x256_1_0_0_1_n_n.rhsIdx_val_of_single rfl j k
/-- … and the result's column. -/
theorem blockDot_rhs_column (j : S5x256.Idx) (k : dot_S5x12800_S12800x256_S5x256_1_0_0_1_n_n.contr.Idx) :
    (dot_S5x12800_S12800x256_S5x256_1_0_0_1_n_n.rhsIdx j k 1).val = (j 1).val := by
  unfold DotDims.rhsIdx
  rw [dif_neg (show ¬(1 : Fin S12800x256.rank) ∈ dot_S5x12800_S12800x256_S5x256_1_0_0_1_n_n.rhsBatch by decide),
    dif_pos (show (1 : Fin S12800x256.rank) ∈ dot_S5x12800_S12800x256_S5x256_1_0_0_1_n_n.rhsNonContracting by decide)]
  rfl

/-- The product of a block of rows by a block of weights into a zero accumulator, at (i, j): the sum over the
    12800 contracted positions of the products of the entries. -/
theorem blockProduct_apply (a : FVec Ideal S5x12800 .bf16) (b : FVec Ideal S12800x256 .bf16) (i : Fin 5) (j : Fin 256) :
    matmul dot_S5x12800_S12800x256_S5x256_1_0_0_1_n_n none a b (constant (F := Ideal) S5x256 .f32 0x00000000#32) (ix2 i j)
      = ∑ l : Fin 12800, a (ix2 i l) * b (ix2 l j) := by
  refine (Ideal.matmul_constant_zero_apply dot_S5x12800_S12800x256_S5x256_1_0_0_1_n_n none a b (ix2 i j)).trans ?_
  rw [← Equiv.sum_comp (contrEquiv1 dot_S5x12800_S12800x256_S5x256_1_0_0_1_n_n 12800 rfl rfl).symm]
  refine Finset.sum_congr rfl fun l _ => ?_
  have hl : dot_S5x12800_S12800x256_S5x256_1_0_0_1_n_n.lhsIdx (ix2 i j) ((contrEquiv1 dot_S5x12800_S12800x256_S5x256_1_0_0_1_n_n 12800 rfl rfl).symm l) = ix2 i l := by
    funext ax; apply Fin.ext
    match ax with
    | ⟨0, _⟩ => exact blockDot_lhs_row _ _
    | ⟨1, _⟩ => exact (blockDot_lhs_contracted _ _).trans (contrEquiv1_symm_val dot_S5x12800_S12800x256_S5x256_1_0_0_1_n_n 12800 rfl rfl l)
  have hr : dot_S5x12800_S12800x256_S5x256_1_0_0_1_n_n.rhsIdx (ix2 i j) ((contrEquiv1 dot_S5x12800_S12800x256_S5x256_1_0_0_1_n_n 12800 rfl rfl).symm l) = ix2 l j := by
    funext ax; apply Fin.ext
    match ax with
    | ⟨0, _⟩ => exact (blockDot_rhs_contracted _ _).trans (contrEquiv1_symm_val dot_S5x12800_S12800x256_S5x256_1_0_0_1_n_n 12800 rfl rfl l)
    | ⟨1, _⟩ => exact blockDot_rhs_column _ _
  rw [hl, hr]

/-- The update: what the accumulator held plus the product of the two blocks. -/
theorem pay2_apply (x0 : Vec Ideal S5x12800 .f32) (x1 : Vec Ideal S12800x256 .f32) (xs : Vec Ideal S5x256 .f32) (i : Fin 5) (j : Fin 256) :
    k0_pay2 x0 x1 xs (ix2 i j) = xs (ix2 i j) + ∑ l : Fin 12800, x0 (ix2 i l) * x1 (ix2 l j) := by
  unfold k0_pay2
  rw [shapeCast_self, shapeCast_self]
  refine congrArg (xs (ix2 i j) + ·) ?_
  exact blockProduct_apply _ _ i j

/-- The copy-out adds a leading unit axis: the output block at (0, i, j) is the accumulator at (i, j). -/
theorem pay3_apply (v : Vec F S5x256 .f32) (u : Fin 1) (i : Fin 5) (j : Fin 256) :
    k0_pay3 v (ix3 u i j) = v (ix2 i j) := by
  unfold k0_pay3
  exact shapeCast_ab_1ab_apply v shapeCasts_S5x256_S1x5x256 u i j

/-! ## The blocks as parts of the arrays, and the state from point to point -/

section Points

variable (V : (c : Dev nD) → (b : Ref sig .tc) → Buf (Elt F) ((c : Thread nD τ).loc b))

/-- The two input arrays as the region finds them, and their blocks at a point, at their literal types. -/
abbrev rowsOf (c : Dev nD) : Vec F S5x102400 .f32 := V c main_v23
abbrev weightsOf (c : Dev nD) : Vec F S102400x256 .f32 := V c main_arg7
abbrev rowsBlk (c : Dev nD) (t : Fin cfg0.N) : Vec F S5x12800 .f32 := iblk V c 0 t
abbrev weightsBlk (c : Dev nD) (t : Fin cfg0.N) : Vec F S12800x256 .f32 := iblk V c 1 t

/-- The block indices over the grid: at point t the rows' block is column block t, the weights' block is row block t,
    and the output's block is the group t / 4. -/
theorem index_facts : ∀ t : Fin cfg0.N,
    win0_0.index t (0 : Fin 2) = 0 ∧ win0_0.index t (1 : Fin 2) = t.val
    ∧ win0_1.index t (0 : Fin 2) = t.val ∧ win0_1.index t (1 : Fin 2) = 0
    ∧ win0_2.index t (0 : Fin 3) = t.val / 4 ∧ win0_2.index t (1 : Fin 3) = 0 ∧ win0_2.index t (2 : Fin 3) = 0 :=
  (by decide +kernel : ∀ t : Fin grid0.N, _)

/-- The rows' block at point t holds columns 12800 t … 12800 t + 12799 of the rows. -/
theorem rowsBlk_apply (c : Dev nD) (t : Fin cfg0.N) (i : Fin 5) (l : Fin 12800) (k : Fin 102400)
    (hk : k.val = t.val * 12800 + l.val) : rowsBlk V c t (ix2 i l) = rowsOf V c (ix2 i k) := by
  obtain ⟨e0, e1, -⟩ := index_facts t
  unfold rowsBlk rowsOf iblk
  rw [View.read_apply]
  show V c main_v23 _ = V c main_v23 _
  congr 1
  funext a
  apply Fin.ext
  match a with
  | ⟨0, _⟩ => show win0_0.index t (0 : Fin 2) * S5x12800.size 0 + 1 * i.val = i.val; rw [e0]; omega
  | ⟨1, _⟩ => show win0_0.index t (1 : Fin 2) * 12800 + 1 * l.val = k.val; rw [e1, hk]; omega

/-- The weights' block at point t holds rows 12800 t … 12800 t + 12799 of the weights. -/
theorem weightsBlk_apply (c : Dev nD) (t : Fin cfg0.N) (l : Fin 12800) (j : Fin 256) (k : Fin 102400)
    (hk : k.val = t.val * 12800 + l.val) : weightsBlk V c t (ix2 l j) = weightsOf V c (ix2 k j) := by
  obtain ⟨-, -, e2, e3, -⟩ := index_facts t
  unfold weightsBlk weightsOf iblk
  rw [View.read_apply]
  show V c main_arg7 _ = V c main_arg7 _
  congr 1
  funext a
  apply Fin.ext
  match a with
  | ⟨0, _⟩ => show win0_1.index t (0 : Fin 2) * 12800 + 1 * l.val = k.val; rw [e2, hk]; omega
  | ⟨1, _⟩ => show win0_1.index t (1 : Fin 2) * 256 + 1 * j.val = j.val; rw [e3]; omega

/-- The accumulator after the first point of a group: the product of that point's blocks added onto the reset value. -/
theorem acc_first (c : Dev nD) (n : ℕ) (h : n < cfg0.N) (h0 : n % 4 = 0) :
    (pointState V c n h).2 = k0_pay2 (rowsBlk V c ⟨n, h⟩) (weightsBlk V c ⟨n, h⟩) (k0_pay1 (F := F)) := by
  rw [pointState_first V c ⟨n, h⟩ h0]
  dsimp only
  exact accAfterFirst_eq (F := F) c (grid0.coords ⟨n, h⟩) (msRows ⟨n, h⟩) (hsRows ⟨n, h⟩) (msWeights ⟨n, h⟩) (hsWeights ⟨n, h⟩) (msOut ⟨n, h⟩) (hsOut ⟨n, h⟩) acc (Memref.isWhole_whole _) ((condFirst_iff ⟨n, h⟩).mpr h0) (notLast_of_first ⟨n, h⟩ h0) (iblk V c 0 ⟨n, h⟩) (iblk V c 1 ⟨n, h⟩)

/-- The accumulator after any other point: the product of that point's blocks added onto what the point before left. -/
theorem acc_step (c : Dev nD) (n : ℕ) (h : n + 1 < cfg0.N) (h0 : ¬(n + 1) % 4 = 0) :
    (pointState V c (n + 1) h).2
      = k0_pay2 (rowsBlk V c ⟨n + 1, h⟩) (weightsBlk V c ⟨n + 1, h⟩) (pointState V c n (Nat.lt_of_succ_lt h)).2 := by
  by_cases h3 : (n + 1) % 4 = 3
  · rw [pointState_last V c ⟨n + 1, h⟩ h0 h3]
    dsimp only
    exact accAfterLast_eq (F := F) c (grid0.coords ⟨n + 1, h⟩) (msRows ⟨n + 1, h⟩) (hsRows ⟨n + 1, h⟩) (msWeights ⟨n + 1, h⟩) (hsWeights ⟨n + 1, h⟩) (msOut ⟨n + 1, h⟩) (hsOut ⟨n + 1, h⟩) acc (Memref.isWhole_whole _) (notFirst_of ⟨n + 1, h⟩ h0) ((condLast_iff ⟨n + 1, h⟩).mpr h3) (iblk V c 0 ⟨n + 1, h⟩) (iblk V c 1 ⟨n + 1, h⟩) (pointState V c n (Nat.lt_of_succ_lt h)).2
  · rw [pointState_mid V c ⟨n + 1, h⟩ h0 h3]
    dsimp only
    exact accAfterMid_eq (F := F) c (grid0.coords ⟨n + 1, h⟩) (msRows ⟨n + 1, h⟩) (hsRows ⟨n + 1, h⟩) (msWeights ⟨n + 1, h⟩) (hsWeights ⟨n + 1, h⟩) (msOut ⟨n + 1, h⟩) (hsOut ⟨n + 1, h⟩) acc (Memref.isWhole_whole _) (notFirst_of ⟨n + 1, h⟩ h0) (notLast_of ⟨n + 1, h⟩ h3) (iblk V c 0 ⟨n + 1, h⟩) (iblk V c 1 ⟨n + 1, h⟩) (pointState V c n (Nat.lt_of_succ_lt h)).2

/-- The output block after the last point of a group: the accumulator as that point leaves it, under a leading unit axis. -/
theorem out_last (c : Dev nD) (n : ℕ) (h : n + 1 < cfg0.N) (h0 : ¬(n + 1) % 4 = 0) (h3 : (n + 1) % 4 = 3) :
    (pointState V c (n + 1) h).1 = k0_pay3 (pointState V c (n + 1) h).2 := by
  rw [acc_step V c n h h0, pointState_last V c ⟨n + 1, h⟩ h0 h3]
  dsimp only
  exact outAfterLast_eq (F := F) c (grid0.coords ⟨n + 1, h⟩) (msRows ⟨n + 1, h⟩) (hsRows ⟨n + 1, h⟩) (msWeights ⟨n + 1, h⟩) (hsWeights ⟨n + 1, h⟩) (msOut ⟨n + 1, h⟩) (hsOut ⟨n + 1, h⟩) acc (Memref.isWhole_whole _) (notFirst_of ⟨n + 1, h⟩ h0) ((condLast_iff ⟨n + 1, h⟩).mpr h3) (iblk V c 0 ⟨n + 1, h⟩) (iblk V c 1 ⟨n + 1, h⟩) (pointState V c n (Nat.lt_of_succ_lt h)).2

end Points

/-! ## The result, over the extended reals

Each point adds to the accumulator the product of its two blocks: at (i, j) the sum over the 12800 columns of the rows
that the point's block holds. After the four points of a group the accumulator, and the output block copied from it,
hold the sum over the group's 4 × 12800 columns. The two groups' output blocks tile the result array. -/

section AtIdeal

variable (V : (c : Dev nD) → (b : Ref sig .tc) → Buf (Elt Ideal) ((c : Thread nD τ).loc b))

/-- The two input arrays as the region finds them, as vectors of extended reals. -/
abbrev rowsArr (c : Dev nD) : FVec Ideal S5x102400 .f32 := V c main_v23
abbrev weightsArr (c : Dev nD) : FVec Ideal S102400x256 .f32 := V c main_arg7
/-- The output array after the region's last point. -/
abbrev outArr (c : Dev nD) : FVec Ideal S2x5x256 .f32 := (dat (F := Ideal) V c).arrAt 2 cfg0.N

theorem idx_lt (c' : Fin 2) (k : Fin 4) (l : Fin 12800) : (4 * c'.val + k.val) * 12800 + l.val < 102400 := by omega

/-- What point n adds at (i, j): the products over the 12800 columns of its blocks (nothing past the grid). -/
def contrib (c : Dev nD) (n : ℕ) (i : Fin 5) (j : Fin 256) : EReal :=
  if h : n < 8 then
    ∑ l : Fin 12800, rowsArr V c (ix2 i ⟨n * 12800 + l.val, by omega⟩) * weightsArr V c (ix2 ⟨n * 12800 + l.val, by omega⟩ j)
  else 0

/-- The product of point n's two blocks at (i, j) is that point's contribution. -/
theorem block_sum (c : Dev nD) (n : ℕ) (h : n < cfg0.N) (i : Fin 5) (j : Fin 256) :
    ∑ l : Fin 12800, rowsBlk V c ⟨n, h⟩ (ix2 i l) * weightsBlk V c ⟨n, h⟩ (ix2 l j) = contrib V c n i j := by
  have hN : cfg0.N = 8 := N_0
  have h8 : n < 8 := by omega
  unfold contrib
  rw [dif_pos h8]
  refine Finset.sum_congr rfl fun l _ => ?_
  exact congrArg₂ (· * ·) (rowsBlk_apply V c ⟨n, h⟩ i l ⟨n * 12800 + l.val, by omega⟩ rfl)
    (weightsBlk_apply V c ⟨n, h⟩ l j ⟨n * 12800 + l.val, by omega⟩ rfl)

/-- THE INVARIANT: after the point at offset k of group q the accumulator holds, at (i, j), the contributions of the
    group's points up to that one. By induction on the offset. -/
theorem acc_apply (c : Dev nD) (q : ℕ) : ∀ (k : ℕ) (hk : k < 4) (h : 4 * q + k < cfg0.N) (i : Fin 5) (j : Fin 256),
    (pointState V c (4 * q + k) h).2 (ix2 i j) = ∑ s ∈ Finset.range (k + 1), contrib V c (4 * q + s) i j
  | 0, _, h, i, j => by
    rw [Finset.sum_range_one]
    refine (congrFun (acc_first V c (4 * q + 0) h (by omega)) (ix2 i j)).trans ?_
    refine (pay2_apply _ _ _ i j).trans ?_
    rw [pay1_apply, zero_add]
    exact block_sum V c (4 * q + 0) h i j
  | k + 1, hk, h, i, j => by
    rw [Finset.sum_range_succ]
    refine (congrFun (acc_step V c (4 * q + k) h (by omega)) (ix2 i j)).trans ?_
    refine (pay2_apply _ _ _ i j).trans ?_
    rw [acc_apply c q k (by omega) (Nat.lt_of_succ_lt h) i j]
    exact congrArg _ (block_sum V c (4 * q + (k + 1)) h i j)

/-- The same at any point n: its group is n / 4, its offset n % 4. -/
theorem acc_apply_mod (c : Dev nD) (n : ℕ) (h : n < cfg0.N) (i : Fin 5) (j : Fin 256) :
    (pointState V c n h).2 (ix2 i j) = ∑ s ∈ Finset.range (n % 4 + 1), contrib V c (4 * (n / 4) + s) i j := by
  have same : ∀ (u : ℕ) (hu : u < cfg0.N), u = n → (pointState V c u hu).2 = (pointState V c n h).2 :=
    fun u hu e => by subst e; rfl
  have h' : 4 * (n / 4) + n % 4 < cfg0.N := by rw [Nat.div_add_mod]; exact h
  rw [← same _ h' (Nat.div_add_mod n 4)]
  exact acc_apply V c (n / 4) (n % 4) (Nat.mod_lt n (by decide)) h' i j

/-- The result array's entry at (c', i, j): the sum over the four points of group c' and over each point's 12800 columns. -/
def resultAt (c : Dev nD) (c' : Fin 2) (i : Fin 5) (j : Fin 256) : EReal :=
  ∑ k : Fin 4, ∑ l : Fin 12800,
    rowsArr V c (ix2 i ⟨(4 * c'.val + k.val) * 12800 + l.val, idx_lt c' k l⟩)
      * weightsArr V c (ix2 ⟨(4 * c'.val + k.val) * 12800 + l.val, idx_lt c' k l⟩ j)

/-- The result array. -/
def result (c : Dev nD) : S2x5x256.Idx → EReal := fun y => resultAt V c (y 0) (y 1) (y 2)

/-- A group's four contributions are the result's entry. -/
theorem contrib_sum (c : Dev nD) (c' : Fin 2) (i : Fin 5) (j : Fin 256) :
    ∑ s ∈ Finset.range (3 + 1), contrib V c (4 * c'.val + s) i j = resultAt V c c' i j := by
  rw [Finset.sum_range]
  unfold resultAt
  refine Finset.sum_congr rfl fun k _ => ?_
  unfold contrib
  rw [dif_pos (by omega : 4 * c'.val + k.val < 8)]

/-- The output block after the last point of a group, at (0, i, j), is the result's entry (group, i, j). -/
theorem out_apply (c : Dev nD) (t : Fin cfg0.N) (h3 : t.val % 4 = 3) (u : Fin 1) (i : Fin 5) (j : Fin 256) (c' : Fin 2)
    (hc' : c'.val = t.val / 4) : (pointState V c t.val t.isLt).1 (ix3 u i j) = resultAt V c c' i j := by
  obtain ⟨n, hn⟩ := t
  cases n with
  | zero => exact absurd (show (0 : ℕ) % 4 = 3 from h3) (by decide)
  | succ n =>
    have h0 : ¬(n + 1) % 4 = 0 := fun e => by have : (n + 1) % 4 = 3 := h3; omega
    refine (congrFun (out_last V c n hn h0 h3) (ix3 u i j)).trans ?_
    refine (pay3_apply _ u i j).trans ?_
    refine (acc_apply_mod V c (n + 1) hn i j).trans ?_
    have e3 : (n + 1) % 4 = 3 := h3
    have ec : (n + 1) / 4 = c'.val := hc'.symm
    rw [e3, ec]
    exact contrib_sum V c c' i j

/-- What a copying-out point writes back is its block of the result array. -/
theorem flushed_eq (c : Dev nD) (t : Fin cfg0.N) (hf : (cfg0.win 2).flush t = true) :
    (dat V c).flushed 2 t = ((cfg0.win 2).blk t).view.read (Elt Ideal) (result V c) := by
  have h3 : t.val % 4 = 3 := (flush0_2 t).mp hf
  obtain ⟨-, -, -, -, e4, e5, e6⟩ := index_facts t
  show (cfg0.win 2).cut (grid0.coords t) ((dat V c).after 2 t) = _
  rw [after_out]
  funext y
  show (pointState V c t.val t.isLt).1 y = result V c (((cfg0.win 2).blk t).view.emb y)
  have hy : (y : S1x5x256.Idx) = ix3 (y 0) (y 1) (y 2) := eq_ix3 y
  have hu : (y 0).val < 1 := (y 0).isLt
  have hN : cfg0.N = 8 := N_0
  have ht : t.val < 8 := by have := t.isLt; omega
  rw [hy]
  refine (out_apply V c t h3 (y 0) (y 1) (y 2) ⟨t.val / 4, by omega⟩ rfl).trans ?_
  unfold result
  refine congr (congr (congrArg (resultAt V c) (Fin.ext ?_)) (Fin.ext ?_)) (Fin.ext ?_)
  · show t.val / 4 = win0_2.index t (0 : Fin 3) * 1 + 1 * (y 0).val
    rw [e4]; omega
  · show (y 1).val = win0_2.index t (1 : Fin 3) * S1x5x256.size 1 + 1 * (y 1).val
    rw [e5]; omega
  · show (y 2).val = win0_2.index t (2 : Fin 3) * 256 + 1 * (y 2).val
    rw [e6]; omega

/-- An entry of the result array is in the block of point t iff each coordinate is in the block's range on its axis. -/
theorem mem_blk (t : Fin cfg0.N) (y : S2x5x256.Idx) :
    y ∈ ((cfg0.win 2).blk t).view.set
      ↔ ∀ a : Fin 3, win0_2.index t a * S1x5x256.size a ≤ (y a).val ∧ (y a).val < win0_2.index t a * S1x5x256.size a + S1x5x256.size a := by
  show y ∈ ((View.whole main_v40).slice (win0_2.rect t)).set ↔ _
  rw [View.set_slice_whole, Rect.mem_set_unit]
  exact Iff.rfl

/-- Every entry of the result array is in the block some copying-out point writes back: the last point of its group. -/
theorem cover (y : S2x5x256.Idx) :
    ∃ t : Fin cfg0.N, (cfg0.win 2).flush t = true ∧ y ∈ ((cfg0.win 2).blk t).view.set := by
  have hN : grid0.N = 8 := N_0
  have h0 : (y 0 : ℕ) < 2 := (y 0).isLt
  have h1 : (y 1 : ℕ) < S1x5x256.size 1 := (y 1).isLt
  have h2 : (y 2 : ℕ) < 256 := (y 2).isLt
  have hb : 4 * (y 0 : ℕ) + 3 < grid0.N := by omega
  refine ⟨⟨4 * (y 0 : ℕ) + 3, hb⟩, (flush0_2 _).mpr (by show (4 * (y 0 : ℕ) + 3) % 4 = 3; omega), ?_⟩
  obtain ⟨-, -, -, -, e4, e5, e6⟩ := index_facts ⟨4 * (y 0 : ℕ) + 3, hb⟩
  rw [mem_blk]
  intro a
  match a with
  | ⟨0, _⟩ =>
    show win0_2.index _ (0 : Fin 3) * 1 ≤ (y 0 : ℕ) ∧ (y 0 : ℕ) < win0_2.index _ (0 : Fin 3) * 1 + 1
    rw [e4]
    show (4 * (y 0 : ℕ) + 3) / 4 * 1 ≤ (y 0 : ℕ) ∧ (y 0 : ℕ) < (4 * (y 0 : ℕ) + 3) / 4 * 1 + 1
    omega
  | ⟨1, _⟩ =>
    show win0_2.index _ (1 : Fin 3) * S1x5x256.size 1 ≤ (y 1 : ℕ) ∧ (y 1 : ℕ) < win0_2.index _ (1 : Fin 3) * S1x5x256.size 1 + S1x5x256.size 1
    rw [e5]; omega
  | ⟨2, _⟩ =>
    show win0_2.index _ (2 : Fin 3) * 256 ≤ (y 2 : ℕ) ∧ (y 2 : ℕ) < win0_2.index _ (2 : Fin 3) * 256 + 256
    rw [e6]; omega

/-- So the result array ends holding `result`. -/
theorem final (c : Dev nD) : (dat V c).arrAt 2 cfg0.N = result V c :=
  (dat V c).arrAt_eq_of_cover 2 (result V c) (flushed_eq V c) cover

/-- THE RESULT at an index: entry (c', i, j) of the output is the sum, over the four points k of group c' and the 12800
    columns l of each point's blocks, of the row entry (i, column) times the weight entry (column, j), the column being
    (4 c' + k) · 12800 + l. -/
theorem result_apply (c : Dev nD) (c' : Fin 2) (i : Fin 5) (j : Fin 256) :
    outArr V c (ix3 c' i j)
      = ∑ k : Fin 4, ∑ l : Fin 12800,
          rowsArr V c (ix2 i ⟨(4 * c'.val + k.val) * 12800 + l.val, idx_lt c' k l⟩)
            * weightsArr V c (ix2 ⟨(4 * c'.val + k.val) * 12800 + l.val, idx_lt c' k l⟩ j) :=
  (congrFun (final V c) (ix3 c' i j)).trans rfl

end AtIdeal

end Cert.KernelIdeal.Agg0

end
-- ==== Proof.KernelIdeal.Agg1.Value.lean ====
/-
  The second aggregation kernel's value. The grid has two groups of four points. At each point the body adds to an
  accumulator the product of a block of the attention rows (12800 of their columns) by the matching block of the
  weights (the same 12800 rows); the first point of a group resets the accumulator before adding, the last copies it
  into the group's output block. Read over the extended reals, where the narrowing before the product is the identity
  and a product into a zero accumulator is a plain sum, entry (c', i, j) of the output is therefore

      ∑ k < 4, ∑ l < 12800,  rows (i, (4 c' + k) · 12800 + l) · weights ((4 c' + k) · 12800 + l, j).

  The steps: what each case's stores leave is the body's arithmetic of the staged blocks; that arithmetic at an index;
  a block's entry is the array's entry at block index × block size + the coordinate inside the block; the
  accumulator's contents by induction on the offset inside a group; the two copied-out blocks tile the output.
-/
import proofs.«405879_j31396210934416_2_alg».proof.Proof.KernelIdeal.Agg1.Data
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Agg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

/-! ## What each case's stores leave, as the body's arithmetic of the staged blocks -/

theorem hz2 : (![0, 0] : Fin 2 → Nat) = fun _ => 0 := funext fun a => by fin_cases a <;> rfl
theorem hz3 : (![0, 0, 0] : Fin 3 → Nat) = fun _ => 0 := funext fun a => by fin_cases a <;> rfl

/-- A first point resets the accumulator and adds the product of its two blocks onto the reset value. -/
theorem accAfterFirst_eq (c : Dev nD) (i : grid1.Coords) (arg2 : Memref sig .tc .vmem S3x12800 .f32) (harg2 : arg2.IsWhole) (arg3 : Memref sig .tc .vmem S12800x256 .f32) (harg3 : arg3.IsWhole) (arg4 : Memref sig .tc .vmem S1x3x256 .f32) (harg4 : arg4.IsWhole) (arg5 : Memref sig .tc .vmem S3x256 .f32) (harg5 : arg5.IsWhole) (hc1 : condFirst i) (hc2 : ¬condLast i)
    (x0 : Vec F S3x12800 .f32) (x1 : Vec F S12800x256 .f32) :
    accAfterFirst c i arg2 harg2 arg3 harg3 arg4 harg4 arg5 harg5 hc1 hc2 x0 x1 = k1_pay2 x0 x1 (k1_pay1 (F := F)) := by
  unfold accAfterFirst
  rw [View.read_writes_eq_canon _ _ _ (coverAccFirst c i arg2 harg2 arg3 harg3 arg4 harg4 arg5 harg5 hc1 hc2 x0 x1)]
  unfold runFirst
  dsimp only
  sl_unfold_words
  rw [View.canon_cons_unit_zero (S := S3x256) hz2, View.readCov_unit_zero (S := S3x256) _ hz2]
  simp only [View.readAt_eq_ld, harg2.read_unread, harg3.read_unread, View.ld_unit_zero (S := S3x12800) hz2, View.ld_unit_zero (S := S12800x256) hz2]

/-- A middle point adds the product of its two blocks onto what the accumulator held. -/
theorem accAfterMid_eq (c : Dev nD) (i : grid1.Coords) (arg2 : Memref sig .tc .vmem S3x12800 .f32) (harg2 : arg2.IsWhole) (arg3 : Memref sig .tc .vmem S12800x256 .f32) (harg3 : arg3.IsWhole) (arg4 : Memref sig .tc .vmem S1x3x256 .f32) (harg4 : arg4.IsWhole) (arg5 : Memref sig .tc .vmem S3x256 .f32) (harg5 : arg5.IsWhole) (hc1 : ¬condFirst i) (hc2 : ¬condLast i)
    (x0 : Vec F S3x12800 .f32) (x1 : Vec F S12800x256 .f32) (xs : Vec F S3x256 .f32) :
    accAfterMid c i arg2 harg2 arg3 harg3 arg4 harg4 arg5 harg5 hc1 hc2 x0 x1 xs = k1_pay2 x0 x1 xs := by
  unfold accAfterMid
  rw [View.read_writes_eq_canon _ _ _ (coverAccMid c i arg2 harg2 arg3 harg3 arg4 harg4 arg5 harg5 hc1 hc2 x0 x1 xs)]
  unfold runMid
  dsimp only
  sl_unfold_words
  rw [View.canon_unit_zero hz2]
  simp only [View.readAt_eq_ld, harg2.read_unread, harg3.read_unread, harg5.read_unread, View.ld_unit_zero (S := S3x12800) hz2, View.ld_unit_zero (S := S12800x256) hz2, View.ld_unit_zero (S := S3x256) hz2]

/-- So does a last point, -/
theorem accAfterLast_eq (c : Dev nD) (i : grid1.Coords) (arg2 : Memref sig .tc .vmem S3x12800 .f32) (harg2 : arg2.IsWhole) (arg3 : Memref sig .tc .vmem S12800x256 .f32) (harg3 : arg3.IsWhole) (arg4 : Memref sig .tc .vmem S1x3x256 .f32) (harg4 : arg4.IsWhole) (arg5 : Memref sig .tc .vmem S3x256 .f32) (harg5 : arg5.IsWhole) (hc1 : ¬condFirst i) (hc2 : condLast i)
    (x0 : Vec F S3x12800 .f32) (x1 : Vec F S12800x256 .f32) (xs : Vec F S3x256 .f32) :
    accAfterLast c i arg2 harg2 arg3 harg3 arg4 harg4 arg5 harg5 hc1 hc2 x0 x1 xs = k1_pay2 x0 x1 xs := by
  unfold accAfterLast
  rw [View.read_writes_eq_canon _ _ _ (coverAccLast c i arg2 harg2 arg3 harg3 arg4 harg4 arg5 harg5 hc1 hc2 x0 x1 xs)]
  unfold runLast
  dsimp only
  sl_unfold_words
  rw [View.canon_unit_zero hz2]
  simp only [View.readAt_eq_ld, harg2.read_unread, harg3.read_unread, harg5.read_unread, View.ld_unit_zero (S := S3x12800) hz2, View.ld_unit_zero (S := S12800x256) hz2, View.ld_unit_zero (S := S3x256) hz2]

/-- which then copies the accumulator, with a leading unit axis, into the output block. -/
theorem outAfterLast_eq (c : Dev nD) (i : grid1.Coords) (arg2 : Memref sig .tc .vmem S3x12800 .f32) (harg2 : arg2.IsWhole) (arg3 : Memref sig .tc .vmem S12800x256 .f32) (harg3 : arg3.IsWhole) (arg4 : Memref sig .tc .vmem S1x3x256 .f32) (harg4 : arg4.IsWhole) (arg5 : Memref sig .tc .vmem S3x256 .f32) (harg5 : arg5.IsWhole) (hc1 : ¬condFirst i) (hc2 : condLast i)
    (x0 : Vec F S3x12800 .f32) (x1 : Vec F S12800x256 .f32) (xs : Vec F S3x256 .f32) :
    outAfterLast c i arg2 harg2 arg3 harg3 arg4 harg4 arg5 harg5 hc1 hc2 x0 x1 xs = k1_pay3 (k1_pay2 x0 x1 xs) := by
  unfold outAfterLast
  rw [View.read_writes_eq_canon _ _ _ (coverOutLast c i arg2 harg2 arg3 harg3 arg4 harg4 arg5 harg5 hc1 hc2 x0 x1 xs)]
  unfold runLast
  dsimp only
  sl_unfold_words
  rw [View.canon_unit_zero hz3]
  simp only [View.readAt_eq_ld, harg2.read_unread, harg3.read_unread, harg5.read_unread, View.ld_unit_zero (S := S3x12800) hz2, View.ld_unit_zero (S := S12800x256) hz2, View.ld_unit_zero (S := S3x256) hz2, View.readCov_unit_zero (S := S3x256) _ hz2]

/-! ## The body's arithmetic at an index, over the extended reals

At the ideal instance a float is an extended real, the narrowing to the multiplier's input format is the identity, and a
product into a zero accumulator is the plain sum over the contracted coordinate. -/

/-- The reset value is zero at every index. -/
theorem pay1_apply (i : Fin 3) (j : Fin 256) : (k1_pay1 (F := Ideal)) (ix2 i j) = 0 := by
  unfold k1_pay1
  rw [shapeCast_self]
  exact Ideal.ofBits_zero_f32

/-- The left operand of the block product is read at the result's row … -/
theorem blockDot_lhs_row (j : S3x256.Idx) (k : dot_S3x12800_S12800x256_S3x256_1_0_0_1_n_n.contr.Idx) :
    (dot_S3x12800_S12800x256_S3x256_1_0_0_1_n_n.lhsIdx j k 0).val = (j 0).val := by
  unfold DotDims.lhsIdx
  rw [dif_neg (show ¬(0 : Fin S3x12800.rank) ∈ dot_S3x12800_S12800x256_S3x256_1_0_0_1_n_n.lhsBatch by decide),
    dif_pos (show (0 : Fin S3x12800.rank) ∈ dot_S3x12800_S12800x256_S3x256_1_0_0_1_n_n.lhsNonContracting by decide)]
  rfl
/-- … and the contracted coordinate; -/
theorem blockDot_lhs_contracted (j : S3x256.Idx) (k : dot_S3x12800_S12800x256_S3x256_1_0_0_1_n_n.contr.Idx) :
    (dot_S3x12800_S12800x256_S3x256_1_0_0_1_n_n.lhsIdx j k 1).val = (k ⟨0, by decide⟩).val :=
  dot_S3x12800_S12800x256_S3x256_1_0_0_1_n_n.lhsIdx_val_of_single rfl j k
/-- the right operand at the contracted coordinate … -/
theorem blockDot_rhs_contracted (j : S3x256.Idx) (k : dot_S3x12800_S12800x256_S3x256_1_0_0_1_n_n.contr.Idx) :
    (dot_S3x12800_S12800x256_S3x256_1_0_0_1_n_n.rhsIdx j k 0).val = (k ⟨0, by decide⟩).val :=
  dot_S3x12800_S12800x256_S3x256_1_0_0_1_n_n.rhsIdx_val_of_single rfl j k
/-- … and the result's column. -/
theorem blockDot_rhs_column (j : S3x256.Idx) (k : dot_S3x12800_S12800x256_S3x256_1_0_0_1_n_n.contr.Idx) :
    (dot_S3x12800_S12800x256_S3x256_1_0_0_1_n_n.rhsIdx j k 1).val = (j 1).val := by
  unfold DotDims.rhsIdx
  rw [dif_neg (show ¬(1 : Fin S12800x256.rank) ∈ dot_S3x12800_S12800x256_S3x256_1_0_0_1_n_n.rhsBatch by decide),
    dif_pos (show (1 : Fin S12800x256.rank) ∈ dot_S3x12800_S12800x256_S3x256_1_0_0_1_n_n.rhsNonContracting by decide)]
  rfl

/-- The product of a block of rows by a block of weights into a zero accumulator, at (i, j): the sum over the
    12800 contracted positions of the products of the entries. -/
theorem blockProduct_apply (a : FVec Ideal S3x12800 .bf16) (b : FVec Ideal S12800x256 .bf16) (i : Fin 3) (j : Fin 256) :
    matmul dot_S3x12800_S12800x256_S3x256_1_0_0_1_n_n none a b (constant (F := Ideal) S3x256 .f32 0x00000000#32) (ix2 i j)
      = ∑ l : Fin 12800, a (ix2 i l) * b (ix2 l j) := by
  refine (Ideal.matmul_constant_zero_apply dot_S3x12800_S12800x256_S3x256_1_0_0_1_n_n none a b (ix2 i j)).trans ?_
  rw [← Equiv.sum_comp (contrEquiv1 dot_S3x12800_S12800x256_S3x256_1_0_0_1_n_n 12800 rfl rfl).symm]
  refine Finset.sum_congr rfl fun l _ => ?_
  have hl : dot_S3x12800_S12800x256_S3x256_1_0_0_1_n_n.lhsIdx (ix2 i j) ((contrEquiv1 dot_S3x12800_S12800x256_S3x256_1_0_0_1_n_n 12800 rfl rfl).symm l) = ix2 i l := by
    funext ax; apply Fin.ext
    match ax with
    | ⟨0, _⟩ => exact blockDot_lhs_row _ _
    | ⟨1, _⟩ => exact (blockDot_lhs_contracted _ _).trans (contrEquiv1_symm_val dot_S3x12800_S12800x256_S3x256_1_0_0_1_n_n 12800 rfl rfl l)
  have hr : dot_S3x12800_S12800x256_S3x256_1_0_0_1_n_n.rhsIdx (ix2 i j) ((contrEquiv1 dot_S3x12800_S12800x256_S3x256_1_0_0_1_n_n 12800 rfl rfl).symm l) = ix2 l j := by
    funext ax; apply Fin.ext
    match ax with
    | ⟨0, _⟩ => exact (blockDot_rhs_contracted _ _).trans (contrEquiv1_symm_val dot_S3x12800_S12800x256_S3x256_1_0_0_1_n_n 12800 rfl rfl l)
    | ⟨1, _⟩ => exact blockDot_rhs_column _ _
  rw [hl, hr]

/-- The update: what the accumulator held plus the product of the two blocks. -/
theorem pay2_apply (x0 : Vec Ideal S3x12800 .f32) (x1 : Vec Ideal S12800x256 .f32) (xs : Vec Ideal S3x256 .f32) (i : Fin 3) (j : Fin 256) :
    k1_pay2 x0 x1 xs (ix2 i j) = xs (ix2 i j) + ∑ l : Fin 12800, x0 (ix2 i l) * x1 (ix2 l j) := by
  unfold k1_pay2
  rw [shapeCast_self, shapeCast_self]
  refine congrArg (xs (ix2 i j) + ·) ?_
  exact blockProduct_apply _ _ i j

/-- The copy-out adds a leading unit axis: the output block at (0, i, j) is the accumulator at (i, j). -/
theorem pay3_apply (v : Vec F S3x256 .f32) (u : Fin 1) (i : Fin 3) (j : Fin 256) :
    k1_pay3 v (ix3 u i j) = v (ix2 i j) := by
  unfold k1_pay3
  exact shapeCast_ab_1ab_apply v shapeCasts_S3x256_S1x3x256 u i j

/-! ## The blocks as parts of the arrays, and the state from point to point -/

section Points

variable (V : (c : Dev nD) → (b : Ref sig .tc) → Buf (Elt F) ((c : Thread nD τ).loc b))

/-- The two input arrays as the region finds them, and their blocks at a point, at their literal types. -/
abbrev rowsOf (c : Dev nD) : Vec F S3x102400 .f32 := V c main_v39
abbrev weightsOf (c : Dev nD) : Vec F S102400x256 .f32 := V c main_arg8
abbrev rowsBlk (c : Dev nD) (t : Fin cfg1.N) : Vec F S3x12800 .f32 := iblk V c 0 t
abbrev weightsBlk (c : Dev nD) (t : Fin cfg1.N) : Vec F S12800x256 .f32 := iblk V c 1 t

/-- The block indices over the grid: at point t the rows' block is column block t, the weights' block is row block t,
    and the output's block is the group t / 4. -/
theorem index_facts : ∀ t : Fin cfg1.N,
    win1_0.index t (0 : Fin 2) = 0 ∧ win1_0.index t (1 : Fin 2) = t.val
    ∧ win1_1.index t (0 : Fin 2) = t.val ∧ win1_1.index t (1 : Fin 2) = 0
    ∧ win1_2.index t (0 : Fin 3) = t.val / 4 ∧ win1_2.index t (1 : Fin 3) = 0 ∧ win1_2.index t (2 : Fin 3) = 0 :=
  (by decide +kernel : ∀ t : Fin grid1.N, _)

/-- The rows' block at point t holds columns 12800 t … 12800 t + 12799 of the rows. -/
theorem rowsBlk_apply (c : Dev nD) (t : Fin cfg1.N) (i : Fin 3) (l : Fin 12800) (k : Fin 102400)
    (hk : k.val = t.val * 12800 + l.val) : rowsBlk V c t (ix2 i l) = rowsOf V c (ix2 i k) := by
  obtain ⟨e0, e1, -⟩ := index_facts t
  unfold rowsBlk rowsOf iblk
  rw [View.read_apply]
  show V c main_v39 _ = V c main_v39 _
  congr 1
  funext a
  apply Fin.ext
  match a with
  | ⟨0, _⟩ => show win1_0.index t (0 : Fin 2) * S3x12800.size 0 + 1 * i.val = i.val; rw [e0]; omega
  | ⟨1, _⟩ => show win1_0.index t (1 : Fin 2) * 12800 + 1 * l.val = k.val; rw [e1, hk]; omega

/-- The weights' block at point t holds rows 12800 t … 12800 t + 12799 of the weights. -/
theorem weightsBlk_apply (c : Dev nD) (t : Fin cfg1.N) (l : Fin 12800) (j : Fin 256) (k : Fin 102400)
    (hk : k.val = t.val * 12800 + l.val) : weightsBlk V c t (ix2 l j) = weightsOf V c (ix2 k j) := by
  obtain ⟨-, -, e2, e3, -⟩ := index_facts t
  unfold weightsBlk weightsOf iblk
  rw [View.read_apply]
  show V c main_arg8 _ = V c main_arg8 _
  congr 1
  funext a
  apply Fin.ext
  match a with
  | ⟨0, _⟩ => show win1_1.index t (0 : Fin 2) * 12800 + 1 * l.val = k.val; rw [e2, hk]; omega
  | ⟨1, _⟩ => show win1_1.index t (1 : Fin 2) * 256 + 1 * j.val = j.val; rw [e3]; omega

/-- The accumulator after the first point of a group: the product of that point's blocks added onto the reset value. -/
theorem acc_first (c : Dev nD) (n : ℕ) (h : n < cfg1.N) (h0 : n % 4 = 0) :
    (pointState V c n h).2 = k1_pay2 (rowsBlk V c ⟨n, h⟩) (weightsBlk V c ⟨n, h⟩) (k1_pay1 (F := F)) := by
  rw [pointState_first V c ⟨n, h⟩ h0]
  dsimp only
  exact accAfterFirst_eq (F := F) c (grid1.coords ⟨n, h⟩) (msRows ⟨n, h⟩) (hsRows ⟨n, h⟩) (msWeights ⟨n, h⟩) (hsWeights ⟨n, h⟩) (msOut ⟨n, h⟩) (hsOut ⟨n, h⟩) acc (Memref.isWhole_whole _) ((condFirst_iff ⟨n, h⟩).mpr h0) (notLast_of_first ⟨n, h⟩ h0) (iblk V c 0 ⟨n, h⟩) (iblk V c 1 ⟨n, h⟩)

/-- The accumulator after any other point: the product of that point's blocks added onto what the point before left. -/
theorem acc_step (c : Dev nD) (n : ℕ) (h : n + 1 < cfg1.N) (h0 : ¬(n + 1) % 4 = 0) :
    (pointState V c (n + 1) h).2
      = k1_pay2 (rowsBlk V c ⟨n + 1, h⟩) (weightsBlk V c ⟨n + 1, h⟩) (pointState V c n (Nat.lt_of_succ_lt h)).2 := by
  by_cases h3 : (n + 1) % 4 = 3
  · rw [pointState_last V c ⟨n + 1, h⟩ h0 h3]
    dsimp only
    exact accAfterLast_eq (F := F) c (grid1.coords ⟨n + 1, h⟩) (msRows ⟨n + 1, h⟩) (hsRows ⟨n + 1, h⟩) (msWeights ⟨n + 1, h⟩) (hsWeights ⟨n + 1, h⟩) (msOut ⟨n + 1, h⟩) (hsOut ⟨n + 1, h⟩) acc (Memref.isWhole_whole _) (notFirst_of ⟨n + 1, h⟩ h0) ((condLast_iff ⟨n + 1, h⟩).mpr h3) (iblk V c 0 ⟨n + 1, h⟩) (iblk V c 1 ⟨n + 1, h⟩) (pointState V c n (Nat.lt_of_succ_lt h)).2
  · rw [pointState_mid V c ⟨n + 1, h⟩ h0 h3]
    dsimp only
    exact accAfterMid_eq (F := F) c (grid1.coords ⟨n + 1, h⟩) (msRows ⟨n + 1, h⟩) (hsRows ⟨n + 1, h⟩) (msWeights ⟨n + 1, h⟩) (hsWeights ⟨n + 1, h⟩) (msOut ⟨n + 1, h⟩) (hsOut ⟨n + 1, h⟩) acc (Memref.isWhole_whole _) (notFirst_of ⟨n + 1, h⟩ h0) (notLast_of ⟨n + 1, h⟩ h3) (iblk V c 0 ⟨n + 1, h⟩) (iblk V c 1 ⟨n + 1, h⟩) (pointState V c n (Nat.lt_of_succ_lt h)).2

/-- The output block after the last point of a group: the accumulator as that point leaves it, under a leading unit axis. -/
theorem out_last (c : Dev nD) (n : ℕ) (h : n + 1 < cfg1.N) (h0 : ¬(n + 1) % 4 = 0) (h3 : (n + 1) % 4 = 3) :
    (pointState V c (n + 1) h).1 = k1_pay3 (pointState V c (n + 1) h).2 := by
  rw [acc_step V c n h h0, pointState_last V c ⟨n + 1, h⟩ h0 h3]
  dsimp only
  exact outAfterLast_eq (F := F) c (grid1.coords ⟨n + 1, h⟩) (msRows ⟨n + 1, h⟩) (hsRows ⟨n + 1, h⟩) (msWeights ⟨n + 1, h⟩) (hsWeights ⟨n + 1, h⟩) (msOut ⟨n + 1, h⟩) (hsOut ⟨n + 1, h⟩) acc (Memref.isWhole_whole _) (notFirst_of ⟨n + 1, h⟩ h0) ((condLast_iff ⟨n + 1, h⟩).mpr h3) (iblk V c 0 ⟨n + 1, h⟩) (iblk V c 1 ⟨n + 1, h⟩) (pointState V c n (Nat.lt_of_succ_lt h)).2

end Points

/-! ## The result, over the extended reals

Each point adds to the accumulator the product of its two blocks: at (i, j) the sum over the 12800 columns of the rows
that the point's block holds. After the four points of a group the accumulator, and the output block copied from it,
hold the sum over the group's 4 × 12800 columns. The two groups' output blocks tile the result array. -/

section AtIdeal

variable (V : (c : Dev nD) → (b : Ref sig .tc) → Buf (Elt Ideal) ((c : Thread nD τ).loc b))

/-- The two input arrays as the region finds them, as vectors of extended reals. -/
abbrev rowsArr (c : Dev nD) : FVec Ideal S3x102400 .f32 := V c main_v39
abbrev weightsArr (c : Dev nD) : FVec Ideal S102400x256 .f32 := V c main_arg8
/-- The output array after the region's last point. -/
abbrev outArr (c : Dev nD) : FVec Ideal S2x3x256 .f32 := (dat (F := Ideal) V c).arrAt 2 cfg1.N

theorem idx_lt (c' : Fin 2) (k : Fin 4) (l : Fin 12800) : (4 * c'.val + k.val) * 12800 + l.val < 102400 := by omega

/-- What point n adds at (i, j): the products over the 12800 columns of its blocks (nothing past the grid). -/
def contrib (c : Dev nD) (n : ℕ) (i : Fin 3) (j : Fin 256) : EReal :=
  if h : n < 8 then
    ∑ l : Fin 12800, rowsArr V c (ix2 i ⟨n * 12800 + l.val, by omega⟩) * weightsArr V c (ix2 ⟨n * 12800 + l.val, by omega⟩ j)
  else 0

/-- The product of point n's two blocks at (i, j) is that point's contribution. -/
theorem block_sum (c : Dev nD) (n : ℕ) (h : n < cfg1.N) (i : Fin 3) (j : Fin 256) :
    ∑ l : Fin 12800, rowsBlk V c ⟨n, h⟩ (ix2 i l) * weightsBlk V c ⟨n, h⟩ (ix2 l j) = contrib V c n i j := by
  have hN : cfg1.N = 8 := N_1
  have h8 : n < 8 := by omega
  unfold contrib
  rw [dif_pos h8]
  refine Finset.sum_congr rfl fun l _ => ?_
  exact congrArg₂ (· * ·) (rowsBlk_apply V c ⟨n, h⟩ i l ⟨n * 12800 + l.val, by omega⟩ rfl)
    (weightsBlk_apply V c ⟨n, h⟩ l j ⟨n * 12800 + l.val, by omega⟩ rfl)

/-- THE INVARIANT: after the point at offset k of group q the accumulator holds, at (i, j), the contributions of the
    group's points up to that one. By induction on the offset. -/
theorem acc_apply (c : Dev nD) (q : ℕ) : ∀ (k : ℕ) (hk : k < 4) (h : 4 * q + k < cfg1.N) (i : Fin 3) (j : Fin 256),
    (pointState V c (4 * q + k) h).2 (ix2 i j) = ∑ s ∈ Finset.range (k + 1), contrib V c (4 * q + s) i j
  | 0, _, h, i, j => by
    rw [Finset.sum_range_one]
    refine (congrFun (acc_first V c (4 * q + 0) h (by omega)) (ix2 i j)).trans ?_
    refine (pay2_apply _ _ _ i j).trans ?_
    rw [pay1_apply, zero_add]
    exact block_sum V c (4 * q + 0) h i j
  | k + 1, hk, h, i, j => by
    rw [Finset.sum_range_succ]
    refine (congrFun (acc_step V c (4 * q + k) h (by omega)) (ix2 i j)).trans ?_
    refine (pay2_apply _ _ _ i j).trans ?_
    rw [acc_apply c q k (by omega) (Nat.lt_of_succ_lt h) i j]
    exact congrArg _ (block_sum V c (4 * q + (k + 1)) h i j)

/-- The same at any point n: its group is n / 4, its offset n % 4. -/
theorem acc_apply_mod (c : Dev nD) (n : ℕ) (h : n < cfg1.N) (i : Fin 3) (j : Fin 256) :
    (pointState V c n h).2 (ix2 i j) = ∑ s ∈ Finset.range (n % 4 + 1), contrib V c (4 * (n / 4) + s) i j := by
  have same : ∀ (u : ℕ) (hu : u < cfg1.N), u = n → (pointState V c u hu).2 = (pointState V c n h).2 :=
    fun u hu e => by subst e; rfl
  have h' : 4 * (n / 4) + n % 4 < cfg1.N := by rw [Nat.div_add_mod]; exact h
  rw [← same _ h' (Nat.div_add_mod n 4)]
  exact acc_apply V c (n / 4) (n % 4) (Nat.mod_lt n (by decide)) h' i j

/-- The result array's entry at (c', i, j): the sum over the four points of group c' and over each point's 12800 columns. -/
def resultAt (c : Dev nD) (c' : Fin 2) (i : Fin 3) (j : Fin 256) : EReal :=
  ∑ k : Fin 4, ∑ l : Fin 12800,
    rowsArr V c (ix2 i ⟨(4 * c'.val + k.val) * 12800 + l.val, idx_lt c' k l⟩)
      * weightsArr V c (ix2 ⟨(4 * c'.val + k.val) * 12800 + l.val, idx_lt c' k l⟩ j)

/-- The result array. -/
def result (c : Dev nD) : S2x3x256.Idx → EReal := fun y => resultAt V c (y 0) (y 1) (y 2)

/-- A group's four contributions are the result's entry. -/
theorem contrib_sum (c : Dev nD) (c' : Fin 2) (i : Fin 3) (j : Fin 256) :
    ∑ s ∈ Finset.range (3 + 1), contrib V c (4 * c'.val + s) i j = resultAt V c c' i j := by
  rw [Finset.sum_range]
  unfold resultAt
  refine Finset.sum_congr rfl fun k _ => ?_
  unfold contrib
  rw [dif_pos (by omega : 4 * c'.val + k.val < 8)]

/-- The output block after the last point of a group, at (0, i, j), is the result's entry (group, i, j). -/
theorem out_apply (c : Dev nD) (t : Fin cfg1.N) (h3 : t.val % 4 = 3) (u : Fin 1) (i : Fin 3) (j : Fin 256) (c' : Fin 2)
    (hc' : c'.val = t.val / 4) : (pointState V c t.val t.isLt).1 (ix3 u i j) = resultAt V c c' i j := by
  obtain ⟨n, hn⟩ := t
  cases n with
  | zero => exact absurd (show (0 : ℕ) % 4 = 3 from h3) (by decide)
  | succ n =>
    have h0 : ¬(n + 1) % 4 = 0 := fun e => by have : (n + 1) % 4 = 3 := h3; omega
    refine (congrFun (out_last V c n hn h0 h3) (ix3 u i j)).trans ?_
    refine (pay3_apply _ u i j).trans ?_
    refine (acc_apply_mod V c (n + 1) hn i j).trans ?_
    have e3 : (n + 1) % 4 = 3 := h3
    have ec : (n + 1) / 4 = c'.val := hc'.symm
    rw [e3, ec]
    exact contrib_sum V c c' i j

/-- What a copying-out point writes back is its block of the result array. -/
theorem flushed_eq (c : Dev nD) (t : Fin cfg1.N) (hf : (cfg1.win 2).flush t = true) :
    (dat V c).flushed 2 t = ((cfg1.win 2).blk t).view.read (Elt Ideal) (result V c) := by
  have h3 : t.val % 4 = 3 := (flush1_2 t).mp hf
  obtain ⟨-, -, -, -, e4, e5, e6⟩ := index_facts t
  show (cfg1.win 2).cut (grid1.coords t) ((dat V c).after 2 t) = _
  rw [after_out]
  funext y
  show (pointState V c t.val t.isLt).1 y = result V c (((cfg1.win 2).blk t).view.emb y)
  have hy : (y : S1x3x256.Idx) = ix3 (y 0) (y 1) (y 2) := eq_ix3 y
  have hu : (y 0).val < 1 := (y 0).isLt
  have hN : cfg1.N = 8 := N_1
  have ht : t.val < 8 := by have := t.isLt; omega
  rw [hy]
  refine (out_apply V c t h3 (y 0) (y 1) (y 2) ⟨t.val / 4, by omega⟩ rfl).trans ?_
  unfold result
  refine congr (congr (congrArg (resultAt V c) (Fin.ext ?_)) (Fin.ext ?_)) (Fin.ext ?_)
  · show t.val / 4 = win1_2.index t (0 : Fin 3) * 1 + 1 * (y 0).val
    rw [e4]; omega
  · show (y 1).val = win1_2.index t (1 : Fin 3) * S1x3x256.size 1 + 1 * (y 1).val
    rw [e5]; omega
  · show (y 2).val = win1_2.index t (2 : Fin 3) * 256 + 1 * (y 2).val
    rw [e6]; omega

/-- An entry of the result array is in the block of point t iff each coordinate is in the block's range on its axis. -/
theorem mem_blk (t : Fin cfg1.N) (y : S2x3x256.Idx) :
    y ∈ ((cfg1.win 2).blk t).view.set
      ↔ ∀ a : Fin 3, win1_2.index t a * S1x3x256.size a ≤ (y a).val ∧ (y a).val < win1_2.index t a * S1x3x256.size a + S1x3x256.size a := by
  show y ∈ ((View.whole main_v47).slice (win1_2.rect t)).set ↔ _
  rw [View.set_slice_whole, Rect.mem_set_unit]
  exact Iff.rfl

/-- Every entry of the result array is in the block some copying-out point writes back: the last point of its group. -/
theorem cover (y : S2x3x256.Idx) :
    ∃ t : Fin cfg1.N, (cfg1.win 2).flush t = true ∧ y ∈ ((cfg1.win 2).blk t).view.set := by
  have hN : grid1.N = 8 := N_1
  have h0 : (y 0 : ℕ) < 2 := (y 0).isLt
  have h1 : (y 1 : ℕ) < S1x3x256.size 1 := (y 1).isLt
  have h2 : (y 2 : ℕ) < 256 := (y 2).isLt
  have hb : 4 * (y 0 : ℕ) + 3 < grid1.N := by omega
  refine ⟨⟨4 * (y 0 : ℕ) + 3, hb⟩, (flush1_2 _).mpr (by show (4 * (y 0 : ℕ) + 3) % 4 = 3; omega), ?_⟩
  obtain ⟨-, -, -, -, e4, e5, e6⟩ := index_facts ⟨4 * (y 0 : ℕ) + 3, hb⟩
  rw [mem_blk]
  intro a
  match a with
  | ⟨0, _⟩ =>
    show win1_2.index _ (0 : Fin 3) * 1 ≤ (y 0 : ℕ) ∧ (y 0 : ℕ) < win1_2.index _ (0 : Fin 3) * 1 + 1
    rw [e4]
    show (4 * (y 0 : ℕ) + 3) / 4 * 1 ≤ (y 0 : ℕ) ∧ (y 0 : ℕ) < (4 * (y 0 : ℕ) + 3) / 4 * 1 + 1
    omega
  | ⟨1, _⟩ =>
    show win1_2.index _ (1 : Fin 3) * S1x3x256.size 1 ≤ (y 1 : ℕ) ∧ (y 1 : ℕ) < win1_2.index _ (1 : Fin 3) * S1x3x256.size 1 + S1x3x256.size 1
    rw [e5]; omega
  | ⟨2, _⟩ =>
    show win1_2.index _ (2 : Fin 3) * 256 ≤ (y 2 : ℕ) ∧ (y 2 : ℕ) < win1_2.index _ (2 : Fin 3) * 256 + 256
    rw [e6]; omega

/-- So the result array ends holding `result`. -/
theorem final (c : Dev nD) : (dat V c).arrAt 2 cfg1.N = result V c :=
  (dat V c).arrAt_eq_of_cover 2 (result V c) (flushed_eq V c) cover

/-- THE RESULT at an index: entry (c', i, j) of the output is the sum, over the four points k of group c' and the 12800
    columns l of each point's blocks, of the row entry (i, column) times the weight entry (column, j), the column being
    (4 c' + k) · 12800 + l. -/
theorem result_apply (c : Dev nD) (c' : Fin 2) (i : Fin 3) (j : Fin 256) :
    outArr V c (ix3 c' i j)
      = ∑ k : Fin 4, ∑ l : Fin 12800,
          rowsArr V c (ix2 i ⟨(4 * c'.val + k.val) * 12800 + l.val, idx_lt c' k l⟩)
            * weightsArr V c (ix2 ⟨(4 * c'.val + k.val) * 12800 + l.val, idx_lt c' k l⟩ j) :=
  (congrFun (final V c) (ix3 c' i j)).trans rfl

end AtIdeal

end Cert.KernelIdeal.Agg1

end
-- ==== Proof.IndexRanges.lean ====
/-
  The index arrays of the precondition lie in their ranges.

  The precondition is a conjunction of eleven tests, each an "all entries" reduction by `and` from 1 into a
  rank-0 result. The last four say, entry by entry and read signed, 0 ≤ adj0 < 100000, 0 ≤ adj1 < 3,
  0 ≤ adj2 < 100000, 0 ≤ adj3 < 5. A conjunction of words is 1 exactly when both are; a reduction by `and`
  over all axes is 1 only when every entry is 1; a signed compare word is 1 exactly when the integers the
  words denote compare so. Hence the four ranges, first as the compare words themselves (`ranges_cmp`), then
  as inequalities between integers (`ranges`).
-/
import proofs.«405879_j31396210934416_2_alg».proof.Pre_finite_inputs
import Idealize.ShloMosaic.Lib.StableHlo.Predicate
import Idealize.ShloMosaic.Lib.ReduceAll
import Idealize.ShloMosaic.Lib.ValueIdx
import Idealize.ShloMosaic.Lib.Affine

namespace Cert.Proof.IndexRanges

open Idealize.ShloMosaic Cert.Pre_finite_inputs

/-- The rank-0 shape has one index. -/
instance : Subsingleton S_.Idx := ⟨fun a b => funext fun d => d.elim0⟩

/-- A conjunction of two `i1` arrays is 1 at an index exactly when both are. -/
theorem andi_apply_eq_one {s : Shape} (x y : IVec s 1) (j : s.Idx) :
    andi x y j = 1#1 ↔ x j = 1#1 ∧ y j = 1#1 := IntOp.andi_eq_one

/-- One range test read back: if "all entries of x satisfy lo ≤ x and x < hi" came out 1, then at every
    index both compare words are 1. -/
theorem cmp_of_all {s : Shape} {axes : List (Fin s.rank)} (x : IVec s 32) (lo hi : BitVec 32)
    (hb : S_.BroadcastsInDim s (![] : Fin 0 → Fin s.rank)) (hr : s.ReducesTo axes S_) (h0 : 0 < S_.numel)
    (e : Host.reduce IntOp.andi
          (andi (cmpi .sge x (broadcastInDim s ![] hb (constantI S_ 32 lo)))
                (cmpi .slt x (broadcastInDim s ![] hb (constantI S_ 32 hi))))
          (constantI S_ 1 1#1) hr h0 ValueIdx.ix0 = 1#1) (i : s.Idx) :
    IntOp.cmpi .sge (x i) lo = 1#1 ∧ IntOp.cmpi .slt (x i) hi = 1#1 :=
  IntOp.andi_eq_one.1 (Host.reduce_andi_all _ _ hr h0 _ e i)

/-- The two compare words of a range test, as inequalities between the integers the words denote. -/
theorem int_of_cmp (w : BitVec 32) (n : Nat) (hn : n < 2 ^ 31)
    (h : IntOp.cmpi .sge w 0#32 = 1#1 ∧ IntOp.cmpi .slt w (BitVec.ofNat 32 n) = 1#1) :
    0 ≤ w.toInt ∧ w.toInt < (n : Int) := by
  obtain ⟨h1, h2⟩ := h
  rw [IntOp.cmpi_sge, StableHlo.Predicate.toInt_ofNat_small 0 (by norm_num)] at h1
  rw [IntOp.cmpi_slt, StableHlo.Predicate.toInt_ofNat_small n hn] at h2
  exact ⟨by simpa using h1, h2⟩

variable {F : FTy → Type} [FloatOps F] [Facts]

/-- The four index ranges of the precondition, as the compare words it computes. -/
theorem ranges_cmp (a0 a1 : IVec S5x200 32) (a2 a3 : IVec S3x200 32)
    (a4 : FVec F S100000x256 .f32) (a5 : FVec F S5x256 .f32) (a6 : FVec F S3x256 .f32)
    (a7 a8 : FVec F S102400x256 .f32) (a9 : FVec F S5x5 .f32) (a10 : FVec F S3x3 .f32)
    (h : Cert.Pre_finite_inputs.fn (F := F) a0 a1 a2 a3 a4 a5 a6 a7 a8 a9 a10 = fun _ => 1#1) :
    (∀ i, IntOp.cmpi .sge (a0 i) 0#32 = 1#1 ∧ IntOp.cmpi .slt (a0 i) 100000#32 = 1#1)
    ∧ (∀ i, IntOp.cmpi .sge (a1 i) 0#32 = 1#1 ∧ IntOp.cmpi .slt (a1 i) 3#32 = 1#1)
    ∧ (∀ i, IntOp.cmpi .sge (a2 i) 0#32 = 1#1 ∧ IntOp.cmpi .slt (a2 i) 100000#32 = 1#1)
    ∧ (∀ i, IntOp.cmpi .sge (a3 i) 0#32 = 1#1 ∧ IntOp.cmpi .slt (a3 i) 5#32 = 1#1) := by
  have e := congrFun h ValueIdx.ix0
  dsimp only [Cert.Pre_finite_inputs.fn, fn_part1, fn_part2, fn_part3] at e
  simp only [andi_apply_eq_one] at e
  obtain ⟨⟨⟨⟨-, e0⟩, e1⟩, e2⟩, e3⟩ := e
  exact ⟨cmp_of_all a0 _ _ _ _ _ e0, cmp_of_all a1 _ _ _ _ _ e1, cmp_of_all a2 _ _ _ _ _ e2, cmp_of_all a3 _ _ _ _ _ e3⟩

/-- The four index ranges of the precondition, as inequalities between integers. -/
theorem ranges (a0 a1 : IVec S5x200 32) (a2 a3 : IVec S3x200 32)
    (a4 : FVec F S100000x256 .f32) (a5 : FVec F S5x256 .f32) (a6 : FVec F S3x256 .f32)
    (a7 a8 : FVec F S102400x256 .f32) (a9 : FVec F S5x5 .f32) (a10 : FVec F S3x3 .f32)
    (h : Cert.Pre_finite_inputs.fn (F := F) a0 a1 a2 a3 a4 a5 a6 a7 a8 a9 a10 = fun _ => 1#1) :
    (∀ i, 0 ≤ (a0 i).toInt ∧ (a0 i).toInt < 100000) ∧ (∀ i, 0 ≤ (a1 i).toInt ∧ (a1 i).toInt < 3)
    ∧ (∀ i, 0 ≤ (a2 i).toInt ∧ (a2 i).toInt < 100000) ∧ (∀ i, 0 ≤ (a3 i).toInt ∧ (a3 i).toInt < 5) := by
  obtain ⟨h0, h1, h2, h3⟩ := ranges_cmp a0 a1 a2 a3 a4 a5 a6 a7 a8 a9 a10 h
  exact ⟨fun i => int_of_cmp _ 100000 (by norm_num) (h0 i), fun i => int_of_cmp _ 3 (by norm_num) (h1 i),
    fun i => int_of_cmp _ 100000 (by norm_num) (h2 i), fun i => int_of_cmp _ 5 (by norm_num) (h3 i)⟩

end Cert.Proof.IndexRanges
-- ==== Proof.SplitSum.lean ====
/-
  Two elementary facts used by the hand proof.

  (1) A sum over 102400 = 2 · 4 · 12800 consecutive indices regroups as a triple sum, the index
      j written as (4·c + k)·12800 + l with c < 2, k < 4, l < 12800. It follows from the general
      regrouping of a sum over m·n indices as a double sum, applied twice; no sum is expanded.
      The triple sum is also given in each of the other five orders of summation.

  (2) At the ideal instance a float is an extended real. The f32 pattern 0x43800000 denotes
      256 = 2^8 and the pattern 0x41800000 denotes 16 = 2^4, and the square root of 256 is 16;
      so the tensor that is constantly the first pattern has, as its square root, the tensor that
      is constantly the second, at every shape.
-/
import Mathlib.Logic.Equiv.Fin.Basic
import Mathlib.Data.Fintype.BigOperators
import Mathlib.Algebra.BigOperators.Group.Finset.Basic
import Mathlib.Analysis.Real.Sqrt
import Idealize.ShloMosaic.PureOps.Ideal
import Idealize.ShloMosaic.PureOps.Vector

noncomputable section

namespace Cert.Proof.SplitSum

open Idealize.ShloMosaic

/-! ### Regrouping a sum -/

/-- A sum over `m * n` consecutive indices is a double sum: the index is `a * n + b` with
    `a < m` and `b < n`. -/
theorem sum_fin_mul {M : Type*} [AddCommMonoid M] (m n : ℕ) (g : ℕ → M) :
    (Finset.univ.sum fun j : Fin (m * n) => g j.val)
      = Finset.univ.sum fun a : Fin m => Finset.univ.sum fun b : Fin n => g (a.val * n + b.val) := by
  rw [← (finProdFinEquiv (m := m) (n := n)).sum_comp, Fintype.sum_prod_type]
  refine Finset.sum_congr rfl fun a _ => Finset.sum_congr rfl fun b _ => ?_
  have h : b.val + n * a.val = a.val * n + b.val := by rw [Nat.mul_comm, Nat.add_comm]
  simp only [finProdFinEquiv_apply_val, h]

/-- The sum over 102400 indices as the triple sum over `c < 2`, `k < 4`, `l < 12800` of the
    term at `(4 * c + k) * 12800 + l`. -/
theorem sum_split {M : Type*} [AddCommMonoid M] (f : ℕ → M) :
    (Finset.univ.sum fun j : Fin 102400 => f j.val)
      = Finset.univ.sum fun c : Fin 2 => Finset.univ.sum fun k : Fin 4 =>
          Finset.univ.sum fun l : Fin 12800 => f ((4 * c.val + k.val) * 12800 + l.val) := by
  have h1 : (Finset.univ.sum fun j : Fin 102400 => f j.val)
      = Finset.univ.sum fun a : Fin 8 => Finset.univ.sum fun l : Fin 12800 =>
          f (a.val * 12800 + l.val) := sum_fin_mul 8 12800 f
  have h2 : (Finset.univ.sum fun a : Fin 8 => Finset.univ.sum fun l : Fin 12800 =>
          f (a.val * 12800 + l.val))
      = Finset.univ.sum fun c : Fin 2 => Finset.univ.sum fun k : Fin 4 =>
          Finset.univ.sum fun l : Fin 12800 => f ((c.val * 4 + k.val) * 12800 + l.val) :=
    sum_fin_mul 2 4 fun a => Finset.univ.sum fun l : Fin 12800 => f (a * 12800 + l.val)
  rw [h1, h2]
  refine Finset.sum_congr rfl fun c _ => Finset.sum_congr rfl fun k _ =>
    Finset.sum_congr rfl fun l _ => ?_
  rw [Nat.mul_comm c.val 4]

/-- The same triple sum, summed in the order `c`, `l`, `k`. -/
theorem sum_split_clk {M : Type*} [AddCommMonoid M] (f : ℕ → M) :
    (Finset.univ.sum fun j : Fin 102400 => f j.val)
      = Finset.univ.sum fun c : Fin 2 => Finset.univ.sum fun l : Fin 12800 =>
          Finset.univ.sum fun k : Fin 4 => f ((4 * c.val + k.val) * 12800 + l.val) := by
  rw [sum_split]
  exact Finset.sum_congr rfl fun c _ => Finset.sum_comm

/-- The same triple sum, summed in the order `k`, `c`, `l`. -/
theorem sum_split_kcl {M : Type*} [AddCommMonoid M] (f : ℕ → M) :
    (Finset.univ.sum fun j : Fin 102400 => f j.val)
      = Finset.univ.sum fun k : Fin 4 => Finset.univ.sum fun c : Fin 2 =>
          Finset.univ.sum fun l : Fin 12800 => f ((4 * c.val + k.val) * 12800 + l.val) := by
  rw [sum_split]
  exact Finset.sum_comm

/-- The same triple sum, summed in the order `k`, `l`, `c`. -/
theorem sum_split_klc {M : Type*} [AddCommMonoid M] (f : ℕ → M) :
    (Finset.univ.sum fun j : Fin 102400 => f j.val)
      = Finset.univ.sum fun k : Fin 4 => Finset.univ.sum fun l : Fin 12800 =>
          Finset.univ.sum fun c : Fin 2 => f ((4 * c.val + k.val) * 12800 + l.val) := by
  rw [sum_split_kcl]
  exact Finset.sum_congr rfl fun k _ => Finset.sum_comm

/-- The same triple sum, summed in the order `l`, `c`, `k`. -/
theorem sum_split_lck {M : Type*} [AddCommMonoid M] (f : ℕ → M) :
    (Finset.univ.sum fun j : Fin 102400 => f j.val)
      = Finset.univ.sum fun l : Fin 12800 => Finset.univ.sum fun c : Fin 2 =>
          Finset.univ.sum fun k : Fin 4 => f ((4 * c.val + k.val) * 12800 + l.val) := by
  rw [sum_split_clk]
  exact Finset.sum_comm

/-- The same triple sum, summed in the order `l`, `k`, `c`. -/
theorem sum_split_lkc {M : Type*} [AddCommMonoid M] (f : ℕ → M) :
    (Finset.univ.sum fun j : Fin 102400 => f j.val)
      = Finset.univ.sum fun l : Fin 12800 => Finset.univ.sum fun k : Fin 4 =>
          Finset.univ.sum fun c : Fin 2 => f ((4 * c.val + k.val) * 12800 + l.val) := by
  rw [sum_split_klc]
  exact Finset.sum_comm

/-! ### The square root of 256 -/

/-- The f32 pattern `0x43800000` denotes the real number 256. -/
theorem ofBits_256 : Ideal.ofBits .f32 0x43800000#32 = ((256 : ℝ) : EReal) := by
  simp [Ideal.ofBits, Ideal.ieee, -EReal.coe_mul]; norm_num

/-- The f32 pattern `0x41800000` denotes the real number 16. -/
theorem ofBits_16 : Ideal.ofBits .f32 0x41800000#32 = ((16 : ℝ) : EReal) := by
  simp [Ideal.ofBits, Ideal.ieee, -EReal.coe_mul]; norm_num

/-- The square root of the real number 256 is 16. -/
theorem real_sqrt_256 : Real.sqrt 256 = 16 := by
  rw [show (256 : ℝ) = 16 * 16 by norm_num]
  exact Real.sqrt_mul_self (by norm_num)

/-- At every shape, the square root of the tensor constantly 256 is the tensor constantly 16. -/
theorem sqrt_256 (S : Shape) :
    Host.sqrt (F := Ideal) (constant (F := Ideal) S .f32 0x43800000#32)
      = constant (F := Ideal) S .f32 0x41800000#32 := by
  funext i
  show Ideal.sqrt (Ideal.ofBits .f32 0x43800000#32) = Ideal.ofBits .f32 0x41800000#32
  rw [ofBits_256, ofBits_16, Ideal.sqrt_coe, if_neg (by norm_num), real_sqrt_256]

end Cert.Proof.SplitSum

end
-- ==== Proof.AttnStage.lean ====
/-
  The attention stage of the two programs, compared.

  Before the large contraction both programs compute, for the users and again for the items,

      softmax (q qᵀ / s) · rows,

  q the embedding matrix (5 × 256 for the users, 3 × 256 for the items), the softmax taken along each row of the
  5 × 5 (3 × 3) logits, and rows the two gathered blocks of embedding rows joined along their last axis and
  flattened to 5 × 102400 (3 × 102400). The two programs apply the same operations in the same order and differ
  in two places only.

  (1) The scale. The reference divides by the square root of the constant 256, the kernel's program by the
      constant 16: equal, the square root of 256 being 16.

  (2) The gathers. Each program gathers rows of a table at an index array in which a negative index is first
      wrapped around (n is added to it). The kernel's program then also tests each wrapped index for 0 ≤ i ≤ n − 1,
      reduces the test by "and" over the index vector's axis of size one, and keeps a gathered row where the
      test is 1 and a filler elsewhere. Where every index lies in [0, n) the wrap is the identity, the test is 1
      everywhere, and the kernel's gather is the reference's plain one.

  The stage is carried as ONE function of its inputs (the matrix q, the scalar s, the two gathered blocks), the
  same for both programs, and only the inputs are compared: the softmax and the products are never opened.
  Stated here: the stage as functions (`attnU`, `attnI`), the reference's two attention values as terms of its
  memory (`RX`, `RY`), the reference's two results written over them (`ref_user`, `ref_item`), the fill-mode
  gather in range (`take_fill`), and the comparison (`attn_user`, `attn_item`): after its fifth stretch of host
  operations the kernel's program holds `RX` in `main_v23` and `RY` in `main_v39`.
-/
import proofs.«405879_j31396210934416_2_alg».proof.Proof.Gen.KernelIdeal.Regions
import proofs.«405879_j31396210934416_2_alg».proof.Proof.Gen.ReferenceIdeal
import proofs.«405879_j31396210934416_2_alg».proof.Proof.SplitSum
import Idealize.ShloMosaic.Lib.StableHlo.Run
import Idealize.ShloMosaic.PureOps.Ideal
import Idealize.ShloMosaic.Lib.ValueIdx
import Idealize.ShloMosaic.Lib.Affine
import Idealize.ShloMosaic.Lib.DynamicIndex

set_option maxRecDepth 8192

noncomputable section

namespace Cert.Proof.AttnStage

open Idealize.ShloMosaic Idealize.ShloMosaic.TcCoe Idealize.SL.Sem

/-! ### The stage, as functions of its inputs -/

section Chain
open Cert.ReferenceIdeal Cert.ReferenceIdeal.Gen

/-- The index array with the wrap-around of a negative index (it counts from the end: add `n`), as a column:
    `idx` where `idx ≥ 0`, `idx + n` where `idx < 0`, with a trailing axis of size one. -/
def wrapU (idx : IVec S5x200 32) (n : BitVec 32) : IVec S5x200x1 32 :=
  broadcastInDim S5x200x1 ![0, 1] bcast_S5x200_S5x200x1_0_1
    (select (cmpi .slt idx (broadcastInDim S5x200 ![] bcast_S_S5x200 (constantI S_ 32 0#32)))
      (addi idx (broadcastInDim S5x200 ![] bcast_S_S5x200 (constantI S_ 32 n))) idx)

/-- The two gathered row blocks, joined along the last axis and flattened to 5 × 102400. -/
def catU (a b : FVec Ideal S5x200x256 .f32) : FVec Ideal S5x102400 .f32 :=
  shapeCast _ (concatenate S5x200x512 2 [⟨S5x200x256, a⟩, ⟨S5x200x256, b⟩] concatenates_S5x200x256_S5x200x256_S5x200x512_d2)
    shapeCasts_S5x200x512_S5x102400

/-- The logits `q qᵀ / s`, the scale `s` a scalar. -/
def logitsU (q : FVec Ideal S5x256 .f32) (s : FVec Ideal S_ .f32) : FVec Ideal S5x5 .f32 :=
  Host.divf (Host.dotGeneral dot_S5x256_S256x5_S5x5_1_0_0_1_n_n none q (transpose S256x5 [1, 0] q transposes_S5x256_S256x5_1_0))
    (broadcastInDim S5x5 ![] bcast_S_S5x5 s)

/-- The row maximum of the logits, broadcast back over the row. -/
def rowmaxU (l : FVec Ideal S5x5 .f32) : FVec Ideal S5x5 .f32 :=
  broadcastInDim S5x5 ![0, 1] bcast_S5x1_S5x5_0_1 (broadcastInDim S5x1 ![0] bcast_S5_S5x1_0
    (maximumf (broadcastInDim S5 ![] bcast_S_S5 (constant S_ .f32 0xFF800000#32))
      (Host.reduce FloatOps.maximumf l (constant S_ .f32 0xFF800000#32) reducesTo_S5x5_S5_d1 h_S_)))

/-- The row softmax: `exp (l - rowmax l)` over its row sum. -/
def softmaxU (l : FVec Ideal S5x5 .f32) : FVec Ideal S5x5 .f32 :=
  Host.divf (Host.exp (subf l (rowmaxU l)))
    (broadcastInDim S5x5 ![0, 1] bcast_S5x1_S5x5_0_1 (broadcastInDim S5x1 ![0] bcast_S5_S5x1_0
      (Host.reduceAdd (Host.exp (subf l (rowmaxU l))) (constant S_ .f32 0x00000000#32) reducesTo_S5x5_S5_d1 h_S_)))

/-- The attention stage: `softmax (q qᵀ / s)` times the joined rows. -/
def attnU (q : FVec Ideal S5x256 .f32) (s : FVec Ideal S_ .f32) (a b : FVec Ideal S5x200x256 .f32) : FVec Ideal S5x102400 .f32 :=
  Host.dotGeneral dot_S5x5_S5x102400_S5x102400_1_0_0_1_n_n none (softmaxU (logitsU q s)) (catU a b)

/-- `max x 0`, entry by entry. -/
def reluU (x : FVec Ideal S5x256 .f32) : FVec Ideal S5x256 .f32 :=
  maximumf x (broadcastInDim S5x256 ![] bcast_S_S5x256 (constant S_ .f32 0x00000000#32))

/-- The index array with the wrap-around of a negative index (it counts from the end: add `n`), as a column:
    `idx` where `idx ≥ 0`, `idx + n` where `idx < 0`, with a trailing axis of size one. -/
def wrapI (idx : IVec S3x200 32) (n : BitVec 32) : IVec S3x200x1 32 :=
  broadcastInDim S3x200x1 ![0, 1] bcast_S3x200_S3x200x1_0_1
    (select (cmpi .slt idx (broadcastInDim S3x200 ![] bcast_S_S3x200 (constantI S_ 32 0#32)))
      (addi idx (broadcastInDim S3x200 ![] bcast_S_S3x200 (constantI S_ 32 n))) idx)

/-- The two gathered row blocks, joined along the last axis and flattened to 3 × 102400. -/
def catI (a b : FVec Ideal S3x200x256 .f32) : FVec Ideal S3x102400 .f32 :=
  shapeCast _ (concatenate S3x200x512 2 [⟨S3x200x256, a⟩, ⟨S3x200x256, b⟩] concatenates_S3x200x256_S3x200x256_S3x200x512_d2)
    shapeCasts_S3x200x512_S3x102400

/-- The logits `q qᵀ / s`, the scale `s` a scalar. -/
def logitsI (q : FVec Ideal S3x256 .f32) (s : FVec Ideal S_ .f32) : FVec Ideal S3x3 .f32 :=
  Host.divf (Host.dotGeneral dot_S3x256_S256x3_S3x3_1_0_0_1_n_n none q (transpose S256x3 [1, 0] q transposes_S3x256_S256x3_1_0))
    (broadcastInDim S3x3 ![] bcast_S_S3x3 s)

/-- The row maximum of the logits, broadcast back over the row. -/
def rowmaxI (l : FVec Ideal S3x3 .f32) : FVec Ideal S3x3 .f32 :=
  broadcastInDim S3x3 ![0, 1] bcast_S3x1_S3x3_0_1 (broadcastInDim S3x1 ![0] bcast_S3_S3x1_0
    (maximumf (broadcastInDim S3 ![] bcast_S_S3 (constant S_ .f32 0xFF800000#32))
      (Host.reduce FloatOps.maximumf l (constant S_ .f32 0xFF800000#32) reducesTo_S3x3_S3_d1 h_S_)))

/-- The row softmax: `exp (l - rowmax l)` over its row sum. -/
def softmaxI (l : FVec Ideal S3x3 .f32) : FVec Ideal S3x3 .f32 :=
  Host.divf (Host.exp (subf l (rowmaxI l)))
    (broadcastInDim S3x3 ![0, 1] bcast_S3x1_S3x3_0_1 (broadcastInDim S3x1 ![0] bcast_S3_S3x1_0
      (Host.reduceAdd (Host.exp (subf l (rowmaxI l))) (constant S_ .f32 0x00000000#32) reducesTo_S3x3_S3_d1 h_S_)))

/-- The attention stage: `softmax (q qᵀ / s)` times the joined rows. -/
def attnI (q : FVec Ideal S3x256 .f32) (s : FVec Ideal S_ .f32) (a b : FVec Ideal S3x200x256 .f32) : FVec Ideal S3x102400 .f32 :=
  Host.dotGeneral dot_S3x3_S3x102400_S3x102400_1_0_0_1_n_n none (softmaxI (logitsI q s)) (catI a b)

/-- `max x 0`, entry by entry. -/
def reluI (x : FVec Ideal S3x256 .f32) : FVec Ideal S3x256 .f32 :=
  maximumf x (broadcastInDim S3x256 ![] bcast_S_S3x256 (constant S_ .f32 0x00000000#32))

/-- The reference's attention over the users, as a term of its memory on core `c`. -/
def RX (m' : (ℓ : Loc nD τ sig) → Buf (Elt Ideal) ℓ) (c : Dev nD) : FVec Ideal S5x102400 .f32 :=
  attnU (m' ((c.tc : Thread nD τ).loc main_arg5)) (Host.sqrt (constant S_ .f32 0x43800000#32))
    (Host.gather gather_S100000x256_S5x200x1_S5x200x256_2_0_n_n_0_2_1256 (m' ((c.tc : Thread nD τ).loc main_arg4))
      (wrapU (m' ((c.tc : Thread nD τ).loc main_arg0)) 100000#32))
    (Host.gather gather_S3x256_S5x200x1_S5x200x256_2_0_n_n_0_2_1256 (m' ((c.tc : Thread nD τ).loc main_arg6))
      (wrapU (m' ((c.tc : Thread nD τ).loc main_arg1)) 3#32))

/-- The reference's attention over the items, as a term of its memory on core `c`. -/
def RY (m' : (ℓ : Loc nD τ sig) → Buf (Elt Ideal) ℓ) (c : Dev nD) : FVec Ideal S3x102400 .f32 :=
  attnI (m' ((c.tc : Thread nD τ).loc main_arg6)) (Host.sqrt (constant S_ .f32 0x43800000#32))
    (Host.gather gather_S100000x256_S3x200x1_S3x200x256_2_0_n_n_0_2_1256 (m' ((c.tc : Thread nD τ).loc main_arg4))
      (wrapI (m' ((c.tc : Thread nD τ).loc main_arg2)) 100000#32))
    (Host.gather gather_S5x256_S3x200x1_S3x200x256_2_0_n_n_0_2_1256 (m' ((c.tc : Thread nD τ).loc main_arg5))
      (wrapI (m' ((c.tc : Thread nD τ).loc main_arg3)) 5#32))

/-! ### The reference's results over the stage -/

/-- The reference's first result is the join of `arg9 · arg5` and `relu (RX · arg7)`. -/
theorem ref_user (m' : (ℓ : Loc nD τ sig) → Buf (Elt Ideal) ℓ) (c : Dev nD) :
    (concatenate S5x512 1 [⟨S5x256, (Host.dotGeneral (φ₁ := .f32) (φ₂ := .f32) dot_S5x5_S5x256_S5x256_1_0_0_1_n_n none (m' ((c.tc : Thread nD τ).loc main_arg9)) (m' ((c.tc : Thread nD τ).loc main_arg5)))⟩, ⟨S5x256, (maximumf (Host.dotGeneral (φ₁ := .f32) (φ₂ := .f32) dot_S5x102400_S102400x256_S5x256_1_0_0_1_n_n none (Host.dotGeneral (φ₁ := .f32) (φ₂ := .f32) dot_S5x5_S5x102400_S5x102400_1_0_0_1_n_n none (Host.divf (Host.exp (subf (Host.divf (Host.dotGeneral (φ₁ := .f32) (φ₂ := .f32) dot_S5x256_S256x5_S5x5_1_0_0_1_n_n none (m' ((c.tc : Thread nD τ).loc main_arg5)) (transpose S256x5 [1, 0] (m' ((c.tc : Thread nD τ).loc main_arg5)) transposes_S5x256_S256x5_1_0)) (broadcastInDim S5x5 ![] bcast_S_S5x5 (Host.sqrt (constant S_ .f32 0x43800000#32)))) (broadcastInDim S5x5 ![0, 1] bcast_S5x1_S5x5_0_1 (broadcastInDim S5x1 ![0] bcast_S5_S5x1_0 (maximumf (broadcastInDim S5 ![] bcast_S_S5 (constant S_ .f32 0xFF800000#32)) (Host.reduce FloatOps.maximumf (Host.divf (Host.dotGeneral (φ₁ := .f32) (φ₂ := .f32) dot_S5x256_S256x5_S5x5_1_0_0_1_n_n none (m' ((c.tc : Thread nD τ).loc main_arg5)) (transpose S256x5 [1, 0] (m' ((c.tc : Thread nD τ).loc main_arg5)) transposes_S5x256_S256x5_1_0)) (broadcastInDim S5x5 ![] bcast_S_S5x5 (Host.sqrt (constant S_ .f32 0x43800000#32)))) (constant S_ .f32 0xFF800000#32) reducesTo_S5x5_S5_d1 h_S_)))))) (broadcastInDim S5x5 ![0, 1] bcast_S5x1_S5x5_0_1 (broadcastInDim S5x1 ![0] bcast_S5_S5x1_0 (Host.reduceAdd (Host.exp (subf (Host.divf (Host.dotGeneral (φ₁ := .f32) (φ₂ := .f32) dot_S5x256_S256x5_S5x5_1_0_0_1_n_n none (m' ((c.tc : Thread nD τ).loc main_arg5)) (transpose S256x5 [1, 0] (m' ((c.tc : Thread nD τ).loc main_arg5)) transposes_S5x256_S256x5_1_0)) (broadcastInDim S5x5 ![] bcast_S_S5x5 (Host.sqrt (constant S_ .f32 0x43800000#32)))) (broadcastInDim S5x5 ![0, 1] bcast_S5x1_S5x5_0_1 (broadcastInDim S5x1 ![0] bcast_S5_S5x1_0 (maximumf (broadcastInDim S5 ![] bcast_S_S5 (constant S_ .f32 0xFF800000#32)) (Host.reduce FloatOps.maximumf (Host.divf (Host.dotGeneral (φ₁ := .f32) (φ₂ := .f32) dot_S5x256_S256x5_S5x5_1_0_0_1_n_n none (m' ((c.tc : Thread nD τ).loc main_arg5)) (transpose S256x5 [1, 0] (m' ((c.tc : Thread nD τ).loc main_arg5)) transposes_S5x256_S256x5_1_0)) (broadcastInDim S5x5 ![] bcast_S_S5x5 (Host.sqrt (constant S_ .f32 0x43800000#32)))) (constant S_ .f32 0xFF800000#32) reducesTo_S5x5_S5_d1 h_S_)))))) (constant S_ .f32 0x00000000#32) reducesTo_S5x5_S5_d1 h_S_)))) (shapeCast _ (concatenate S5x200x512 2 [⟨S5x200x256, (Host.gather gather_S100000x256_S5x200x1_S5x200x256_2_0_n_n_0_2_1256 (m' ((c.tc : Thread nD τ).loc main_arg4)) (broadcastInDim S5x200x1 ![0, 1] bcast_S5x200_S5x200x1_0_1 (select (cmpi .slt (m' ((c.tc : Thread nD τ).loc main_arg0)) (broadcastInDim S5x200 ![] bcast_S_S5x200 (constantI S_ 32 0#32))) (addi (m' ((c.tc : Thread nD τ).loc main_arg0)) (broadcastInDim S5x200 ![] bcast_S_S5x200 (constantI S_ 32 100000#32))) (m' ((c.tc : Thread nD τ).loc main_arg0)))))⟩, ⟨S5x200x256, (Host.gather gather_S3x256_S5x200x1_S5x200x256_2_0_n_n_0_2_1256 (m' ((c.tc : Thread nD τ).loc main_arg6)) (broadcastInDim S5x200x1 ![0, 1] bcast_S5x200_S5x200x1_0_1 (select (cmpi .slt (m' ((c.tc : Thread nD τ).loc main_arg1)) (broadcastInDim S5x200 ![] bcast_S_S5x200 (constantI S_ 32 0#32))) (addi (m' ((c.tc : Thread nD τ).loc main_arg1)) (broadcastInDim S5x200 ![] bcast_S_S5x200 (constantI S_ 32 3#32))) (m' ((c.tc : Thread nD τ).loc main_arg1)))))⟩] concatenates_S5x200x256_S5x200x256_S5x200x512_d2) shapeCasts_S5x200x512_S5x102400)) (m' ((c.tc : Thread nD τ).loc main_arg7))) (broadcastInDim S5x256 ![] bcast_S_S5x256 (constant S_ .f32 0x00000000#32)))⟩] concatenates_S5x256_S5x256_S5x512_d1 : FVec Ideal S5x512 .f32)
      = concatenate S5x512 1 [⟨S5x256, Host.dotGeneral (φ₁ := .f32) (φ₂ := .f32) dot_S5x5_S5x256_S5x256_1_0_0_1_n_n none (m' ((c.tc : Thread nD τ).loc main_arg9)) (m' ((c.tc : Thread nD τ).loc main_arg5))⟩,
          ⟨S5x256, reluU (Host.dotGeneral (φ₁ := .f32) (φ₂ := .f32) dot_S5x102400_S102400x256_S5x256_1_0_0_1_n_n none (RX m' c) (m' ((c.tc : Thread nD τ).loc main_arg7)))⟩]
        concatenates_S5x256_S5x256_S5x512_d1 := rfl

/-- The reference's second result is the join of `arg10 · arg6` and `relu (RY · arg8)`. -/
theorem ref_item (m' : (ℓ : Loc nD τ sig) → Buf (Elt Ideal) ℓ) (c : Dev nD) :
    (concatenate S3x512 1 [⟨S3x256, (Host.dotGeneral (φ₁ := .f32) (φ₂ := .f32) dot_S3x3_S3x256_S3x256_1_0_0_1_n_n none (m' ((c.tc : Thread nD τ).loc main_arg10)) (m' ((c.tc : Thread nD τ).loc main_arg6)))⟩, ⟨S3x256, (maximumf (Host.dotGeneral (φ₁ := .f32) (φ₂ := .f32) dot_S3x102400_S102400x256_S3x256_1_0_0_1_n_n none (Host.dotGeneral (φ₁ := .f32) (φ₂ := .f32) dot_S3x3_S3x102400_S3x102400_1_0_0_1_n_n none (Host.divf (Host.exp (subf (Host.divf (Host.dotGeneral (φ₁ := .f32) (φ₂ := .f32) dot_S3x256_S256x3_S3x3_1_0_0_1_n_n none (m' ((c.tc : Thread nD τ).loc main_arg6)) (transpose S256x3 [1, 0] (m' ((c.tc : Thread nD τ).loc main_arg6)) transposes_S3x256_S256x3_1_0)) (broadcastInDim S3x3 ![] bcast_S_S3x3 (Host.sqrt (constant S_ .f32 0x43800000#32)))) (broadcastInDim S3x3 ![0, 1] bcast_S3x1_S3x3_0_1 (broadcastInDim S3x1 ![0] bcast_S3_S3x1_0 (maximumf (broadcastInDim S3 ![] bcast_S_S3 (constant S_ .f32 0xFF800000#32)) (Host.reduce FloatOps.maximumf (Host.divf (Host.dotGeneral (φ₁ := .f32) (φ₂ := .f32) dot_S3x256_S256x3_S3x3_1_0_0_1_n_n none (m' ((c.tc : Thread nD τ).loc main_arg6)) (transpose S256x3 [1, 0] (m' ((c.tc : Thread nD τ).loc main_arg6)) transposes_S3x256_S256x3_1_0)) (broadcastInDim S3x3 ![] bcast_S_S3x3 (Host.sqrt (constant S_ .f32 0x43800000#32)))) (constant S_ .f32 0xFF800000#32) reducesTo_S3x3_S3_d1 h_S_)))))) (broadcastInDim S3x3 ![0, 1] bcast_S3x1_S3x3_0_1 (broadcastInDim S3x1 ![0] bcast_S3_S3x1_0 (Host.reduceAdd (Host.exp (subf (Host.divf (Host.dotGeneral (φ₁ := .f32) (φ₂ := .f32) dot_S3x256_S256x3_S3x3_1_0_0_1_n_n none (m' ((c.tc : Thread nD τ).loc main_arg6)) (transpose S256x3 [1, 0] (m' ((c.tc : Thread nD τ).loc main_arg6)) transposes_S3x256_S256x3_1_0)) (broadcastInDim S3x3 ![] bcast_S_S3x3 (Host.sqrt (constant S_ .f32 0x43800000#32)))) (broadcastInDim S3x3 ![0, 1] bcast_S3x1_S3x3_0_1 (broadcastInDim S3x1 ![0] bcast_S3_S3x1_0 (maximumf (broadcastInDim S3 ![] bcast_S_S3 (constant S_ .f32 0xFF800000#32)) (Host.reduce FloatOps.maximumf (Host.divf (Host.dotGeneral (φ₁ := .f32) (φ₂ := .f32) dot_S3x256_S256x3_S3x3_1_0_0_1_n_n none (m' ((c.tc : Thread nD τ).loc main_arg6)) (transpose S256x3 [1, 0] (m' ((c.tc : Thread nD τ).loc main_arg6)) transposes_S3x256_S256x3_1_0)) (broadcastInDim S3x3 ![] bcast_S_S3x3 (Host.sqrt (constant S_ .f32 0x43800000#32)))) (constant S_ .f32 0xFF800000#32) reducesTo_S3x3_S3_d1 h_S_)))))) (constant S_ .f32 0x00000000#32) reducesTo_S3x3_S3_d1 h_S_)))) (shapeCast _ (concatenate S3x200x512 2 [⟨S3x200x256, (Host.gather gather_S100000x256_S3x200x1_S3x200x256_2_0_n_n_0_2_1256 (m' ((c.tc : Thread nD τ).loc main_arg4)) (broadcastInDim S3x200x1 ![0, 1] bcast_S3x200_S3x200x1_0_1 (select (cmpi .slt (m' ((c.tc : Thread nD τ).loc main_arg2)) (broadcastInDim S3x200 ![] bcast_S_S3x200 (constantI S_ 32 0#32))) (addi (m' ((c.tc : Thread nD τ).loc main_arg2)) (broadcastInDim S3x200 ![] bcast_S_S3x200 (constantI S_ 32 100000#32))) (m' ((c.tc : Thread nD τ).loc main_arg2)))))⟩, ⟨S3x200x256, (Host.gather gather_S5x256_S3x200x1_S3x200x256_2_0_n_n_0_2_1256 (m' ((c.tc : Thread nD τ).loc main_arg5)) (broadcastInDim S3x200x1 ![0, 1] bcast_S3x200_S3x200x1_0_1 (select (cmpi .slt (m' ((c.tc : Thread nD τ).loc main_arg3)) (broadcastInDim S3x200 ![] bcast_S_S3x200 (constantI S_ 32 0#32))) (addi (m' ((c.tc : Thread nD τ).loc main_arg3)) (broadcastInDim S3x200 ![] bcast_S_S3x200 (constantI S_ 32 5#32))) (m' ((c.tc : Thread nD τ).loc main_arg3)))))⟩] concatenates_S3x200x256_S3x200x256_S3x200x512_d2) shapeCasts_S3x200x512_S3x102400)) (m' ((c.tc : Thread nD τ).loc main_arg8))) (broadcastInDim S3x256 ![] bcast_S_S3x256 (constant S_ .f32 0x00000000#32)))⟩] concatenates_S3x256_S3x256_S3x512_d1 : FVec Ideal S3x512 .f32)
      = concatenate S3x512 1 [⟨S3x256, Host.dotGeneral (φ₁ := .f32) (φ₂ := .f32) dot_S3x3_S3x256_S3x256_1_0_0_1_n_n none (m' ((c.tc : Thread nD τ).loc main_arg10)) (m' ((c.tc : Thread nD τ).loc main_arg6))⟩,
          ⟨S3x256, reluI (Host.dotGeneral (φ₁ := .f32) (φ₂ := .f32) dot_S3x102400_S102400x256_S3x256_1_0_0_1_n_n none (RY m' c) (m' ((c.tc : Thread nD τ).loc main_arg8)))⟩]
        concatenates_S3x256_S3x256_S3x512_d1 := rfl

end Chain

/-! ### A gather in fill mode whose indices are in range -/

section Take

/-- A left fold by `and` from 1 over words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 from by decide]
    exact foldl_andi_one f l fun n hn => h n (List.mem_cons_of_mem _ hn)

/-- A reduction by `and` from 1 of an array that is 1 everywhere is 1 everywhere. -/
theorem reduce_andi_one {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1)
    (j : t.Idx) : Host.reduce IntOp.andi x init h hu j = 1#1 := by
  unfold Host.reduce
  rw [hinit]
  exact foldl_andi_one (fun n => x (s.rowMajor.symm n)) _ fun n _ => hx _

/-- What holds of every entry of an array holds of every entry of a broadcast of it. -/
theorem bcast_all {s t : Shape} {α : Type} {dims : Fin s.rank → Fin t.rank} (hb : s.BroadcastsInDim t dims)
    (x : s.Idx → α) (P : α → Prop) (h : ∀ i, P (x i)) (j : t.Idx) : P (broadcastInDim t dims hb x j) := h _

/-- A word between 0 and `k`, read signed, passes both tests `0 ≤ w` and `w ≤ k`. -/
theorem range_words (w : BitVec 32) (k : ℕ) (hk : k < 2 ^ 31) (h : 0 ≤ w.toInt ∧ w.toInt ≤ (k : ℤ)) :
    IntOp.andi (IntOp.cmpi .sge w 0#32) (IntOp.cmpi .sle w (BitVec.ofNat 32 k)) = 1#1 := by
  rw [IntOp.andi_eq_one, IntOp.cmpi_sge, IntOp.cmpi_sle, toInt_ofNat_of_lt hk, BitVec.toInt_zero]
  exact h

/-- Where no index is negative, the wrap-around leaves the index array as it is. -/
theorem wrap_id {s : Shape} (idx z nn : IVec s 32) (hz : z = constantI s 32 0#32) (h : ∀ i, 0 ≤ (idx i).toInt) :
    select (cmpi .slt idx z) (addi idx nn) idx = idx := by
  subst hz
  exact funext fun i => select_slt_zero_of_nonneg idx _ _ i (h i)

/-- The fill-mode gather: the gathered values where the (wrapped) index lies in `[0, k]`, a filler elsewhere.
    When every index lies in `[0, k]` the wrap is the identity, the range test is 1 everywhere, so is its
    reduction over the index vector's axis and the broadcast of that over the gathered block, and the select
    returns the gathered values. -/
theorem take_fill {s s1 t so u : Shape} {α : Type} {axes : List (Fin s1.rank)} {d1 : Fin s.rank → Fin s1.rank}
    {d2 : Fin t.rank → Fin so.rank} (hb1 : s.BroadcastsInDim s1 d1) (hb2 : t.BroadcastsInDim so d2)
    (hred : s1.ReducesTo axes t) (hu : 0 < u.numel) (idx z nn : IVec s 32) (lo hi : IVec s1 32) (init : IVec u 1)
    (k : ℕ) (hk : k < 2 ^ 31) (hz : z = constantI s 32 0#32) (hlo : ∀ i, lo i = 0#32)
    (hhi : ∀ i, hi i = BitVec.ofNat 32 k) (hinit : init (Shape.Idx.first hu) = 1#1)
    (hr : ∀ i, 0 ≤ (idx i).toInt ∧ (idx i).toInt ≤ (k : ℤ)) (g fill : so.Idx → α) :
    select (broadcastInDim so d2 hb2 (Host.reduce IntOp.andi
        (andi (cmpi .sge (broadcastInDim s1 d1 hb1 (select (cmpi .slt idx z) (addi idx nn) idx)) lo)
              (cmpi .sle (broadcastInDim s1 d1 hb1 (select (cmpi .slt idx z) (addi idx nn) idx)) hi))
        init hred hu)) g fill = g := by
  rw [wrap_id idx z nn hz fun i => (hr i).1]
  funext j
  have hm : broadcastInDim so d2 hb2 (Host.reduce IntOp.andi
      (andi (cmpi .sge (broadcastInDim s1 d1 hb1 idx) lo) (cmpi .sle (broadcastInDim s1 d1 hb1 idx) hi))
      init hred hu) j = 1#1 :=
    bcast_all hb2 _ (fun w => w = 1#1) (fun j' => reduce_andi_one _ _ hred hu hinit (fun i => by
      show IntOp.andi (IntOp.cmpi .sge (broadcastInDim s1 d1 hb1 idx i) (lo i))
        (IntOp.cmpi .sle (broadcastInDim s1 d1 hb1 idx i) (hi i)) = 1#1
      rw [hlo, hhi]
      exact range_words _ k hk (bcast_all hb1 idx (fun w => 0 ≤ w.toInt ∧ w.toInt ≤ (k : ℤ)) hr i)) j') j
  rw [ValueIdx.select_apply, hm, ValueIdx.select_one]

end Take

/-! ### The kernel's program read back, and the two programs compared -/

section Kernel
open Idealize.ShloMosaic.StableHlo
open Cert.KernelIdeal Cert.KernelIdeal.Gen

/-- The first gather of the kernel's program, read back from its operations: its indices in range, it is the plain
    gather at the wrapped indices. -/
theorem take0 (V : Valuation τ sig (Elt Ideal))
    (hr : ∀ i, 0 ≤ ((V (Proc.devRef .tc main_arg0) : IVec S5x200 32) i).toInt
      ∧ ((V (Proc.devRef .tc main_arg0) : IVec S5x200 32) i).toInt < 100000) :
    (StableHlo.after hostOps0 V (Proc.devRef .tc main_v0) : FVec Ideal S5x200x256 .f32)
      = Host.gather Cert.ReferenceIdeal.gather_S100000x256_S5x200x1_S5x200x256_2_0_n_n_0_2_1256 (V (Proc.devRef .tc main_arg4))
          (wrapU (V (Proc.devRef .tc main_arg0)) 100000#32) := by
  after_results_simp
  simp only [TRef.ofBuf, TRef.toBuf, cast_eq]
  exact take_fill _ _ _ _ _ _ _ _ _ _ 99999 (by norm_num) rfl (fun _ => rfl) (fun _ => rfl) rfl
    (fun i => ⟨(hr i).1, by have := (hr i).2; omega⟩) _ _

/-- The second gather of the kernel's program, read back from its operations: its indices in range, it is the plain
    gather at the wrapped indices. -/
theorem take1 (V : Valuation τ sig (Elt Ideal))
    (hr : ∀ i, 0 ≤ ((V (Proc.devRef .tc main_arg1) : IVec S5x200 32) i).toInt
      ∧ ((V (Proc.devRef .tc main_arg1) : IVec S5x200 32) i).toInt < 3) :
    (StableHlo.after hostOps0_1 V (Proc.devRef .tc main_v1) : FVec Ideal S5x200x256 .f32)
      = Host.gather Cert.ReferenceIdeal.gather_S3x256_S5x200x1_S5x200x256_2_0_n_n_0_2_1256 (V (Proc.devRef .tc main_arg6))
          (wrapU (V (Proc.devRef .tc main_arg1)) 3#32) := by
  after_results_simp
  simp only [TRef.ofBuf, TRef.toBuf, cast_eq]
  exact take_fill _ _ _ _ _ _ _ _ _ _ 2 (by norm_num) rfl (fun _ => rfl) (fun _ => rfl) rfl
    (fun i => ⟨(hr i).1, by have := (hr i).2; omega⟩) _ _

/-- The third gather of the kernel's program, read back from its operations: its indices in range, it is the plain
    gather at the wrapped indices. -/
theorem take2 (V : Valuation τ sig (Elt Ideal))
    (hr : ∀ i, 0 ≤ ((V (Proc.devRef .tc main_arg2) : IVec S3x200 32) i).toInt
      ∧ ((V (Proc.devRef .tc main_arg2) : IVec S3x200 32) i).toInt < 100000) :
    (StableHlo.after hostOps0_2 V (Proc.devRef .tc main_v2) : FVec Ideal S3x200x256 .f32)
      = Host.gather Cert.ReferenceIdeal.gather_S100000x256_S3x200x1_S3x200x256_2_0_n_n_0_2_1256 (V (Proc.devRef .tc main_arg4))
          (wrapI (V (Proc.devRef .tc main_arg2)) 100000#32) := by
  after_results_simp
  simp only [TRef.ofBuf, TRef.toBuf, cast_eq]
  exact take_fill _ _ _ _ _ _ _ _ _ _ 99999 (by norm_num) rfl (fun _ => rfl) (fun _ => rfl) rfl
    (fun i => ⟨(hr i).1, by have := (hr i).2; omega⟩) _ _

/-- The fourth gather of the kernel's program, read back from its operations: its indices in range, it is the plain
    gather at the wrapped indices. -/
theorem take3 (V : Valuation τ sig (Elt Ideal))
    (hr : ∀ i, 0 ≤ ((V (Proc.devRef .tc main_arg3) : IVec S3x200 32) i).toInt
      ∧ ((V (Proc.devRef .tc main_arg3) : IVec S3x200 32) i).toInt < 5) :
    (StableHlo.after hostOps0_3 V (Proc.devRef .tc main_v3) : FVec Ideal S3x200x256 .f32)
      = Host.gather Cert.ReferenceIdeal.gather_S5x256_S3x200x1_S3x200x256_2_0_n_n_0_2_1256 (V (Proc.devRef .tc main_arg5))
          (wrapI (V (Proc.devRef .tc main_arg3)) 5#32) := by
  after_results_simp
  simp only [TRef.ofBuf, TRef.toBuf, cast_eq]
  exact take_fill _ _ _ _ _ _ _ _ _ _ 4 (by norm_num) rfl (fun _ => rfl) (fun _ => rfl) rfl
    (fun i => ⟨(hr i).1, by have := (hr i).2; omega⟩) _ _

/-- The kernel's attention over the users, read back from its operations: the shared stage at the scale 16. -/
theorem attn23 (V : Valuation τ sig (Elt Ideal)) :
    (StableHlo.after hostOps0_4 V (Proc.devRef .tc main_v23) : FVec Ideal S5x102400 .f32)
      = attnU (V (Proc.devRef .tc main_arg5)) (constant S_ .f32 0x41800000#32) (V (Proc.devRef .tc main_v0))
          (V (Proc.devRef .tc main_v1)) := by
  after_results_simp
  rfl

/-- The kernel's attention over the items, read back from its operations: the shared stage at the scale 16. -/
theorem attn39 (V : Valuation τ sig (Elt Ideal)) :
    (StableHlo.after hostOps0_4 V (Proc.devRef .tc main_v39) : FVec Ideal S3x102400 .f32)
      = attnI (V (Proc.devRef .tc main_arg6)) (constant S_ .f32 0x41800000#32) (V (Proc.devRef .tc main_v2))
          (V (Proc.devRef .tc main_v3)) := by
  after_results_simp
  rfl

variable (m : (ℓ : Loc nD τ sig) → Buf (Elt Ideal) ℓ) (c : Dev nD)

/-- No operation before the attention stage writes a reference outside the four gathers' lists: such a reference
    holds its launch contents at each of the first four points. -/
theorem early_of (r : Ref sig .tc) (h0 : r ∉ hostOps0_W) (h1 : r ∉ hostOps0_1_W) (h2 : r ∉ hostOps0_2_W)
    (h3 : r ∉ hostOps0_3_W) :
    V1 m c r = V0 m c r ∧ V2 m c r = V0 m c r ∧ V3 m c r = V0 m c r ∧ V4 m c r = V0 m c r :=
  ⟨V1_of m c r h0, (V2_of m c r h1).trans (V1_of m c r h0),
    (V3_of m c r h2).trans ((V2_of m c r h1).trans (V1_of m c r h0)),
    (V4_of m c r h3).trans ((V3_of m c r h2).trans ((V2_of m c r h1).trans (V1_of m c r h0)))⟩

end Kernel

section Compare
open Cert.KernelIdeal.Gen

/-- The attention over the users: the kernel's program, after its fifth stretch of host operations, holds in
    `main_v23` what the reference computes — the arguments agreeing and the four index arrays in range. -/
theorem attn_user (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (hr : (∀ i, 0 ≤ ((m ((c.tc : Thread Cert.KernelIdeal.nD Cert.KernelIdeal.τ).loc Cert.KernelIdeal.main_arg0) : IVec Cert.KernelIdeal.S5x200 32) i).toInt ∧ ((m ((c.tc : Thread Cert.KernelIdeal.nD Cert.KernelIdeal.τ).loc Cert.KernelIdeal.main_arg0) : IVec Cert.KernelIdeal.S5x200 32) i).toInt < 100000)
      ∧ (∀ i, 0 ≤ ((m ((c.tc : Thread Cert.KernelIdeal.nD Cert.KernelIdeal.τ).loc Cert.KernelIdeal.main_arg1) : IVec Cert.KernelIdeal.S5x200 32) i).toInt ∧ ((m ((c.tc : Thread Cert.KernelIdeal.nD Cert.KernelIdeal.τ).loc Cert.KernelIdeal.main_arg1) : IVec Cert.KernelIdeal.S5x200 32) i).toInt < 3)
      ∧ (∀ i, 0 ≤ ((m ((c.tc : Thread Cert.KernelIdeal.nD Cert.KernelIdeal.τ).loc Cert.KernelIdeal.main_arg2) : IVec Cert.KernelIdeal.S3x200 32) i).toInt ∧ ((m ((c.tc : Thread Cert.KernelIdeal.nD Cert.KernelIdeal.τ).loc Cert.KernelIdeal.main_arg2) : IVec Cert.KernelIdeal.S3x200 32) i).toInt < 100000)
      ∧ (∀ i, 0 ≤ ((m ((c.tc : Thread Cert.KernelIdeal.nD Cert.KernelIdeal.τ).loc Cert.KernelIdeal.main_arg3) : IVec Cert.KernelIdeal.S3x200 32) i).toInt ∧ ((m ((c.tc : Thread Cert.KernelIdeal.nD Cert.KernelIdeal.τ).loc Cert.KernelIdeal.main_arg3) : IVec Cert.KernelIdeal.S3x200 32) i).toInt < 5)) :
    (Cert.KernelIdeal.Gen.V5 m c Cert.KernelIdeal.main_v23 : FVec Ideal Cert.ReferenceIdeal.S5x102400 .f32) = RX m' c := by
  obtain ⟨e0, e1, -, -, e4, e5, e6, -, -, -, -⟩ := hagree
  obtain ⟨r0, r1, -, -⟩ := hr
  have a0 := early_of m c Cert.KernelIdeal.main_arg0 (by decide) (by decide) (by decide) (by decide)
  have a1 := early_of m c Cert.KernelIdeal.main_arg1 (by decide) (by decide) (by decide) (by decide)
  have a4 := early_of m c Cert.KernelIdeal.main_arg4 (by decide) (by decide) (by decide) (by decide)
  have a5 := early_of m c Cert.KernelIdeal.main_arg5 (by decide) (by decide) (by decide) (by decide)
  have a6 := early_of m c Cert.KernelIdeal.main_arg6 (by decide) (by decide) (by decide) (by decide)
  have hq : V4 m c (Proc.devRef .tc Cert.KernelIdeal.main_arg5) = m' ((c.tc : Thread Cert.ReferenceIdeal.nD Cert.ReferenceIdeal.τ).loc Cert.ReferenceIdeal.main_arg5) := a5.2.2.2.trans e5.symm
  have h0 : V4 m c (Proc.devRef .tc Cert.KernelIdeal.main_v0)
      = Host.gather Cert.ReferenceIdeal.gather_S100000x256_S5x200x1_S5x200x256_2_0_n_n_0_2_1256 (m' ((c.tc : Thread Cert.ReferenceIdeal.nD Cert.ReferenceIdeal.τ).loc Cert.ReferenceIdeal.main_arg4))
          (wrapU (m' ((c.tc : Thread Cert.ReferenceIdeal.nD Cert.ReferenceIdeal.τ).loc Cert.ReferenceIdeal.main_arg0)) 100000#32) := by
    rw [e4, e0]
    exact (V4_of m c _ (by decide)).trans ((V3_of m c _ (by decide)).trans ((V2_of m c _ (by decide)).trans
      (take0 (V0 m c) r0)))
  have h1 : V4 m c (Proc.devRef .tc Cert.KernelIdeal.main_v1)
      = Host.gather Cert.ReferenceIdeal.gather_S3x256_S5x200x1_S5x200x256_2_0_n_n_0_2_1256 (m' ((c.tc : Thread Cert.ReferenceIdeal.nD Cert.ReferenceIdeal.τ).loc Cert.ReferenceIdeal.main_arg6))
          (wrapU (m' ((c.tc : Thread Cert.ReferenceIdeal.nD Cert.ReferenceIdeal.τ).loc Cert.ReferenceIdeal.main_arg1)) 3#32) := by
    rw [e6, e1]
    refine (V4_of m c _ (by decide)).trans ((V3_of m c _ (by decide)).trans ?_)
    have t := take1 (V1 m c) (by rw [a1.1]; exact r1)
    rw [a6.1, a1.1] at t
    exact t
  refine (attn23 (V4 m c)).trans ?_
  rw [hq, h0, h1, ← Cert.Proof.SplitSum.sqrt_256]
  rfl

/-- The attention over the items: the kernel's program, after its fifth stretch of host operations, holds in
    `main_v39` what the reference computes — the arguments agreeing and the four index arrays in range. -/
theorem attn_item (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (hr : (∀ i, 0 ≤ ((m ((c.tc : Thread Cert.KernelIdeal.nD Cert.KernelIdeal.τ).loc Cert.KernelIdeal.main_arg0) : IVec Cert.KernelIdeal.S5x200 32) i).toInt ∧ ((m ((c.tc : Thread Cert.KernelIdeal.nD Cert.KernelIdeal.τ).loc Cert.KernelIdeal.main_arg0) : IVec Cert.KernelIdeal.S5x200 32) i).toInt < 100000)
      ∧ (∀ i, 0 ≤ ((m ((c.tc : Thread Cert.KernelIdeal.nD Cert.KernelIdeal.τ).loc Cert.KernelIdeal.main_arg1) : IVec Cert.KernelIdeal.S5x200 32) i).toInt ∧ ((m ((c.tc : Thread Cert.KernelIdeal.nD Cert.KernelIdeal.τ).loc Cert.KernelIdeal.main_arg1) : IVec Cert.KernelIdeal.S5x200 32) i).toInt < 3)
      ∧ (∀ i, 0 ≤ ((m ((c.tc : Thread Cert.KernelIdeal.nD Cert.KernelIdeal.τ).loc Cert.KernelIdeal.main_arg2) : IVec Cert.KernelIdeal.S3x200 32) i).toInt ∧ ((m ((c.tc : Thread Cert.KernelIdeal.nD Cert.KernelIdeal.τ).loc Cert.KernelIdeal.main_arg2) : IVec Cert.KernelIdeal.S3x200 32) i).toInt < 100000)
      ∧ (∀ i, 0 ≤ ((m ((c.tc : Thread Cert.KernelIdeal.nD Cert.KernelIdeal.τ).loc Cert.KernelIdeal.main_arg3) : IVec Cert.KernelIdeal.S3x200 32) i).toInt ∧ ((m ((c.tc : Thread Cert.KernelIdeal.nD Cert.KernelIdeal.τ).loc Cert.KernelIdeal.main_arg3) : IVec Cert.KernelIdeal.S3x200 32) i).toInt < 5)) :
    (Cert.KernelIdeal.Gen.V5 m c Cert.KernelIdeal.main_v39 : FVec Ideal Cert.ReferenceIdeal.S3x102400 .f32) = RY m' c := by
  obtain ⟨-, -, e2, e3, e4, e5, e6, -, -, -, -⟩ := hagree
  obtain ⟨-, -, r2, r3⟩ := hr
  have a2 := early_of m c Cert.KernelIdeal.main_arg2 (by decide) (by decide) (by decide) (by decide)
  have a3 := early_of m c Cert.KernelIdeal.main_arg3 (by decide) (by decide) (by decide) (by decide)
  have a4 := early_of m c Cert.KernelIdeal.main_arg4 (by decide) (by decide) (by decide) (by decide)
  have a5 := early_of m c Cert.KernelIdeal.main_arg5 (by decide) (by decide) (by decide) (by decide)
  have a6 := early_of m c Cert.KernelIdeal.main_arg6 (by decide) (by decide) (by decide) (by decide)
  have hq : V4 m c (Proc.devRef .tc Cert.KernelIdeal.main_arg6) = m' ((c.tc : Thread Cert.ReferenceIdeal.nD Cert.ReferenceIdeal.τ).loc Cert.ReferenceIdeal.main_arg6) := a6.2.2.2.trans e6.symm
  have h2 : V4 m c (Proc.devRef .tc Cert.KernelIdeal.main_v2)
      = Host.gather Cert.ReferenceIdeal.gather_S100000x256_S3x200x1_S3x200x256_2_0_n_n_0_2_1256 (m' ((c.tc : Thread Cert.ReferenceIdeal.nD Cert.ReferenceIdeal.τ).loc Cert.ReferenceIdeal.main_arg4))
          (wrapI (m' ((c.tc : Thread Cert.ReferenceIdeal.nD Cert.ReferenceIdeal.τ).loc Cert.ReferenceIdeal.main_arg2)) 100000#32) := by
    rw [e4, e2]
    refine (V4_of m c _ (by decide)).trans ?_
    have t := take2 (V2 m c) (by rw [a2.2.1]; exact r2)
    rw [a4.2.1, a2.2.1] at t
    exact t
  have h3 : V4 m c (Proc.devRef .tc Cert.KernelIdeal.main_v3)
      = Host.gather Cert.ReferenceIdeal.gather_S5x256_S3x200x1_S3x200x256_2_0_n_n_0_2_1256 (m' ((c.tc : Thread Cert.ReferenceIdeal.nD Cert.ReferenceIdeal.τ).loc Cert.ReferenceIdeal.main_arg5))
          (wrapI (m' ((c.tc : Thread Cert.ReferenceIdeal.nD Cert.ReferenceIdeal.τ).loc Cert.ReferenceIdeal.main_arg3)) 5#32) := by
    rw [e5, e3]
    have t := take3 (V3 m c) (by rw [a3.2.2.1]; exact r3)
    rw [a5.2.2.1, a3.2.2.1] at t
    exact t
  refine (attn39 (V4 m c)).trans ?_
  rw [hq, h2, h3, ← Cert.Proof.SplitSum.sqrt_256]
  rfl

end Compare

end Cert.Proof.AttnStage

end
-- ==== Proof.TailStage.lean ====
/-
  The tail of the kernel-side program: what the two results hold at the end, as functions of what the two launches
  leave in their output arrays.

  After the first launch the program cuts its [2, 5, 256] output into its two halves, reshapes each to [5, 256], adds
  them (SUM2), takes the entrywise maximum with a broadcast zero (RELU), and, at the very end, concatenates along
  axis 1 the product of the [5, 5] argument with the [5, 256] argument and that maximum. The second launch's
  [2, 3, 256] output goes the same way with 3 for 5 (SUM2_item, RELU_item). Each host stretch is first read over
  arbitrary contents before it; between the stretches a buffer that no stretch writes keeps its contents, and the
  launch's output array holds what the launch left. Entry (i, j) of SUM2 P is P (0, i, j) + P (1, i, j). The
  reference program's maximum with a broadcast zero is the same function as RELU.
-/
import proofs.«405879_j31396210934416_2_alg».proof.Proof.Gen.KernelIdeal.Regions
import proofs.«405879_j31396210934416_2_alg».proof.ReferenceIdeal
import Idealize.ShloMosaic.Lib.StableHlo.Run
import Idealize.ShloMosaic.Lib.ValueIdx
import Idealize.ShloMosaic.Lib.ValueLayout
import Idealize.ShloMosaic.PureOps.Ideal

set_option maxRecDepth 1244

noncomputable section

namespace Cert.Proof.TailStage

open Idealize.ShloMosaic Idealize.ShloMosaic.TcCoe Idealize.SL.Sem
open Cert.KernelIdeal Cert.KernelIdeal.Gen

/-! ## The two stages between a launch and the result, as functions of the launch's output -/

/-- The two halves of a [2, 5, 256] array, each cut out and reshaped to [5, 256], added entrywise. -/
def SUM2 (P : FVec Ideal S2x5x256 .f32) : FVec Ideal S5x256 .f32 :=
  addf (shapeCast S5x256 (extractStridedSlice S1x5x256 ![0, 0, 0] P slices_S2x5x256_S1x5x256_0_0_0) shapeCasts_S1x5x256_S5x256)
       (shapeCast S5x256 (extractStridedSlice S1x5x256 ![1, 0, 0] P slices_S2x5x256_S1x5x256_1_0_0) shapeCasts_S1x5x256_S5x256)

/-- The two halves of a [2, 3, 256] array, each cut out and reshaped to [3, 256], added entrywise. -/
def SUM2_item (P : FVec Ideal S2x3x256 .f32) : FVec Ideal S3x256 .f32 :=
  addf (shapeCast S3x256 (extractStridedSlice S1x3x256 ![0, 0, 0] P slices_S2x3x256_S1x3x256_0_0_0) shapeCasts_S1x3x256_S3x256)
       (shapeCast S3x256 (extractStridedSlice S1x3x256 ![1, 0, 0] P slices_S2x3x256_S1x3x256_1_0_0) shapeCasts_S1x3x256_S3x256)

/-- The entrywise maximum of a [5, 256] array with the zero constant broadcast to its shape. -/
def RELU (x : FVec Ideal S5x256 .f32) : FVec Ideal S5x256 .f32 :=
  maximumf x (broadcastInDim S5x256 ![] bcast_S_S5x256 (constant (F := Ideal) S_ .f32 0x00000000#32))

/-- The entrywise maximum of a [3, 256] array with the zero constant broadcast to its shape. -/
def RELU_item (x : FVec Ideal S3x256 .f32) : FVec Ideal S3x256 .f32 :=
  maximumf x (broadcastInDim S3x256 ![] bcast_S_S3x256 (constant (F := Ideal) S_ .f32 0x00000000#32))

/-! ## Each host stretch of the tail, over any contents before it -/

section Stretches
variable (W : Valuation τ sig (Elt Ideal))

theorem sum_stretch : StableHlo.after hostOps1 W (Proc.devRef .tc main_v45) = SUM2 (W main_v40) := by
  after_results; rfl

theorem relu_stretch : StableHlo.after hostOps1_1 W (Proc.devRef .tc main_v46) = RELU (W main_v45) := by
  after_results; rfl

theorem sum_stretch_item : StableHlo.after hostOps2 W (Proc.devRef .tc main_v52) = SUM2_item (W main_v47) := by
  after_results; rfl

theorem relu_stretch_item : StableHlo.after hostOps2_1 W (Proc.devRef .tc main_v53) = RELU_item (W main_v52) := by
  after_results; rfl

theorem out_stretch : StableHlo.after hostOps2_2 W (Proc.devRef .tc main_v55)
    = (concatenate (α := Ideal .f32) S5x512 1 [⟨S5x256, Host.dotGeneral (F := Ideal) (φ₁ := .f32) (φ₂ := .f32) dot_S5x5_S5x256_S5x256_1_0_0_1_n_n none (W main_arg9) (W main_arg5)⟩,
        ⟨S5x256, W main_v46⟩] concatenates_S5x256_S5x256_S5x512_d1 : FVec Ideal S5x512 .f32) := by
  after_results

theorem out_stretch_item : StableHlo.after hostOps2_2 W (Proc.devRef .tc main_v57)
    = (concatenate (α := Ideal .f32) S3x512 1 [⟨S3x256, Host.dotGeneral (F := Ideal) (φ₁ := .f32) (φ₂ := .f32) dot_S3x3_S3x256_S3x256_1_0_0_1_n_n none (W main_arg10) (W main_arg6)⟩,
        ⟨S3x256, W main_v53⟩] concatenates_S3x256_S3x256_S3x512_d1 : FVec Ideal S3x512 .f32) := by
  after_results

end Stretches

/-! ## The results -/

variable (m : (ℓ : Loc nD τ sig) → Buf (Elt Ideal) ℓ) (outs : Outs (F := Ideal)) (c : Dev nD)

/-- After the first launch's relu, and still at the end of the second launch's: relu of the sum of the two halves
    of what the first launch left. -/
theorem v46_eq : V11 m outs c main_v46 = RELU (SUM2 (outs 6 main_v40 c)) := by
  rw [V11_of m outs c main_v46 (by decide), V10_of m outs c main_v46 (by decide), V9_of m outs c main_v46 (by decide)]
  show StableHlo.after hostOps1_1 (V7 m outs c) (Proc.devRef .tc main_v46) = _
  rw [relu_stretch]
  show RELU (StableHlo.after hostOps1 (V6 m outs c) (Proc.devRef .tc main_v45)) = _
  rw [sum_stretch]
  show RELU (SUM2 (Function.update (V5 m c) (Proc.devRef .tc main_v40) (outs 6 main_v40 c) (Proc.devRef .tc main_v40))) = _
  rw [Function.update_self]

theorem v53_eq : V11 m outs c main_v53 = RELU_item (SUM2_item (outs 9 main_v47 c)) := by
  show StableHlo.after hostOps2_1 (V10 m outs c) (Proc.devRef .tc main_v53) = _
  rw [relu_stretch_item]
  show RELU_item (StableHlo.after hostOps2 (V9 m outs c) (Proc.devRef .tc main_v52)) = _
  rw [sum_stretch_item]
  show RELU_item (SUM2_item (Function.update (V8 m outs c) (Proc.devRef .tc main_v47) (outs 9 main_v47 c) (Proc.devRef .tc main_v47))) = _
  rw [Function.update_self]

/-- An argument array is, before the last stretch as after it, what the launch memory holds. -/
theorem V11_arg9 : V11 m outs c main_arg9 = m ((c : Thread nD τ).loc main_arg9) :=
  (V12_of m outs c main_arg9 (by decide)).symm.trans (V12_main_arg9 m outs c)
theorem V11_arg5 : V11 m outs c main_arg5 = m ((c : Thread nD τ).loc main_arg5) :=
  (V12_of m outs c main_arg5 (by decide)).symm.trans (V12_main_arg5 m outs c)
theorem V11_arg10 : V11 m outs c main_arg10 = m ((c : Thread nD τ).loc main_arg10) :=
  (V12_of m outs c main_arg10 (by decide)).symm.trans (V12_main_arg10 m outs c)
theorem V11_arg6 : V11 m outs c main_arg6 = m ((c : Thread nD τ).loc main_arg6) :=
  (V12_of m outs c main_arg6 (by decide)).symm.trans (V12_main_arg6 m outs c)

/-- The first result at the end of the program, as a function of what the first launch left in its output. -/
theorem user_out : V12 m outs c main_v55
    = (concatenate (α := Ideal .f32) S5x512 1 [⟨S5x256, Host.dotGeneral (F := Ideal) (φ₁ := .f32) (φ₂ := .f32) dot_S5x5_S5x256_S5x256_1_0_0_1_n_n none
          (m ((c : Thread nD τ).loc main_arg9)) (m ((c : Thread nD τ).loc main_arg5))⟩,
        ⟨S5x256, RELU (SUM2 (outs 6 main_v40 c))⟩] concatenates_S5x256_S5x256_S5x512_d1 : FVec Ideal S5x512 .f32) := by
  show StableHlo.after hostOps2_2 (V11 m outs c) (Proc.devRef .tc main_v55) = _
  rw [out_stretch, v46_eq, V11_arg9, V11_arg5]

/-- The second result at the end of the program, as a function of what the second launch left in its output. -/
theorem item_out : V12 m outs c main_v57
    = (concatenate (α := Ideal .f32) S3x512 1 [⟨S3x256, Host.dotGeneral (F := Ideal) (φ₁ := .f32) (φ₂ := .f32) dot_S3x3_S3x256_S3x256_1_0_0_1_n_n none
          (m ((c : Thread nD τ).loc main_arg10)) (m ((c : Thread nD τ).loc main_arg6))⟩,
        ⟨S3x256, RELU_item (SUM2_item (outs 9 main_v47 c))⟩] concatenates_S3x256_S3x256_S3x512_d1 : FVec Ideal S3x512 .f32) := by
  show StableHlo.after hostOps2_2 (V11 m outs c) (Proc.devRef .tc main_v57) = _
  rw [out_stretch_item, v53_eq, V11_arg10, V11_arg6]

theorem user_out_eq (D : FVec Ideal S5x256 .f32) (h : SUM2 (outs 6 main_v40 c) = D) : V12 m outs c main_v55
    = (concatenate (α := Ideal .f32) S5x512 1 [⟨S5x256, Host.dotGeneral (F := Ideal) (φ₁ := .f32) (φ₂ := .f32) dot_S5x5_S5x256_S5x256_1_0_0_1_n_n none
          (m ((c : Thread nD τ).loc main_arg9)) (m ((c : Thread nD τ).loc main_arg5))⟩,
        ⟨S5x256, RELU D⟩] concatenates_S5x256_S5x256_S5x512_d1 : FVec Ideal S5x512 .f32) := by
  rw [← h]; exact user_out m outs c

theorem item_out_eq (D : FVec Ideal S3x256 .f32) (h : SUM2_item (outs 9 main_v47 c) = D) : V12 m outs c main_v57
    = (concatenate (α := Ideal .f32) S3x512 1 [⟨S3x256, Host.dotGeneral (F := Ideal) (φ₁ := .f32) (φ₂ := .f32) dot_S3x3_S3x256_S3x256_1_0_0_1_n_n none
          (m ((c : Thread nD τ).loc main_arg10)) (m ((c : Thread nD τ).loc main_arg6))⟩,
        ⟨S3x256, RELU_item D⟩] concatenates_S3x256_S3x256_S3x512_d1 : FVec Ideal S3x512 .f32) := by
  rw [← h]; exact item_out m outs c

/-! ## The sum of the two halves at an index; the reference's relu -/

open Idealize.ShloMosaic.ValueIdx in
/-- Entry (i, j) of the sum of the two halves is the sum of entries (0, i, j) and (1, i, j). -/
theorem sum2_apply (P : FVec Ideal S2x5x256 .f32) (i : Fin 5) (j : Fin 256) :
    SUM2 P (ix2 i j) = P (ix3 (0 : Fin 2) i j) + P (ix3 (1 : Fin 2) i j) := by
  unfold SUM2
  rw [addf_apply, shapeCast_1ab_ab_apply, shapeCast_1ab_ab_apply]
  congr 1
  · exact extractStridedSlice_apply _ P _ _ _ fun a => match a with
      | ⟨0, _⟩ => rfl | ⟨1, _⟩ => by show i.val = 0 + i.val; omega | ⟨2, _⟩ => by show j.val = 0 + j.val; omega
  · exact extractStridedSlice_apply _ P _ _ _ fun a => match a with
      | ⟨0, _⟩ => rfl | ⟨1, _⟩ => by show i.val = 0 + i.val; omega | ⟨2, _⟩ => by show j.val = 0 + j.val; omega

open Idealize.ShloMosaic.ValueIdx in
/-- Entry (i, j) of the sum of the two halves is the sum of entries (0, i, j) and (1, i, j). -/
theorem sum2_item_apply (P : FVec Ideal S2x3x256 .f32) (i : Fin 3) (j : Fin 256) :
    SUM2_item P (ix2 i j) = P (ix3 (0 : Fin 2) i j) + P (ix3 (1 : Fin 2) i j) := by
  unfold SUM2_item
  rw [addf_apply, shapeCast_1ab_ab_apply, shapeCast_1ab_ab_apply]
  congr 1
  · exact extractStridedSlice_apply _ P _ _ _ fun a => match a with
      | ⟨0, _⟩ => rfl | ⟨1, _⟩ => by show i.val = 0 + i.val; omega | ⟨2, _⟩ => by show j.val = 0 + j.val; omega
  · exact extractStridedSlice_apply _ P _ _ _ fun a => match a with
      | ⟨0, _⟩ => rfl | ⟨1, _⟩ => by show i.val = 0 + i.val; omega | ⟨2, _⟩ => by show j.val = 0 + j.val; omega

/-- The maximum with the broadcast zero as the reference program composes it is the same function, whichever proof of
    the broadcast's shape relation it carries. -/
theorem relu_ref (hb : Cert.ReferenceIdeal.S_.BroadcastsInDim Cert.ReferenceIdeal.S5x256 (![] : Fin 0 → Fin Cert.ReferenceIdeal.S5x256.rank))
    (x : FVec Ideal Cert.ReferenceIdeal.S5x256 .f32) :
    maximumf x (broadcastInDim Cert.ReferenceIdeal.S5x256 ![] hb (constant (F := Ideal) Cert.ReferenceIdeal.S_ .f32 0x00000000#32))
      = RELU x := rfl

theorem relu_item_ref (hb : Cert.ReferenceIdeal.S_.BroadcastsInDim Cert.ReferenceIdeal.S3x256 (![] : Fin 0 → Fin Cert.ReferenceIdeal.S3x256.rank))
    (x : FVec Ideal Cert.ReferenceIdeal.S3x256 .f32) :
    maximumf x (broadcastInDim Cert.ReferenceIdeal.S3x256 ![] hb (constant (F := Ideal) Cert.ReferenceIdeal.S_ .f32 0x00000000#32))
      = RELU_item x := rfl

end Cert.Proof.TailStage
-- ==== Proof.Contract.lean ====
/-
  The blockwise contraction is the whole contraction.

  The contraction of X : [5, 102400] with W : [102400, 256] sums, for each (i, j), the products X[i, n] · W[n, j] over
  all 102400 positions n. Writing n = (4c' + k) · 12800 + l with c' < 2, k < 4, l < 12800 regroups that sum as the sum
  over c' of a double sum over k and l; on the extended reals addition is commutative and associative, so the
  regrouping holds for all values. Hence if P : [2, 5, 256] holds at (c', i, j) the double sum of its half c', the sum
  of the two halves of P is the contraction, which at the ideal values is the plain matrix product read at an index
  as the sum over the contracted coordinate. The same with 3 rows for 5.
-/
import proofs.«405879_j31396210934416_2_alg».proof.Proof.TailStage
import proofs.«405879_j31396210934416_2_alg».proof.Proof.SplitSum
import proofs.«405879_j31396210934416_2_alg».proof.ReferenceIdeal
import proofs.«405879_j31396210934416_2_alg».proof.Proof.Gen.ReferenceIdeal
import Idealize.ShloMosaic.PureOps.Ideal.Laws
import Idealize.ShloMosaic.Lib.ValueIdx
import Idealize.ShloMosaic.Lib.StackMember
import Mathlib.Algebra.BigOperators.Fin

noncomputable section

namespace Cert.Proof.Contract

open Idealize.ShloMosaic Idealize.ShloMosaic.ValueIdx

/-- The position (4c' + k) · 12800 + l, for c' < 2, k < 4, l < 12800, is below 102400 = 2 · 4 · 12800. -/
theorem idx_lt (c' : Fin 2) (k : Fin 4) (l : Fin 12800) : (4 * c'.val + k.val) * 12800 + l.val < 102400 := by
  have h1 := c'.isLt; have h2 := k.isLt; have h3 := l.isLt; omega

/-- The reference's contraction of a [5, 102400] array with a [102400, 256] array is the plain matrix product. -/
theorem dot_user_eq : Cert.ReferenceIdeal.dot_S5x102400_S102400x256_S5x256_1_0_0_1_n_n = DotDims.plain 5 102400 256 := rfl

/-- The reference's contraction of a [3, 102400] array with a [102400, 256] array is the plain matrix product. -/
theorem dot_item_eq : Cert.ReferenceIdeal.dot_S3x102400_S102400x256_S3x256_1_0_0_1_n_n = DotDims.plain 3 102400 256 := rfl

/-- A sum over all 102400 positions of a term that reads two arrays at the position, regrouped into the two halves
    of four blocks of 12800 positions each. -/
theorem sum_blocks (g : Fin 102400 → EReal) :
    (∑ n : Fin 102400, g n)
      = (∑ k : Fin 4, ∑ l : Fin 12800, g ⟨(4 * (0 : Fin 2).val + k.val) * 12800 + l.val, idx_lt 0 k l⟩)
        + ∑ k : Fin 4, ∑ l : Fin 12800, g ⟨(4 * (1 : Fin 2).val + k.val) * 12800 + l.val, idx_lt 1 k l⟩ := by
  have hs := Cert.Proof.SplitSum.sum_split (fun n => if h : n < 102400 then g ⟨n, h⟩ else 0)
  have hl : (∑ n : Fin 102400, g n) = ∑ j : Fin 102400, (fun n => if h : n < 102400 then g ⟨n, h⟩ else 0) j.val :=
    Finset.sum_congr rfl fun n _ => by
      show g n = if h : n.val < 102400 then g ⟨n.val, h⟩ else 0
      rw [dif_pos n.isLt]
  rw [hl, hs, Fin.sum_univ_two]
  exact congrArg₂ (· + ·)
    (Finset.sum_congr rfl fun k _ => Finset.sum_congr rfl fun l _ => dif_pos (idx_lt 0 k l))
    (Finset.sum_congr rfl fun k _ => Finset.sum_congr rfl fun l _ => dif_pos (idx_lt 1 k l))

/-- If each half of P holds its half of the contraction, block by block, then the sum of the two halves of P is the
    whole contraction. -/
theorem contract_user (X : FVec Ideal Cert.ReferenceIdeal.S5x102400 .f32) (W : FVec Ideal Cert.ReferenceIdeal.S102400x256 .f32)
    (P : FVec Ideal Cert.KernelIdeal.S2x5x256 .f32)
    (hP : ∀ (c' : Fin 2) (i : Fin 5) (j : Fin 256), P (ix3 c' i j)
      = ∑ k : Fin 4, ∑ l : Fin 12800, X (ix2 i ⟨(4 * c'.val + k.val) * 12800 + l.val, idx_lt c' k l⟩)
          * W (ix2 ⟨(4 * c'.val + k.val) * 12800 + l.val, idx_lt c' k l⟩ j)) :
    Cert.Proof.TailStage.SUM2 P
      = Host.dotGeneral (F := Ideal) (φ₁ := .f32) (φ₂ := .f32) Cert.ReferenceIdeal.dot_S5x102400_S102400x256_S5x256_1_0_0_1_n_n none X W := by
  funext y
  obtain ⟨p, q, rfl⟩ : ∃ (p : Fin 5) (q : Fin 256), y = ix2 p q := ⟨y 0, y 1, eq_ix2 y⟩
  rw [Cert.Proof.TailStage.sum2_apply, hP, hP, dot_user_eq, StackMember.dotGeneral_plain_apply]
  exact (sum_blocks fun n => X (ix2 p n) * W (ix2 n q)).symm

theorem contract_item (X : FVec Ideal Cert.ReferenceIdeal.S3x102400 .f32) (W : FVec Ideal Cert.ReferenceIdeal.S102400x256 .f32)
    (P : FVec Ideal Cert.KernelIdeal.S2x3x256 .f32)
    (hP : ∀ (c' : Fin 2) (i : Fin 3) (j : Fin 256), P (ix3 c' i j)
      = ∑ k : Fin 4, ∑ l : Fin 12800, X (ix2 i ⟨(4 * c'.val + k.val) * 12800 + l.val, idx_lt c' k l⟩)
          * W (ix2 ⟨(4 * c'.val + k.val) * 12800 + l.val, idx_lt c' k l⟩ j)) :
    Cert.Proof.TailStage.SUM2_item P
      = Host.dotGeneral (F := Ideal) (φ₁ := .f32) (φ₂ := .f32) Cert.ReferenceIdeal.dot_S3x102400_S102400x256_S3x256_1_0_0_1_n_n none X W := by
  funext y
  obtain ⟨p, q, rfl⟩ : ∃ (p : Fin 3) (q : Fin 256), y = ix2 p q := ⟨y 0, y 1, eq_ix2 y⟩
  rw [Cert.Proof.TailStage.sum2_item_apply, hP, hP, dot_item_eq, StackMember.dotGeneral_plain_apply]
  exact (sum_blocks fun n => X (ix2 p n) * W (ix2 n q)).symm

end Cert.Proof.Contract
-- ==== Proof.Bridge.lean ====
/-
  The bridge between the two programs' results at the exact instance. The kernel program ends with
  concat(W_c @ E, relu(P[0] + P[1])), P the launch's output array; the reference with concat(W_c @ E, relu(A @ W)).
  Given that P[c'] is the contraction of A with W over the c'-th half of the contracted axis, in four blocks, the sum
  of the two halves is the whole contraction (sums on the extended reals regroup freely), the attention rows A agree
  on both sides, and the remaining operations are the same on both sides.
-/
import proofs.«405879_j31396210934416_2_alg».proof.Proof.KernelIdeal.Ends
import proofs.«405879_j31396210934416_2_alg».proof.Proof.IndexRanges
import proofs.«405879_j31396210934416_2_alg».proof.Proof.AttnStage
import proofs.«405879_j31396210934416_2_alg».proof.Proof.TailStage
import proofs.«405879_j31396210934416_2_alg».proof.Proof.Contract
import proofs.«405879_j31396210934416_2_alg».proof.Defs

set_option maxRecDepth 16384

noncomputable section

namespace Cert.Proof.Bridge

open Idealize.ShloMosaic Idealize.ShloMosaic.TcCoe Idealize.SL.Sem Idealize.ShloMosaic.ValueIdx
open Cert.KernelIdeal Cert.KernelIdeal.Gen Cert.KernelIdeal.Whole

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- The first launch's two input arrays and its output array, at their literal vector types. -/
abbrev attnRows : FVec Ideal Cert.ReferenceIdeal.S5x102400 .f32 := V5 m c main_v23
abbrev weightsU : FVec Ideal Cert.ReferenceIdeal.S102400x256 .f32 := V5 m c main_arg7
abbrev out0 : FVec Ideal Cert.KernelIdeal.S2x5x256 .f32 := result0 m c

/-- An argument array is as launched when the first launch is entered: no host stretch before it writes one. -/
theorem V5_arg7 : V5 m c main_arg7 = m ((c.tc : Thread nD τ).loc main_arg7) :=
  (V5_of m c main_arg7 (by decide)).trans <| (V4_of m c main_arg7 (by decide)).trans <| (V3_of m c main_arg7 (by decide)).trans <| (V2_of m c main_arg7 (by decide)).trans <| (V1_of m c main_arg7 (by decide)).trans rfl

/-- The user half of the bridge, from the first launch's output array as the blocked double sum. -/
theorem user_bridge
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (hX : attnRows m c = Cert.Proof.AttnStage.RX m' c)
    (hP : ∀ (c' : Fin 2) (i : Fin 5) (j : Fin 256), out0 m c (ix3 c' i j)
      = ∑ k : Fin 4, ∑ l : Fin 12800, attnRows m c (ix2 i ⟨(4 * c'.val + k.val) * 12800 + l.val, Cert.Proof.Contract.idx_lt c' k l⟩)
          * weightsU m c (ix2 ⟨(4 * c'.val + k.val) * 12800 + l.val, Cert.Proof.Contract.idx_lt c' k l⟩ j)) :
    (concatenate S5x512 1 [⟨S5x256, Host.dotGeneral (F := Ideal) (φ₁ := .f32) (φ₂ := .f32) Cert.ReferenceIdeal.dot_S5x5_S5x256_S5x256_1_0_0_1_n_n none (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg5))⟩,
        ⟨S5x256, Cert.Proof.AttnStage.reluU (Host.dotGeneral (F := Ideal) (φ₁ := .f32) (φ₂ := .f32) Cert.ReferenceIdeal.dot_S5x102400_S102400x256_S5x256_1_0_0_1_n_n none (Cert.Proof.AttnStage.RX m' c) (m' ((c.tc : Thread Cert.ReferenceIdeal.nD Cert.ReferenceIdeal.τ).loc Cert.ReferenceIdeal.main_arg7)))⟩]
        Cert.ReferenceIdeal.Gen.concatenates_S5x256_S5x256_S5x512_d1 : FVec Ideal Cert.ReferenceIdeal.S5x512 .f32)
      = V12 m (outs m) c main_v55 := by
  obtain ⟨h0, h1, h2, h3, h4, h5, h6, h7, h8, h9, h10⟩ := hagree
  have hsum : Cert.Proof.TailStage.SUM2 (outs m 6 main_v40 c)
      = Host.dotGeneral (F := Ideal) (φ₁ := .f32) (φ₂ := .f32) Cert.ReferenceIdeal.dot_S5x102400_S102400x256_S5x256_1_0_0_1_n_n none (Cert.Proof.AttnStage.RX m' c) (m' ((c.tc : Thread Cert.ReferenceIdeal.nD Cert.ReferenceIdeal.τ).loc Cert.ReferenceIdeal.main_arg7)) := by
    rw [outs_v40]
    refine (Cert.Proof.Contract.contract_user (attnRows m c) (weightsU m c) (out0 m c) hP).trans ?_
    rw [hX, show weightsU m c = m ((c.tc : Thread nD τ).loc main_arg7) from V5_arg7 m c, ← h7]
  rw [Cert.Proof.TailStage.user_out_eq m (outs m) c _ hsum, h9, h5]
  rfl

/-- The second launch's two input arrays and its output array, at their literal vector types. -/
abbrev attnRowsI : FVec Ideal Cert.ReferenceIdeal.S3x102400 .f32 := V8 m (outsFirst m) c main_v39
abbrev weightsI : FVec Ideal Cert.ReferenceIdeal.S102400x256 .f32 := V8 m (outsFirst m) c main_arg8
abbrev out1 : FVec Ideal Cert.KernelIdeal.S2x3x256 .f32 := result1 m c

/-- The item weights are as launched when the second launch is entered. -/
theorem V8_arg8 : V8 m (outsFirst m) c main_arg8 = m ((c.tc : Thread nD τ).loc main_arg8) :=
  (V8_of m (outsFirst m) c main_arg8 (by decide)).trans <| (V7_of m (outsFirst m) c main_arg8 (by decide)).trans <| (V6_of m (outsFirst m) c main_arg8 (by decide)).trans <|
    (V5_of m c main_arg8 (by decide)).trans <| (V4_of m c main_arg8 (by decide)).trans <| (V3_of m c main_arg8 (by decide)).trans <| (V2_of m c main_arg8 (by decide)).trans <| (V1_of m c main_arg8 (by decide)).trans rfl

/-- The item half of the bridge, from the second launch's output array as the blocked double sum. -/
theorem item_bridge
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (hX : attnRowsI m c = Cert.Proof.AttnStage.RY m' c)
    (hP : ∀ (c' : Fin 2) (i : Fin 3) (j : Fin 256), out1 m c (ix3 c' i j)
      = ∑ k : Fin 4, ∑ l : Fin 12800, attnRowsI m c (ix2 i ⟨(4 * c'.val + k.val) * 12800 + l.val, Cert.Proof.Contract.idx_lt c' k l⟩)
          * weightsI m c (ix2 ⟨(4 * c'.val + k.val) * 12800 + l.val, Cert.Proof.Contract.idx_lt c' k l⟩ j)) :
    (concatenate S3x512 1 [⟨S3x256, Host.dotGeneral (F := Ideal) (φ₁ := .f32) (φ₂ := .f32) Cert.ReferenceIdeal.dot_S3x3_S3x256_S3x256_1_0_0_1_n_n none (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg6))⟩,
        ⟨S3x256, Cert.Proof.AttnStage.reluI (Host.dotGeneral (F := Ideal) (φ₁ := .f32) (φ₂ := .f32) Cert.ReferenceIdeal.dot_S3x102400_S102400x256_S3x256_1_0_0_1_n_n none (Cert.Proof.AttnStage.RY m' c) (m' ((c.tc : Thread Cert.ReferenceIdeal.nD Cert.ReferenceIdeal.τ).loc Cert.ReferenceIdeal.main_arg8)))⟩]
        Cert.ReferenceIdeal.Gen.concatenates_S3x256_S3x256_S3x512_d1 : FVec Ideal Cert.ReferenceIdeal.S3x512 .f32)
      = V12 m (outs m) c main_v57 := by
  obtain ⟨h0, h1, h2, h3, h4, h5, h6, h7, h8, h9, h10⟩ := hagree
  have hsum : Cert.Proof.TailStage.SUM2_item (outs m 9 main_v47 c)
      = Host.dotGeneral (F := Ideal) (φ₁ := .f32) (φ₂ := .f32) Cert.ReferenceIdeal.dot_S3x102400_S102400x256_S3x256_1_0_0_1_n_n none (Cert.Proof.AttnStage.RY m' c) (m' ((c.tc : Thread Cert.ReferenceIdeal.nD Cert.ReferenceIdeal.τ).loc Cert.ReferenceIdeal.main_arg8)) := by
    rw [outs_v47]
    refine (Cert.Proof.Contract.contract_item (attnRowsI m c) (weightsI m c) (out1 m c) hP).trans ?_
    rw [hX, show weightsI m c = m ((c.tc : Thread nD τ).loc main_arg8) from V8_arg8 m c, ← h8]
  rw [Cert.Proof.TailStage.item_out_eq m (outs m) c _ hsum, h10, h6]
  rfl

end Cert.Proof.Bridge

end
-- ==== Proof.RefValue.lean ====
/-
  The reference program's run, with its two results written over the attention stage.

  The reference is a straight line of 94 tensor operations. Run from any memory with zero counters it
  terminates, and every buffer ends at the fold of the operations' results over the launch contents. Reading
  that fold at the two result buffers gives, for the users,

      join (arg9 · arg5) (relu (RX · arg7)),

  RX the attention stage over the users as a term of the memory, and for the items the same with arg10, arg6,
  RY and arg8; reading it at an argument buffer, which no operation writes, gives the launch contents back.
  The run is then restated with these values as its post: the two results, then the eleven arguments kept.
-/
import proofs.«405879_j31396210934416_2_alg».proof.Proof.RefRun
import proofs.«405879_j31396210934416_2_alg».proof.Proof.AttnStage
import Idealize.ShloMosaic.Lib.StableHlo.Run
import Idealize.ShloMosaic.PureOps.Ideal

set_option maxRecDepth 8192

noncomputable section

namespace Cert.Proof.RefValue

open Idealize.ShloMosaic Idealize.ShloMosaic.TcCoe Idealize.SL.Sem Idealize.ShloMosaic.StableHlo
open Cert.ReferenceIdeal Cert.ReferenceIdeal.Gen Cert.ReferenceIdeal.Value
open Cert.Proof.AttnStage

/-! ### The two results -/

/-- The fold of the reference's operations, read at its first result: the join of `arg9 · arg5` and
    `relu (RX · arg7)`. -/
theorem v71 (m' : (ℓ : Loc nD τ sig) → Buf (Elt Ideal) ℓ) (c : Dev nD) :
    (after (ops (F := Ideal)) (launchContents m' c) (Proc.devRef .tc main_v71) : FVec Ideal S5x512 .f32)
      = concatenate S5x512 1 [⟨S5x256, Host.dotGeneral (φ₁ := .f32) (φ₂ := .f32) dot_S5x5_S5x256_S5x256_1_0_0_1_n_n none (m' ((c.tc : Thread nD τ).loc main_arg9)) (m' ((c.tc : Thread nD τ).loc main_arg5))⟩,
          ⟨S5x256, reluU (Host.dotGeneral (φ₁ := .f32) (φ₂ := .f32) dot_S5x102400_S102400x256_S5x256_1_0_0_1_n_n none (RX m' c) (m' ((c.tc : Thread nD τ).loc main_arg7)))⟩]
        concatenates_S5x256_S5x256_S5x512_d1 := by
  after_results_simp
  rfl

/-- The fold of the reference's operations, read at its second result: the join of `arg10 · arg6` and
    `relu (RY · arg8)`. -/
theorem v73 (m' : (ℓ : Loc nD τ sig) → Buf (Elt Ideal) ℓ) (c : Dev nD) :
    (after (ops (F := Ideal)) (launchContents m' c) (Proc.devRef .tc main_v73) : FVec Ideal S3x512 .f32)
      = concatenate S3x512 1 [⟨S3x256, Host.dotGeneral (φ₁ := .f32) (φ₂ := .f32) dot_S3x3_S3x256_S3x256_1_0_0_1_n_n none (m' ((c.tc : Thread nD τ).loc main_arg10)) (m' ((c.tc : Thread nD τ).loc main_arg6))⟩,
          ⟨S3x256, reluI (Host.dotGeneral (φ₁ := .f32) (φ₂ := .f32) dot_S3x102400_S102400x256_S3x256_1_0_0_1_n_n none (RY m' c) (m' ((c.tc : Thread nD τ).loc main_arg8)))⟩]
        concatenates_S3x256_S3x256_S3x512_d1 := by
  after_results_simp
  rfl

/-! ### The arguments are kept -/

/-- No operation writes `main_arg0`: it ends at its launch contents. -/
theorem arg0_kept (m' : (ℓ : Loc nD τ sig) → Buf (Elt Ideal) ℓ) (c : Dev nD) :
    after (ops (F := Ideal)) (launchContents m' c) (Proc.devRef .tc main_arg0) = m' ((c.tc : Thread nD τ).loc main_arg0) := by
  after_results_simp <;> rfl

/-- No operation writes `main_arg1`: it ends at its launch contents. -/
theorem arg1_kept (m' : (ℓ : Loc nD τ sig) → Buf (Elt Ideal) ℓ) (c : Dev nD) :
    after (ops (F := Ideal)) (launchContents m' c) (Proc.devRef .tc main_arg1) = m' ((c.tc : Thread nD τ).loc main_arg1) := by
  after_results_simp <;> rfl

/-- No operation writes `main_arg2`: it ends at its launch contents. -/
theorem arg2_kept (m' : (ℓ : Loc nD τ sig) → Buf (Elt Ideal) ℓ) (c : Dev nD) :
    after (ops (F := Ideal)) (launchContents m' c) (Proc.devRef .tc main_arg2) = m' ((c.tc : Thread nD τ).loc main_arg2) := by
  after_results_simp <;> rfl

/-- No operation writes `main_arg3`: it ends at its launch contents. -/
theorem arg3_kept (m' : (ℓ : Loc nD τ sig) → Buf (Elt Ideal) ℓ) (c : Dev nD) :
    after (ops (F := Ideal)) (launchContents m' c) (Proc.devRef .tc main_arg3) = m' ((c.tc : Thread nD τ).loc main_arg3) := by
  after_results_simp <;> rfl

/-- No operation writes `main_arg4`: it ends at its launch contents. -/
theorem arg4_kept (m' : (ℓ : Loc nD τ sig) → Buf (Elt Ideal) ℓ) (c : Dev nD) :
    after (ops (F := Ideal)) (launchContents m' c) (Proc.devRef .tc main_arg4) = m' ((c.tc : Thread nD τ).loc main_arg4) := by
  after_results_simp <;> rfl

/-- No operation writes `main_arg5`: it ends at its launch contents. -/
theorem arg5_kept (m' : (ℓ : Loc nD τ sig) → Buf (Elt Ideal) ℓ) (c : Dev nD) :
    after (ops (F := Ideal)) (launchContents m' c) (Proc.devRef .tc main_arg5) = m' ((c.tc : Thread nD τ).loc main_arg5) := by
  after_results_simp <;> rfl

/-- No operation writes `main_arg6`: it ends at its launch contents. -/
theorem arg6_kept (m' : (ℓ : Loc nD τ sig) → Buf (Elt Ideal) ℓ) (c : Dev nD) :
    after (ops (F := Ideal)) (launchContents m' c) (Proc.devRef .tc main_arg6) = m' ((c.tc : Thread nD τ).loc main_arg6) := by
  after_results_simp <;> rfl

/-- No operation writes `main_arg7`: it ends at its launch contents. -/
theorem arg7_kept (m' : (ℓ : Loc nD τ sig) → Buf (Elt Ideal) ℓ) (c : Dev nD) :
    after (ops (F := Ideal)) (launchContents m' c) (Proc.devRef .tc main_arg7) = m' ((c.tc : Thread nD τ).loc main_arg7) := by
  after_results_simp <;> rfl

/-- No operation writes `main_arg8`: it ends at its launch contents. -/
theorem arg8_kept (m' : (ℓ : Loc nD τ sig) → Buf (Elt Ideal) ℓ) (c : Dev nD) :
    after (ops (F := Ideal)) (launchContents m' c) (Proc.devRef .tc main_arg8) = m' ((c.tc : Thread nD τ).loc main_arg8) := by
  after_results_simp <;> rfl

/-- No operation writes `main_arg9`: it ends at its launch contents. -/
theorem arg9_kept (m' : (ℓ : Loc nD τ sig) → Buf (Elt Ideal) ℓ) (c : Dev nD) :
    after (ops (F := Ideal)) (launchContents m' c) (Proc.devRef .tc main_arg9) = m' ((c.tc : Thread nD τ).loc main_arg9) := by
  after_results_simp <;> rfl

/-- No operation writes `main_arg10`: it ends at its launch contents. -/
theorem arg10_kept (m' : (ℓ : Loc nD τ sig) → Buf (Elt Ideal) ℓ) (c : Dev nD) :
    after (ops (F := Ideal)) (launchContents m' c) (Proc.devRef .tc main_arg10) = m' ((c.tc : Thread nD τ).loc main_arg10) := by
  after_results_simp <;> rfl

/-! ### The run -/

/-- From any memory with zero counters every weakly fair execution of the reference terminates, its two
    results at the terms above and its eleven arguments unchanged, on every device. -/
theorem ref_run (m' : (ℓ : Loc nD τ sig) → Buf (Elt Ideal) ℓ) (ρ' : Dev nD → PrngReg) :
    θ_run (defs (F := Ideal)) (onTc (τ := τ) (main (F := Ideal))) ⟨m', fun _ => 0, ρ'⟩ (fun r => ∀ c : Dev nD,
      r.2.mem ((c.tc : Thread nD τ).loc main_v71) = (concatenate S5x512 1 [⟨S5x256, Host.dotGeneral (φ₁ := .f32) (φ₂ := .f32) dot_S5x5_S5x256_S5x256_1_0_0_1_n_n none (m' ((c.tc : Thread nD τ).loc main_arg9)) (m' ((c.tc : Thread nD τ).loc main_arg5))⟩,
          ⟨S5x256, reluU (Host.dotGeneral (φ₁ := .f32) (φ₂ := .f32) dot_S5x102400_S102400x256_S5x256_1_0_0_1_n_n none (RX m' c) (m' ((c.tc : Thread nD τ).loc main_arg7)))⟩]
        concatenates_S5x256_S5x256_S5x512_d1 : FVec Ideal S5x512 .f32)
      ∧ r.2.mem ((c.tc : Thread nD τ).loc main_v73) = (concatenate S3x512 1 [⟨S3x256, Host.dotGeneral (φ₁ := .f32) (φ₂ := .f32) dot_S3x3_S3x256_S3x256_1_0_0_1_n_n none (m' ((c.tc : Thread nD τ).loc main_arg10)) (m' ((c.tc : Thread nD τ).loc main_arg6))⟩,
          ⟨S3x256, reluI (Host.dotGeneral (φ₁ := .f32) (φ₂ := .f32) dot_S3x102400_S102400x256_S3x256_1_0_0_1_n_n none (RY m' c) (m' ((c.tc : Thread nD τ).loc main_arg8)))⟩]
        concatenates_S3x256_S3x256_S3x512_d1 : FVec Ideal S3x512 .f32)
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)
      ∧ r.2.mem ((c.tc : Thread nD τ).loc main_arg9) = m' ((c.tc : Thread nD τ).loc main_arg9)
      ∧ r.2.mem ((c.tc : Thread nD τ).loc main_arg10) = m' ((c.tc : Thread nD τ).loc main_arg10)) :=
  (θ_run defs _ _).mono (fun _ h c => ⟨(h c main_v71).trans (v71 m' c), (h c main_v73).trans (v73 m' c),
      (h c main_arg0).trans (arg0_kept m' c),
      (h c main_arg1).trans (arg1_kept m' c),
      (h c main_arg2).trans (arg2_kept m' c),
      (h c main_arg3).trans (arg3_kept m' c),
      (h c main_arg4).trans (arg4_kept m' c),
      (h c main_arg5).trans (arg5_kept m' c),
      (h c main_arg6).trans (arg6_kept m' c),
      (h c main_arg7).trans (arg7_kept m' c),
      (h c main_arg8).trans (arg8_kept m' c),
      (h c main_arg9).trans (arg9_kept m' c),
      (h c main_arg10).trans (arg10_kept m' c)⟩)
    (run_fold m' ρ')

end Cert.Proof.RefValue

end
-- ==== Proof.lean ====
/-
  The certificate for the neighbourhood-aggregation kernel against its jnp reference, over the extended reals.

  Both programs gather embedding rows by four adjacency lists, form attention rows A = softmax(E E^T / 16) @ rows for
  users (five rows) and items (three rows), contract A with a 102400 x 256 weight matrix, apply relu, and append the
  result to a small product W_c @ E. The kernel program does the contraction in a Pallas kernel: the contracted axis
  is cut in 2 x 4 blocks of 12800; each half accumulates its four block products in a scratch accumulator (reset at
  the first block, copied out after the fourth) and the host adds the two halves before the relu. The reference
  contracts at once. On the extended reals a sum regroups freely, the casts to bf16 are the identity, and the scale
  sqrt(256) is 16, so the two results are one function of the arguments.

  The kernel program gathers with fill-mode take (an out-of-range index reads as not-a-number) while the reference's
  plain gather clamps: the two agree exactly where every index is in range of the table it indexes, which the
  precondition states beside the finiteness of the float inputs.

  Frames: each kernel launch is run point by point (three cases of the inner grid coordinate), the accumulator's
  contents carried in the launch's invariant; the launches and the host stretches between them are chained from the
  launch memory to the return, and every argument array is read back unchanged from the last valuation. The same
  text serves the word-level program and the idealized one. The reference is a host program: its operations' results
  folded over the launch memory.
-/
import proofs.«405879_j31396210934416_2_alg».proof.Defs
import proofs.«405879_j31396210934416_2_alg».proof.Proof.Gen.Kernel
import proofs.«405879_j31396210934416_2_alg».proof.Proof.Gen.KernelIdeal
import proofs.«405879_j31396210934416_2_alg».proof.Proof.Gen.ReferenceIdeal
import proofs.«405879_j31396210934416_2_alg».proof.Proof.Gen.Pre_finite_inputs
import proofs.«405879_j31396210934416_2_alg».proof.Proof.Kernel.Ends
import proofs.«405879_j31396210934416_2_alg».proof.Proof.KernelIdeal.Ends
import proofs.«405879_j31396210934416_2_alg».proof.Proof.KernelIdeal.Agg0.Value
import proofs.«405879_j31396210934416_2_alg».proof.Proof.KernelIdeal.Agg1.Value
import proofs.«405879_j31396210934416_2_alg».proof.Proof.IndexRanges
import proofs.«405879_j31396210934416_2_alg».proof.Proof.AttnStage
import proofs.«405879_j31396210934416_2_alg».proof.Proof.Bridge
import proofs.«405879_j31396210934416_2_alg».proof.Proof.RefValue

set_option maxRecDepth 16384

noncomputable section

namespace Cert.Proof

open Idealize.ShloMosaic Idealize.ShloMosaic.TcCoe Idealize.SL.Sem

/-! ## The frames -/

theorem frame_kernel : Cert.frame_Kernel := fun m ρ _ => Cert.Kernel.Whole.frame m ρ

theorem frame_kernelIdeal : Cert.frame_KernelIdeal := fun m ρ _ => Cert.KernelIdeal.Whole.frame m ρ

/-- The reference's frame is its run with the two results dropped. -/
theorem frame_referenceIdeal : Cert.frame_ReferenceIdeal := fun m ρ _ =>
  (θ_run Cert.ReferenceIdeal.defs _ _).mono (fun _ h c => (h c).2.2) (Cert.Proof.RefValue.ref_run m ρ)

/-! ## The idealization rewrote nothing -/

theorem preserves : Cert.preserves_Kernel_KernelIdeal := trivial

/-! ## Equal results -/

open Cert.KernelIdeal Cert.KernelIdeal.Gen Cert.KernelIdeal.Whole in
/-- The attention rows the second launch reads are those computed before the first: neither the first launch nor the
    two host stretches after it write them. -/
theorem rows_item_kept (m : (ℓ : Loc Cert.KernelIdeal.nD Cert.KernelIdeal.τ Cert.KernelIdeal.sig) → Buf (Elt Ideal) ℓ) (c : Dev Cert.KernelIdeal.nD) :
    V8 m (outsFirst m) c main_v39 = V5 m c main_v39 :=
  (V8_of m (outsFirst m) c main_v39 (by decide)).trans <| (V7_of m (outsFirst m) c main_v39 (by decide)).trans (V6_of m (outsFirst m) c main_v39 (by decide))

open Cert.KernelIdeal Cert.KernelIdeal.Gen Cert.KernelIdeal.Whole in
/-- From memories agreeing on the arguments, under the precondition, both idealized programs run and end with the same
    user result and the same item result, the arguments unchanged. -/
theorem algebraic : Cert.algebraic_KernelIdeal_ReferenceIdeal := by
  intro m ρ m' ρ' hpre hagree
  refine ⟨fun c => V12 m (outs m) c main_v55, fun c => V12 m (outs m) c main_v57, Cert.KernelIdeal.Whole.run_ends m ρ, ?_⟩
  refine (θ_run Cert.ReferenceIdeal.defs _ _).mono (fun r h c => ?_) (Cert.Proof.RefValue.ref_run m' ρ')
  obtain ⟨h71, h73, hargs⟩ := h c
  have hr := Cert.Proof.IndexRanges.ranges _ _ _ _ _ _ _ _ _ _ _ (hpre c)
  refine ⟨h71.trans ?_, h73.trans ?_, hargs⟩
  · exact Cert.Proof.Bridge.user_bridge m m' c (hagree c) (Cert.Proof.AttnStage.attn_user m m' c (hagree c) hr)
      (fun c' i j => Cert.KernelIdeal.Agg0.result_apply (entry0 m) c c' i j)
  · exact Cert.Proof.Bridge.item_bridge m m' c (hagree c)
      ((rows_item_kept m c).trans (Cert.Proof.AttnStage.attn_item m m' c (hagree c) hr))
      (fun c' i j => Cert.KernelIdeal.Agg1.result_apply (entry1 m) c c' i j)

/-! ## The claim -/

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
